-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S80x300 : Shape := ⟨2, ![80, 300]⟩
abbrev S1x300 : Shape := ⟨2, ![1, 300]⟩
abbrev S1024x300 : Shape := ⟨2, ![1024, 300]⟩
abbrev S1024 : Shape := ⟨1, ![1024]⟩
abbrev S1024x2048 : Shape := ⟨2, ![1024, 2048]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S80x300 : S_.BroadcastsInDim S80x300 (![] : Fin 0 → Fin S80x300.rank)
  reducesTo_S80x300_S_d0_1 : S80x300.ReducesTo [0, 1] S_
  bcast_S_S1x300 : S_.BroadcastsInDim S1x300 (![] : Fin 0 → Fin S1x300.rank)
  reducesTo_S1x300_S_d0_1 : S1x300.ReducesTo [0, 1] S_
  bcast_S_S1024x300 : S_.BroadcastsInDim S1024x300 (![] : Fin 0 → Fin S1024x300.rank)
  reducesTo_S1024x300_S_d0_1 : S1024x300.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S8192 : S_.BroadcastsInDim S8192 (![] : Fin 0 → Fin S8192.rank)
  reducesTo_S8192_S_d0 : S8192.ReducesTo [0] S_

variable [Facts]

def fn_part6 {F : FTy → Type} [FloatOps F] (main_arg1 : IVec S8192 32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_c_40 : IVec S_ 32 := constantI S_ 32 0#32
  let main_v104 : IVec S8192 32 := broadcastInDim S8192 ![] bcast_S_S8192 main_c_40
  let main_v105 : IVec S8192 1 := cmpi .sge main_arg1 main_v104
  let main_c_41 : IVec S_ 1 := constantI S_ 1 1#1
  let main_v106 : IVec S_ 1 := (fun x v => Host.reduce IntOp.andi x v reducesTo_S8192_S_d0 h_S_) main_v105 main_c_41
  let main_v107 : IVec S_ 1 := andi main_v103 main_v106
  let main_c_42 : IVec S_ 32 := constantI S_ 32 81#32
  let main_v108 : IVec S8192 32 := broadcastInDim S8192 ![] bcast_S_S8192 main_c_42
  let main_v109 : IVec S8192 1 := cmpi .slt main_arg1 main_v108
  let main_c_43 : IVec S_ 1 := constantI S_ 1 1#1
  let main_v110 : IVec S_ 1 := (fun x v => Host.reduce IntOp.andi x v reducesTo_S8192_S_d0 h_S_) main_v109 main_c_43
  let main_v111 : IVec S_ 1 := andi main_v107 main_v110
  main_v111

def fn_part5 {F : FTy → Type} [FloatOps F] (main_arg1 : IVec S8192 32) (main_arg19 : FVec F S1024 .f32) (main_arg20 : FVec F S1024 .f32) (main_arg21 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg19
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024 .f32 := Host.absf main_arg20
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1024 .f32 := Host.absf main_arg21
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg1 main_v98 main_v101 main_c_39

def fn_part4 {F : FTy → Type} [FloatOps F] (main_arg1 : IVec S8192 32) (main_arg15 : FVec F S1024 .f32) (main_arg16 : FVec F S1024x1024 .f32) (main_arg17 : FVec F S1024 .f32) (main_arg18 : FVec F S1024x1024 .f32) (main_arg19 : FVec F S1024 .f32) (main_arg20 : FVec F S1024 .f32) (main_arg21 : FVec F S1024 .f32) (main_v63 : IVec S_ 1) (main_v67 : IVec S_ 1) : IVec S_ 1 :=
  let main_v68 : IVec S_ 1 := andi main_v63 main_v67
  let main_v69 : FVec F S1024 .f32 := Host.absf main_arg15
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg16
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg17
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg18
  let main_cst_32 : FVec F S_ .f32 := constant S_ .f32 0x7F800000#32
  fn_part5 (F := F) main_arg1 main_arg19 main_arg20 main_arg21 main_v83 main_v84 main_cst_32

def fn_part3 {F : FTy → Type} [FloatOps F] (main_arg1 : IVec S8192 32) (main_arg12 : FVec F S512x1024 .f32) (main_arg13 : FVec F S512 .f32) (main_arg14 : FVec F S1024x2048 .f32) (main_arg15 : FVec F S1024 .f32) (main_arg16 : FVec F S1024x1024 .f32) (main_arg17 : FVec F S1024 .f32) (main_arg18 : FVec F S1024x1024 .f32) (main_arg19 : FVec F S1024 .f32) (main_arg20 : FVec F S1024 .f32) (main_arg21 : FVec F S1024 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x1024 .f32 := Host.absf main_arg12
  let main_cst_20 : FVec F S_ .f32 := constant S_ .f32 0x7F800000#32
  let main_v55 : FVec F S512x1024 .f32 := broadcastInDim S512x1024 ![] bcast_S_S512x1024 main_cst_20
  let main_v56 : IVec S512x1024 1 := cmpf .olt main_v54 main_v55
  let main_c_21 : IVec S_ 1 := constantI S_ 1 1#1
  let main_v57 : IVec S_ 1 := (fun x v => Host.reduce IntOp.andi x v reducesTo_S512x1024_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S1024x2048 .f32 := Host.absf main_arg14
  let main_cst_24 : FVec F S_ .f32 := constant S_ .f32 0x7F800000#32
  let main_v65 : FVec F S1024x2048 .f32 := broadcastInDim S1024x2048 ![] bcast_S_S1024x2048 main_cst_24
  let main_v66 : IVec S1024x2048 1 := cmpf .olt main_v64 main_v65
  let main_c_25 : IVec S_ 1 := constantI S_ 1 1#1
  let main_v67 : IVec S_ 1 := (fun x v => Host.reduce IntOp.andi x v reducesTo_S1024x2048_S_d0_1 h_S_) main_v66 main_c_25
  fn_part4 (F := F) main_arg1 main_arg15 main_arg16 main_arg17 main_arg18 main_arg19 main_arg20 main_arg21 main_v63 main_v67

def fn_part2 {F : FTy → Type} [FloatOps F] (main_arg1 : IVec S8192 32) (main_arg8 : FVec F S1024x1024 .f32) (main_arg9 : FVec F S1x1024 .f32) (main_arg10 : FVec F S512x1024 .f32) (main_arg11 : FVec F S512 .f32) (main_arg12 : FVec F S512x1024 .f32) (main_arg13 : FVec F S512 .f32) (main_arg14 : FVec F S1024x2048 .f32) (main_arg15 : FVec F S1024 .f32) (main_arg16 : FVec F S1024x1024 .f32) (main_arg17 : FVec F S1024 .f32) (main_arg18 : FVec F S1024x1024 .f32) (main_arg19 : FVec F S1024 .f32) (main_arg20 : FVec F S1024 .f32) (main_arg21 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1x1024 .f32 := Host.absf main_arg9
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S512x1024 .f32 := Host.absf main_arg10
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg1 main_arg12 main_arg13 main_arg14 main_arg15 main_arg16 main_arg17 main_arg18 main_arg19 main_arg20 main_arg21 main_v48 main_v49 main_v50

def fn_part1 {F : FTy → Type} [FloatOps F] (main_arg1 : IVec S8192 32) (main_arg5 : FVec F S1024 .f32) (main_arg6 : FVec F S1024x2048 .f32) (main_arg7 : FVec F S1024 .f32) (main_arg8 : FVec F S1024x1024 .f32) (main_arg9 : FVec F S1x1024 .f32) (main_arg10 : FVec F S512x1024 .f32) (main_arg11 : FVec F S512 .f32) (main_arg12 : FVec F S512x1024 .f32) (main_arg13 : FVec F S512 .f32) (main_arg14 : FVec F S1024x2048 .f32) (main_arg15 : FVec F S1024 .f32) (main_arg16 : FVec F S1024x1024 .f32) (main_arg17 : FVec F S1024 .f32) (main_arg18 : FVec F S1024x1024 .f32) (main_arg19 : FVec F S1024 .f32) (main_arg20 : FVec F S1024 .f32) (main_arg21 : FVec F S1024 .f32) (main_v13 : IVec S_ 1) (main_v16 : IVec S1024x300 1) : IVec S_ 1 :=
  let main_c_5 : IVec S_ 1 := constantI S_ 1 1#1
  let main_v17 : IVec S_ 1 := (fun x v => Host.reduce IntOp.andi x v reducesTo_S1024x300_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_v33

def fn {F : FTy → Type} [FloatOps F] (main_arg0 : FVec F S8192x1024 .f32) (main_arg1 : IVec S8192 32) (main_arg2 : FVec F S80x300 .f32) (main_arg3 : FVec F S1x300 .f32) (main_arg4 : FVec F S1024x300 .f32) (main_arg5 : FVec F S1024 .f32) (main_arg6 : FVec F S1024x2048 .f32) (main_arg7 : FVec F S1024 .f32) (main_arg8 : FVec F S1024x1024 .f32) (main_arg9 : FVec F S1x1024 .f32) (main_arg10 : FVec F S512x1024 .f32) (main_arg11 : FVec F S512 .f32) (main_arg12 : FVec F S512x1024 .f32) (main_arg13 : FVec F S512 .f32) (main_arg14 : FVec F S1024x2048 .f32) (main_arg15 : FVec F S1024 .f32) (main_arg16 : FVec F S1024x1024 .f32) (main_arg17 : FVec F S1024 .f32) (main_arg18 : FVec F S1024x1024 .f32) (main_arg19 : FVec F S1024 .f32) (main_arg20 : FVec F S1024 .f32) (main_arg21 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S80x300 .f32 := Host.absf main_arg2
  let main_cst_0 : FVec F S_ .f32 := constant S_ .f32 0x7F800000#32
  let main_v5 : FVec F S80x300 .f32 := broadcastInDim S80x300 ![] bcast_S_S80x300 main_cst_0
  let main_v6 : IVec S80x300 1 := cmpf .olt main_v4 main_v5
  let main_c_1 : IVec S_ 1 := constantI S_ 1 1#1
  let main_v7 : IVec S_ 1 := (fun x v => Host.reduce IntOp.andi x v reducesTo_S80x300_S_d0_1 h_S_) main_v6 main_c_1
  let main_v8 : IVec S_ 1 := andi main_v3 main_v7
  let main_v9 : FVec F S1x300 .f32 := Host.absf main_arg3
  let main_cst_2 : FVec F S_ .f32 := constant S_ .f32 0x7F800000#32
  let main_v10 : FVec F S1x300 .f32 := broadcastInDim S1x300 ![] bcast_S_S1x300 main_cst_2
  let main_v11 : IVec S1x300 1 := cmpf .olt main_v9 main_v10
  let main_c_3 : IVec S_ 1 := constantI S_ 1 1#1
  let main_v12 : IVec S_ 1 := (fun x v => Host.reduce IntOp.andi x v reducesTo_S1x300_S_d0_1 h_S_) main_v11 main_c_3
  let main_v13 : IVec S_ 1 := andi main_v8 main_v12
  let main_v14 : FVec F S1024x300 .f32 := Host.absf main_arg4
  let main_cst_4 : FVec F S_ .f32 := constant S_ .f32 0x7F800000#32
  let main_v15 : FVec F S1024x300 .f32 := broadcastInDim S1024x300 ![] bcast_S_S1024x300 main_cst_4
  let main_v16 : IVec S1024x300 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S8192x1024 : Shape := ⟨2, ![8192, 1024]⟩
abbrev S8192 : Shape := ⟨1, ![8192]⟩
abbrev S80x300 : Shape := ⟨2, ![80, 300]⟩
abbrev S1x300 : Shape := ⟨2, ![1, 300]⟩
abbrev S1024x300 : Shape := ⟨2, ![1024, 300]⟩
abbrev S1024 : Shape := ⟨1, ![1024]⟩
abbrev S1024x2048 : Shape := ⟨2, ![1024, 2048]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S81x300 : Shape := ⟨2, ![81, 300]⟩
abbrev S300x1024 : Shape := ⟨2, ![300, 1024]⟩
abbrev S81x1024 : Shape := ⟨2, ![81, 1024]⟩
abbrev S_ : Shape := ⟨0, ![]⟩
abbrev S128x1024 : Shape := ⟨2, ![128, 1024]⟩
abbrev S8192x1 : Shape := ⟨2, ![8192, 1]⟩
abbrev S512x1 : Shape := ⟨2, ![512, 1]⟩
abbrev S512x128 : Shape := ⟨2, ![512, 128]⟩
abbrev S1024x512 : Shape := ⟨2, ![1024, 512]⟩
abbrev S512x512 : Shape := ⟨2, ![512, 512]⟩
abbrev S1x512 : Shape := ⟨2, ![1, 512]⟩

abbrev nBuf : Space → Nat
  | .hbm => 64
  | .vmem => 43
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S80x300, .f32⟩
  | .hbm, ⟨3, _⟩ => ⟨S1x300, .f32⟩
  | .hbm, ⟨4, _⟩ => ⟨S1024x300, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x1024, .f32⟩
  | .hbm, ⟨9, _⟩ => ⟨S1x1024, .f32⟩
  | .hbm, ⟨10, _⟩ => ⟨S512x1024, .f32⟩
  | .hbm, ⟨11, _⟩ => ⟨S512, .f32⟩
  | .hbm, ⟨12, _⟩ => ⟨S512x1024, .f32⟩
  | .hbm, ⟨13, _⟩ => ⟨S512, .f32⟩
  | .hbm, ⟨14, _⟩ => ⟨S1024x2048, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S1024x1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S81x300, .f32⟩
  | .hbm, ⟨23, _⟩ => ⟨S300x1024, .f32⟩
  | .hbm, ⟨24, _⟩ => ⟨S81x1024, .f32⟩
  | .hbm, ⟨25, _⟩ => ⟨S1x1024, .f32⟩
  | .hbm, ⟨26, _⟩ => ⟨S81x1024, .f32⟩
  | .hbm, ⟨27, _⟩ => ⟨S81x1024, .f32⟩
  | .hbm, ⟨28, _⟩ => ⟨S_, .i32⟩
  | .hbm, ⟨29, _⟩ => ⟨S_, .f32⟩
  | .hbm, ⟨30, _⟩ => ⟨S128x1024, .f32⟩
  | .hbm, ⟨31, _⟩ => ⟨S128x1024, .bf16⟩
  | .hbm, ⟨32, _⟩ => ⟨S8192x1, .i32⟩
  | .hbm, ⟨33, _⟩ => ⟨S1024x1024, .f32⟩
  | .hbm, ⟨34, _⟩ => ⟨S1024x1024, .bf16⟩
  | .hbm, ⟨35, _⟩ => ⟨S1024x1024, .f32⟩
  | .hbm, ⟨36, _⟩ => ⟨S1024x1024, .f32⟩
  | .hbm, ⟨37, _⟩ => ⟨S1024x1024, .bf16⟩
  | .hbm, ⟨38, _⟩ => ⟨S1024x1024, .f32⟩
  | .hbm, ⟨39, _⟩ => ⟨S1024x1024, .f32⟩
  | .hbm, ⟨40, _⟩ => ⟨S1024x1024, .bf16⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S1x1024, .bf16⟩
  | .hbm, ⟨45, _⟩ => ⟨S8192x1024, .bf16⟩
  | .hbm, ⟨46, _⟩ => ⟨S1024x512, .f32⟩
  | .hbm, ⟨47, _⟩ => ⟨S1024x512, .bf16⟩
  | .hbm, ⟨48, _⟩ => ⟨S1024x512, .f32⟩
  | .hbm, ⟨49, _⟩ => ⟨S1024x512, .bf16⟩
  | .hbm, ⟨50, _⟩ => ⟨S1024x512, .f32⟩
  | .hbm, ⟨51, _⟩ => ⟨S512x1024, .f32⟩
  | .hbm, ⟨52, _⟩ => ⟨S512x1024, .bf16⟩
  | .hbm, ⟨53, _⟩ => ⟨S1024x512, .f32⟩
  | .hbm, ⟨54, _⟩ => ⟨S512x1024, .f32⟩
  | .hbm, ⟨55, _⟩ => ⟨S512x1024, .bf16⟩
  | .hbm, ⟨56, _⟩ => ⟨S1024x1024, .f32⟩
  | .hbm, ⟨57, _⟩ => ⟨S1024x1024, .f32⟩
  | .hbm, ⟨58, _⟩ => ⟨S1024x1024, .bf16⟩
  | .hbm, ⟨59, _⟩ => ⟨S1024x1024, .f32⟩
  | .hbm, ⟨60, _⟩ => ⟨S1024x1024, .bf16⟩
  | .hbm, ⟨61, _⟩ => ⟨S1024x1024, .f32⟩
  | .hbm, ⟨62, _⟩ => ⟨S1024x1024, .bf16⟩
  | .hbm, ⟨63, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S128x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1x1024, .bf16⟩
  | .local _ .vmem, ⟨24, _⟩ => ⟨S1024x512, .bf16⟩
  | .local _ .vmem, ⟨25, _⟩ => ⟨S512, .f32⟩
  | .local _ .vmem, ⟨26, _⟩ => ⟨S1024x512, .bf16⟩
  | .local _ .vmem, ⟨27, _⟩ => ⟨S512, .f32⟩
  | .local _ .vmem, ⟨28, _⟩ => ⟨S512x1024, .bf16⟩
  | .local _ .vmem, ⟨29, _⟩ => ⟨S512x1024, .bf16⟩
  | .local _ .vmem, ⟨30, _⟩ => ⟨S1024x1024, .bf16⟩
  | .local _ .vmem, ⟨31, _⟩ => ⟨S1024, .f32⟩
  | .local _ .vmem, ⟨32, _⟩ => ⟨S1024x1024, .bf16⟩
  | .local _ .vmem, ⟨33, _⟩ => ⟨S1024, .f32⟩
  | .local _ .vmem, ⟨34, _⟩ => ⟨S1024x1024, .bf16⟩
  | .local _ .vmem, ⟨35, _⟩ => ⟨S1024, .f32⟩
  | .local _ .vmem, ⟨36, _⟩ => ⟨S1024, .f32⟩
  | .local _ .vmem, ⟨37, _⟩ => ⟨S1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1, .f32⟩
  | .local _ .vmem, ⟨42, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_call0_v0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17_0 : Ref sig .tc := ⟨.hbm, 41, rfl⟩
abbrev main_v17_1 : Ref sig .tc := ⟨.hbm, 42, rfl⟩
abbrev main_v17_2 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg15_0 : Ref sig .tc := ⟨.vmem, 34, rfl⟩
abbrev cc1_stg16_0 : Ref sig .tc := ⟨.vmem, 35, rfl⟩
abbrev cc1_stg17_0 : Ref sig .tc := ⟨.vmem, 36, rfl⟩
abbrev cc1_stg18_0 : Ref sig .tc := ⟨.vmem, 37, rfl⟩
abbrev cc1_stg19_0 : Ref sig .tc := ⟨.vmem, 38, rfl⟩
abbrev cc1_stg19_1 : Ref sig .tc := ⟨.vmem, 39, rfl⟩
abbrev cc1_scratch0 : Ref sig .tc := ⟨.vmem, 40, rfl⟩
abbrev cc1_scratch1 : Ref sig .tc := ⟨.vmem, 41, rfl⟩
abbrev cc1_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem13_0 : DmaSem sig := 32
abbrev cc1_sem14_0 : DmaSem sig := 33
abbrev cc1_sem15_0 : DmaSem sig := 34
abbrev cc1_sem16_0 : DmaSem sig := 35
abbrev cc1_sem17_0 : DmaSem sig := 36
abbrev cc1_sem18_0 : DmaSem sig := 37
abbrev cc1_sem19_0 : DmaSem sig := 38
abbrev cc1_sem19_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_23 : BitVec 32 := 0#32
  let v43 : BitVec 1 := Scalar.cmpi .ne v42 c0_i32_23
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_17 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_18 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_19 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S512x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S512x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1024x1024 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1024x1024 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S1024x1024 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 1 → Memref sig .tc .vmem S1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev stage1_19 : Fin 2 → Memref sig .tc .vmem S512x1024 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, false]

class Facts₀ : Prop where
  concatenates_S80x300_S1x300_S81x300_d0 : Shape.Concatenates [S80x300, S1x300] S81x300 0
  transposes_S1024x300_S300x1024_1_0 : S1024x300.Transposes [1, 0] S300x1024
  bcast_S1024_S1x1024_1 : S1024.BroadcastsInDim S1x1024 (![1] : Fin 1 → Fin S1x1024.rank)
  bcast_S1x1024_S81x1024_0_1 : S1x1024.BroadcastsInDim S81x1024 (![0, 1] : Fin 2 → Fin S81x1024.rank)
  pads_S81x1024_S128x1024_0470_000 : S81x1024.Pads (![0, 0] : Fin 2 → Nat) ![47, 0] ![0, 0] S128x1024
  h_S_ : 0 < S_.numel
  bitsLt_bf16_f32 : FTy.bits .bf16 < FTy.bits .f32
  shapeCasts_S8192_S8192x1 : S8192.ShapeCasts S8192x1
  transposes_S1024x1024_S1024x1024_1_0 : S1024x1024.Transposes [1, 0] S1024x1024
  slices_S1024x2048_S1024x1024_0_0 : S1024x2048.Slices ![0, 0] S1024x1024
  slices_S1024x2048_S1024x1024_0_1024 : S1024x2048.Slices ![0, 1024] S1024x1024
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x128_d1_w32 : S512x128.Iotas .tc 32 [1]
  broadcasts_S512x1_S512x128 : S512x1.Broadcasts S512x128
  natLt_1_32 : 1 < 32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  transposes_S512x1024_S1024x512_1_0 : S512x1024.Transposes [1, 0] S1024x512
  slices_S1024x2048_S1024x512_0_0 : S1024x2048.Slices ![0, 0] S1024x512
  transposes_S1024x512_S512x1024_1_0 : S1024x512.Transposes [1, 0] S512x1024
  slices_S1024x2048_S1024x512_0_512 : S1024x2048.Slices ![0, 512] S1024x512
  shapeCasts_S512x1024_S512x1024 : S512x1024.ShapeCasts S512x1024
  transposes_S512x1024_p1_0_S1024x512 : S512x1024.Transposes [1, 0] S1024x512
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S512x1024_S512 : S512x1024.Reduces [1] S512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  dot_S81x300_S300x1024_S81x1024_1_0_0_1_n_n_wf : DotDims.WF S81x300 S300x1024 S81x1024 [1] [0] [0] [1] [] []
  dot_S512x128_S128x1024_S512x1024_1_0_0_1_n_n_wf : DotDims.WF S512x128 S128x1024 S512x1024 [1] [0] [0] [1] [] []
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .bf16 = 32 ∨ (Rect.block (s := S128x1024) S128x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .bf16 = 32 ∨ (Rect.block (s := S8192x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .bf16 = 32 ∨ (Rect.block (s := S8192x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .bf16 = 32 ∨ (Rect.block (s := S8192x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .bf16 = 32 ∨ (Rect.block (s := S8192x1024) S512x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .bf16 = 32 ∨ (Rect.block (s := S1x1024) S1x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S1024x512.size a
  hwx1_5 : ∀ i : grid1.Coords, EltTy.bits .bf16 = 32 ∨ (Rect.block (s := S1024x512) S1024x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x512.size a ≤ S1024x512.size a
  hwx1_7 : ∀ i : grid1.Coords, EltTy.bits .bf16 = 32 ∨ (Rect.block (s := S1024x512) S1024x512.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512.size a ≤ S512.size a
  hwx1_8 : ∀ i : grid1.Coords, EltTy.bits .f32 = 32 ∨ (Rect.block (s := S512) S512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x1024.size a ≤ S512x1024.size a
  hwx1_9 : ∀ i : grid1.Coords, EltTy.bits .bf16 = 32 ∨ (Rect.block (s := S512x1024) S512x1024.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512x1024.size a ≤ S512x1024.size a
  hwx1_10 : ∀ i : grid1.Coords, EltTy.bits .bf16 = 32 ∨ (Rect.block (s := S512x1024) S512x1024.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1024x1024.size a ≤ S1024x1024.size a
  hwx1_11 : ∀ i : grid1.Coords, EltTy.bits .bf16 = 32 ∨ (Rect.block (s := S1024x1024) S1024x1024.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1024.size a ≤ S1024.size a
  hwx1_12 : ∀ i : grid1.Coords, EltTy.bits .f32 = 32 ∨ (Rect.block (s := S1024) S1024.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1024x1024.size a ≤ S1024x1024.size a
  hwx1_13 : ∀ i : grid1.Coords, EltTy.bits .bf16 = 32 ∨ (Rect.block (s := S1024x1024) S1024x1024.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1024.size a ≤ S1024.size a
  hwx1_14 : ∀ i : grid1.Coords, EltTy.bits .f32 = 32 ∨ (Rect.block (s := S1024) S1024.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1024x1024.size a ≤ S1024x1024.size a
  hwx1_15 : ∀ i : grid1.Coords, EltTy.bits .bf16 = 32 ∨ (Rect.block (s := S1024x1024) S1024x1024.size (cc1_transform_15 i) (hinb1_15 i)).WholeWords (EltTy.packing .bf16)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1024.size a ≤ S1024.size a
  hwx1_16 : ∀ i : grid1.Coords, EltTy.bits .f32 = 32 ∨ (Rect.block (s := S1024) S1024.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1024.size a ≤ S1024.size a
  hwx1_17 : ∀ i : grid1.Coords, EltTy.bits .f32 = 32 ∨ (Rect.block (s := S1024) S1024.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1024.size a ≤ S1024.size a
  hwx1_18 : ∀ i : grid1.Coords, EltTy.bits .f32 = 32 ∨ (Rect.block (s := S1024) S1024.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S512x1024.size a ≤ S8192x1024.size a
  hwx1_19 : ∀ i : grid1.Coords, EltTy.bits .f32 = 32 ∨ (Rect.block (s := S8192x1024) S512x1024.size (cc1_transform_19 i) (hinb1_19 i)).WholeWords (EltTy.packing .f32)

variable [Facts₀]

def dot_S81x300_S300x1024_S81x1024_1_0_0_1_n_n : DotDims S81x300 S300x1024 S81x1024 where
  lhsContracting := [1]
  rhsContracting := [0]
  lhsNonContracting := [0]
  rhsNonContracting := [1]
  lhsBatch := []
  rhsBatch := []
  wf := dot_S81x300_S300x1024_S81x1024_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v17_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v17_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v17_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17_2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1024x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1024x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S512x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v29) S512x1024.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v32) S1024x1024.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg15) S1024.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v34) S1024x1024.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg17) S1024.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v36) S1024x1024.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_arg19) S1024.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_arg20) S1024.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_arg21) S1024.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v37) S512x1024.size cc1_transform_19 reads1_19 true false 2 stage1_19 sem1_19
    hrank1 hreads1_19 hinb1_19 nbuf1_19 (Memref.isWhole_whole _) hwx1_19 hstage1_19

abbrev win1 : Fin 20 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | ⟨_ + 20, h⟩ => absurd h (Nat.not_lt.2 (Nat.le_add_left _ _))
abbrev spec1 : Fin 20 → Pipeline.WinSpec sig grid1.rank := fun w => (win1 w).toWinSpec

abbrev idle1 : Fin 20 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun i => !(k1_cond2 i == 1#1) | ⟨_ + 20, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S80x300 : Shape := ⟨2, ![80, 300]⟩
abbrev S1x300 : Shape := ⟨2, ![1, 300]⟩
abbrev S1024x300 : Shape := ⟨2, ![1024, 300]⟩
abbrev S1024 : Shape := ⟨1, ![1024]⟩
abbrev S1024x2048 : Shape := ⟨2, ![1024, 2048]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S81x300 : Shape := ⟨2, ![81, 300]⟩
abbrev S300x1024 : Shape := ⟨2, ![300, 1024]⟩
abbrev S81x1024 : Shape := ⟨2, ![81, 1024]⟩
abbrev S_ : Shape := ⟨0, ![]⟩
abbrev S8192x1 : Shape := ⟨2, ![8192, 1]⟩
abbrev S8192x2048 : Shape := ⟨2, ![8192, 2048]⟩
abbrev S2048x1024 : Shape := ⟨2, ![2048, 1024]⟩
abbrev S8193x1024 : Shape := ⟨2, ![8193, 1024]⟩
abbrev S1024x8193 : Shape := ⟨2, ![1024, 8193]⟩
abbrev S8192x8193 : Shape := ⟨2, ![8192, 8193]⟩
abbrev S1024x512 : Shape := ⟨2, ![1024, 512]⟩
abbrev S8192x512 : Shape := ⟨2, ![8192, 512]⟩
abbrev S1x512 : Shape := ⟨2, ![1, 512]⟩

abbrev nBuf : Space → Nat
  | .hbm => 147
  | .vmem => 0
  | .smem => 0
  | _ => 0

abbrev hbmTy0_0 (i : Nat) : BufTy := match i % 128 with
  | 0 => ⟨S8192x1024, .f32⟩
  | 1 => ⟨S8192, .i32⟩
  | 2 => ⟨S80x300, .f32⟩
  | 3 => ⟨S1x300, .f32⟩
  | 4 => ⟨S1024x300, .f32⟩
  | 5 => ⟨S1024, .f32⟩
  | 6 => ⟨S1024x2048, .f32⟩
  | 7 => ⟨S1024, .f32⟩
  | 8 => ⟨S1024x1024, .f32⟩
  | 9 => ⟨S1x1024, .f32⟩
  | 10 => ⟨S512x1024, .f32⟩
  | 11 => ⟨S512, .f32⟩
  | 12 => ⟨S512x1024, .f32⟩
  | 13 => ⟨S512, .f32⟩
  | 14 => ⟨S1024x2048, .f32⟩
  | 15 => ⟨S1024, .f32⟩
  | 16 => ⟨S1024x1024, .f32⟩
  | 17 => ⟨S1024, .f32⟩
  | 18 => ⟨S1024x1024, .f32⟩
  | 19 => ⟨S1024, .f32⟩
  | 20 => ⟨S1024, .f32⟩
  | 21 => ⟨S1024, .f32⟩
  | 22 => ⟨S81x300, .f32⟩
  | 23 => ⟨S300x1024, .f32⟩
  | 24 => ⟨S81x1024, .f32⟩
  | 25 => ⟨S1x1024, .f32⟩
  | 26 => ⟨S81x1024, .f32⟩
  | 27 => ⟨S81x1024, .f32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S8192x1024, .f32⟩
  | 37 => ⟨S8192x2048, .f32⟩
  | 38 => ⟨S2048x1024, .f32⟩
  | 39 => ⟨S8192x1024, .f32⟩
  | 40 => ⟨S1x1024, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S1024x1024, .f32⟩
  | 50 => ⟨S8192x1024, .f32⟩
  | 51 => ⟨S1024x1024, .f32⟩
  | 52 => ⟨S8192x1024, .f32⟩
  | 53 => ⟨S8193x1024, .f32⟩
  | 54 => ⟨S_, .f32⟩
  | 55 => ⟨S1x1024, .f32⟩
  | 56 => ⟨S8193x1024, .f32⟩
  | 57 => ⟨S1024x8193, .f32⟩
  | 58 => ⟨S8192x8193, .f32⟩
  | 59 => ⟨S_, .f32⟩
  | 60 => ⟨S8192x8193, .f32⟩
  | 61 => ⟨S8192x8193, .f32⟩
  | 62 => ⟨S_, .f32⟩
  | 63 => ⟨S8192, .f32⟩
  | 64 => ⟨S_, .f32⟩
  | 65 => ⟨S8192, .f32⟩
  | 66 => ⟨S8192, .f32⟩
  | 67 => ⟨S8192x1, .f32⟩
  | 68 => ⟨S8192x8193, .f32⟩
  | 69 => ⟨S8192x8193, .f32⟩
  | 70 => ⟨S8192x8193, .f32⟩
  | 71 => ⟨S_, .f32⟩
  | 72 => ⟨S8192, .f32⟩
  | 73 => ⟨S8192x1, .f32⟩
  | 74 => ⟨S8192x8193, .f32⟩
  | 75 => ⟨S8192x8193, .f32⟩
  | 76 => ⟨S8192x1024, .f32⟩
  | 77 => ⟨S8192x1024, .f32⟩
  | 78 => ⟨S1024x512, .f32⟩
  | 79 => ⟨S8192x512, .f32⟩
  | 80 => ⟨S1x512, .f32⟩
  | 81 => ⟨S8192x512, .f32⟩
  | 82 => ⟨S8192x512, .f32⟩
  | 83 => ⟨S_, .f32⟩
  | 84 => ⟨S8192x512, .f32⟩
  | 85 => ⟨S8192x512, .f32⟩
  | 86 => ⟨S8192x1024, .f32⟩
  | 87 => ⟨S1024x512, .f32⟩
  | 88 => ⟨S8192x512, .f32⟩
  | 89 => ⟨S1x512, .f32⟩
  | 90 => ⟨S8192x512, .f32⟩
  | 91 => ⟨S8192x512, .f32⟩
  | 92 => ⟨S_, .f32⟩
  | 93 => ⟨S8192x512, .f32⟩
  | 94 => ⟨S8192x512, .f32⟩
  | 95 => ⟨S8192x2048, .f32⟩
  | 96 => ⟨S2048x1024, .f32⟩
  | 97 => ⟨S8192x1024, .f32⟩
  | 98 => ⟨S1x1024, .f32⟩
  | 99 => ⟨S8192x1024, .f32⟩
  | 100 => ⟨S8192x1024, .f32⟩
  | 101 => ⟨S1024x1024, .f32⟩
  | 102 => ⟨S8192x1024, .f32⟩
  | 103 => ⟨S1x1024, .f32⟩
  | 104 => ⟨S8192x1024, .f32⟩
  | 105 => ⟨S8192x1024, .f32⟩
  | 106 => ⟨S_, .f32⟩
  | 107 => ⟨S8192x1024, .f32⟩
  | 108 => ⟨S8192x1024, .f32⟩
  | 109 => ⟨S1024x1024, .f32⟩
  | 110 => ⟨S8192x1024, .f32⟩
  | 111 => ⟨S1x1024, .f32⟩
  | 112 => ⟨S8192x1024, .f32⟩
  | 113 => ⟨S8192x1024, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S8192x1024, .f32⟩
  | 121 => ⟨S8192x1024, .f32⟩
  | 122 => ⟨S8192x1024, .f32⟩
  | 123 => ⟨S_, .f32⟩
  | 124 => ⟨S8192, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S8192x1024, .f32⟩
  | 2 => ⟨S8192x1024, .f32⟩
  | 3 => ⟨S1x1024, .f32⟩
  | 4 => ⟨S8192x1024, .f32⟩
  | 5 => ⟨S8192x1024, .f32⟩
  | 6 => ⟨S_, .f32⟩
  | 7 => ⟨S8192x1, .f32⟩
  | 8 => ⟨S8192x1, .f32⟩
  | 9 => ⟨S8192x1, .f32⟩
  | 10 => ⟨S8192x1024, .f32⟩
  | 11 => ⟨S8192x1024, .f32⟩
  | 12 => ⟨S1x1024, .f32⟩
  | 13 => ⟨S8192x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call0_cst : Ref sig .tc := ⟨.hbm, 43, rfl⟩
abbrev main_call0_v0 : Ref sig .tc := ⟨.hbm, 44, rfl⟩
abbrev main_v19 : Ref sig .tc := ⟨.hbm, 45, rfl⟩
abbrev main_call1_cst : Ref sig .tc := ⟨.hbm, 46, rfl⟩
abbrev main_call1_v0 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_1 : Ref sig .tc := ⟨.hbm, 59, rfl⟩
abbrev main_v30 : Ref sig .tc := ⟨.hbm, 60, rfl⟩
abbrev main_v31 : Ref sig .tc := ⟨.hbm, 61, rfl⟩
abbrev main_cst_2 : Ref sig .tc := ⟨.hbm, 62, rfl⟩
abbrev main_v32 : Ref sig .tc := ⟨.hbm, 63, rfl⟩
abbrev main_cst_3 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_4 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call2_cst : Ref sig .tc := ⟨.hbm, 83, rfl⟩
abbrev main_call2_v0 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_call3_cst : Ref sig .tc := ⟨.hbm, 92, rfl⟩
abbrev main_call3_v0 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_call4_cst : Ref sig .tc := ⟨.hbm, 106, rfl⟩
abbrev main_call4_v0 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_5 : Ref sig .tc := ⟨.hbm, 114, rfl⟩
abbrev main_v75 : Ref sig .tc := ⟨.hbm, 115, rfl⟩
abbrev main_v76 : Ref sig .tc := ⟨.hbm, 116, rfl⟩
abbrev main_cst_6 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_7 : Ref sig .tc := ⟨.hbm, 123, rfl⟩
abbrev main_v82 : Ref sig .tc := ⟨.hbm, 124, rfl⟩
abbrev main_v83 : Ref sig .tc := ⟨.hbm, 125, rfl⟩
abbrev main_cst_8 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_9 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_call5_cst : Ref sig .tc := ⟨.hbm, 144, rfl⟩
abbrev main_call5_v0 : Ref sig .tc := ⟨.hbm, 145, rfl⟩
abbrev main_v100 : Ref sig .tc := ⟨.hbm, 146, rfl⟩

abbrev nD : Nat := 1
abbrev τ : Topo := Topo.v7x

variable {F : FTy → Type} [FloatOps F]

class Facts₀ : Prop where
  concatenates_S80x300_S1x300_S81x300_d0 : Shape.Concatenates [S80x300, S1x300] S81x300 0
  transposes_S1024x300_S300x1024_1_0 : S1024x300.Transposes [1, 0] S300x1024
  bcast_S1024_S1x1024_1 : S1024.BroadcastsInDim S1x1024 (![1] : Fin 1 → Fin S1x1024.rank)
  bcast_S1x1024_S81x1024_0_1 : S1x1024.BroadcastsInDim S81x1024 (![0, 1] : Fin 2 → Fin S81x1024.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1024_S8192x1024_S8192x2048_d1 : Shape.Concatenates [S8192x1024, S8192x1024] S8192x2048 1
  transposes_S1024x2048_S2048x1024_1_0 : S1024x2048.Transposes [1, 0] S2048x1024
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  transposes_S1024x1024_S1024x1024_1_0 : S1024x1024.Transposes [1, 0] S1024x1024
  concatenates_S8192x1024_S1x1024_S8193x1024_d0 : Shape.Concatenates [S8192x1024, S1x1024] S8193x1024 0
  bcast_S_S1x1024 : S_.BroadcastsInDim S1x1024 (![] : Fin 0 → Fin S1x1024.rank)
  transposes_S8193x1024_S1024x8193_1_0 : S8193x1024.Transposes [1, 0] S1024x8193
  bcast_S_S8192x8193 : S_.BroadcastsInDim S8192x8193 (![] : Fin 0 → Fin S8192x8193.rank)
  reducesTo_S8192x8193_S8192_d1 : S8192x8193.ReducesTo [1] S8192
  h_S_ : 0 < S_.numel
  bcast_S8192x1_S8192x8193_0_1 : S8192x1.BroadcastsInDim S8192x8193 (![0, 1] : Fin 2 → Fin S8192x8193.rank)
  transposes_S512x1024_S1024x512_1_0 : S512x1024.Transposes [1, 0] S1024x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  concatenates_S8192x512_S8192x512_S8192x1024_S8192x2048_d1 : Shape.Concatenates [S8192x512, S8192x512, S8192x1024] S8192x2048 1
  reducesTo_S8192x1024_S8192_d1 : S8192x1024.ReducesTo [1] S8192
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  dot_S81x300_S300x1024_S81x1024_1_0_0_1_n_n_wf : DotDims.WF S81x300 S300x1024 S81x1024 [1] [0] [0] [1] [] []
  gather_S81x1024_S8192x1_S8192x1024_1_0_n_n_0_1_11024_wf : GatherDims.WF S81x1024 S8192x1 S8192x1024 [1] [0] [] [0] [] 1 ![1, 1024]
  dot_S8192x2048_S2048x1024_S8192x1024_1_0_0_1_n_n_wf : DotDims.WF S8192x2048 S2048x1024 S8192x1024 [1] [0] [0] [1] [] []
  dot_S8192x1024_S1024x1024_S8192x1024_1_0_0_1_n_n_wf : DotDims.WF S8192x1024 S1024x1024 S8192x1024 [1] [0] [0] [1] [] []
  dot_S8192x1024_S1024x8193_S8192x8193_1_0_0_1_n_n_wf : DotDims.WF S8192x1024 S1024x8193 S8192x8193 [1] [0] [0] [1] [] []
  dot_S8192x8193_S8193x1024_S8192x1024_1_0_0_1_n_n_wf : DotDims.WF S8192x8193 S8193x1024 S8192x1024 [1] [0] [0] [1] [] []
  dot_S8192x1024_S1024x512_S8192x512_1_0_0_1_n_n_wf : DotDims.WF S8192x1024 S1024x512 S8192x512 [1] [0] [0] [1] [] []

variable [Facts₀]

def dot_S81x300_S300x1024_S81x1024_1_0_0_1_n_n : DotDims S81x300 S300x1024 S81x1024 where
  lhsContracting := [1]
  rhsContracting := [0]
  lhsNonContracting := [0]
  rhsNonContracting := [1]
  lhsBatch := []
  rhsBatch := []
  wf := dot_S81x300_S300x1024_S81x1024_1_0_0_1_n_n_wf
def gather_S81x1024_S8192x1_S8192x1024_1_0_n_n_0_1_11024 : GatherDims S81x1024 S8192x1 S8192x1024 where
  offsetDims := [1]
  collapsedSliceDims := [0]
  operandBatchingDims := []
  startIndicesBatchingDims := []
  startIndexMap := [0]
  indexVectorDim := 1
  sliceSizes := ![1, 1024]
  wf := gather_S81x1024_S8192x1_S8192x1024_1_0_n_n_0_1_11024_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8193_S8192x8193_1_0_0_1_n_n : DotDims S8192x1024 S1024x8193 S8192x8193 where
  lhsContracting := [1]
  rhsContracting := [0]
  lhsNonContracting := [0]
  rhsNonContracting := [1]
  lhsBatch := []
  rhsBatch := []
  wf := dot_S8192x1024_S1024x8193_S8192x8193_1_0_0_1_n_n_wf
def dot_S8192x8193_S8193x1024_S8192x1024_1_0_0_1_n_n : DotDims S8192x8193 S8193x1024 S8192x1024 where
  lhsContracting := [1]
  rhsContracting := [0]
  lhsNonContracting := [0]
  rhsNonContracting := [1]
  lhsBatch := []
  rhsBatch := []
  wf := dot_S8192x8193_S8193x1024_S8192x1024_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf

class Facts : Prop extends Facts₀ where

variable [Facts]
-- ==== Proof.Vals.lean ====
import proofs.«404873_j80685255623116_3_alg».proof.Proof.Gen.KernelIdeal.Launch
import Idealize.ShloMosaic.Lib.Pipeline.FrameBody
import Idealize.ShloMosaic.Lib.Pipeline.FrameSuffix
import Idealize.ShloMosaic.Lib.StableHlo.Run

/-!
# What the buffers hold at each boundary of the program

The program is three stretches of host operations, the first kernel region, a fourth stretch, the second
kernel region. Between two of these items a core's buffers hold a definite function of the launch
memory: a host stretch applies its operations; a region leaves each of its output arrays at what its
write-backs fold to and every other buffer as it found it. The regions' proof data are parameters here:
the contents are stated for any proof data, and the regions' own modules supply theirs.
-/

noncomputable section

namespace Cert.KernelIdeal.Frm

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-- The proof data of the two regions: region 0 over the first pipeline, region 1 over the second. -/
abbrev Dat0 (F : FTy → Type) [FloatOps F] (c : Dev nD) : Type _ := Dat τ (Elt F) Unit ℕ (Pipeline.UD sig nD τ) ℕ cfg0 c
abbrev Dat1 (F : FTy → Type) [FloatOps F] (c : Dev nD) : Type _ := Dat τ (Elt F) Unit ℕ (Pipeline.UD sig nD τ) ℕ cfg1 c

variable (m : (ℓ : Loc nD τ sig) → Buf (Elt F) ℓ)
variable (d0 : (c : Dev nD) → Dat0 F c) (d1 : (c : Dev nD) → Dat1 F c)

/-- At launch. -/
abbrev W0 (c : Dev nD) : Valuation τ sig (Elt F) := fun b => m (c, b)
/-- After the three host stretches before the first region: the first region's entry. -/
def W3 (c : Dev nD) : Valuation τ sig (Elt F) :=
  StableHlo.after hostOps0_2 (StableHlo.after hostOps0_1 (StableHlo.after hostOps0 (W0 m c)))
/-- After the first region: its three output arrays at what the write-backs leave. -/
def W4 (c : Dev nD) : Valuation τ sig (Elt F) :=
  Pipeline.withArrays spec0 c (W3 m c) fun w => (d0 c).arrAt w cfg0.N
/-- After the fourth host stretch: the second region's entry. -/
def W5 (c : Dev nD) : Valuation τ sig (Elt F) := StableHlo.after hostOps1 (W4 m d0 c)
/-- After the second region: the end of the program. -/
def W6 (c : Dev nD) : Valuation τ sig (Elt F) :=
  Pipeline.withArrays spec1 c (W5 m d0 c) fun w => (d1 c).arrAt w cfg1.N

/-- The same contents read at the TensorCore's references: what a region's proof data take. -/
abbrev V3 (c : Dev nD) (b : Ref sig .tc) : Buf (Elt F) ((c : Thread nD τ).loc b) := W3 m c b
abbrev V5 (c : Dev nD) (b : Ref sig .tc) : Buf (Elt F) ((c : Thread nD τ).loc b) := W5 m d0 c b

end Cert.KernelIdeal.Frm

end
-- ==== Proof.Run.lean ====
import proofs.«404873_j80685255623116_3_alg».proof.Proof.Vals
import proofs.«404873_j80685255623116_3_alg».proof.Proof.Gen.KernelIdeal.Regions
import proofs.«404873_j80685255623116_3_alg».proof.Proof.Gen.KernelIdeal.Points
import Idealize.ShloMosaic.Lib.Pipeline.RegionsLoop
import Idealize.ShloMosaic.Lib.Pipeline.FrameSuffix
import Idealize.ShloMosaic.Lib.Pipeline.Kit
import Idealize.ShloMosaic.Lib.Tactic

/-!
# The run of the whole program, for any proof data that fit

The program is three stretches of host operations, the first kernel region, a fourth stretch, the second
kernel region. Between two items a core holds every unscoped buffer whole at that boundary's contents
(the fold through the program: a stretch applies its operations, a region leaves each of its arrays at
what its write-backs fold to and every other buffer as entered), beside its generator register at some
state and owing nothing.

The two regions' proof data are parameters. What the run needs of them is gathered in one record of
hypotheses (the record "Fits"): each region's arrays are entered at the boundary's contents, every input
array is held whole, the core owes nothing at any point and its recorded pairs are not bounded at the
first point, the region's invariant is entered from and left to the scoped buffers no window stages and
the generator register, and the body obligation holds. From such data every weakly fair execution of the
program terminates with every unscoped buffer at the last boundary's contents; the arguments are then
read back through the fold to the launch memory, and the result is the last region's output array after
all its write-backs.
-/

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (d0 : (c : Dev nD) → Dat0 F c) (d1 : (c : Dev nD) → Dat1 F c)

/-! ## What the run asks of the two regions' proof data -/

/-- The proof data fit the program: each region's arrays are entered at its boundary's contents (hA),
    every input array is held at the full share (hq), the core owes nothing at any point (howed) and
    the pairs its waits recorded before the first point are not bounded (hrec), the invariant at the
    first point follows from the scoped buffers no window stages beside the generator register (hin)
    and gives them back at the last point (hout), and the body obligation holds (hbody). -/
structure Fits : Prop where
  hA0 : ∀ c w, (d0 c).A w = V3 m c (Pipeline.arrRef spec0 w)
  hA1 : ∀ c w, (d1 c).A w = V5 m d0 c (Pipeline.arrRef spec1 w)
  hq0 : ∀ c, (d0 c).q = fun _ => fullShare
  hq1 : ∀ c, (d1 c).q = fun _ => fullShare
  howed0 : ∀ c, (d0 c).owed = fun _ => 0
  howed1 : ∀ c, (d1 c).owed = fun _ => 0
  hrec0 : ∀ c, (d0 c).recorded 0 = Set.univ
  hrec1 : ∀ c, (d1 c).recorded 0 = Set.univ
  hin0 : ∀ c, Pipeline.ΦA spec0 c ⊢ (d0 c).Φ 0
  hout0 : ∀ c, (d0 c).Φ (Fin.last cfg0.N) ⊢ Pipeline.ΦA spec0 c
  hin1 : ∀ c, Pipeline.ΦA spec1 c ⊢ (d1 c).Φ 0
  hout1 : ∀ c, (d1 c).Φ (Fin.last cfg1.N) ⊢ Pipeline.ΦA spec1 c
  hbody0 : ∀ c, BodyObligation (d0 c) (defs₀ (F := F)) Variants.none () Set.univ
  hbody1 : ∀ c, BodyObligation (d1 c) (defs₀ (F := F)) Variants.none () Set.univ

/-! ## The boundaries' contents, read at one buffer -/

/-- After the first region each of its arrays holds what its write-backs fold to, -/
theorem W4_arr (c : Dev nD) (w : Fin cfg0.W) :
    W4 m d0 c (Proc.devRef .tc (Pipeline.arrRef spec0 w)) = (d0 c).arrAt w cfg0.N := by
  unfold W4; exact Pipeline.withArrays_arr spec0 launch0.win.arr_inj c _ _ w
/-- and a buffer that is none of its arrays what it held at the region's entry. -/
theorem W4_of_ne (c : Dev nD) (b : Ref sig .tc) (hb : ∀ w, Pipeline.arrRef spec0 w ≠ b) :
    W4 m d0 c (Proc.devRef .tc b) = W3 m c (Proc.devRef .tc b) := by
  unfold W4; exact Pipeline.withArrays_of_ne spec0 c _ _ b hb
/-- The same after the second region. -/
theorem W6_arr (c : Dev nD) (w : Fin cfg1.W) :
    W6 m d0 d1 c (Proc.devRef .tc (Pipeline.arrRef spec1 w)) = (d1 c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m d0 d1 c (Proc.devRef .tc b) = W5 m d0 c (Proc.devRef .tc b) := by
  unfold W6; exact Pipeline.withArrays_of_ne spec1 c _ _ b hb

/-- The exit contents of the two regions read at the TensorCore's references. -/
abbrev V4 (c : Dev nD) (b : Ref sig .tc) : Buf (Elt F) ((c : Thread nD τ).loc b) := W4 m d0 c b
abbrev V6 (c : Dev nD) (b : Ref sig .tc) : Buf (Elt F) ((c : Thread nD τ).loc b) := W6 m d0 d1 c b

/-- At a region's exit each of its arrays holds what the pipeline leaves and every other buffer what it
    held at entry: the two facts that put the arrays back among the core's unscoped buffers. -/
theorem hF0 (c : Dev nD) (w : Fin cfg0.W) : (d0 c).arrAt w cfg0.N = V4 m d0 c (Pipeline.arrRef spec0 w) :=
  (W4_arr m d0 c w).symm
theorem hrest0 (c : Dev nD) : ∀ b, b ∉ Finset.univ.image (Pipeline.arrRef spec0) → V4 m d0 c b = V3 m c b :=
  fun b hb => W4_of_ne m d0 c b fun w e => hb (Finset.mem_image.mpr ⟨w, Finset.mem_univ _, e⟩)
theorem hF1 (c : Dev nD) (w : Fin cfg1.W) : (d1 c).arrAt w cfg1.N = V6 m d0 d1 c (Pipeline.arrRef spec1 w) :=
  (W6_arr m d0 d1 c w).symm
theorem hrest1 (c : Dev nD) : ∀ b, b ∉ Finset.univ.image (Pipeline.arrRef spec1) → V6 m d0 d1 c b = V5 m d0 c b :=
  fun b hb => W6_of_ne m d0 d1 c b fun w e => hb (Finset.mem_image.mpr ⟨w, Finset.mem_univ _, e⟩)

/-- A buffer none of the three stretches before the first region writes holds its launch contents at
    that region's entry. -/
theorem W3_of_not_written (c : Dev nD) (r : Ref sig .tc) (h0 : r ∉ hostOps0_W) (h1 : r ∉ hostOps0_1_W) (h2 : r ∉ hostOps0_2_W) :
    W3 m c (Proc.devRef .tc r) = m ((c : Thread nD τ).loc r) := by
  unfold W3
  exact (StableHlo.after_of_writes_sub hostOps0_2 _ hostOps0_2_writes h2).trans
    ((StableHlo.after_of_writes_sub hostOps0_1 _ hostOps0_1_writes h1).trans
      ((StableHlo.after_of_writes_sub hostOps0 _ hostOps0_writes h0).trans rfl))

/-- A buffer the fourth stretch does not write and that is no array of the first region holds at the
    second region's entry what it held at the first's. -/
theorem W5_of_not_written (c : Dev nD) (r : Ref sig .tc) (h3 : r ∉ hostOps1_W) (h4 : ∀ w, Pipeline.arrRef spec0 w ≠ r) :
    W5 m d0 c (Proc.devRef .tc r) = W3 m c (Proc.devRef .tc r) := by
  unfold W5
  exact (StableHlo.after_of_writes_sub hostOps1 _ hostOps1_writes h3).trans (W4_of_ne m d0 c r h4)

/-- So does an INPUT array of the first region that the fourth stretch does not write: an input array
    is never written back. -/
theorem W5_of_in0 (h : Fits m d0 d1) (c : Dev nD) (w : Fin cfg0.W) (hin : (cfg0.win w).isOut = false)
    (h3 : Pipeline.arrRef spec0 w ∉ hostOps1_W) :
    W5 m d0 c (Proc.devRef .tc (Pipeline.arrRef spec0 w)) = W3 m c (Proc.devRef .tc (Pipeline.arrRef spec0 w)) := by
  unfold W5
  exact (StableHlo.after_of_writes_sub hostOps1 _ hostOps1_writes h3).trans
    ((W4_arr m d0 c w).trans (((d0 c).arrAt_in w hin _).trans (h.hA0 c w)))

/-- An input array of the second region ends as the region found it. -/
theorem W6_of_in1 (h : Fits m d0 d1) (c : Dev nD) (w : Fin cfg1.W) (hin : (cfg1.win w).isOut = false) :
    W6 m d0 d1 c (Proc.devRef .tc (Pipeline.arrRef spec1 w)) = W5 m d0 c (Proc.devRef .tc (Pipeline.arrRef spec1 w)) :=
  (W6_arr m d0 d1 c w).trans (((d1 c).arrAt_in w hin _).trans (h.hA1 c w))

/-! ### The first region's outputs at the second region's entry, and the result -/

/-- The fourth stretch writes none of the first region's three outputs: the second region finds them
    as the first region's write-backs left them. -/
theorem W5_qp (c : Dev nD) : W5 m d0 c (Proc.devRef .tc main_v17_0) = (d0 c).arrAt 7 cfg0.N := by
  unfold W5
  exact (StableHlo.after_of_writes_sub hostOps1 _ hostOps1_writes (by decide)).trans (W4_arr m d0 c 7)
theorem W5_kp (c : Dev nD) : W5 m d0 c (Proc.devRef .tc main_v17_1) = (d0 c).arrAt 8 cfg0.N := by
  unfold W5
  exact (StableHlo.after_of_writes_sub hostOps1 _ hostOps1_writes (by decide)).trans (W4_arr m d0 c 8)
theorem W5_comb (c : Dev nD) : W5 m d0 c (Proc.devRef .tc main_v17_2) = (d0 c).arrAt 9 cfg0.N := by
  unfold W5
  exact (StableHlo.after_of_writes_sub hostOps1 _ hostOps1_writes (by decide)).trans (W4_arr m d0 c 9)

/-- The program's result is the second region's output array after all its write-backs. -/
theorem W6_result (c : Dev nD) : W6 m d0 d1 c (Proc.devRef .tc main_v37) = (d1 c).arrAt 19 cfg1.N :=
  W6_arr m d0 d1 c 19

/-! ### The arguments end as launched

No host stretch writes an argument. A region leaves an input array as it was entered and does not touch
a buffer that is none of its arrays. The first region reads arguments 0 and 7 (its windows 0 and 6), the
second arguments 11, 13, 15, 17, 19, 20 and 21 (its windows 6, 8, 12, 14, 16, 17 and 18); the other
arguments bypass both. -/

theorem W6_main_arg0 (h : Fits m d0 d1) (c : Dev nD) : W6 m d0 d1 c (Proc.devRef .tc main_arg0) = m ((c : Thread nD τ).loc main_arg0) :=
  (W6_of_ne m d0 d1 c main_arg0 (by decide)).trans ((W5_of_in0 m d0 d1 h c 0 rfl (by decide)).trans (W3_of_not_written m c main_arg0 (by decide) (by decide) (by decide)))
theorem W6_main_arg1 (h : Fits m d0 d1) (c : Dev nD) : W6 m d0 d1 c (Proc.devRef .tc main_arg1) = m ((c : Thread nD τ).loc main_arg1) :=
  (W6_of_ne m d0 d1 c main_arg1 (by decide)).trans ((W5_of_not_written m d0 c main_arg1 (by decide) (by decide)).trans (W3_of_not_written m c main_arg1 (by decide) (by decide) (by decide)))
theorem W6_main_arg2 (h : Fits m d0 d1) (c : Dev nD) : W6 m d0 d1 c (Proc.devRef .tc main_arg2) = m ((c : Thread nD τ).loc main_arg2) :=
  (W6_of_ne m d0 d1 c main_arg2 (by decide)).trans ((W5_of_not_written m d0 c main_arg2 (by decide) (by decide)).trans (W3_of_not_written m c main_arg2 (by decide) (by decide) (by decide)))
theorem W6_main_arg3 (h : Fits m d0 d1) (c : Dev nD) : W6 m d0 d1 c (Proc.devRef .tc main_arg3) = m ((c : Thread nD τ).loc main_arg3) :=
  (W6_of_ne m d0 d1 c main_arg3 (by decide)).trans ((W5_of_not_written m d0 c main_arg3 (by decide) (by decide)).trans (W3_of_not_written m c main_arg3 (by decide) (by decide) (by decide)))
theorem W6_main_arg4 (h : Fits m d0 d1) (c : Dev nD) : W6 m d0 d1 c (Proc.devRef .tc main_arg4) = m ((c : Thread nD τ).loc main_arg4) :=
  (W6_of_ne m d0 d1 c main_arg4 (by decide)).trans ((W5_of_not_written m d0 c main_arg4 (by decide) (by decide)).trans (W3_of_not_written m c main_arg4 (by decide) (by decide) (by decide)))
theorem W6_main_arg5 (h : Fits m d0 d1) (c : Dev nD) : W6 m d0 d1 c (Proc.devRef .tc main_arg5) = m ((c : Thread nD τ).loc main_arg5) :=
  (W6_of_ne m d0 d1 c main_arg5 (by decide)).trans ((W5_of_not_written m d0 c main_arg5 (by decide) (by decide)).trans (W3_of_not_written m c main_arg5 (by decide) (by decide) (by decide)))
theorem W6_main_arg6 (h : Fits m d0 d1) (c : Dev nD) : W6 m d0 d1 c (Proc.devRef .tc main_arg6) = m ((c : Thread nD τ).loc main_arg6) :=
  (W6_of_ne m d0 d1 c main_arg6 (by decide)).trans ((W5_of_not_written m d0 c main_arg6 (by decide) (by decide)).trans (W3_of_not_written m c main_arg6 (by decide) (by decide) (by decide)))
theorem W6_main_arg7 (h : Fits m d0 d1) (c : Dev nD) : W6 m d0 d1 c (Proc.devRef .tc main_arg7) = m ((c : Thread nD τ).loc main_arg7) :=
  (W6_of_ne m d0 d1 c main_arg7 (by decide)).trans ((W5_of_in0 m d0 d1 h c 6 rfl (by decide)).trans (W3_of_not_written m c main_arg7 (by decide) (by decide) (by decide)))
theorem W6_main_arg8 (h : Fits m d0 d1) (c : Dev nD) : W6 m d0 d1 c (Proc.devRef .tc main_arg8) = m ((c : Thread nD τ).loc main_arg8) :=
  (W6_of_ne m d0 d1 c main_arg8 (by decide)).trans ((W5_of_not_written m d0 c main_arg8 (by decide) (by decide)).trans (W3_of_not_written m c main_arg8 (by decide) (by decide) (by decide)))
theorem W6_main_arg9 (h : Fits m d0 d1) (c : Dev nD) : W6 m d0 d1 c (Proc.devRef .tc main_arg9) = m ((c : Thread nD τ).loc main_arg9) :=
  (W6_of_ne m d0 d1 c main_arg9 (by decide)).trans ((W5_of_not_written m d0 c main_arg9 (by decide) (by decide)).trans (W3_of_not_written m c main_arg9 (by decide) (by decide) (by decide)))
theorem W6_main_arg10 (h : Fits m d0 d1) (c : Dev nD) : W6 m d0 d1 c (Proc.devRef .tc main_arg10) = m ((c : Thread nD τ).loc main_arg10) :=
  (W6_of_ne m d0 d1 c main_arg10 (by decide)).trans ((W5_of_not_written m d0 c main_arg10 (by decide) (by decide)).trans (W3_of_not_written m c main_arg10 (by decide) (by decide) (by decide)))
theorem W6_main_arg11 (h : Fits m d0 d1) (c : Dev nD) : W6 m d0 d1 c (Proc.devRef .tc main_arg11) = m ((c : Thread nD τ).loc main_arg11) :=
  (W6_of_in1 m d0 d1 h c 6 rfl).trans ((W5_of_not_written m d0 c main_arg11 (by decide) (by decide)).trans (W3_of_not_written m c main_arg11 (by decide) (by decide) (by decide)))
theorem W6_main_arg12 (h : Fits m d0 d1) (c : Dev nD) : W6 m d0 d1 c (Proc.devRef .tc main_arg12) = m ((c : Thread nD τ).loc main_arg12) :=
  (W6_of_ne m d0 d1 c main_arg12 (by decide)).trans ((W5_of_not_written m d0 c main_arg12 (by decide) (by decide)).trans (W3_of_not_written m c main_arg12 (by decide) (by decide) (by decide)))
theorem W6_main_arg13 (h : Fits m d0 d1) (c : Dev nD) : W6 m d0 d1 c (Proc.devRef .tc main_arg13) = m ((c : Thread nD τ).loc main_arg13) :=
  (W6_of_in1 m d0 d1 h c 8 rfl).trans ((W5_of_not_written m d0 c main_arg13 (by decide) (by decide)).trans (W3_of_not_written m c main_arg13 (by decide) (by decide) (by decide)))
theorem W6_main_arg14 (h : Fits m d0 d1) (c : Dev nD) : W6 m d0 d1 c (Proc.devRef .tc main_arg14) = m ((c : Thread nD τ).loc main_arg14) :=
  (W6_of_ne m d0 d1 c main_arg14 (by decide)).trans ((W5_of_not_written m d0 c main_arg14 (by decide) (by decide)).trans (W3_of_not_written m c main_arg14 (by decide) (by decide) (by decide)))
theorem W6_main_arg15 (h : Fits m d0 d1) (c : Dev nD) : W6 m d0 d1 c (Proc.devRef .tc main_arg15) = m ((c : Thread nD τ).loc main_arg15) :=
  (W6_of_in1 m d0 d1 h c 12 rfl).trans ((W5_of_not_written m d0 c main_arg15 (by decide) (by decide)).trans (W3_of_not_written m c main_arg15 (by decide) (by decide) (by decide)))
theorem W6_main_arg16 (h : Fits m d0 d1) (c : Dev nD) : W6 m d0 d1 c (Proc.devRef .tc main_arg16) = m ((c : Thread nD τ).loc main_arg16) :=
  (W6_of_ne m d0 d1 c main_arg16 (by decide)).trans ((W5_of_not_written m d0 c main_arg16 (by decide) (by decide)).trans (W3_of_not_written m c main_arg16 (by decide) (by decide) (by decide)))
theorem W6_main_arg17 (h : Fits m d0 d1) (c : Dev nD) : W6 m d0 d1 c (Proc.devRef .tc main_arg17) = m ((c : Thread nD τ).loc main_arg17) :=
  (W6_of_in1 m d0 d1 h c 14 rfl).trans ((W5_of_not_written m d0 c main_arg17 (by decide) (by decide)).trans (W3_of_not_written m c main_arg17 (by decide) (by decide) (by decide)))
theorem W6_main_arg18 (h : Fits m d0 d1) (c : Dev nD) : W6 m d0 d1 c (Proc.devRef .tc main_arg18) = m ((c : Thread nD τ).loc main_arg18) :=
  (W6_of_ne m d0 d1 c main_arg18 (by decide)).trans ((W5_of_not_written m d0 c main_arg18 (by decide) (by decide)).trans (W3_of_not_written m c main_arg18 (by decide) (by decide) (by decide)))
theorem W6_main_arg19 (h : Fits m d0 d1) (c : Dev nD) : W6 m d0 d1 c (Proc.devRef .tc main_arg19) = m ((c : Thread nD τ).loc main_arg19) :=
  (W6_of_in1 m d0 d1 h c 16 rfl).trans ((W5_of_not_written m d0 c main_arg19 (by decide) (by decide)).trans (W3_of_not_written m c main_arg19 (by decide) (by decide) (by decide)))
theorem W6_main_arg20 (h : Fits m d0 d1) (c : Dev nD) : W6 m d0 d1 c (Proc.devRef .tc main_arg20) = m ((c : Thread nD τ).loc main_arg20) :=
  (W6_of_in1 m d0 d1 h c 17 rfl).trans ((W5_of_not_written m d0 c main_arg20 (by decide) (by decide)).trans (W3_of_not_written m c main_arg20 (by decide) (by decide) (by decide)))
theorem W6_main_arg21 (h : Fits m d0 d1) (c : Dev nD) : W6 m d0 d1 c (Proc.devRef .tc main_arg21) = m ((c : Thread nD τ).loc main_arg21) :=
  (W6_of_in1 m d0 d1 h c 18 rfl).trans ((W5_of_not_written m d0 c main_arg21 (by decide) (by decide)).trans (W3_of_not_written m c main_arg21 (by decide) (by decide) (by decide)))

/-! ## The proof data family and the thread state -/

/-- Both pipelines' proof data, each region's the given one — a literal match on the pipeline's index, so
    that the family at a numeral reduces to the region's own data. -/
def pdats : (p : Fin 2) → (c : Dev nD) → Dat τ (Elt F) Unit ℕ (Pipeline.UD sig nD τ) ℕ (Pipeline.pin (pcfgs (F := F)) adm p) c
  | ⟨0, _⟩ => fun c => d0 c
  | ⟨1, _⟩ => fun c => d1 c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a
    region takes it into its invariant and gives it back) and the core owing nothing. -/
abbrev R (c : Dev nD) : sProp 𝕄 := iprop((∃ r, prngReg c r) ∗ ∃ W, owes (c : Thread nD τ) (0 : CellTallies nD τ sig Unit) W)

/-- A host stretch as a segment over the unscoped buffers from the contents W, R riding along: it leaves
    them at the stretch applied to W, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the last boundary's
    contents, the generator register at some state. -/
abbrev Tₙ (c : Dev nD) : sProp 𝕄 := iprop(StableHlo.held (c : Thread nD τ) (Pipeline.ucRefs τ sig) (W6 m d0 d1 c) ∗ ∃ r, prngReg c r)

/-! ### What a core owes, in and out of a region's proof data -/

section Owes

variable {cfg : Pipeline.Cfg sig Λ₀} {c : Dev nD} (dat : Dat τ (Elt F) Unit ℕ (Pipeline.UD sig nD τ) ℕ cfg c)

/-- A core owing nothing, whatever pairs its waits recorded, enters proof data that owe nothing at the
    first point and do not bound the recorded pairs there. -/
theorem owesAt_of_zero (ho : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin Pipeline.Dat.bound
  rw [ho, hr]
  iintro ⟨%W, HO⟩
  iexists W
  isplitr
  · ipureintro; exact fun _ _ => Or.inl trivial
  iexact HO

/-- Proof data that owe nothing at a point leave the core owing nothing there. -/
theorem zero_of_owesAt (t : Fin (cfg.N + 1)) (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩
  iexists W
  iexact HO

end Owes

/-! ## The regions as segments -/

set_option backward.isDefEq.respectTransparency.types false in
/-- The first region over the thread state: entered from every unscoped buffer at the first region's
    entry contents, left at its exit contents. Its arrays are split out of the unscoped buffers and put
    back at what the write-backs leave; the generator register goes into the invariant and comes back;
    nothing is owed; the kernel has no semaphore of its own. -/
def reg0 (h : Fits m d0 d1) : Pipeline.RegionSeg (pcfgs (F := F)) adm (pdats d0 d1) () defs₀ 𝒱₀ L lv 0 where
  win := launch0.win.to₀
  block_pos := launch0.block_pos
  stage_whole := launch0.stage_whole
  K := PEmpty
  osem k := k.elim
  ho := Pipeline.OwnSemFacts.none _
  hbody c := (h.hbody0 c).loose
  hwaits := Pipeline.hwaits_of_owed_zero _ _ _ _ L lv 0 fun c t => congrFun (h.howed0 c) t
  pre c := iprop(StableHlo.held (c : Thread nD τ) (Pipeline.ucRefs τ sig) (W3 m c) ∗ R c)
  post c := iprop(StableHlo.held (c : Thread nD τ) (Pipeline.ucRefs τ sig) (W4 m d0 c) ∗ R c)
  X c := iprop(∃ r, prngReg c r)
  Y c := iprop(∃ r, prngReg c r)
  Z c := Pipeline.unscopedRest (Ix := Unit) (Name := ℕ) (U := Pipeline.UD sig nD τ) (Lvl := ℕ) spec0 c (V3 m c)
  hentry c := by
    rw [Pipeline.ownSems0_none]
    have hsplit := Pipeline.arrays_of_unscopedBufs (p := 0) (pcfgs (F := F)) adm (pdats d0 d1) launch0.win launch0.arr_whole c
      ((pdats d0 d1 0 c).share_full fun w => congrFun (h.hq0 c) w) (V3 m c) (h.hA0 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats d0 d1 0 c) (congrFun (h.howed0 c) 0) (h.hrec0 c)); iexact HO
    isplitl [Hp]; · iexact Hp
    iexact Hrest
  hin c := by
    refine BIBase.Entails.trans ?_ (h.hin0 c)
    unfold Pipeline.ΦA
    iintro ⟨Hp, -, Hr⟩
    isplitl [Hr]; · iexact Hr
    iexact Hp
  hout c := by
    refine BIBase.Entails.trans (h.hout0 c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats d0 d1) ((pdats d0 d1 0 c).share_full fun w => congrFun (h.hq0 c) w)
      (V3 m c) (V4 m d0 c) ((pdats d0 d1 0 c).arrAt · cfg0.N) (hF0 m d0 c) (hrest0 m d0 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats d0 d1 0 c) (Fin.last _) (congrFun (h.howed0 c) _)); iexact HO

set_option backward.isDefEq.respectTransparency.types false in
/-- The second region over the thread state: entered from every unscoped buffer at the second region's
    entry contents, left at the last boundary's contents (what the launch reads at the end), in the
    same way. -/
def reg1 (h : Fits m d0 d1) : Pipeline.RegionSeg (pcfgs (F := F)) adm (pdats d0 d1) () defs₀ 𝒱₀ L lv 1 where
  win := launch1.win.to₀
  block_pos := launch1.block_pos
  stage_whole := launch1.stage_whole
  K := PEmpty
  osem k := k.elim
  ho := Pipeline.OwnSemFacts.none _
  hbody c := (h.hbody1 c).loose
  hwaits := Pipeline.hwaits_of_owed_zero _ _ _ _ L lv 1 fun c t => congrFun (h.howed1 c) t
  pre c := iprop(StableHlo.held (c : Thread nD τ) (Pipeline.ucRefs τ sig) (W5 m d0 c) ∗ R c)
  post c := iprop(Tₙ m d0 d1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V5 m d0 c)
  hentry c := by
    rw [Pipeline.ownSems0_none]
    have hsplit := Pipeline.arrays_of_unscopedBufs (p := 1) (pcfgs (F := F)) adm (pdats d0 d1) launch1.win launch1.arr_whole c
      ((pdats d0 d1 1 c).share_full fun w => congrFun (h.hq1 c) w) (V5 m d0 c) (h.hA1 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats d0 d1 1 c) (congrFun (h.howed1 c) 0) (h.hrec1 c)); iexact HO
    isplitl [Hp]; · iexact Hp
    iexact Hrest
  hin c := by
    refine BIBase.Entails.trans ?_ (h.hin1 c)
    unfold Pipeline.ΦA
    iintro ⟨Hp, -, Hr⟩
    isplitl [Hr]; · iexact Hr
    iexact Hp
  hout c := by
    refine BIBase.Entails.trans (h.hout1 c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats d0 d1) ((pdats d0 d1 1 c).share_full fun w => congrFun (h.hq1 c) w)
      (V5 m d0 c) (V6 m d0 d1 c) ((pdats d0 d1 1 c).arrAt · cfg1.N) (hF1 m d0 d1 c) (hrest1 m d0 d1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (zero_of_owesAt (pdats d0 d1 1 c) (Fin.last _) (congrFun (h.howed1 c) _)); iexact HO

/-! ## The program as segments, and the launch -/

/-- The program's six segments in order: a host segment per stretch from its boundary's contents, a
    region per kernel call. -/
abbrev segs (h : Fits m d0 d1) : List (Pipeline.Seg (pcfgs (F := F)) adm (pdats d0 d1) () defs₀ 𝒱₀ L lv) :=
  [ .host (hseg hostOps0 hostOps0_sub hostOps0_fresh (W0 m)),
    .host (hseg hostOps0_1 hostOps0_1_sub hostOps0_1_fresh fun c => StableHlo.after hostOps0 (W0 m c)),
    .host (hseg hostOps0_2 hostOps0_2_sub hostOps0_2_fresh fun c => StableHlo.after hostOps0_1 (StableHlo.after hostOps0 (W0 m c))),
    .region (reg0 m d0 d1 h),
    .host (hseg hostOps1 hostOps1_sub hostOps1_fresh (W4 m d0)),
    .region (reg1 m d0 d1 h) ]

/-- The program IS the run of the segments: it is the chain of its six items, and the segments' run is
    that chain by definitional unfolding. -/
theorem main_run (h : Fits m d0 d1) (c : Dev nD) : main (F := F) c = Pipeline.Seg.run (segs m d0 d1 h) :=
  (main_chain c).trans (by chain_rfl)

set_option backward.isDefEq.respectTransparency.types false in
/-- THE RUN. From any memory with zero counters, every weakly fair execution of the program on the
    TensorCores terminates, nothing faulting, and in every final state each core's unscoped buffers hold
    the last boundary's contents: the launch over the segments, the last thread state read against the
    final state. -/
theorem run_all (h : Fits m d0 d1) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 m d0 d1 c b) :=
  Pipeline.θ_run_regions_kit (pcfgs (F := F)) adm (pdats d0 d1) () cellOf_inj embL defs₀ 𝒱₀ L lv m ρ main (segs m d0 d1 h)
    (fun c Q => by rw [main_run m d0 d1 h c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m d0 d1)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m d0 d1 c b)
    (hfin := fun c s' => by
      iintro ⟨⟨Hh, -⟩, HSI⟩
      unfold StableHlo.held
      imodintro
      iapply (pointsTo_read_all (Pipeline.ucRefs τ sig) (fun b => (((c : Thread nD τ)).1, b)) (W6 m d0 d1 c) s')
      isplitl [Hh] <;> iassumption)
    (hQ := fun s hs => hs)

/-! ## What the run gives the claims -/

/-- In a final state whose unscoped buffers hold the last boundary's contents every argument holds its
    launch contents. -/
theorem args_kept (h : Fits m d0 d1) (c : Dev nD) (s : MemSt nD τ sig (Elt F))
    (hs : ∀ b ∈ Pipeline.ucRefs τ sig, s.mem (((c : Thread nD τ)).1, b) = W6 m d0 d1 c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20)
      ∧ s.mem ((c.tc : Thread nD τ).loc main_arg21) = m ((c.tc : Thread nD τ).loc main_arg21) :=
  ⟨(hs _ (mem_uc main_arg0 (by decide))).trans (W6_main_arg0 m d0 d1 h c),
   (hs _ (mem_uc main_arg1 (by decide))).trans (W6_main_arg1 m d0 d1 h c),
   (hs _ (mem_uc main_arg2 (by decide))).trans (W6_main_arg2 m d0 d1 h c),
   (hs _ (mem_uc main_arg3 (by decide))).trans (W6_main_arg3 m d0 d1 h c),
   (hs _ (mem_uc main_arg4 (by decide))).trans (W6_main_arg4 m d0 d1 h c),
   (hs _ (mem_uc main_arg5 (by decide))).trans (W6_main_arg5 m d0 d1 h c),
   (hs _ (mem_uc main_arg6 (by decide))).trans (W6_main_arg6 m d0 d1 h c),
   (hs _ (mem_uc main_arg7 (by decide))).trans (W6_main_arg7 m d0 d1 h c),
   (hs _ (mem_uc main_arg8 (by decide))).trans (W6_main_arg8 m d0 d1 h c),
   (hs _ (mem_uc main_arg9 (by decide))).trans (W6_main_arg9 m d0 d1 h c),
   (hs _ (mem_uc main_arg10 (by decide))).trans (W6_main_arg10 m d0 d1 h c),
   (hs _ (mem_uc main_arg11 (by decide))).trans (W6_main_arg11 m d0 d1 h c),
   (hs _ (mem_uc main_arg12 (by decide))).trans (W6_main_arg12 m d0 d1 h c),
   (hs _ (mem_uc main_arg13 (by decide))).trans (W6_main_arg13 m d0 d1 h c),
   (hs _ (mem_uc main_arg14 (by decide))).trans (W6_main_arg14 m d0 d1 h c),
   (hs _ (mem_uc main_arg15 (by decide))).trans (W6_main_arg15 m d0 d1 h c),
   (hs _ (mem_uc main_arg16 (by decide))).trans (W6_main_arg16 m d0 d1 h c),
   (hs _ (mem_uc main_arg17 (by decide))).trans (W6_main_arg17 m d0 d1 h c),
   (hs _ (mem_uc main_arg18 (by decide))).trans (W6_main_arg18 m d0 d1 h c),
   (hs _ (mem_uc main_arg19 (by decide))).trans (W6_main_arg19 m d0 d1 h c),
   (hs _ (mem_uc main_arg20 (by decide))).trans (W6_main_arg20 m d0 d1 h c),
   (hs _ (mem_uc main_arg21 (by decide))).trans (W6_main_arg21 m d0 d1 h c)⟩

/-- The frame claim's post: the program runs and every argument ends as launched. -/
theorem frame_of_fits (h : Fits m d0 d1) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run (defs (F := F)) (onTc (τ := τ) (main (F := F))) ⟨m, fun _ => 0, ρ⟩).mono
    (fun r hr c => args_kept m d0 d1 h c r.2 (hr c)) (run_all m d0 d1 h ρ)

/-- The kernel side of the algebraic claim: the program runs, the result buffer ends at the second
    region's output array after all its write-backs, and every argument ends as launched. -/
theorem result_of_fits (h : Fits m d0 d1) (ρ : Dev nD → PrngReg) :
    θ_run defs (onTc (τ := τ) (main (F := F))) ⟨m, fun _ => 0, ρ⟩ (fun r => ∀ c : Dev nD,
      r.2.mem ((c.tc : Thread nD τ).loc main_v37) = (d1 c).arrAt 19 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run (defs (F := F)) (onTc (τ := τ) (main (F := F))) ⟨m, fun _ => 0, ρ⟩).mono
    (fun r hr c => ⟨(hr c _ (mem_uc main_v37 (by decide))).trans (W6_result m d0 d1 c), args_kept m d0 d1 h c r.2 (hr c)⟩)
    (run_all m d0 d1 h ρ)

end Cert.KernelIdeal.Frm

end
-- ==== Proof.R0Body.lean ====
import proofs.«404873_j80685255623116_3_alg».proof.Proof.Gen.KernelIdeal.Launch
import proofs.«404873_j80685255623116_3_alg».proof.Proof.Gen.KernelIdeal.Skeleton
import proofs.«404873_j80685255623116_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 0: the projection kernel's body

The first of the program's two pipelined regions walks the 8192 rows in 16 blocks of 512. At each block it
reads the feature rows, their class indices, the padded class table, three square weights and a bias, and
writes three blocks: the scaled queries, the keys and the values. The body is a straight line of whole-block
loads, arithmetic and whole-block stores; nothing is carried from one block to the next. So what the body
leaves in an output buffer is a function of the input blocks alone, and the region's proof data says, point
by point, "each input buffer holds its block, each output buffer holds that function of the input blocks".
-/

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Where an input window's buffer stands when the body is called

A window whose block index does not move from one point to the next is not fetched again: its buffer still
holds what the previous point left there. For an input the body leaves untouched that is the block itself,
so at EVERY point, fetched there or not, the buffer holds the point's block. The statement is over any proof
data whose arrays are `V`'s and whose `after` at this window is the block. -/

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through

Every load and every store of the body goes through the whole buffer: the unit-stride rectangle at offset zero
whose sizes are the buffer's own. There is one per shape. -/

abbrev r0_a : Rect S512x1024 := Rect.unit (s := S512x1024) ![0, 0] S512x1024.size inb_S512x1024_S512x1024_0_0
abbrev r0_b : Rect S512x1 := Rect.unit (s := S512x1) ![0, 0] S512x1.size inb_S512x1_S512x1_0_0
abbrev r0_c : Rect S128x1024 := Rect.unit (s := S128x1024) ![0, 0] S128x1024.size inb_S128x1024_S128x1024_0_0
abbrev r0_d : Rect S1024x1024 := Rect.unit (s := S1024x1024) ![0, 0] S1024x1024.size inb_S1024x1024_S1024x1024_0_0
abbrev r0_e : Rect S1024 := Rect.unit (s := S1024) ![0] S1024.size inb_S1024_S1024_0

/-- The offsets are zero on every axis, in rank 2 and in rank 1. -/
theorem zeros0_2 : (![0, 0] : Fin 2 → Nat) = fun _ => 0 := funext fun a => by fin_cases a <;> rfl
theorem zeros0_1 : (![0] : Fin 1 → Nat) = fun _ => 0 := funext fun a => by fin_cases a; rfl

/-! ## What the body leaves in each output buffer

Each output buffer receives exactly one store, of the whole block. Its contents afterwards are written as the
canonical form of that one-piece list of stores, the stored value being the skeleton's payload applied to what
the loads read. Since the one piece is the whole block, the canonical form is the payload itself, and a load
through the whole rectangle reads the contents unchanged: the three `_eq` lemmas say so. -/

/-- The query block: the rectified features times the query/key weight, scaled by 1/32. -/
def out0_7 (x0 : Vec F S512x1024 .f32) (x3 : Vec F S1024x1024 .bf16) : Vec F S512x1024 .bf16 :=
  View.canon [⟨r0_a, k0_pay4 (View.ld x0 r0_a) (View.ld x3 r0_d)⟩]

/-- The key block: the rows' class embeddings (a one-hot selection out of the table), rectified, times the
    same weight. -/
def out0_8 (x1 : Vec F S512x1 .i32) (x2 : Vec F S128x1024 .bf16) (x3 : Vec F S1024x1024 .bf16) : Vec F S512x1024 .bf16 :=
  View.canon [⟨r0_a, k0_pay5 (View.ld x1 r0_b) (View.ld x2 r0_c) (View.ld x3 r0_d)⟩]

/-- The value block: class embeddings times one half of the value weight, plus features times the other half,
    plus the bias. -/
def out0_9 (x0 : Vec F S512x1024 .f32) (x1 : Vec F S512x1 .i32) (x2 : Vec F S128x1024 .bf16) (x4 x5 : Vec F S1024x1024 .bf16)
    (x6 : Vec F S1024 .f32) : Vec F S512x1024 .bf16 :=
  View.canon [⟨r0_a, k0_pay1 (k0_pay6 (View.ld x1 r0_b) (View.ld x2 r0_c) (View.ld x4 r0_d)) (k0_pay7 (View.ld x0 r0_a))
    (View.ld x5 r0_d) (View.ld x6 r0_e)⟩]

theorem out0_7_eq (x0 : Vec F S512x1024 .f32) (x3 : Vec F S1024x1024 .bf16) : out0_7 x0 x3 = k0_pay4 x0 x3 := by
  unfold out0_7
  rw [View.canon_unit_zero zeros0_2]
  simp only [View.ld_unit_zero (S := S512x1024) zeros0_2, View.ld_unit_zero (S := S1024x1024) zeros0_2]

theorem out0_8_eq (x1 : Vec F S512x1 .i32) (x2 : Vec F S128x1024 .bf16) (x3 : Vec F S1024x1024 .bf16) :
    out0_8 x1 x2 x3 = k0_pay5 x1 x2 x3 := by
  unfold out0_8
  rw [View.canon_unit_zero zeros0_2]
  simp only [View.ld_unit_zero (S := S512x1) zeros0_2, View.ld_unit_zero (S := S128x1024) zeros0_2,
    View.ld_unit_zero (S := S1024x1024) zeros0_2]

theorem out0_9_eq (x0 : Vec F S512x1024 .f32) (x1 : Vec F S512x1 .i32) (x2 : Vec F S128x1024 .bf16) (x4 x5 : Vec F S1024x1024 .bf16)
    (x6 : Vec F S1024 .f32) : out0_9 x0 x1 x2 x4 x5 x6 = k0_pay1 (k0_pay6 x1 x2 x4) (k0_pay7 x0) x5 x6 := by
  unfold out0_9
  rw [View.canon_unit_zero zeros0_2]
  simp only [View.ld_unit_zero (S := S512x1024) zeros0_2, View.ld_unit_zero (S := S512x1) zeros0_2,
    View.ld_unit_zero (S := S128x1024) zeros0_2, View.ld_unit_zero (S := S1024x1024) zeros0_2,
    View.ld_unit_zero (S := S1024) zeros0_1]

/-- The one store into an output buffer covers it: every index lies in the whole rectangle. -/
theorem cover0_o (p0 : Vec F S512x1024 .bf16) (y : S512x1024.Idx) :
    ∃ pc ∈ ([⟨r0_a, p0⟩] : List (View.Piece (Elt F) S512x1024 .bf16)), y ∈ pc.1.set :=
  ⟨_, List.mem_singleton_self _, View.mem_set_unit_zero zeros0_2 inb_S512x1024_S512x1024_0_0 y⟩

/-! ## The body's triple

On whole staging buffers — the seven inputs' at given contents, the three outputs' at anything — the body runs
to a state where the inputs' buffers are as they were and each output's holds `out0_W` of the inputs'
contents. The printed function unfolds to its skeleton of memory operations over named payloads, and the triple
follows by stepping through the skeleton one memory operation at a time, through the part that holds the first
sixty statements; the loads of the output buffers that precede the stores read values nothing uses. What
remains is to hand the buffers to the continuation: an input's by reflexivity, an output's because one covering
store reads back as its canon. -/

set_option maxHeartbeats 1000000 in
theorem sound_kernel0 (c : Dev nD) (E : Set ℕ) (i : grid0.Coords)
    (arg1 : Memref sig .tc .vmem S512x1024 .f32) (harg1 : arg1.IsWhole)
    (arg2 : Memref sig .tc .vmem S512x1 .i32) (harg2 : arg2.IsWhole)
    (arg3 : Memref sig .tc .vmem S128x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .bf16) (harg6 : arg6.IsWhole)
    (arg7 : Memref sig .tc .vmem S1024 .f32) (harg7 : arg7.IsWhole)
    (arg8 : Memref sig .tc .vmem S512x1024 .bf16) (harg8 : arg8.IsWhole)
    (arg9 : Memref sig .tc .vmem S512x1024 .bf16) (harg9 : arg9.IsWhole)
    (arg10 : Memref sig .tc .vmem S512x1024 .bf16) (harg10 : arg10.IsWhole)
    (x0 : Vec F S512x1024 .f32) (x1 : Vec F S512x1 .i32) (x2 : Vec F S128x1024 .bf16) (x3 : Vec F S1024x1024 .bf16) (x4 : Vec F S1024x1024 .bf16) (x5 : Vec F S1024x1024 .bf16) (x6 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x3) ∗ owns (c : Thread nD τ) arg9 fullShare (out0_8 x1 x2 x3) ∗ owns (c : Thread nD τ) arg10 fullShare (out0_9 x0 x1 x2 x4 x5 x6)) -∗ K ⟨⟩))
      ⊢ wp frame (wpE (defs₀ (F := F)) Variants.none c none) E (cc0_proj_kernel i arg1 harg1 arg2 harg2 arg3 harg3 arg4 harg4 arg5 harg5 arg6 harg6 arg7 harg7 arg8 harg8 arg9 harg9 arg10 harg10) K := by
  simp only [cc0_proj_kernel_eq_skeleton]; unfold cc0_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_o _)
  isplitl [H8]
  · iexists _; isplitr
    swap; · iexact H8
    ipureintro
    exact View.read_writes_eq_canon _ _ _ (cover0_o _)
  iexists _; isplitr
  swap; · iexact H9
  ipureintro
  exact View.read_writes_eq_canon _ _ _ (cover0_o _)

/-! ## The region's proof data -/

/-- The proof data of the region on core `c`. The arrays are as the region finds them. After the body at point
    `t` an input's buffer holds its block and an output's holds `out0_W` of the input blocks at `t`. The
    invariant is the one of a body that keeps nothing between points (the scoped rest and the generator register,
    untouched); every share is full and nothing is owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 3 t)
    | ⟨8, _⟩ => out0_8 (iblk0 V c 1 t) (iblk0 V c 2 t) (iblk0 V c 3 t)
    | ⟨9, _⟩ => out0_9 (iblk0 V c 0 t) (iblk0 V c 1 t) (iblk0 V c 2 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window: the definition's case split reduced at each literal window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 3 t) := by dsimp only [dat0]
theorem after0_8 (c : Dev nD) (t : Fin cfg0.N) : (dat0 V c).after 8 t = out0_8 (iblk0 V c 1 t) (iblk0 V c 2 t) (iblk0 V c 3 t) := by dsimp only [dat0]
theorem after0_9 (c : Dev nD) (t : Fin cfg0.N) : (dat0 V c).after 9 t = out0_9 (iblk0 V c 0 t) (iblk0 V c 1 t) (iblk0 V c 2 t) (iblk0 V c 4 t) (iblk0 V c 5 t) (iblk0 V c 6 t) := by dsimp only [dat0]

/-! Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`: the invariant, the core's debts, and each window's current
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns: the same at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point. The inputs' buffers hold their blocks, so the body's triple applies at those blocks;
    the invariant and the debts do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point: its conjunction over the ten windows written out. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.R1Runs.lean ====
import proofs.«404873_j80685255623116_3_alg».proof.Proof.Gen.KernelIdeal.Launch
import proofs.«404873_j80685255623116_3_alg».proof.Proof.Gen.KernelIdeal.Skeleton
import proofs.«404873_j80685255623116_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 (the attention call): what its three control cases share

The grid is 16 × 16: point `t` works on query block `t / 16` and key block `t % 16`. The body has two
guards, both on the key block alone: the first (key block 0) resets the running maximum, the running
normaliser and the accumulator; the second (key block 15) runs the epilogue and stores the output block.
So a point is in exactly one of three cases: A (key block 0), B (key blocks 1 to 14), C (key block 15). -/

/-! ## The two guards, from the grid coordinates -/

/-- The first guard: "the key block is block 0", spelt as the body's scalar chain spells it. -/
abbrev cond1_0 (i : grid1.Coords) : Prop := (Scalar.cmpi .ne (Scalar.extui (Scalar.cmpi .eq (BitVec.ofNat 32 (i 1).val) 0#32)) 0#32) = 1#1
/-- It holds exactly at the points whose key block is 0: decided over the 256 points. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second guard: "the key block is block 15, the last". -/
abbrev cond1_1 (i : grid1.Coords) : Prop := k1_cond2 i = 1#1
/-- It holds exactly at the points whose key block is 15: decided over the 256 points. -/
theorem hcond1_1 : ∀ t : Fin cfg1.N, cond1_1 (grid1.coords t) ↔ t.val % 16 = 15 :=
  (by decide +kernel : ∀ t : Fin grid1.N, cond1_1 (grid1.coords t) ↔ t.val % 16 = 15)

/-- The two guards never hold together (16 key blocks: block 0 is not block 15). -/
theorem cond1_excl : ∀ t : Fin cfg1.N, cond1_0 (grid1.coords t) → ¬cond1_1 (grid1.coords t) :=
  (by decide +kernel : ∀ t : Fin grid1.N, cond1_0 (grid1.coords t) → ¬cond1_1 (grid1.coords t))

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (an input). -/
theorem liveAt1_6 : ∀ t : Fin cfg1.N, cfg1.idle 6 (grid1.coords t) = false := by decide +kernel
/-- Window 7 is never idle (an input). -/
theorem liveAt1_7 : ∀ t : Fin cfg1.N, cfg1.idle 7 (grid1.coords t) = false := by decide +kernel
/-- Window 8 is never idle (an input). -/
theorem liveAt1_8 : ∀ t : Fin cfg1.N, cfg1.idle 8 (grid1.coords t) = false := by decide +kernel
/-- Window 9 is never idle (an input). -/
theorem liveAt1_9 : ∀ t : Fin cfg1.N, cfg1.idle 9 (grid1.coords t) = false := by decide +kernel
/-- Window 10 is never idle (an input). -/
theorem liveAt1_10 : ∀ t : Fin cfg1.N, cfg1.idle 10 (grid1.coords t) = false := by decide +kernel
/-- Window 11 is never idle (an input). -/
theorem liveAt1_11 : ∀ t : Fin cfg1.N, cfg1.idle 11 (grid1.coords t) = false := by decide +kernel
/-- Window 12 is never idle (an input). -/
theorem liveAt1_12 : ∀ t : Fin cfg1.N, cfg1.idle 12 (grid1.coords t) = false := by decide +kernel
/-- Window 13 is never idle (an input). -/
theorem liveAt1_13 : ∀ t : Fin cfg1.N, cfg1.idle 13 (grid1.coords t) = false := by decide +kernel
/-- Window 14 is never idle (an input). -/
theorem liveAt1_14 : ∀ t : Fin cfg1.N, cfg1.idle 14 (grid1.coords t) = false := by decide +kernel
/-- Window 15 is never idle (an input). -/
theorem liveAt1_15 : ∀ t : Fin cfg1.N, cfg1.idle 15 (grid1.coords t) = false := by decide +kernel
/-- Window 16 is never idle (an input). -/
theorem liveAt1_16 : ∀ t : Fin cfg1.N, cfg1.idle 16 (grid1.coords t) = false := by decide +kernel
/-- Window 17 is never idle (an input). -/
theorem liveAt1_17 : ∀ t : Fin cfg1.N, cfg1.idle 17 (grid1.coords t) = false := by decide +kernel
/-- Window 18 is never idle (an input). -/
theorem liveAt1_18 : ∀ t : Fin cfg1.N, cfg1.idle 18 (grid1.coords t) = false := by decide +kernel
/-- In case A the output window is idle: the body stores nothing into it. -/
theorem idleAt1_19_A : ∀ t : Fin cfg1.N, cond1_0 (grid1.coords t) → ¬cond1_1 (grid1.coords t) → cfg1.idle 19 (grid1.coords t) = true := by decide +kernel
/-- In case A the output block is not written back. -/
theorem noFlush1_19_A : ∀ t : Fin cfg1.N, cond1_0 (grid1.coords t) → ¬cond1_1 (grid1.coords t) → (cfg1.win 19).flush t = false := by decide +kernel
/-- In case B the output window is idle: the body stores nothing into it. -/
theorem idleAt1_19_B : ∀ t : Fin cfg1.N, ¬cond1_0 (grid1.coords t) → ¬cond1_1 (grid1.coords t) → cfg1.idle 19 (grid1.coords t) = true := by decide +kernel
/-- In case B the output block is not written back. -/
theorem noFlush1_19_B : ∀ t : Fin cfg1.N, ¬cond1_0 (grid1.coords t) → ¬cond1_1 (grid1.coords t) → (cfg1.win 19).flush t = false := by decide +kernel
/-- In case C the output window is live: the epilogue stores the whole block. -/
theorem liveAt1_19_C : ∀ t : Fin cfg1.N, ¬cond1_0 (grid1.coords t) → cond1_1 (grid1.coords t) → cfg1.idle 19 (grid1.coords t) = false := by decide +kernel
/-- In case C the output block is written back. -/
theorem flush1_19_C : ∀ t : Fin cfg1.N, ¬cond1_0 (grid1.coords t) → cond1_1 (grid1.coords t) → (cfg1.win 19).flush t = true := by decide +kernel

/-! ## The memrefs the body is called on -/

/-- One staging buffer of the output window, through which its contents are stated (which of the two does not
    matter: what is read through a whole view after covering stores is the same). -/
abbrev VO1_19 : View sig .tc .vmem S512x1024 .f32 := (Memref.whole cc1_stg19_0 : Memref sig .tc .vmem S512x1024 .f32).view
/-- Each window's current staging memref at point `t`, and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x512 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S512x1024 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x1024 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1024x1024 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1024 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1024x1024 .bf16 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1024 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1024x1024 .bf16 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S1024 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1024 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S1024 .f32 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S512x1024 .f32 := win1_19.stage (cfg1.slots t 19)
abbrev hs1_19 (t : Fin cfg1.N) : (ms1_19 t).IsWhole := hstage1_19 ((cfg1.slots t 19).cast nbuf1_19)
/-- The three scratch operands, whole buffers of the call's own, passed beside the windows: the accumulator
    (512 × 1024), the running maximum and the running normaliser (512 × 1 each). -/
abbrev scM1_0 : Memref sig .tc .vmem S512x1024 .f32 := Memref.whole cc1_scratch0
abbrev scM1_1 : Memref sig .tc .vmem S512x1 .f32 := Memref.whole cc1_scratch1
abbrev scM1_2 : Memref sig .tc .vmem S512x1 .f32 := Memref.whole cc1_scratch2
/-- The scratch operands as views: what they hold between points is stated through these. -/
abbrev VS1_0 : View sig .tc .vmem S512x1024 .f32 := scM1_0.view
abbrev VS1_1 : View sig .tc .vmem S512x1 .f32 := scM1_1.view
abbrev VS1_2 : View sig .tc .vmem S512x1 .f32 := scM1_2.view

/-- The body at point `t` is the kernel function on the staging memrefs and the three scratch memrefs. -/
theorem bodyAt1_eq (t : Fin cfg1.N) :
    bodyAt1 (F := F) t = cc1_kernel (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) := rfl

/-! ## The invariant between points -/

/-- The invariant the pipeline keeps for the body between points, spelt out: the staging buffers of the
    projection call (not this call's: held at some contents and never touched here), then the three scratch
    memrefs each owned at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg7_1), ((c : Thread nD τ).loc cc0_stg7_1) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_stg8_1), ((c : Thread nD τ).loc cc0_stg8_1) ↦{fullShare} f)
          ∗ (∃ f : Buf (Elt F) ((c : Thread nD τ).loc cc0_stg9_0), ((c : Thread nD τ).loc cc0_stg9_0) ↦{fullShare} f)
          ∗ (∃ f : Buf (Elt F) ((c : Thread nD τ).loc cc0_stg9_1), ((c : Thread nD τ).loc cc0_stg9_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Frm

end
-- ==== Proof.R1RunA.lean ====
import proofs.«404873_j80685255623116_3_alg».proof.Proof.R1Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! Reading through a whole memref is a bijection between what the buffer holds and what the memref reads, so
"the memref is owned at the contents X" and "its buffer is held at the one raw contents that read X" say the same.
The three lemmas below pass between the two forms one operand at a time. -/

/-- A whole memref owned at the contents X it reads is its buffer held at the raw contents that read X. -/
private theorem owns_open (c : Dev nD) {sh : Shape} {e : EltTy} {m : Memref sig .tc .vmem sh e} (h : m.IsWhole) (X : sh.Idx → Elt F e) :
    (owns (c : Thread nD τ) m fullShare X : sProp 𝕄) ⊢ m.view.loc (c : Thread nD τ) ↦[m.view.set]{fullShare} h.unread X := by
  unfold owns; iintro ⟨%f, %hf, H⟩; obtain rfl := h.eq_unread hf; iexact H

/-- And back: the buffer held at the raw contents that read X is the memref owned at X. -/
private theorem owns_close (c : Dev nD) {sh : Shape} {e : EltTy} {m : Memref sig .tc .vmem sh e} (h : m.IsWhole) (X : sh.Idx → Elt F e) :
    (m.view.loc (c : Thread nD τ) ↦[m.view.set]{fullShare} h.unread X : sProp 𝕄) ⊢ owns (c : Thread nD τ) m fullShare X := by
  unfold owns; iintro H; iexists _; isplitr; · ipureintro; exact h.read_unread _
  iexact H

/-- A memref owned at some contents is its buffer held at some raw contents. -/
private theorem owns_any_open (c : Dev nD) {sh : Shape} {e : EltTy} (m : Memref sig .tc .vmem sh e) :
    (iprop(∃ d, owns (c : Thread nD τ) m fullShare d) : sProp 𝕄) ⊢ iprop(∃ f, m.view.loc (c : Thread nD τ) ↦[m.view.set]{fullShare} f) := by
  unfold owns; iintro ⟨%d, %f, -, H⟩; iexists f; iexact H

set_option maxHeartbeats 1000000 in
/-- The attention call's body on any whole memrefs, CASE A: the key block is block 0. The first guard is taken (the running maximum, the running normaliser and
    the accumulator are reset), the second is not (no epilogue). Each scratch buffer is stored whole before anything
    read from it is used, so it is taken at ANY contents; the output block is not touched and is handed back as it came
    (at xi19).
    The inputs are owned at the contents read from them (x0 to x18) and handed back unchanged. What the body's
    stores leave in each buffer it writes is a list of pieces (the last store first): LS0 for the accumulator, LS1 for
    the running maximum, LS2 for the running normaliser, L19 for the output block (empty where it is not written).
    The lists are found by running the body: they are the witness, and the statement is the triple that holds of them.
    Only the query, key and value blocks are read in this case: the other sixteen inputs (and the output block) are never
    opened and go back to the continuation exactly as they came. -/
noncomputable def kernelRun1_A (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) :
    Σ' (L19 : List (View.Piece (Elt F) S512x1024 .f32)) (LS0 : List (View.Piece (Elt F) S512x1024 .f32)) (LS1 : List (View.Piece (Elt F) S512x1 .f32)), { LS2 : List (View.Piece (Elt F) S512x1 .f32) //
      ∀ (xi19 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare xi19 ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare xi19 ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LS1) ∗ (∃ f, arg24.view.loc (c : Thread nD τ) ↦[arg24.view.set]{fullShare} arg24.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨[], ?_, ?_, ?_, fun xi19 E K => ?run⟩
  case run =>
    iintro ⟨H0, H1, H2, H3, H4, H5, H6, H7, H8, H9, H10, H11, H12, H13, H14, H15, H16, H17, H18, H19, HS0, HS1, HS2, Hk⟩
    ihave H0 := (owns_open c harg2 x0) $$ H0
    ihave H1 := (owns_open c harg3 x1) $$ H1
    ihave H2 := (owns_open c harg4 x2) $$ H2
    ihave HS0 := (owns_any_open c arg22) $$ HS0
    icases HS0 with ⟨%fs0, HS0⟩
    ihave HS1 := (owns_any_open c arg23) $$ HS1
    icases HS1 with ⟨%fs1, HS1⟩
    ihave HS2 := (owns_any_open c arg24) $$ HS2
    icases HS2 with ⟨%fs2, HS2⟩
    simp only [cc1_kernel_eq_skeleton]; unfold cc1_kernel_skel
    simp only [k1_part1_eq_skeleton, k1_part2_eq_skeleton, k1_part3_eq_skeleton]
    sl_exec (disch := first | exact hc0 | exact hc1)
    sl_step
    iapply Hk
    isplitl [H0]; · iapply (owns_close c harg2 x0); iexact H0
    isplitl [H1]; · iapply (owns_close c harg3 x1); iexact H1
    isplitl [H2]; · iapply (owns_close c harg4 x2); iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexists _; iexact HS0
    isplitl [HS1]; · iexists _; iexact HS1
    iexists _; iexact HS2

end Cert.KernelIdeal.Frm

end
-- ==== Proof.R1RunB.lean ====
import proofs.«404873_j80685255623116_3_alg».proof.Proof.R1Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! Reading through a whole memref is a bijection between what the buffer holds and what the memref reads, so
"the memref is owned at the contents X" and "its buffer is held at the one raw contents that read X" say the same.
The three lemmas below pass between the two forms one operand at a time. -/

/-- A whole memref owned at the contents X it reads is its buffer held at the raw contents that read X. -/
private theorem owns_open (c : Dev nD) {sh : Shape} {e : EltTy} {m : Memref sig .tc .vmem sh e} (h : m.IsWhole) (X : sh.Idx → Elt F e) :
    (owns (c : Thread nD τ) m fullShare X : sProp 𝕄) ⊢ m.view.loc (c : Thread nD τ) ↦[m.view.set]{fullShare} h.unread X := by
  unfold owns; iintro ⟨%f, %hf, H⟩; obtain rfl := h.eq_unread hf; iexact H

/-- And back: the buffer held at the raw contents that read X is the memref owned at X. -/
private theorem owns_close (c : Dev nD) {sh : Shape} {e : EltTy} {m : Memref sig .tc .vmem sh e} (h : m.IsWhole) (X : sh.Idx → Elt F e) :
    (m.view.loc (c : Thread nD τ) ↦[m.view.set]{fullShare} h.unread X : sProp 𝕄) ⊢ owns (c : Thread nD τ) m fullShare X := by
  unfold owns; iintro H; iexists _; isplitr; · ipureintro; exact h.read_unread _
  iexact H

/-- A memref owned at some contents is its buffer held at some raw contents. -/
private theorem owns_any_open (c : Dev nD) {sh : Shape} {e : EltTy} (m : Memref sig .tc .vmem sh e) :
    (iprop(∃ d, owns (c : Thread nD τ) m fullShare d) : sProp 𝕄) ⊢ iprop(∃ f, m.view.loc (c : Thread nD τ) ↦[m.view.set]{fullShare} f) := by
  unfold owns; iintro ⟨%d, %f, -, H⟩; iexists f; iexact H

set_option maxHeartbeats 1000000 in
/-- The attention call's body on any whole memrefs, CASE B: the key block is one of blocks 1 to 14. Neither guard is taken: the body reads the query, key and value
    blocks and the three scratch buffers as the point before left them (xs0, xs1, xs2), and stores the three
    scratch buffers; the output block is not touched and is handed back as it came (at xi19).
    The inputs are owned at the contents read from them (x0 to x18) and handed back unchanged. What the body's
    stores leave in each buffer it writes is a list of pieces (the last store first): LS0 for the accumulator, LS1 for
    the running maximum, LS2 for the running normaliser, L19 for the output block (empty where it is not written).
    The lists are found by running the body: they are the witness, and the statement is the triple that holds of them.
    Only the query, key and value blocks are read in this case: the other sixteen inputs (and the output block) are never
    opened and go back to the continuation exactly as they came. -/
noncomputable def kernelRun1_B (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) :
    Σ' (L19 : List (View.Piece (Elt F) S512x1024 .f32)) (LS0 : List (View.Piece (Elt F) S512x1024 .f32)) (LS1 : List (View.Piece (Elt F) S512x1 .f32)), { LS2 : List (View.Piece (Elt F) S512x1 .f32) //
      ∀ (xi19 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare xi19 ∗ owns (c : Thread nD τ) arg22 fullShare xs0 ∗ owns (c : Thread nD τ) arg23 fullShare xs1 ∗ owns (c : Thread nD τ) arg24 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare xi19 ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LS1) ∗ (∃ f, arg24.view.loc (c : Thread nD τ) ↦[arg24.view.set]{fullShare} arg24.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨[], ?_, ?_, ?_, fun xi19 E K => ?run⟩
  case run =>
    iintro ⟨H0, H1, H2, H3, H4, H5, H6, H7, H8, H9, H10, H11, H12, H13, H14, H15, H16, H17, H18, H19, HS0, HS1, HS2, Hk⟩
    ihave H0 := (owns_open c harg2 x0) $$ H0
    ihave H1 := (owns_open c harg3 x1) $$ H1
    ihave H2 := (owns_open c harg4 x2) $$ H2
    ihave HS0 := (owns_open c harg22 xs0) $$ HS0
    ihave HS1 := (owns_open c harg23 xs1) $$ HS1
    ihave HS2 := (owns_open c harg24 xs2) $$ HS2
    simp only [cc1_kernel_eq_skeleton]; unfold cc1_kernel_skel
    simp only [k1_part1_eq_skeleton, k1_part2_eq_skeleton, k1_part3_eq_skeleton]
    sl_exec (disch := first | exact hc0 | exact hc1)
    sl_step
    iapply Hk
    isplitl [H0]; · iapply (owns_close c harg2 x0); iexact H0
    isplitl [H1]; · iapply (owns_close c harg3 x1); iexact H1
    isplitl [H2]; · iapply (owns_close c harg4 x2); iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexists _; iexact HS0
    isplitl [HS1]; · iexists _; iexact HS1
    iexists _; iexact HS2

end Cert.KernelIdeal.Frm

end
-- ==== Proof.R1RunC.lean ====
import proofs.«404873_j80685255623116_3_alg».proof.Proof.R1Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! Reading through a whole memref is a bijection between what the buffer holds and what the memref reads, so
"the memref is owned at the contents X" and "its buffer is held at the one raw contents that read X" say the same.
The three lemmas below pass between the two forms one operand at a time. -/

/-- A whole memref owned at the contents X it reads is its buffer held at the raw contents that read X. -/
private theorem owns_open (c : Dev nD) {sh : Shape} {e : EltTy} {m : Memref sig .tc .vmem sh e} (h : m.IsWhole) (X : sh.Idx → Elt F e) :
    (owns (c : Thread nD τ) m fullShare X : sProp 𝕄) ⊢ m.view.loc (c : Thread nD τ) ↦[m.view.set]{fullShare} h.unread X := by
  unfold owns; iintro ⟨%f, %hf, H⟩; obtain rfl := h.eq_unread hf; iexact H

/-- And back: the buffer held at the raw contents that read X is the memref owned at X. -/
private theorem owns_close (c : Dev nD) {sh : Shape} {e : EltTy} {m : Memref sig .tc .vmem sh e} (h : m.IsWhole) (X : sh.Idx → Elt F e) :
    (m.view.loc (c : Thread nD τ) ↦[m.view.set]{fullShare} h.unread X : sProp 𝕄) ⊢ owns (c : Thread nD τ) m fullShare X := by
  unfold owns; iintro H; iexists _; isplitr; · ipureintro; exact h.read_unread _
  iexact H

/-- A memref owned at some contents is its buffer held at some raw contents. -/
private theorem owns_any_open (c : Dev nD) {sh : Shape} {e : EltTy} (m : Memref sig .tc .vmem sh e) :
    (iprop(∃ d, owns (c : Thread nD τ) m fullShare d) : sProp 𝕄) ⊢ iprop(∃ f, m.view.loc (c : Thread nD τ) ↦[m.view.set]{fullShare} f) := by
  unfold owns; iintro ⟨%d, %f, -, H⟩; iexists f; iexact H

set_option maxHeartbeats 1000000 in
/-- The attention call's body on any whole memrefs, CASE C: the key block is block 15, the last. The first guard is not taken, the second is: after the same update of
    the three scratch buffers as in case B (from xs0, xs1, xs2), the epilogue reads the remaining inputs and stores
    the whole output block, which is therefore taken at ANY contents and left with its pieces L19.
    The inputs are owned at the contents read from them (x0 to x18) and handed back unchanged. What the body's
    stores leave in each buffer it writes is a list of pieces (the last store first): LS0 for the accumulator, LS1 for
    the running maximum, LS2 for the running normaliser, L19 for the output block (empty where it is not written).
    The lists are found by running the body: they are the witness, and the statement is the triple that holds of them.
    Every input is read in this case, so every input is opened to its buffer. -/
noncomputable def kernelRun1_C (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) :
    Σ' (L19 : List (View.Piece (Elt F) S512x1024 .f32)) (LS0 : List (View.Piece (Elt F) S512x1024 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ owns (c : Thread nD τ) arg22 fullShare xs0 ∗ owns (c : Thread nD τ) arg23 fullShare xs1 ∗ owns (c : Thread nD τ) arg24 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LS1) ∗ (∃ f, arg24.view.loc (c : Thread nD τ) ↦[arg24.view.set]{fullShare} arg24.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, fun E K => ?run⟩
  case run =>
    iintro ⟨H0, H1, H2, H3, H4, H5, H6, H7, H8, H9, H10, H11, H12, H13, H14, H15, H16, H17, H18, H19, HS0, HS1, HS2, Hk⟩
    ihave H0 := (owns_open c harg2 x0) $$ H0
    ihave H1 := (owns_open c harg3 x1) $$ H1
    ihave H2 := (owns_open c harg4 x2) $$ H2
    ihave H3 := (owns_open c harg5 x3) $$ H3
    ihave H4 := (owns_open c harg6 x4) $$ H4
    ihave H5 := (owns_open c harg7 x5) $$ H5
    ihave H6 := (owns_open c harg8 x6) $$ H6
    ihave H7 := (owns_open c harg9 x7) $$ H7
    ihave H8 := (owns_open c harg10 x8) $$ H8
    ihave H9 := (owns_open c harg11 x9) $$ H9
    ihave H10 := (owns_open c harg12 x10) $$ H10
    ihave H11 := (owns_open c harg13 x11) $$ H11
    ihave H12 := (owns_open c harg14 x12) $$ H12
    ihave H13 := (owns_open c harg15 x13) $$ H13
    ihave H14 := (owns_open c harg16 x14) $$ H14
    ihave H15 := (owns_open c harg17 x15) $$ H15
    ihave H16 := (owns_open c harg18 x16) $$ H16
    ihave H17 := (owns_open c harg19 x17) $$ H17
    ihave H18 := (owns_open c harg20 x18) $$ H18
    ihave H19 := (owns_any_open c arg21) $$ H19
    icases H19 with ⟨%f19, H19⟩
    ihave HS0 := (owns_open c harg22 xs0) $$ HS0
    ihave HS1 := (owns_open c harg23 xs1) $$ HS1
    ihave HS2 := (owns_open c harg24 xs2) $$ HS2
    simp only [cc1_kernel_eq_skeleton]; unfold cc1_kernel_skel
    simp only [k1_part1_eq_skeleton, k1_part2_eq_skeleton, k1_part3_eq_skeleton]
    sl_exec (disch := first | exact hc0 | exact hc1)
    sl_step
    iapply Hk
    isplitl [H0]; · iapply (owns_close c harg2 x0); iexact H0
    isplitl [H1]; · iapply (owns_close c harg3 x1); iexact H1
    isplitl [H2]; · iapply (owns_close c harg4 x2); iexact H2
    isplitl [H3]; · iapply (owns_close c harg5 x3); iexact H3
    isplitl [H4]; · iapply (owns_close c harg6 x4); iexact H4
    isplitl [H5]; · iapply (owns_close c harg7 x5); iexact H5
    isplitl [H6]; · iapply (owns_close c harg8 x6); iexact H6
    isplitl [H7]; · iapply (owns_close c harg9 x7); iexact H7
    isplitl [H8]; · iapply (owns_close c harg10 x8); iexact H8
    isplitl [H9]; · iapply (owns_close c harg11 x9); iexact H9
    isplitl [H10]; · iapply (owns_close c harg12 x10); iexact H10
    isplitl [H11]; · iapply (owns_close c harg13 x11); iexact H11
    isplitl [H12]; · iapply (owns_close c harg14 x12); iexact H12
    isplitl [H13]; · iapply (owns_close c harg15 x13); iexact H13
    isplitl [H14]; · iapply (owns_close c harg16 x14); iexact H14
    isplitl [H15]; · iapply (owns_close c harg17 x15); iexact H15
    isplitl [H16]; · iapply (owns_close c harg18 x16); iexact H16
    isplitl [H17]; · iapply (owns_close c harg19 x17); iexact H17
    isplitl [H18]; · iapply (owns_close c harg20 x18); iexact H18
    isplitl [H19]; · iexists _; iexact H19
    isplitl [HS0]; · iexists _; iexact HS0
    isplitl [HS1]; · iexists _; iexact HS1
    iexists _; iexact HS2

end Cert.KernelIdeal.Frm

end
-- ==== Proof.R1Data.lean ====
import proofs.«404873_j80685255623116_3_alg».proof.Proof.R1RunA
import proofs.«404873_j80685255623116_3_alg».proof.Proof.R1RunB
import proofs.«404873_j80685255623116_3_alg».proof.Proof.R1RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 (the attention call): the pipeline's proof data

The body carries three buffers from one grid point to the next: the accumulator, the running maximum and the running
normaliser of the streaming softmax. The proof data therefore names, point by point, what those three hold after the
body (and what the output block holds where it is stored), and the invariant between points says exactly that. -/

-- the buffer contents of the core when the region is entered: a parameter, which the program's run instantiates
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (unfetched, the block
index has not moved), for ANY proof data whose array is the entry contents and whose body leaves the block in place. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (Pipeline.UD sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (Pipeline.UD sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (Pipeline.UD sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (Pipeline.UD sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (Pipeline.UD sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (Pipeline.UD sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (Pipeline.UD sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (Pipeline.UD sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (Pipeline.UD sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
theorem before1_17_of {c : Dev nD} (dat : Dat τ (Elt F) Unit ℕ (Pipeline.UD sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
theorem before1_18_of {c : Dev nD} (dat : Dat τ (Elt F) Unit ℕ (Pipeline.UD sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves, on any memrefs

Each case's run found, for every buffer the body stores into, the list of pieces its stores leave. The pieces of a buffer
tile it (each case stores every scratch buffer whole, and case C the output block whole), so what the buffer then reads is
the pieces read back over arbitrary prior contents: it does not depend on what the buffer held before. -/

/-- Case A (key block 0): the pieces found for the accumulator cover it. -/
theorem scover1_A_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (y : S512x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.1 S512x1024.size (by sl_kernel_rfl) y

/-- Case A (key block 0): what the accumulator holds after the body, its pieces read back. -/
def sout1_A_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) : Vec F S512x1024 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.1)

/-- Case A (key block 0): the pieces found for the running maximum cover it. -/
theorem scover1_A_1 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (y : S512x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.2.1 S512x1.size (by sl_kernel_rfl) y

/-- Case A (key block 0): what the running maximum holds after the body, its pieces read back. -/
def sout1_A_1 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) : Vec F S512x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.2.1)

/-- Case A (key block 0): the pieces found for the running normaliser cover it. -/
theorem scover1_A_2 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (y : S512x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.2.2.1 S512x1.size (by sl_kernel_rfl) y

/-- Case A (key block 0): what the running normaliser holds after the body, its pieces read back. -/
def sout1_A_2 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) : Vec F S512x1 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.2.2.1)

/-- Case B (key blocks 1 to 14): the pieces found for the accumulator cover it. -/
theorem scover1_B_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) (y : S512x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.1 S512x1024.size (by sl_kernel_rfl) y

/-- Case B (key blocks 1 to 14): what the accumulator holds after the body, its pieces read back. -/
def sout1_B_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) : Vec F S512x1024 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.1)

/-- Case B (key blocks 1 to 14): the pieces found for the running maximum cover it. -/
theorem scover1_B_1 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) (y : S512x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.1 S512x1.size (by sl_kernel_rfl) y

/-- Case B (key blocks 1 to 14): what the running maximum holds after the body, its pieces read back. -/
def sout1_B_1 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.1)

/-- Case B (key blocks 1 to 14): the pieces found for the running normaliser cover it. -/
theorem scover1_B_2 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) (y : S512x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.2.1 S512x1.size (by sl_kernel_rfl) y

/-- Case B (key blocks 1 to 14): what the running normaliser holds after the body, its pieces read back. -/
def sout1_B_2 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) : Vec F S512x1 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.2.1)

/-- Case C (key block 15): the pieces found for the accumulator cover it. -/
theorem scover1_C_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.1 S512x1024.size (by sl_kernel_rfl) y

/-- Case C (key block 15): what the accumulator holds after the body, its pieces read back. -/
def sout1_C_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) : Vec F S512x1024 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.1)

/-- Case C (key block 15): the pieces found for the running maximum cover it. -/
theorem scover1_C_1 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) (y : S512x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.1 S512x1.size (by sl_kernel_rfl) y

/-- Case C (key block 15): what the running maximum holds after the body, its pieces read back. -/
def sout1_C_1 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.1)

/-- Case C (key block 15): the pieces found for the running normaliser cover it. -/
theorem scover1_C_2 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) (y : S512x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.2.1 S512x1.size (by sl_kernel_rfl) y

/-- Case C (key block 15): what the running normaliser holds after the body, its pieces read back. -/
def sout1_C_2 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) : Vec F S512x1 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.2.1)

/-- Case C: the pieces found for the output block cover it (the epilogue stores the whole block). -/
theorem cover1_C_19 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).1 S512x1024.size (by sl_kernel_rfl) y

/-- Case C: what the output block's staging buffer holds after the body, its pieces read back. -/
def out1_C_19 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) : Vec F S512x1024 .f32 :=
  VO1_19.read (Elt F) (VO1_19.writes (Elt F) VO1_19.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).1)

/-- Where the body stores nothing into the output block (cases A and B) the window is idle and is not written back:
    a placeholder stands for its contents there, which nothing consults. -/
def out1_idle : Vec F S512x1024 .f32 := VO1_19.read (Elt F) (VO1_19.writes (Elt F) VO1_19.junk [])

/-! ## The same at a grid point

At point t the body is called on the windows' current staging memrefs and the three scratch memrefs, the inputs at their
blocks. Each case's four contents there (output block, accumulator, running maximum, running normaliser), as one tuple. -/

/-- Case A at point t: nothing of the point before is read. -/
def outs1_A (c : Dev nD) (t : Fin cfg1.N) (hc0 : cond1_0 (grid1.coords t)) (hc1 : ¬cond1_1 (grid1.coords t)) : Vec F S512x1024 .f32 × Vec F S512x1024 .f32 × Vec F S512x1 .f32 × Vec F S512x1 .f32 :=
  (out1_idle (F := F), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t),
    sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t),
    sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t))

/-- Case B at point t, over what the point before left in the three scratch buffers. -/
def outs1_B (c : Dev nD) (t : Fin cfg1.N) (hc0 : ¬cond1_0 (grid1.coords t)) (hc1 : ¬cond1_1 (grid1.coords t)) (xs0 : Vec F S512x1024 .f32) (xs1 : Vec F S512x1 .f32) (xs2 : Vec F S512x1 .f32) : Vec F S512x1024 .f32 × Vec F S512x1024 .f32 × Vec F S512x1 .f32 × Vec F S512x1 .f32 :=
  (out1_idle (F := F), sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) xs0 xs1 xs2,
    sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) xs0 xs1 xs2,
    sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) xs0 xs1 xs2)

/-- Case C at point t, over what the point before left in the three scratch buffers. -/
def outs1_C (c : Dev nD) (t : Fin cfg1.N) (hc0 : ¬cond1_0 (grid1.coords t)) (hc1 : cond1_1 (grid1.coords t)) (xs0 : Vec F S512x1024 .f32) (xs1 : Vec F S512x1 .f32) (xs2 : Vec F S512x1 .f32) : Vec F S512x1024 .f32 × Vec F S512x1024 .f32 × Vec F S512x1 .f32 × Vec F S512x1 .f32 :=
  (out1_C_19 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) xs0 xs1 xs2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) xs0 xs1 xs2,
    sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) xs0 xs1 xs2,
    sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) xs0 xs1 xs2)

/-! ## What the buffers hold after each point -/

/-- THE ACCUMULATION. After the body at position n: the output block's staging buffer, then the accumulator, the running
    maximum and the running normaliser. The point's key block (n mod 16) selects the case; cases B and C run over what
    position n - 1 left in the three scratch buffers, case A over nothing (it resets them). -/
def outsAt1 (c : Dev nD) : (n : ℕ) → n < cfg1.N → Vec F S512x1024 .f32 × Vec F S512x1024 .f32 × Vec F S512x1 .f32 × Vec F S512x1 .f32
  | 0, hn => outs1_A V c ⟨0, hn⟩ ((hcond1_0 ⟨0, hn⟩).mpr (Nat.zero_mod _)) (cond1_excl ⟨0, hn⟩ ((hcond1_0 ⟨0, hn⟩).mpr (Nat.zero_mod _)))
  | n + 1, hn =>
    if h0 : (n + 1) % 16 = 0 then
      outs1_A V c ⟨n + 1, hn⟩ ((hcond1_0 ⟨n + 1, hn⟩).mpr h0) (cond1_excl ⟨n + 1, hn⟩ ((hcond1_0 ⟨n + 1, hn⟩).mpr h0))
    else if h1 : (n + 1) % 16 = 15 then
      outs1_C V c ⟨n + 1, hn⟩ (fun h => cond1_excl ⟨n + 1, hn⟩ h ((hcond1_1 ⟨n + 1, hn⟩).mpr h1)) ((hcond1_1 ⟨n + 1, hn⟩).mpr h1)
        (outsAt1 c n (Nat.lt_of_succ_lt hn)).2.1 (outsAt1 c n (Nat.lt_of_succ_lt hn)).2.2.1 (outsAt1 c n (Nat.lt_of_succ_lt hn)).2.2.2
    else
      outs1_B V c ⟨n + 1, hn⟩ (fun h => h0 ((hcond1_0 ⟨n + 1, hn⟩).mp h)) (fun h => h1 ((hcond1_1 ⟨n + 1, hn⟩).mp h))
        (outsAt1 c n (Nat.lt_of_succ_lt hn)).2.1 (outsAt1 c n (Nat.lt_of_succ_lt hn)).2.2.1 (outsAt1 c n (Nat.lt_of_succ_lt hn)).2.2.2

/-- At a point of case A (key block 0): that case's contents. -/
theorem outsAt1_A (c : Dev nD) (t : Fin cfg1.N) (h0 : t.val % 16 = 0) :
    outsAt1 V c t.val t.isLt = outs1_A V c t ((hcond1_0 t).mpr h0) (cond1_excl t ((hcond1_0 t).mpr h0)) := by
  obtain ⟨n, hn⟩ := t
  cases n with
  | zero => rfl
  | succ n => exact dif_pos h0

/-- At a point of case B (key blocks 1 to 14): that case's contents, over what the point before left. -/
theorem outsAt1_B (c : Dev nD) (t : Fin cfg1.N) (h0 : ¬t.val % 16 = 0) (h1 : ¬t.val % 16 = 15) :
    outsAt1 V c t.val t.isLt = outs1_B V c t (fun h => h0 ((hcond1_0 t).mp h)) (fun h => h1 ((hcond1_1 t).mp h))
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

/-- At a point of case C (key block 15): that case's contents, over what the point before left. -/
theorem outsAt1_C (c : Dev nD) (t : Fin cfg1.N) (h1 : t.val % 16 = 15) :
    outsAt1 V c t.val t.isLt = outs1_C V c t (fun h => cond1_excl t h ((hcond1_1 t).mpr h1)) ((hcond1_1 t).mpr h1)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (show (0 : ℕ) % 16 = 15 from h1) (by decide)
  | succ n =>
    have h0 : ¬(n + 1) % 16 = 0 := fun h => by have h1' : (n + 1) % 16 = 15 := h1; omega
    exact (dif_neg h0).trans ((dif_pos h1).trans rfl)

/-! ## The invariant between points -/

/-- The region's invariant before position n. Before the first point it is what the launch hands the region (every
    scratch buffer at anything). Afterwards: the projection call's staging buffers at anything (never touched here), the
    three scratch buffers at what the point before left in them, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg7_1), ((c : Thread nD τ).loc cc0_stg7_1) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_stg8_1), ((c : Thread nD τ).loc cc0_stg8_1) ↦{fullShare} f)
          ∗ (∃ f : Buf (Elt F) ((c : Thread nD τ).loc cc0_stg9_0), ((c : Thread nD τ).loc cc0_stg9_0) ↦{fullShare} f)
          ∗ (∃ f : Buf (Elt F) ((c : Thread nD τ).loc cc0_stg9_1), ((c : Thread nD τ).loc cc0_stg9_1) ↦{fullShare} f)
          ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the three scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg7_1), ((c : Thread nD τ).loc cc0_stg7_1) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_stg8_1), ((c : Thread nD τ).loc cc0_stg8_1) ↦{fullShare} f)
          ∗ (∃ f : Buf (Elt F) ((c : Thread nD τ).loc cc0_stg9_0), ((c : Thread nD τ).loc cc0_stg9_0) ↦{fullShare} f)
          ∗ (∃ f : Buf (Elt F) ((c : Thread nD τ).loc cc0_stg9_1), ((c : Thread nD τ).loc cc0_stg9_1) ↦{fullShare} f)
          ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

/-- Before a point that is not the first: the three scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg7_1), ((c : Thread nD τ).loc cc0_stg7_1) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_stg8_1), ((c : Thread nD τ).loc cc0_stg8_1) ↦{fullShare} f)
          ∗ (∃ f : Buf (Elt F) ((c : Thread nD τ).loc cc0_stg9_0), ((c : Thread nD τ).loc cc0_stg9_0) ↦{fullShare} f)
          ∗ (∃ f : Buf (Elt F) ((c : Thread nD τ).loc cc0_stg9_1), ((c : Thread nD τ).loc cc0_stg9_1) ↦{fullShare} f)
          ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The proof data -/

/-- The proof data of the attention call's pipeline on core c: the arrays as the region finds them; after the body at
    point t each input's buffer at its block (the body leaves the inputs in place) and the output's at the accumulation's
    first component; the invariant above; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => (outsAt1 V c t.val t.isLt).1
    | ⟨_ + 20, h⟩ => absurd h (Nat.not_lt.2 (Nat.le_add_left _ _))
  Φ t := PhiS1 V c t.val (Nat.le_of_lt_succ t.isLt)
  q _ := fullShare
  owed _ := 0

/-- The proof data's arrays are the region-entry contents (the definition projected; the entry contents are never unfolded). -/
theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d

end Cert.KernelIdeal.Frm

end
-- ==== Proof.R1Body.lean ====
import proofs.«404873_j80685255623116_3_alg».proof.Proof.R1Data

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 (the attention call): the body obligation

At every grid point the body, called on the windows' current staging memrefs and the three scratch memrefs, takes the
invariant before the point and the inputs at their blocks to the invariant after the point and every window's buffer at
what the proof data says the body leaves. The point's key block selects one of three cases, each discharged by that
case's whole-body run. -/

variable (V : (c : Dev nD) → (b : Ref sig .tc) → Buf (Elt F) ((c : Thread nD τ).loc b))

/-! ## The obligation's conjuncts, one by one -/

/-- An input window is never idle: after the body its buffer is owned at its block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1_5 t, after1_5]
theorem leaves1_6 (c : Dev nD) (t : Fin cfg1.N) : (dat1 V c).leavesExact 6 t = owns (c : Thread nD τ) (ms1_6 t) fullShare (iblk1 V c 6 t) := by
  unfold Dat.leavesExact; rw [liveAt1_6 t, after1_6]
theorem leaves1_7 (c : Dev nD) (t : Fin cfg1.N) : (dat1 V c).leavesExact 7 t = owns (c : Thread nD τ) (ms1_7 t) fullShare (iblk1 V c 7 t) := by
  unfold Dat.leavesExact; rw [liveAt1_7 t, after1_7]
theorem leaves1_8 (c : Dev nD) (t : Fin cfg1.N) : (dat1 V c).leavesExact 8 t = owns (c : Thread nD τ) (ms1_8 t) fullShare (iblk1 V c 8 t) := by
  unfold Dat.leavesExact; rw [liveAt1_8 t, after1_8]
theorem leaves1_9 (c : Dev nD) (t : Fin cfg1.N) : (dat1 V c).leavesExact 9 t = owns (c : Thread nD τ) (ms1_9 t) fullShare (iblk1 V c 9 t) := by
  unfold Dat.leavesExact; rw [liveAt1_9 t, after1_9]
theorem leaves1_10 (c : Dev nD) (t : Fin cfg1.N) : (dat1 V c).leavesExact 10 t = owns (c : Thread nD τ) (ms1_10 t) fullShare (iblk1 V c 10 t) := by
  unfold Dat.leavesExact; rw [liveAt1_10 t, after1_10]
theorem leaves1_11 (c : Dev nD) (t : Fin cfg1.N) : (dat1 V c).leavesExact 11 t = owns (c : Thread nD τ) (ms1_11 t) fullShare (iblk1 V c 11 t) := by
  unfold Dat.leavesExact; rw [liveAt1_11 t, after1_11]
theorem leaves1_12 (c : Dev nD) (t : Fin cfg1.N) : (dat1 V c).leavesExact 12 t = owns (c : Thread nD τ) (ms1_12 t) fullShare (iblk1 V c 12 t) := by
  unfold Dat.leavesExact; rw [liveAt1_12 t, after1_12]
theorem leaves1_13 (c : Dev nD) (t : Fin cfg1.N) : (dat1 V c).leavesExact 13 t = owns (c : Thread nD τ) (ms1_13 t) fullShare (iblk1 V c 13 t) := by
  unfold Dat.leavesExact; rw [liveAt1_13 t, after1_13]
theorem leaves1_14 (c : Dev nD) (t : Fin cfg1.N) : (dat1 V c).leavesExact 14 t = owns (c : Thread nD τ) (ms1_14 t) fullShare (iblk1 V c 14 t) := by
  unfold Dat.leavesExact; rw [liveAt1_14 t, after1_14]
theorem leaves1_15 (c : Dev nD) (t : Fin cfg1.N) : (dat1 V c).leavesExact 15 t = owns (c : Thread nD τ) (ms1_15 t) fullShare (iblk1 V c 15 t) := by
  unfold Dat.leavesExact; rw [liveAt1_15 t, after1_15]
theorem leaves1_16 (c : Dev nD) (t : Fin cfg1.N) : (dat1 V c).leavesExact 16 t = owns (c : Thread nD τ) (ms1_16 t) fullShare (iblk1 V c 16 t) := by
  unfold Dat.leavesExact; rw [liveAt1_16 t, after1_16]
theorem leaves1_17 (c : Dev nD) (t : Fin cfg1.N) : (dat1 V c).leavesExact 17 t = owns (c : Thread nD τ) (ms1_17 t) fullShare (iblk1 V c 17 t) := by
  unfold Dat.leavesExact; rw [liveAt1_17 t, after1_17]
theorem leaves1_18 (c : Dev nD) (t : Fin cfg1.N) : (dat1 V c).leavesExact 18 t = owns (c : Thread nD τ) (ms1_18 t) fullShare (iblk1 V c 18 t) := by
  unfold Dat.leavesExact; rw [liveAt1_18 t, after1_18]
/-- In case C the output window is live: after the body its buffer is owned at the accumulation's output component. -/
theorem leaves1_19_C (c : Dev nD) (t : Fin cfg1.N) (hc0 : ¬cond1_0 (grid1.coords t)) (hc1 : cond1_1 (grid1.coords t)) :
    (dat1 V c).leavesExact 19 t = owns (c : Thread nD τ) (ms1_19 t) fullShare (outsAt1 V c t.val t.isLt).1 := by
  unfold Dat.leavesExact; rw [liveAt1_19_C t hc0 hc1, after1_19]

/-- The core owes nothing before or after any point. -/
theorem owes1_succ (c : Dev nD) (t : Fin cfg1.N) : (dat1 V c).owesAt () t.succ = (dat1 V c).owesAt () t.castSucc := rfl

/-- The invariant after point t: the three scratch buffers at that point's contents. -/
theorem PhiOut1 (c : Dev nD) (t : Fin cfg1.N) :
    (dat1 V c).Φ t.succ = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg7_1), ((c : Thread nD τ).loc cc0_stg7_1) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_stg8_1), ((c : Thread nD τ).loc cc0_stg8_1) ↦{fullShare} f)
          ∗ (∃ f : Buf (Elt F) ((c : Thread nD τ).loc cc0_stg9_0), ((c : Thread nD τ).loc cc0_stg9_0) ↦{fullShare} f)
          ∗ (∃ f : Buf (Elt F) ((c : Thread nD τ).loc cc0_stg9_1), ((c : Thread nD τ).loc cc0_stg9_1) ↦{fullShare} f)
          ∗ owns (c : Thread nD τ) scM1_0 fullShare (outsAt1 V c t.val t.isLt).2.1 ∗ owns (c : Thread nD τ) scM1_1 fullShare (outsAt1 V c t.val t.isLt).2.2.1 ∗ owns (c : Thread nD τ) scM1_2 fullShare (outsAt1 V c t.val t.isLt).2.2.2) ∗ (∃ r, prngReg c r)) := by
  rw [show (dat1 V c).Φ t.succ = PhiS1 V c (t.val + 1) t.isLt from rfl, PhiS1_succ]

/-- The invariant before the grid's first point: what the launch hands the region. -/
theorem PhiIn1_zero (c : Dev nD) (t : Fin cfg1.N) (hz : t.val = 0) :
    (dat1 V c).Φ t.castSucc = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg7_1), ((c : Thread nD τ).loc cc0_stg7_1) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_stg8_1), ((c : Thread nD τ).loc cc0_stg8_1) ↦{fullShare} f)
          ∗ (∃ f : Buf (Elt F) ((c : Thread nD τ).loc cc0_stg9_0), ((c : Thread nD τ).loc cc0_stg9_0) ↦{fullShare} f)
          ∗ (∃ f : Buf (Elt F) ((c : Thread nD τ).loc cc0_stg9_1), ((c : Thread nD τ).loc cc0_stg9_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  rw [PhiS1_castSucc V c t, PhiS1_zero V c _ _ hz, PhiA1_eq]

/-- The invariant before a later point: the three scratch buffers at what the point before left. -/
theorem PhiIn1_pos (c : Dev nD) (t : Fin cfg1.N) (hz : t.val ≠ 0) :
    (dat1 V c).Φ t.castSucc = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg7_1), ((c : Thread nD τ).loc cc0_stg7_1) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_stg8_1), ((c : Thread nD τ).loc cc0_stg8_1) ↦{fullShare} f)
          ∗ (∃ f : Buf (Elt F) ((c : Thread nD τ).loc cc0_stg9_0), ((c : Thread nD τ).loc cc0_stg9_0) ↦{fullShare} f)
          ∗ (∃ f : Buf (Elt F) ((c : Thread nD τ).loc cc0_stg9_1), ((c : Thread nD τ).loc cc0_stg9_1) ↦{fullShare} f)
          ∗ owns (c : Thread nD τ) scM1_0 fullShare (outsAt1 V c (t.val - 1) (Nat.lt_of_le_of_lt (Nat.sub_le _ _) t.isLt)).2.1 ∗ owns (c : Thread nD τ) scM1_1 fullShare (outsAt1 V c (t.val - 1) (Nat.lt_of_le_of_lt (Nat.sub_le _ _) t.isLt)).2.2.1 ∗ owns (c : Thread nD τ) scM1_2 fullShare (outsAt1 V c (t.val - 1) (Nat.lt_of_le_of_lt (Nat.sub_le _ _) t.isLt)).2.2.2) ∗ (∃ r, prngReg c r)) := by
  rw [PhiS1_castSucc V c t, PhiS1_pos V c _ _ hz]

/-! ## The obligation at a generic point -/

/-- What the body is called with at point t: the invariant, what the core owes, and every window's current staging buffer
    at what it holds before the body. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t
    ∗ (dat1 V c).leavesExact 16 t
    ∗ (dat1 V c).leavesExact 17 t
    ∗ (dat1 V c).leavesExact 18 t
    ∗ (dat1 V c).leavesExact 19 t)

set_option maxHeartbeats 16000000 in
/-- The body at a point of CASE A, the key block is block 0. The body resets the three scratch buffers before it reads them, so it takes them at
    anything: at the grid's first point that is what the launch hands the region, at a later point (a new query block) the
    contents the point before left are simply forgotten.
    The inputs' memrefs hold their blocks; the case's run applies; the invariant takes the three scratch buffers back at this
    point's contents (the pieces the run found cover each buffer, so what it reads is the pieces read back). -/
theorem sound_body1_A (c : Dev nD) (t : Fin cfg1.N) (h0 : t.val % 16 = 0) :
    bodyPre1 V c t ⊢ wp frame (wpE (defs₀ (F := F)) Variants.none c none) Set.univ (bodyAt1 t) (fun _ => bodyPost1 V c t) := by
  have hc0 : cond1_0 (grid1.coords t) := (hcond1_0 t).mpr h0
  have hc1 : ¬cond1_1 (grid1.coords t) := cond1_excl t ((hcond1_0 t).mpr h0)
  unfold bodyPre1 bodyPost1 bodyAt1
  simp only [before1_0 V c t, before1_1 V c t, before1_2 V c t, before1_3 V c t, before1_4 V c t, before1_5 V c t, before1_6 V c t, before1_7 V c t, before1_8 V c t, before1_9 V c t, before1_10 V c t, before1_11 V c t, before1_12 V c t, before1_13 V c t, before1_14 V c t, before1_15 V c t, before1_16 V c t, before1_17 V c t, before1_18 V c t]
  by_cases hz : t.val = 0
  · rw [PhiIn1_zero V c t hz]
    iintro ⟨⟨⟨G0, G1, G2, G3, G4, G5, G6, G7, G8, G9, G10, G11, G12, G13, G14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, ⟨%es0, HS0⟩, ⟨%es1, HS1⟩, ⟨%es2, HS2⟩⟩
    isplitl [G0 G1 G2 G3 G4 G5 G6 G7 G8 G9 G10 G11 G12 G13 G14 HS0 HS1 HS2 Hg]
    · rw [PhiOut1 V c t]
      isplitl [G0 G1 G2 G3 G4 G5 G6 G7 G8 G9 G10 G11 G12 G13 G14 HS0 HS1 HS2]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [G11]; · iexact G11
        isplitl [G12]; · iexact G12
        isplitl [G13]; · iexact G13
        isplitl [G14]; · iexact G14
        isplitl [HS0]
        · unfold owns; iexists _; isplitr
          swap; · iexact HS0
          ipureintro; rw [outsAt1_A V c t h0]; unfold outs1_A sout1_A_0; dsimp only
          exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t))
        isplitl [HS1]
        · unfold owns; iexists _; isplitr
          swap; · iexact HS1
          ipureintro; rw [outsAt1_A V c t h0]; unfold outs1_A sout1_A_1; dsimp only
          exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t))
        unfold owns; iexists _; isplitr
        swap; · iexact HS2
        ipureintro; rw [outsAt1_A V c t h0]; unfold outs1_A sout1_A_2; dsimp only
        exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t))
      iexact Hg
    isplitl [Ho]; · rw [owes1_succ V c t]; iexact Ho
    isplitl [H0]; · rw [leaves1_0 V c t]; iexact H0
    isplitl [H1]; · rw [leaves1_1 V c t]; iexact H1
    isplitl [H2]; · rw [leaves1_2 V c t]; iexact H2
    isplitl [H3]; · rw [leaves1_3 V c t]; iexact H3
    isplitl [H4]; · rw [leaves1_4 V c t]; iexact H4
    isplitl [H5]; · rw [leaves1_5 V c t]; iexact H5
    isplitl [H6]; · rw [leaves1_6 V c t]; iexact H6
    isplitl [H7]; · rw [leaves1_7 V c t]; iexact H7
    isplitl [H8]; · rw [leaves1_8 V c t]; iexact H8
    isplitl [H9]; · rw [leaves1_9 V c t]; iexact H9
    isplitl [H10]; · rw [leaves1_10 V c t]; iexact H10
    isplitl [H11]; · rw [leaves1_11 V c t]; iexact H11
    isplitl [H12]; · rw [leaves1_12 V c t]; iexact H12
    isplitl [H13]; · rw [leaves1_13 V c t]; iexact H13
    isplitl [H14]; · rw [leaves1_14 V c t]; iexact H14
    isplitl [H15]; · rw [leaves1_15 V c t]; iexact H15
    isplitl [H16]; · rw [leaves1_16 V c t]; iexact H16
    isplitl [H17]; · rw [leaves1_17 V c t]; iexact H17
    isplitl [H18]; · rw [leaves1_18 V c t]; iexact H18
    rw [Dat.leavesExact_idle (dat1 V c) 19 t (idleAt1_19_A t hc0 hc1) (noFlush1_19_A t hc0 hc1)]
    iexists _; iexact H19
  · rw [PhiIn1_pos V c t hz]
    iintro ⟨⟨⟨G0, G1, G2, G3, G4, G5, G6, G7, G8, G9, G10, G11, G12, G13, G14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexists _; iexact HS0
    isplitl [HS1]; · iexists _; iexact HS1
    isplitl [HS2]; · iexists _; iexact HS2
    iintro ⟨H0, H1, H2, H3, H4, H5, H6, H7, H8, H9, H10, H11, H12, H13, H14, H15, H16, H17, H18, H19, ⟨%es0, HS0⟩, ⟨%es1, HS1⟩, ⟨%es2, HS2⟩⟩
    isplitl [G0 G1 G2 G3 G4 G5 G6 G7 G8 G9 G10 G11 G12 G13 G14 HS0 HS1 HS2 Hg]
    · rw [PhiOut1 V c t]
      isplitl [G0 G1 G2 G3 G4 G5 G6 G7 G8 G9 G10 G11 G12 G13 G14 HS0 HS1 HS2]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [G11]; · iexact G11
        isplitl [G12]; · iexact G12
        isplitl [G13]; · iexact G13
        isplitl [G14]; · iexact G14
        isplitl [HS0]
        · unfold owns; iexists _; isplitr
          swap; · iexact HS0
          ipureintro; rw [outsAt1_A V c t h0]; unfold outs1_A sout1_A_0; dsimp only
          exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t))
        isplitl [HS1]
        · unfold owns; iexists _; isplitr
          swap; · iexact HS1
          ipureintro; rw [outsAt1_A V c t h0]; unfold outs1_A sout1_A_1; dsimp only
          exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t))
        unfold owns; iexists _; isplitr
        swap; · iexact HS2
        ipureintro; rw [outsAt1_A V c t h0]; unfold outs1_A sout1_A_2; dsimp only
        exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t))
      iexact Hg
    isplitl [Ho]; · rw [owes1_succ V c t]; iexact Ho
    isplitl [H0]; · rw [leaves1_0 V c t]; iexact H0
    isplitl [H1]; · rw [leaves1_1 V c t]; iexact H1
    isplitl [H2]; · rw [leaves1_2 V c t]; iexact H2
    isplitl [H3]; · rw [leaves1_3 V c t]; iexact H3
    isplitl [H4]; · rw [leaves1_4 V c t]; iexact H4
    isplitl [H5]; · rw [leaves1_5 V c t]; iexact H5
    isplitl [H6]; · rw [leaves1_6 V c t]; iexact H6
    isplitl [H7]; · rw [leaves1_7 V c t]; iexact H7
    isplitl [H8]; · rw [leaves1_8 V c t]; iexact H8
    isplitl [H9]; · rw [leaves1_9 V c t]; iexact H9
    isplitl [H10]; · rw [leaves1_10 V c t]; iexact H10
    isplitl [H11]; · rw [leaves1_11 V c t]; iexact H11
    isplitl [H12]; · rw [leaves1_12 V c t]; iexact H12
    isplitl [H13]; · rw [leaves1_13 V c t]; iexact H13
    isplitl [H14]; · rw [leaves1_14 V c t]; iexact H14
    isplitl [H15]; · rw [leaves1_15 V c t]; iexact H15
    isplitl [H16]; · rw [leaves1_16 V c t]; iexact H16
    isplitl [H17]; · rw [leaves1_17 V c t]; iexact H17
    isplitl [H18]; · rw [leaves1_18 V c t]; iexact H18
    rw [Dat.leavesExact_idle (dat1 V c) 19 t (idleAt1_19_A t hc0 hc1) (noFlush1_19_A t hc0 hc1)]
    iexists _; iexact H19

set_option maxHeartbeats 16000000 in
/-- The body at a point of CASE B, the key block is one of blocks 1 to 14. The three scratch buffers come in at what the point before left; the output
    block is idle and is handed back as it came.
    The inputs' memrefs hold their blocks; the case's run applies; the invariant takes the three scratch buffers back at this
    point's contents (the pieces the run found cover each buffer, so what it reads is the pieces read back). -/
theorem sound_body1_B (c : Dev nD) (t : Fin cfg1.N) (h0 : ¬t.val % 16 = 0) (h1 : ¬t.val % 16 = 15) :
    bodyPre1 V c t ⊢ wp frame (wpE (defs₀ (F := F)) Variants.none c none) Set.univ (bodyAt1 t) (fun _ => bodyPost1 V c t) := by
  have hc0 : ¬cond1_0 (grid1.coords t) := fun h => h0 ((hcond1_0 t).mp h)
  have hc1 : ¬cond1_1 (grid1.coords t) := fun h => h1 ((hcond1_1 t).mp h)
  unfold bodyPre1 bodyPost1 bodyAt1
  simp only [before1_0 V c t, before1_1 V c t, before1_2 V c t, before1_3 V c t, before1_4 V c t, before1_5 V c t, before1_6 V c t, before1_7 V c t, before1_8 V c t, before1_9 V c t, before1_10 V c t, before1_11 V c t, before1_12 V c t, before1_13 V c t, before1_14 V c t, before1_15 V c t, before1_16 V c t, before1_17 V c t, before1_18 V c t]
  have hz : t.val ≠ 0 := fun h => by rw [h] at h0; exact h0 (Nat.zero_mod _)
  rw [PhiIn1_pos V c t hz]
  iintro ⟨⟨⟨G0, G1, G2, G3, G4, G5, G6, G7, G8, G9, G10, G11, G12, G13, G14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, ⟨%es0, HS0⟩, ⟨%es1, HS1⟩, ⟨%es2, HS2⟩⟩
  isplitl [G0 G1 G2 G3 G4 G5 G6 G7 G8 G9 G10 G11 G12 G13 G14 HS0 HS1 HS2 Hg]
  · rw [PhiOut1 V c t]
    isplitl [G0 G1 G2 G3 G4 G5 G6 G7 G8 G9 G10 G11 G12 G13 G14 HS0 HS1 HS2]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      isplitl [G12]; · iexact G12
      isplitl [G13]; · iexact G13
      isplitl [G14]; · iexact G14
      isplitl [HS0]
      · unfold owns; iexists _; isplitr
        swap; · iexact HS0
        ipureintro; rw [outsAt1_B V c t h0 h1]; unfold outs1_B sout1_B_0; dsimp only
        exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      isplitl [HS1]
      · unfold owns; iexists _; isplitr
        swap; · iexact HS1
        ipureintro; rw [outsAt1_B V c t h0 h1]; unfold outs1_B sout1_B_1; dsimp only
        exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      unfold owns; iexists _; isplitr
      swap; · iexact HS2
      ipureintro; rw [outsAt1_B V c t h0 h1]; unfold outs1_B sout1_B_2; dsimp only
      exact View.read_writes_of_cover _ _ _ _ _ (scover1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
    iexact Hg
  isplitl [Ho]; · rw [owes1_succ V c t]; iexact Ho
  isplitl [H0]; · rw [leaves1_0 V c t]; iexact H0
  isplitl [H1]; · rw [leaves1_1 V c t]; iexact H1
  isplitl [H2]; · rw [leaves1_2 V c t]; iexact H2
  isplitl [H3]; · rw [leaves1_3 V c t]; iexact H3
  isplitl [H4]; · rw [leaves1_4 V c t]; iexact H4
  isplitl [H5]; · rw [leaves1_5 V c t]; iexact H5
  isplitl [H6]; · rw [leaves1_6 V c t]; iexact H6
  isplitl [H7]; · rw [leaves1_7 V c t]; iexact H7
  isplitl [H8]; · rw [leaves1_8 V c t]; iexact H8
  isplitl [H9]; · rw [leaves1_9 V c t]; iexact H9
  isplitl [H10]; · rw [leaves1_10 V c t]; iexact H10
  isplitl [H11]; · rw [leaves1_11 V c t]; iexact H11
  isplitl [H12]; · rw [leaves1_12 V c t]; iexact H12
  isplitl [H13]; · rw [leaves1_13 V c t]; iexact H13
  isplitl [H14]; · rw [leaves1_14 V c t]; iexact H14
  isplitl [H15]; · rw [leaves1_15 V c t]; iexact H15
  isplitl [H16]; · rw [leaves1_16 V c t]; iexact H16
  isplitl [H17]; · rw [leaves1_17 V c t]; iexact H17
  isplitl [H18]; · rw [leaves1_18 V c t]; iexact H18
  rw [Dat.leavesExact_idle (dat1 V c) 19 t (idleAt1_19_B t hc0 hc1) (noFlush1_19_B t hc0 hc1)]
  iexists _; iexact H19

set_option maxHeartbeats 16000000 in
/-- The body at a point of CASE C, the key block is block 15. The three scratch buffers come in at what the point before left; the epilogue stores the
    whole output block, which is live here and is written back.
    The inputs' memrefs hold their blocks; the case's run applies; the invariant takes the three scratch buffers back at this
    point's contents (the pieces the run found cover each buffer, so what it reads is the pieces read back). -/
theorem sound_body1_C (c : Dev nD) (t : Fin cfg1.N) (h1 : t.val % 16 = 15) :
    bodyPre1 V c t ⊢ wp frame (wpE (defs₀ (F := F)) Variants.none c none) Set.univ (bodyAt1 t) (fun _ => bodyPost1 V c t) := by
  have hc0 : ¬cond1_0 (grid1.coords t) := fun h => cond1_excl t h ((hcond1_1 t).mpr h1)
  have hc1 : cond1_1 (grid1.coords t) := (hcond1_1 t).mpr h1
  unfold bodyPre1 bodyPost1 bodyAt1
  simp only [before1_0 V c t, before1_1 V c t, before1_2 V c t, before1_3 V c t, before1_4 V c t, before1_5 V c t, before1_6 V c t, before1_7 V c t, before1_8 V c t, before1_9 V c t, before1_10 V c t, before1_11 V c t, before1_12 V c t, before1_13 V c t, before1_14 V c t, before1_15 V c t, before1_16 V c t, before1_17 V c t, before1_18 V c t]
  have hz : t.val ≠ 0 := fun h => by rw [h] at h1; exact absurd h1 (by decide)
  rw [PhiIn1_pos V c t hz]
  iintro ⟨⟨⟨G0, G1, G2, G3, G4, G5, G6, G7, G8, G9, G10, G11, G12, G13, G14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [HS0]; · iexact HS0
  isplitl [HS1]; · iexact HS1
  isplitl [HS2]; · iexact HS2
  iintro ⟨H0, H1, H2, H3, H4, H5, H6, H7, H8, H9, H10, H11, H12, H13, H14, H15, H16, H17, H18, ⟨%e19, H19⟩, ⟨%es0, HS0⟩, ⟨%es1, HS1⟩, ⟨%es2, HS2⟩⟩
  isplitl [G0 G1 G2 G3 G4 G5 G6 G7 G8 G9 G10 G11 G12 G13 G14 HS0 HS1 HS2 Hg]
  · rw [PhiOut1 V c t]
    isplitl [G0 G1 G2 G3 G4 G5 G6 G7 G8 G9 G10 G11 G12 G13 G14 HS0 HS1 HS2]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      isplitl [G12]; · iexact G12
      isplitl [G13]; · iexact G13
      isplitl [G14]; · iexact G14
      isplitl [HS0]
      · unfold owns; iexists _; isplitr
        swap; · iexact HS0
        ipureintro; rw [outsAt1_C V c t h1]; unfold outs1_C sout1_C_0; dsimp only
        exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      isplitl [HS1]
      · unfold owns; iexists _; isplitr
        swap; · iexact HS1
        ipureintro; rw [outsAt1_C V c t h1]; unfold outs1_C sout1_C_1; dsimp only
        exact View.read_writes_of_cover _ _ _ _ _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      unfold owns; iexists _; isplitr
      swap; · iexact HS2
      ipureintro; rw [outsAt1_C V c t h1]; unfold outs1_C sout1_C_2; dsimp only
      exact View.read_writes_of_cover _ _ _ _ _ (scover1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
    iexact Hg
  isplitl [Ho]; · rw [owes1_succ V c t]; iexact Ho
  isplitl [H0]; · rw [leaves1_0 V c t]; iexact H0
  isplitl [H1]; · rw [leaves1_1 V c t]; iexact H1
  isplitl [H2]; · rw [leaves1_2 V c t]; iexact H2
  isplitl [H3]; · rw [leaves1_3 V c t]; iexact H3
  isplitl [H4]; · rw [leaves1_4 V c t]; iexact H4
  isplitl [H5]; · rw [leaves1_5 V c t]; iexact H5
  isplitl [H6]; · rw [leaves1_6 V c t]; iexact H6
  isplitl [H7]; · rw [leaves1_7 V c t]; iexact H7
  isplitl [H8]; · rw [leaves1_8 V c t]; iexact H8
  isplitl [H9]; · rw [leaves1_9 V c t]; iexact H9
  isplitl [H10]; · rw [leaves1_10 V c t]; iexact H10
  isplitl [H11]; · rw [leaves1_11 V c t]; iexact H11
  isplitl [H12]; · rw [leaves1_12 V c t]; iexact H12
  isplitl [H13]; · rw [leaves1_13 V c t]; iexact H13
  isplitl [H14]; · rw [leaves1_14 V c t]; iexact H14
  isplitl [H15]; · rw [leaves1_15 V c t]; iexact H15
  isplitl [H16]; · rw [leaves1_16 V c t]; iexact H16
  isplitl [H17]; · rw [leaves1_17 V c t]; iexact H17
  isplitl [H18]; · rw [leaves1_18 V c t]; iexact H18
  rw [leaves1_19_C V c t hc0 hc1]
  unfold owns; iexists _; isplitr
  swap; · iexact H19
  ipureintro; rw [outsAt1_C V c t h1]; unfold outs1_C out1_C_19; dsimp only
  exact View.read_writes_of_cover _ _ _ _ _ (cover1_C_19 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)

/-- The body at any point: the point's key block selects the case. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · exact sound_body1_A V c t h0
  · by_cases h1 : t.val % 16 = 15
    · exact sound_body1_C V c t h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point (anywhere but before the first) the invariant gives the launch's form back: the scratch buffers' named
    contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨G0, G1, G2, G3, G4, G5, G6, G7, G8, G9, G10, G11, G12, G13, G14, HS0, HS1, HS2⟩, Hg⟩
  isplitl [G0 G1 G2 G3 G4 G5 G6 G7 G8 G9 G10 G11 G12 G13 G14 HS0 HS1 HS2]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi1_out V c _ (by rw [Fin.val_last]; have : cfg1.N = 256 := N_1; omega)

end Cert.KernelIdeal.Frm

end
-- ==== Proof.FitsAll.lean ====
import proofs.«404873_j80685255623116_3_alg».proof.Proof.Run
import proofs.«404873_j80685255623116_3_alg».proof.Proof.R0Body
import proofs.«404873_j80685255623116_3_alg».proof.Proof.R1Body

/-!
# The two regions' proof data fit the program

The run of the whole program is stated for any proof data of the two regions that fit it. Here the two
regions' own proof data are put in: the first region's at the contents its three host stretches leave, the
second's at the contents the first region and the fourth stretch leave. The first region keeps nothing
between points, so its invariant IS the scoped rest beside the generator register and the two entailments
around it are reflexivity; the second region's come with its body. The run's two conclusions then hold
outright: every argument ends as launched, and the result buffer ends at the second region's output array
after all its write-backs.
-/

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The first region's proof data, at the contents the three host stretches before it leave. -/
abbrev d0Of : (c : Dev nD) → Dat0 F c := fun c => dat0 (V3 m) c

/-- The second region's proof data, at the contents the first region and the fourth stretch leave. -/
abbrev d1Of : (c : Dev nD) → Dat1 F c := fun c => dat1 (V5 m (d0Of m)) c

/-- The two fit the program. -/
theorem fits : Fits m (d0Of m) (d1Of m) where
  hA0 c w := A_eq0 _ c w
  hA1 c w := A_eq1 _ c w
  hq0 _ := rfl
  hq1 _ := rfl
  howed0 _ := rfl
  howed1 _ := rfl
  hrec0 _ := rfl
  hrec1 _ := rfl
  hin0 _ := .rfl
  hout0 _ := .rfl
  hin1 c := hin1 _ c
  hout1 c := hout1 _ c
  hbody0 c := body_obligation0 _ c
  hbody1 c := body_obligation1 _ c

/-- The program runs and every argument ends as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of_fits m (d0Of m) (d1Of m) (fits m) ρ

/-- The program runs, the result buffer ends at the second region's output array after all its write-backs,
    and every argument ends as launched. -/
theorem result_all (ρ : Dev nD → PrngReg) :
    θ_run defs (onTc (τ := τ) (main (F := F))) ⟨m, fun _ => 0, ρ⟩ (fun r => ∀ c : Dev nD,
      r.2.mem ((c.tc : Thread nD τ).loc main_v37) = (d1Of m c).arrAt 19 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  result_of_fits m (d0Of m) (d1Of m) (fits m) ρ

end Cert.KernelIdeal.Frm

end
-- ==== Proof.KVals.lean ====
import proofs.«404873_j80685255623116_3_alg».proof.Proof.Gen.Kernel.Launch
import Idealize.ShloMosaic.Lib.Pipeline.FrameBody
import Idealize.ShloMosaic.Lib.Pipeline.FrameSuffix
import Idealize.ShloMosaic.Lib.StableHlo.Run

/-!
# What the buffers hold at each boundary of the program

The program is three stretches of host operations, the first kernel region, a fourth stretch, the second
kernel region. Between two of these items a core's buffers hold a definite function of the launch
memory: a host stretch applies its operations; a region leaves each of its output arrays at what its
write-backs fold to and every other buffer as it found it. The regions' proof data are parameters here:
the contents are stated for any proof data, and the regions' own modules supply theirs.
-/

noncomputable section

namespace Cert.Kernel.Frm

open Cert.Kernel Cert.Kernel.Gen
open Idealize.ShloMosaic Idealize.ShloMosaic.TcCoe
open Idealize.SL Idealize.SL.Sem
open Idealize.ShloMosaic.Pipeline (Dat)

variable {F : FTy → Type} [FloatOps F]

/-- The proof data of the two regions: region 0 over the first pipeline, region 1 over the second. -/
abbrev Dat0 (F : FTy → Type) [FloatOps F] (c : Dev nD) : Type _ := Dat τ (Elt F) Unit ℕ (Pipeline.UD sig nD τ) ℕ cfg0 c
abbrev Dat1 (F : FTy → Type) [FloatOps F] (c : Dev nD) : Type _ := Dat τ (Elt F) Unit ℕ (Pipeline.UD sig nD τ) ℕ cfg1 c

variable (m : (ℓ : Loc nD τ sig) → Buf (Elt F) ℓ)
variable (d0 : (c : Dev nD) → Dat0 F c) (d1 : (c : Dev nD) → Dat1 F c)

/-- At launch. -/
abbrev W0 (c : Dev nD) : Valuation τ sig (Elt F) := fun b => m (c, b)
/-- After the three host stretches before the first region: the first region's entry. -/
def W3 (c : Dev nD) : Valuation τ sig (Elt F) :=
  StableHlo.after hostOps0_2 (StableHlo.after hostOps0_1 (StableHlo.after hostOps0 (W0 m c)))
/-- After the first region: its three output arrays at what the write-backs leave. -/
def W4 (c : Dev nD) : Valuation τ sig (Elt F) :=
  Pipeline.withArrays spec0 c (W3 m c) fun w => (d0 c).arrAt w cfg0.N
/-- After the fourth host stretch: the second region's entry. -/
def W5 (c : Dev nD) : Valuation τ sig (Elt F) := StableHlo.after hostOps1 (W4 m d0 c)
/-- After the second region: the end of the program. -/
def W6 (c : Dev nD) : Valuation τ sig (Elt F) :=
  Pipeline.withArrays spec1 c (W5 m d0 c) fun w => (d1 c).arrAt w cfg1.N

/-- The same contents read at the TensorCore's references: what a region's proof data take. -/
abbrev V3 (c : Dev nD) (b : Ref sig .tc) : Buf (Elt F) ((c : Thread nD τ).loc b) := W3 m c b
abbrev V5 (c : Dev nD) (b : Ref sig .tc) : Buf (Elt F) ((c : Thread nD τ).loc b) := W5 m d0 c b

end Cert.Kernel.Frm

end
-- ==== Proof.KRun.lean ====
import proofs.«404873_j80685255623116_3_alg».proof.Proof.KVals
import proofs.«404873_j80685255623116_3_alg».proof.Proof.Gen.Kernel.Regions
import proofs.«404873_j80685255623116_3_alg».proof.Proof.Gen.Kernel.Points
import Idealize.ShloMosaic.Lib.Pipeline.RegionsLoop
import Idealize.ShloMosaic.Lib.Pipeline.FrameSuffix
import Idealize.ShloMosaic.Lib.Pipeline.Kit
import Idealize.ShloMosaic.Lib.Tactic

/-!
# The run of the whole program, for any proof data that fit

The program is three stretches of host operations, the first kernel region, a fourth stretch, the second
kernel region. Between two items a core holds every unscoped buffer whole at that boundary's contents
(the fold through the program: a stretch applies its operations, a region leaves each of its arrays at
what its write-backs fold to and every other buffer as entered), beside its generator register at some
state and owing nothing.

The two regions' proof data are parameters. What the run needs of them is gathered in one record of
hypotheses (the record "Fits"): each region's arrays are entered at the boundary's contents, every input
array is held whole, the core owes nothing at any point and its recorded pairs are not bounded at the
first point, the region's invariant is entered from and left to the scoped buffers no window stages and
the generator register, and the body obligation holds. From such data every weakly fair execution of the
program terminates with every unscoped buffer at the last boundary's contents; the arguments are then
read back through the fold to the launch memory, and the result is the last region's output array after
all its write-backs.
-/

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (d0 : (c : Dev nD) → Dat0 F c) (d1 : (c : Dev nD) → Dat1 F c)

/-! ## What the run asks of the two regions' proof data -/

/-- The proof data fit the program: each region's arrays are entered at its boundary's contents (hA),
    every input array is held at the full share (hq), the core owes nothing at any point (howed) and
    the pairs its waits recorded before the first point are not bounded (hrec), the invariant at the
    first point follows from the scoped buffers no window stages beside the generator register (hin)
    and gives them back at the last point (hout), and the body obligation holds (hbody). -/
structure Fits : Prop where
  hA0 : ∀ c w, (d0 c).A w = V3 m c (Pipeline.arrRef spec0 w)
  hA1 : ∀ c w, (d1 c).A w = V5 m d0 c (Pipeline.arrRef spec1 w)
  hq0 : ∀ c, (d0 c).q = fun _ => fullShare
  hq1 : ∀ c, (d1 c).q = fun _ => fullShare
  howed0 : ∀ c, (d0 c).owed = fun _ => 0
  howed1 : ∀ c, (d1 c).owed = fun _ => 0
  hrec0 : ∀ c, (d0 c).recorded 0 = Set.univ
  hrec1 : ∀ c, (d1 c).recorded 0 = Set.univ
  hin0 : ∀ c, Pipeline.ΦA spec0 c ⊢ (d0 c).Φ 0
  hout0 : ∀ c, (d0 c).Φ (Fin.last cfg0.N) ⊢ Pipeline.ΦA spec0 c
  hin1 : ∀ c, Pipeline.ΦA spec1 c ⊢ (d1 c).Φ 0
  hout1 : ∀ c, (d1 c).Φ (Fin.last cfg1.N) ⊢ Pipeline.ΦA spec1 c
  hbody0 : ∀ c, BodyObligation (d0 c) (defs₀ (F := F)) Variants.none () Set.univ
  hbody1 : ∀ c, BodyObligation (d1 c) (defs₀ (F := F)) Variants.none () Set.univ

/-! ## The boundaries' contents, read at one buffer -/

/-- After the first region each of its arrays holds what its write-backs fold to, -/
theorem W4_arr (c : Dev nD) (w : Fin cfg0.W) :
    W4 m d0 c (Proc.devRef .tc (Pipeline.arrRef spec0 w)) = (d0 c).arrAt w cfg0.N := by
  unfold W4; exact Pipeline.withArrays_arr spec0 launch0.win.arr_inj c _ _ w
/-- and a buffer that is none of its arrays what it held at the region's entry. -/
theorem W4_of_ne (c : Dev nD) (b : Ref sig .tc) (hb : ∀ w, Pipeline.arrRef spec0 w ≠ b) :
    W4 m d0 c (Proc.devRef .tc b) = W3 m c (Proc.devRef .tc b) := by
  unfold W4; exact Pipeline.withArrays_of_ne spec0 c _ _ b hb
/-- The same after the second region. -/
theorem W6_arr (c : Dev nD) (w : Fin cfg1.W) :
    W6 m d0 d1 c (Proc.devRef .tc (Pipeline.arrRef spec1 w)) = (d1 c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m d0 d1 c (Proc.devRef .tc b) = W5 m d0 c (Proc.devRef .tc b) := by
  unfold W6; exact Pipeline.withArrays_of_ne spec1 c _ _ b hb

/-- The exit contents of the two regions read at the TensorCore's references. -/
abbrev V4 (c : Dev nD) (b : Ref sig .tc) : Buf (Elt F) ((c : Thread nD τ).loc b) := W4 m d0 c b
abbrev V6 (c : Dev nD) (b : Ref sig .tc) : Buf (Elt F) ((c : Thread nD τ).loc b) := W6 m d0 d1 c b

/-- At a region's exit each of its arrays holds what the pipeline leaves and every other buffer what it
    held at entry: the two facts that put the arrays back among the core's unscoped buffers. -/
theorem hF0 (c : Dev nD) (w : Fin cfg0.W) : (d0 c).arrAt w cfg0.N = V4 m d0 c (Pipeline.arrRef spec0 w) :=
  (W4_arr m d0 c w).symm
theorem hrest0 (c : Dev nD) : ∀ b, b ∉ Finset.univ.image (Pipeline.arrRef spec0) → V4 m d0 c b = V3 m c b :=
  fun b hb => W4_of_ne m d0 c b fun w e => hb (Finset.mem_image.mpr ⟨w, Finset.mem_univ _, e⟩)
theorem hF1 (c : Dev nD) (w : Fin cfg1.W) : (d1 c).arrAt w cfg1.N = V6 m d0 d1 c (Pipeline.arrRef spec1 w) :=
  (W6_arr m d0 d1 c w).symm
theorem hrest1 (c : Dev nD) : ∀ b, b ∉ Finset.univ.image (Pipeline.arrRef spec1) → V6 m d0 d1 c b = V5 m d0 c b :=
  fun b hb => W6_of_ne m d0 d1 c b fun w e => hb (Finset.mem_image.mpr ⟨w, Finset.mem_univ _, e⟩)

/-- A buffer none of the three stretches before the first region writes holds its launch contents at
    that region's entry. -/
theorem W3_of_not_written (c : Dev nD) (r : Ref sig .tc) (h0 : r ∉ hostOps0_W) (h1 : r ∉ hostOps0_1_W) (h2 : r ∉ hostOps0_2_W) :
    W3 m c (Proc.devRef .tc r) = m ((c : Thread nD τ).loc r) := by
  unfold W3
  exact (StableHlo.after_of_writes_sub hostOps0_2 _ hostOps0_2_writes h2).trans
    ((StableHlo.after_of_writes_sub hostOps0_1 _ hostOps0_1_writes h1).trans
      ((StableHlo.after_of_writes_sub hostOps0 _ hostOps0_writes h0).trans rfl))

/-- A buffer the fourth stretch does not write and that is no array of the first region holds at the
    second region's entry what it held at the first's. -/
theorem W5_of_not_written (c : Dev nD) (r : Ref sig .tc) (h3 : r ∉ hostOps1_W) (h4 : ∀ w, Pipeline.arrRef spec0 w ≠ r) :
    W5 m d0 c (Proc.devRef .tc r) = W3 m c (Proc.devRef .tc r) := by
  unfold W5
  exact (StableHlo.after_of_writes_sub hostOps1 _ hostOps1_writes h3).trans (W4_of_ne m d0 c r h4)

/-- So does an INPUT array of the first region that the fourth stretch does not write: an input array
    is never written back. -/
theorem W5_of_in0 (h : Fits m d0 d1) (c : Dev nD) (w : Fin cfg0.W) (hin : (cfg0.win w).isOut = false)
    (h3 : Pipeline.arrRef spec0 w ∉ hostOps1_W) :
    W5 m d0 c (Proc.devRef .tc (Pipeline.arrRef spec0 w)) = W3 m c (Proc.devRef .tc (Pipeline.arrRef spec0 w)) := by
  unfold W5
  exact (StableHlo.after_of_writes_sub hostOps1 _ hostOps1_writes h3).trans
    ((W4_arr m d0 c w).trans (((d0 c).arrAt_in w hin _).trans (h.hA0 c w)))

/-- An input array of the second region ends as the region found it. -/
theorem W6_of_in1 (h : Fits m d0 d1) (c : Dev nD) (w : Fin cfg1.W) (hin : (cfg1.win w).isOut = false) :
    W6 m d0 d1 c (Proc.devRef .tc (Pipeline.arrRef spec1 w)) = W5 m d0 c (Proc.devRef .tc (Pipeline.arrRef spec1 w)) :=
  (W6_arr m d0 d1 c w).trans (((d1 c).arrAt_in w hin _).trans (h.hA1 c w))

/-! ### The first region's outputs at the second region's entry, and the result -/

/-- The fourth stretch writes none of the first region's three outputs: the second region finds them
    as the first region's write-backs left them. -/
theorem W5_qp (c : Dev nD) : W5 m d0 c (Proc.devRef .tc main_v17_0) = (d0 c).arrAt 7 cfg0.N := by
  unfold W5
  exact (StableHlo.after_of_writes_sub hostOps1 _ hostOps1_writes (by decide)).trans (W4_arr m d0 c 7)
theorem W5_kp (c : Dev nD) : W5 m d0 c (Proc.devRef .tc main_v17_1) = (d0 c).arrAt 8 cfg0.N := by
  unfold W5
  exact (StableHlo.after_of_writes_sub hostOps1 _ hostOps1_writes (by decide)).trans (W4_arr m d0 c 8)
theorem W5_comb (c : Dev nD) : W5 m d0 c (Proc.devRef .tc main_v17_2) = (d0 c).arrAt 9 cfg0.N := by
  unfold W5
  exact (StableHlo.after_of_writes_sub hostOps1 _ hostOps1_writes (by decide)).trans (W4_arr m d0 c 9)

/-- The program's result is the second region's output array after all its write-backs. -/
theorem W6_result (c : Dev nD) : W6 m d0 d1 c (Proc.devRef .tc main_v37) = (d1 c).arrAt 19 cfg1.N :=
  W6_arr m d0 d1 c 19

/-! ### The arguments end as launched

No host stretch writes an argument. A region leaves an input array as it was entered and does not touch
a buffer that is none of its arrays. The first region reads arguments 0 and 7 (its windows 0 and 6), the
second arguments 11, 13, 15, 17, 19, 20 and 21 (its windows 6, 8, 12, 14, 16, 17 and 18); the other
arguments bypass both. -/

theorem W6_main_arg0 (h : Fits m d0 d1) (c : Dev nD) : W6 m d0 d1 c (Proc.devRef .tc main_arg0) = m ((c : Thread nD τ).loc main_arg0) :=
  (W6_of_ne m d0 d1 c main_arg0 (by decide)).trans ((W5_of_in0 m d0 d1 h c 0 rfl (by decide)).trans (W3_of_not_written m c main_arg0 (by decide) (by decide) (by decide)))
theorem W6_main_arg1 (h : Fits m d0 d1) (c : Dev nD) : W6 m d0 d1 c (Proc.devRef .tc main_arg1) = m ((c : Thread nD τ).loc main_arg1) :=
  (W6_of_ne m d0 d1 c main_arg1 (by decide)).trans ((W5_of_not_written m d0 c main_arg1 (by decide) (by decide)).trans (W3_of_not_written m c main_arg1 (by decide) (by decide) (by decide)))
theorem W6_main_arg2 (h : Fits m d0 d1) (c : Dev nD) : W6 m d0 d1 c (Proc.devRef .tc main_arg2) = m ((c : Thread nD τ).loc main_arg2) :=
  (W6_of_ne m d0 d1 c main_arg2 (by decide)).trans ((W5_of_not_written m d0 c main_arg2 (by decide) (by decide)).trans (W3_of_not_written m c main_arg2 (by decide) (by decide) (by decide)))
theorem W6_main_arg3 (h : Fits m d0 d1) (c : Dev nD) : W6 m d0 d1 c (Proc.devRef .tc main_arg3) = m ((c : Thread nD τ).loc main_arg3) :=
  (W6_of_ne m d0 d1 c main_arg3 (by decide)).trans ((W5_of_not_written m d0 c main_arg3 (by decide) (by decide)).trans (W3_of_not_written m c main_arg3 (by decide) (by decide) (by decide)))
theorem W6_main_arg4 (h : Fits m d0 d1) (c : Dev nD) : W6 m d0 d1 c (Proc.devRef .tc main_arg4) = m ((c : Thread nD τ).loc main_arg4) :=
  (W6_of_ne m d0 d1 c main_arg4 (by decide)).trans ((W5_of_not_written m d0 c main_arg4 (by decide) (by decide)).trans (W3_of_not_written m c main_arg4 (by decide) (by decide) (by decide)))
theorem W6_main_arg5 (h : Fits m d0 d1) (c : Dev nD) : W6 m d0 d1 c (Proc.devRef .tc main_arg5) = m ((c : Thread nD τ).loc main_arg5) :=
  (W6_of_ne m d0 d1 c main_arg5 (by decide)).trans ((W5_of_not_written m d0 c main_arg5 (by decide) (by decide)).trans (W3_of_not_written m c main_arg5 (by decide) (by decide) (by decide)))
theorem W6_main_arg6 (h : Fits m d0 d1) (c : Dev nD) : W6 m d0 d1 c (Proc.devRef .tc main_arg6) = m ((c : Thread nD τ).loc main_arg6) :=
  (W6_of_ne m d0 d1 c main_arg6 (by decide)).trans ((W5_of_not_written m d0 c main_arg6 (by decide) (by decide)).trans (W3_of_not_written m c main_arg6 (by decide) (by decide) (by decide)))
theorem W6_main_arg7 (h : Fits m d0 d1) (c : Dev nD) : W6 m d0 d1 c (Proc.devRef .tc main_arg7) = m ((c : Thread nD τ).loc main_arg7) :=
  (W6_of_ne m d0 d1 c main_arg7 (by decide)).trans ((W5_of_in0 m d0 d1 h c 6 rfl (by decide)).trans (W3_of_not_written m c main_arg7 (by decide) (by decide) (by decide)))
theorem W6_main_arg8 (h : Fits m d0 d1) (c : Dev nD) : W6 m d0 d1 c (Proc.devRef .tc main_arg8) = m ((c : Thread nD τ).loc main_arg8) :=
  (W6_of_ne m d0 d1 c main_arg8 (by decide)).trans ((W5_of_not_written m d0 c main_arg8 (by decide) (by decide)).trans (W3_of_not_written m c main_arg8 (by decide) (by decide) (by decide)))
theorem W6_main_arg9 (h : Fits m d0 d1) (c : Dev nD) : W6 m d0 d1 c (Proc.devRef .tc main_arg9) = m ((c : Thread nD τ).loc main_arg9) :=
  (W6_of_ne m d0 d1 c main_arg9 (by decide)).trans ((W5_of_not_written m d0 c main_arg9 (by decide) (by decide)).trans (W3_of_not_written m c main_arg9 (by decide) (by decide) (by decide)))
theorem W6_main_arg10 (h : Fits m d0 d1) (c : Dev nD) : W6 m d0 d1 c (Proc.devRef .tc main_arg10) = m ((c : Thread nD τ).loc main_arg10) :=
  (W6_of_ne m d0 d1 c main_arg10 (by decide)).trans ((W5_of_not_written m d0 c main_arg10 (by decide) (by decide)).trans (W3_of_not_written m c main_arg10 (by decide) (by decide) (by decide)))
theorem W6_main_arg11 (h : Fits m d0 d1) (c : Dev nD) : W6 m d0 d1 c (Proc.devRef .tc main_arg11) = m ((c : Thread nD τ).loc main_arg11) :=
  (W6_of_in1 m d0 d1 h c 6 rfl).trans ((W5_of_not_written m d0 c main_arg11 (by decide) (by decide)).trans (W3_of_not_written m c main_arg11 (by decide) (by decide) (by decide)))
theorem W6_main_arg12 (h : Fits m d0 d1) (c : Dev nD) : W6 m d0 d1 c (Proc.devRef .tc main_arg12) = m ((c : Thread nD τ).loc main_arg12) :=
  (W6_of_ne m d0 d1 c main_arg12 (by decide)).trans ((W5_of_not_written m d0 c main_arg12 (by decide) (by decide)).trans (W3_of_not_written m c main_arg12 (by decide) (by decide) (by decide)))
theorem W6_main_arg13 (h : Fits m d0 d1) (c : Dev nD) : W6 m d0 d1 c (Proc.devRef .tc main_arg13) = m ((c : Thread nD τ).loc main_arg13) :=
  (W6_of_in1 m d0 d1 h c 8 rfl).trans ((W5_of_not_written m d0 c main_arg13 (by decide) (by decide)).trans (W3_of_not_written m c main_arg13 (by decide) (by decide) (by decide)))
theorem W6_main_arg14 (h : Fits m d0 d1) (c : Dev nD) : W6 m d0 d1 c (Proc.devRef .tc main_arg14) = m ((c : Thread nD τ).loc main_arg14) :=
  (W6_of_ne m d0 d1 c main_arg14 (by decide)).trans ((W5_of_not_written m d0 c main_arg14 (by decide) (by decide)).trans (W3_of_not_written m c main_arg14 (by decide) (by decide) (by decide)))
theorem W6_main_arg15 (h : Fits m d0 d1) (c : Dev nD) : W6 m d0 d1 c (Proc.devRef .tc main_arg15) = m ((c : Thread nD τ).loc main_arg15) :=
  (W6_of_in1 m d0 d1 h c 12 rfl).trans ((W5_of_not_written m d0 c main_arg15 (by decide) (by decide)).trans (W3_of_not_written m c main_arg15 (by decide) (by decide) (by decide)))
theorem W6_main_arg16 (h : Fits m d0 d1) (c : Dev nD) : W6 m d0 d1 c (Proc.devRef .tc main_arg16) = m ((c : Thread nD τ).loc main_arg16) :=
  (W6_of_ne m d0 d1 c main_arg16 (by decide)).trans ((W5_of_not_written m d0 c main_arg16 (by decide) (by decide)).trans (W3_of_not_written m c main_arg16 (by decide) (by decide) (by decide)))
theorem W6_main_arg17 (h : Fits m d0 d1) (c : Dev nD) : W6 m d0 d1 c (Proc.devRef .tc main_arg17) = m ((c : Thread nD τ).loc main_arg17) :=
  (W6_of_in1 m d0 d1 h c 14 rfl).trans ((W5_of_not_written m d0 c main_arg17 (by decide) (by decide)).trans (W3_of_not_written m c main_arg17 (by decide) (by decide) (by decide)))
theorem W6_main_arg18 (h : Fits m d0 d1) (c : Dev nD) : W6 m d0 d1 c (Proc.devRef .tc main_arg18) = m ((c : Thread nD τ).loc main_arg18) :=
  (W6_of_ne m d0 d1 c main_arg18 (by decide)).trans ((W5_of_not_written m d0 c main_arg18 (by decide) (by decide)).trans (W3_of_not_written m c main_arg18 (by decide) (by decide) (by decide)))
theorem W6_main_arg19 (h : Fits m d0 d1) (c : Dev nD) : W6 m d0 d1 c (Proc.devRef .tc main_arg19) = m ((c : Thread nD τ).loc main_arg19) :=
  (W6_of_in1 m d0 d1 h c 16 rfl).trans ((W5_of_not_written m d0 c main_arg19 (by decide) (by decide)).trans (W3_of_not_written m c main_arg19 (by decide) (by decide) (by decide)))
theorem W6_main_arg20 (h : Fits m d0 d1) (c : Dev nD) : W6 m d0 d1 c (Proc.devRef .tc main_arg20) = m ((c : Thread nD τ).loc main_arg20) :=
  (W6_of_in1 m d0 d1 h c 17 rfl).trans ((W5_of_not_written m d0 c main_arg20 (by decide) (by decide)).trans (W3_of_not_written m c main_arg20 (by decide) (by decide) (by decide)))
theorem W6_main_arg21 (h : Fits m d0 d1) (c : Dev nD) : W6 m d0 d1 c (Proc.devRef .tc main_arg21) = m ((c : Thread nD τ).loc main_arg21) :=
  (W6_of_in1 m d0 d1 h c 18 rfl).trans ((W5_of_not_written m d0 c main_arg21 (by decide) (by decide)).trans (W3_of_not_written m c main_arg21 (by decide) (by decide) (by decide)))

/-! ## The proof data family and the thread state -/

/-- Both pipelines' proof data, each region's the given one — a literal match on the pipeline's index, so
    that the family at a numeral reduces to the region's own data. -/
def pdats : (p : Fin 2) → (c : Dev nD) → Dat τ (Elt F) Unit ℕ (Pipeline.UD sig nD τ) ℕ (Pipeline.pin (pcfgs (F := F)) adm p) c
  | ⟨0, _⟩ => fun c => d0 c
  | ⟨1, _⟩ => fun c => d1 c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a
    region takes it into its invariant and gives it back) and the core owing nothing. -/
abbrev R (c : Dev nD) : sProp 𝕄 := iprop((∃ r, prngReg c r) ∗ ∃ W, owes (c : Thread nD τ) (0 : CellTallies nD τ sig Unit) W)

/-- A host stretch as a segment over the unscoped buffers from the contents W, R riding along: it leaves
    them at the stretch applied to W, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the last boundary's
    contents, the generator register at some state. -/
abbrev Tₙ (c : Dev nD) : sProp 𝕄 := iprop(StableHlo.held (c : Thread nD τ) (Pipeline.ucRefs τ sig) (W6 m d0 d1 c) ∗ ∃ r, prngReg c r)

/-! ### What a core owes, in and out of a region's proof data -/

section Owes

variable {cfg : Pipeline.Cfg sig Λ₀} {c : Dev nD} (dat : Dat τ (Elt F) Unit ℕ (Pipeline.UD sig nD τ) ℕ cfg c)

/-- A core owing nothing, whatever pairs its waits recorded, enters proof data that owe nothing at the
    first point and do not bound the recorded pairs there. -/
theorem owesAt_of_zero (ho : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin Pipeline.Dat.bound
  rw [ho, hr]
  iintro ⟨%W, HO⟩
  iexists W
  isplitr
  · ipureintro; exact fun _ _ => Or.inl trivial
  iexact HO

/-- Proof data that owe nothing at a point leave the core owing nothing there. -/
theorem zero_of_owesAt (t : Fin (cfg.N + 1)) (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩
  iexists W
  iexact HO

end Owes

/-! ## The regions as segments -/

set_option backward.isDefEq.respectTransparency.types false in
/-- The first region over the thread state: entered from every unscoped buffer at the first region's
    entry contents, left at its exit contents. Its arrays are split out of the unscoped buffers and put
    back at what the write-backs leave; the generator register goes into the invariant and comes back;
    nothing is owed; the kernel has no semaphore of its own. -/
def reg0 (h : Fits m d0 d1) : Pipeline.RegionSeg (pcfgs (F := F)) adm (pdats d0 d1) () defs₀ 𝒱₀ L lv 0 where
  win := launch0.win.to₀
  block_pos := launch0.block_pos
  stage_whole := launch0.stage_whole
  K := PEmpty
  osem k := k.elim
  ho := Pipeline.OwnSemFacts.none _
  hbody c := (h.hbody0 c).loose
  hwaits := Pipeline.hwaits_of_owed_zero _ _ _ _ L lv 0 fun c t => congrFun (h.howed0 c) t
  pre c := iprop(StableHlo.held (c : Thread nD τ) (Pipeline.ucRefs τ sig) (W3 m c) ∗ R c)
  post c := iprop(StableHlo.held (c : Thread nD τ) (Pipeline.ucRefs τ sig) (W4 m d0 c) ∗ R c)
  X c := iprop(∃ r, prngReg c r)
  Y c := iprop(∃ r, prngReg c r)
  Z c := Pipeline.unscopedRest (Ix := Unit) (Name := ℕ) (U := Pipeline.UD sig nD τ) (Lvl := ℕ) spec0 c (V3 m c)
  hentry c := by
    rw [Pipeline.ownSems0_none]
    have hsplit := Pipeline.arrays_of_unscopedBufs (p := 0) (pcfgs (F := F)) adm (pdats d0 d1) launch0.win launch0.arr_whole c
      ((pdats d0 d1 0 c).share_full fun w => congrFun (h.hq0 c) w) (V3 m c) (h.hA0 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats d0 d1 0 c) (congrFun (h.howed0 c) 0) (h.hrec0 c)); iexact HO
    isplitl [Hp]; · iexact Hp
    iexact Hrest
  hin c := by
    refine BIBase.Entails.trans ?_ (h.hin0 c)
    unfold Pipeline.ΦA
    iintro ⟨Hp, -, Hr⟩
    isplitl [Hr]; · iexact Hr
    iexact Hp
  hout c := by
    refine BIBase.Entails.trans (h.hout0 c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats d0 d1) ((pdats d0 d1 0 c).share_full fun w => congrFun (h.hq0 c) w)
      (V3 m c) (V4 m d0 c) ((pdats d0 d1 0 c).arrAt · cfg0.N) (hF0 m d0 c) (hrest0 m d0 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats d0 d1 0 c) (Fin.last _) (congrFun (h.howed0 c) _)); iexact HO

set_option backward.isDefEq.respectTransparency.types false in
/-- The second region over the thread state: entered from every unscoped buffer at the second region's
    entry contents, left at the last boundary's contents (what the launch reads at the end), in the
    same way. -/
def reg1 (h : Fits m d0 d1) : Pipeline.RegionSeg (pcfgs (F := F)) adm (pdats d0 d1) () defs₀ 𝒱₀ L lv 1 where
  win := launch1.win.to₀
  block_pos := launch1.block_pos
  stage_whole := launch1.stage_whole
  K := PEmpty
  osem k := k.elim
  ho := Pipeline.OwnSemFacts.none _
  hbody c := (h.hbody1 c).loose
  hwaits := Pipeline.hwaits_of_owed_zero _ _ _ _ L lv 1 fun c t => congrFun (h.howed1 c) t
  pre c := iprop(StableHlo.held (c : Thread nD τ) (Pipeline.ucRefs τ sig) (W5 m d0 c) ∗ R c)
  post c := iprop(Tₙ m d0 d1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V5 m d0 c)
  hentry c := by
    rw [Pipeline.ownSems0_none]
    have hsplit := Pipeline.arrays_of_unscopedBufs (p := 1) (pcfgs (F := F)) adm (pdats d0 d1) launch1.win launch1.arr_whole c
      ((pdats d0 d1 1 c).share_full fun w => congrFun (h.hq1 c) w) (V5 m d0 c) (h.hA1 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats d0 d1 1 c) (congrFun (h.howed1 c) 0) (h.hrec1 c)); iexact HO
    isplitl [Hp]; · iexact Hp
    iexact Hrest
  hin c := by
    refine BIBase.Entails.trans ?_ (h.hin1 c)
    unfold Pipeline.ΦA
    iintro ⟨Hp, -, Hr⟩
    isplitl [Hr]; · iexact Hr
    iexact Hp
  hout c := by
    refine BIBase.Entails.trans (h.hout1 c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats d0 d1) ((pdats d0 d1 1 c).share_full fun w => congrFun (h.hq1 c) w)
      (V5 m d0 c) (V6 m d0 d1 c) ((pdats d0 d1 1 c).arrAt · cfg1.N) (hF1 m d0 d1 c) (hrest1 m d0 d1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (zero_of_owesAt (pdats d0 d1 1 c) (Fin.last _) (congrFun (h.howed1 c) _)); iexact HO

/-! ## The program as segments, and the launch -/

/-- The program's six segments in order: a host segment per stretch from its boundary's contents, a
    region per kernel call. -/
abbrev segs (h : Fits m d0 d1) : List (Pipeline.Seg (pcfgs (F := F)) adm (pdats d0 d1) () defs₀ 𝒱₀ L lv) :=
  [ .host (hseg hostOps0 hostOps0_sub hostOps0_fresh (W0 m)),
    .host (hseg hostOps0_1 hostOps0_1_sub hostOps0_1_fresh fun c => StableHlo.after hostOps0 (W0 m c)),
    .host (hseg hostOps0_2 hostOps0_2_sub hostOps0_2_fresh fun c => StableHlo.after hostOps0_1 (StableHlo.after hostOps0 (W0 m c))),
    .region (reg0 m d0 d1 h),
    .host (hseg hostOps1 hostOps1_sub hostOps1_fresh (W4 m d0)),
    .region (reg1 m d0 d1 h) ]

/-- The program IS the run of the segments: it is the chain of its six items, and the segments' run is
    that chain by definitional unfolding. -/
theorem main_run (h : Fits m d0 d1) (c : Dev nD) : main (F := F) c = Pipeline.Seg.run (segs m d0 d1 h) :=
  (main_chain c).trans (by chain_rfl)

set_option backward.isDefEq.respectTransparency.types false in
/-- THE RUN. From any memory with zero counters, every weakly fair execution of the program on the
    TensorCores terminates, nothing faulting, and in every final state each core's unscoped buffers hold
    the last boundary's contents: the launch over the segments, the last thread state read against the
    final state. -/
theorem run_all (h : Fits m d0 d1) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 m d0 d1 c b) :=
  Pipeline.θ_run_regions_kit (pcfgs (F := F)) adm (pdats d0 d1) () cellOf_inj embL defs₀ 𝒱₀ L lv m ρ main (segs m d0 d1 h)
    (fun c Q => by rw [main_run m d0 d1 h c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m d0 d1)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m d0 d1 c b)
    (hfin := fun c s' => by
      iintro ⟨⟨Hh, -⟩, HSI⟩
      unfold StableHlo.held
      imodintro
      iapply (pointsTo_read_all (Pipeline.ucRefs τ sig) (fun b => (((c : Thread nD τ)).1, b)) (W6 m d0 d1 c) s')
      isplitl [Hh] <;> iassumption)
    (hQ := fun s hs => hs)

/-! ## What the run gives the claims -/

/-- In a final state whose unscoped buffers hold the last boundary's contents every argument holds its
    launch contents. -/
theorem args_kept (h : Fits m d0 d1) (c : Dev nD) (s : MemSt nD τ sig (Elt F))
    (hs : ∀ b ∈ Pipeline.ucRefs τ sig, s.mem (((c : Thread nD τ)).1, b) = W6 m d0 d1 c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20)
      ∧ s.mem ((c.tc : Thread nD τ).loc main_arg21) = m ((c.tc : Thread nD τ).loc main_arg21) :=
  ⟨(hs _ (mem_uc main_arg0 (by decide))).trans (W6_main_arg0 m d0 d1 h c),
   (hs _ (mem_uc main_arg1 (by decide))).trans (W6_main_arg1 m d0 d1 h c),
   (hs _ (mem_uc main_arg2 (by decide))).trans (W6_main_arg2 m d0 d1 h c),
   (hs _ (mem_uc main_arg3 (by decide))).trans (W6_main_arg3 m d0 d1 h c),
   (hs _ (mem_uc main_arg4 (by decide))).trans (W6_main_arg4 m d0 d1 h c),
   (hs _ (mem_uc main_arg5 (by decide))).trans (W6_main_arg5 m d0 d1 h c),
   (hs _ (mem_uc main_arg6 (by decide))).trans (W6_main_arg6 m d0 d1 h c),
   (hs _ (mem_uc main_arg7 (by decide))).trans (W6_main_arg7 m d0 d1 h c),
   (hs _ (mem_uc main_arg8 (by decide))).trans (W6_main_arg8 m d0 d1 h c),
   (hs _ (mem_uc main_arg9 (by decide))).trans (W6_main_arg9 m d0 d1 h c),
   (hs _ (mem_uc main_arg10 (by decide))).trans (W6_main_arg10 m d0 d1 h c),
   (hs _ (mem_uc main_arg11 (by decide))).trans (W6_main_arg11 m d0 d1 h c),
   (hs _ (mem_uc main_arg12 (by decide))).trans (W6_main_arg12 m d0 d1 h c),
   (hs _ (mem_uc main_arg13 (by decide))).trans (W6_main_arg13 m d0 d1 h c),
   (hs _ (mem_uc main_arg14 (by decide))).trans (W6_main_arg14 m d0 d1 h c),
   (hs _ (mem_uc main_arg15 (by decide))).trans (W6_main_arg15 m d0 d1 h c),
   (hs _ (mem_uc main_arg16 (by decide))).trans (W6_main_arg16 m d0 d1 h c),
   (hs _ (mem_uc main_arg17 (by decide))).trans (W6_main_arg17 m d0 d1 h c),
   (hs _ (mem_uc main_arg18 (by decide))).trans (W6_main_arg18 m d0 d1 h c),
   (hs _ (mem_uc main_arg19 (by decide))).trans (W6_main_arg19 m d0 d1 h c),
   (hs _ (mem_uc main_arg20 (by decide))).trans (W6_main_arg20 m d0 d1 h c),
   (hs _ (mem_uc main_arg21 (by decide))).trans (W6_main_arg21 m d0 d1 h c)⟩

/-- The frame claim's post: the program runs and every argument ends as launched. -/
theorem frame_of_fits (h : Fits m d0 d1) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run (defs (F := F)) (onTc (τ := τ) (main (F := F))) ⟨m, fun _ => 0, ρ⟩).mono
    (fun r hr c => args_kept m d0 d1 h c r.2 (hr c)) (run_all m d0 d1 h ρ)

/-- The kernel side of the algebraic claim: the program runs, the result buffer ends at the second
    region's output array after all its write-backs, and every argument ends as launched. -/
theorem result_of_fits (h : Fits m d0 d1) (ρ : Dev nD → PrngReg) :
    θ_run defs (onTc (τ := τ) (main (F := F))) ⟨m, fun _ => 0, ρ⟩ (fun r => ∀ c : Dev nD,
      r.2.mem ((c.tc : Thread nD τ).loc main_v37) = (d1 c).arrAt 19 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run (defs (F := F)) (onTc (τ := τ) (main (F := F))) ⟨m, fun _ => 0, ρ⟩).mono
    (fun r hr c => ⟨(hr c _ (mem_uc main_v37 (by decide))).trans (W6_result m d0 d1 c), args_kept m d0 d1 h c r.2 (hr c)⟩)
    (run_all m d0 d1 h ρ)

end Cert.Kernel.Frm

end
-- ==== Proof.KR0Body.lean ====
import proofs.«404873_j80685255623116_3_alg».proof.Proof.Gen.Kernel.Launch
import proofs.«404873_j80685255623116_3_alg».proof.Proof.Gen.Kernel.Skeleton
import proofs.«404873_j80685255623116_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 0: the projection kernel's body

The first of the program's two pipelined regions walks the 8192 rows in 16 blocks of 512. At each block it
reads the feature rows, their class indices, the padded class table, three square weights and a bias, and
writes three blocks: the scaled queries, the keys and the values. The body is a straight line of whole-block
loads, arithmetic and whole-block stores; nothing is carried from one block to the next. So what the body
leaves in an output buffer is a function of the input blocks alone, and the region's proof data says, point
by point, "each input buffer holds its block, each output buffer holds that function of the input blocks".
-/

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Where an input window's buffer stands when the body is called

A window whose block index does not move from one point to the next is not fetched again: its buffer still
holds what the previous point left there. For an input the body leaves untouched that is the block itself,
so at EVERY point, fetched there or not, the buffer holds the point's block. The statement is over any proof
data whose arrays are `V`'s and whose `after` at this window is the block. -/

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through

Every load and every store of the body goes through the whole buffer: the unit-stride rectangle at offset zero
whose sizes are the buffer's own. There is one per shape. -/

abbrev r0_a : Rect S512x1024 := Rect.unit (s := S512x1024) ![0, 0] S512x1024.size inb_S512x1024_S512x1024_0_0
abbrev r0_b : Rect S512x1 := Rect.unit (s := S512x1) ![0, 0] S512x1.size inb_S512x1_S512x1_0_0
abbrev r0_c : Rect S128x1024 := Rect.unit (s := S128x1024) ![0, 0] S128x1024.size inb_S128x1024_S128x1024_0_0
abbrev r0_d : Rect S1024x1024 := Rect.unit (s := S1024x1024) ![0, 0] S1024x1024.size inb_S1024x1024_S1024x1024_0_0
abbrev r0_e : Rect S1024 := Rect.unit (s := S1024) ![0] S1024.size inb_S1024_S1024_0

/-- The offsets are zero on every axis, in rank 2 and in rank 1. -/
theorem zeros0_2 : (![0, 0] : Fin 2 → Nat) = fun _ => 0 := funext fun a => by fin_cases a <;> rfl
theorem zeros0_1 : (![0] : Fin 1 → Nat) = fun _ => 0 := funext fun a => by fin_cases a; rfl

/-! ## What the body leaves in each output buffer

Each output buffer receives exactly one store, of the whole block. Its contents afterwards are written as the
canonical form of that one-piece list of stores, the stored value being the skeleton's payload applied to what
the loads read. Since the one piece is the whole block, the canonical form is the payload itself, and a load
through the whole rectangle reads the contents unchanged: the three `_eq` lemmas say so. -/

/-- The query block: the rectified features times the query/key weight, scaled by 1/32. -/
def out0_7 (x0 : Vec F S512x1024 .f32) (x3 : Vec F S1024x1024 .bf16) : Vec F S512x1024 .bf16 :=
  View.canon [⟨r0_a, k0_pay4 (View.ld x0 r0_a) (View.ld x3 r0_d)⟩]

/-- The key block: the rows' class embeddings (a one-hot selection out of the table), rectified, times the
    same weight. -/
def out0_8 (x1 : Vec F S512x1 .i32) (x2 : Vec F S128x1024 .bf16) (x3 : Vec F S1024x1024 .bf16) : Vec F S512x1024 .bf16 :=
  View.canon [⟨r0_a, k0_pay5 (View.ld x1 r0_b) (View.ld x2 r0_c) (View.ld x3 r0_d)⟩]

/-- The value block: class embeddings times one half of the value weight, plus features times the other half,
    plus the bias. -/
def out0_9 (x0 : Vec F S512x1024 .f32) (x1 : Vec F S512x1 .i32) (x2 : Vec F S128x1024 .bf16) (x4 x5 : Vec F S1024x1024 .bf16)
    (x6 : Vec F S1024 .f32) : Vec F S512x1024 .bf16 :=
  View.canon [⟨r0_a, k0_pay1 (k0_pay6 (View.ld x1 r0_b) (View.ld x2 r0_c) (View.ld x4 r0_d)) (k0_pay7 (View.ld x0 r0_a))
    (View.ld x5 r0_d) (View.ld x6 r0_e)⟩]

theorem out0_7_eq (x0 : Vec F S512x1024 .f32) (x3 : Vec F S1024x1024 .bf16) : out0_7 x0 x3 = k0_pay4 x0 x3 := by
  unfold out0_7
  rw [View.canon_unit_zero zeros0_2]
  simp only [View.ld_unit_zero (S := S512x1024) zeros0_2, View.ld_unit_zero (S := S1024x1024) zeros0_2]

theorem out0_8_eq (x1 : Vec F S512x1 .i32) (x2 : Vec F S128x1024 .bf16) (x3 : Vec F S1024x1024 .bf16) :
    out0_8 x1 x2 x3 = k0_pay5 x1 x2 x3 := by
  unfold out0_8
  rw [View.canon_unit_zero zeros0_2]
  simp only [View.ld_unit_zero (S := S512x1) zeros0_2, View.ld_unit_zero (S := S128x1024) zeros0_2,
    View.ld_unit_zero (S := S1024x1024) zeros0_2]

theorem out0_9_eq (x0 : Vec F S512x1024 .f32) (x1 : Vec F S512x1 .i32) (x2 : Vec F S128x1024 .bf16) (x4 x5 : Vec F S1024x1024 .bf16)
    (x6 : Vec F S1024 .f32) : out0_9 x0 x1 x2 x4 x5 x6 = k0_pay1 (k0_pay6 x1 x2 x4) (k0_pay7 x0) x5 x6 := by
  unfold out0_9
  rw [View.canon_unit_zero zeros0_2]
  simp only [View.ld_unit_zero (S := S512x1024) zeros0_2, View.ld_unit_zero (S := S512x1) zeros0_2,
    View.ld_unit_zero (S := S128x1024) zeros0_2, View.ld_unit_zero (S := S1024x1024) zeros0_2,
    View.ld_unit_zero (S := S1024) zeros0_1]

/-- The one store into an output buffer covers it: every index lies in the whole rectangle. -/
theorem cover0_o (p0 : Vec F S512x1024 .bf16) (y : S512x1024.Idx) :
    ∃ pc ∈ ([⟨r0_a, p0⟩] : List (View.Piece (Elt F) S512x1024 .bf16)), y ∈ pc.1.set :=
  ⟨_, List.mem_singleton_self _, View.mem_set_unit_zero zeros0_2 inb_S512x1024_S512x1024_0_0 y⟩

/-! ## The body's triple

On whole staging buffers — the seven inputs' at given contents, the three outputs' at anything — the body runs
to a state where the inputs' buffers are as they were and each output's holds `out0_W` of the inputs'
contents. The printed function unfolds to its skeleton of memory operations over named payloads, and the triple
follows by stepping through the skeleton one memory operation at a time, through the part that holds the first
sixty statements; the loads of the output buffers that precede the stores read values nothing uses. What
remains is to hand the buffers to the continuation: an input's by reflexivity, an output's because one covering
store reads back as its canon. -/

set_option maxHeartbeats 1000000 in
theorem sound_kernel0 (c : Dev nD) (E : Set ℕ) (i : grid0.Coords)
    (arg1 : Memref sig .tc .vmem S512x1024 .f32) (harg1 : arg1.IsWhole)
    (arg2 : Memref sig .tc .vmem S512x1 .i32) (harg2 : arg2.IsWhole)
    (arg3 : Memref sig .tc .vmem S128x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .bf16) (harg6 : arg6.IsWhole)
    (arg7 : Memref sig .tc .vmem S1024 .f32) (harg7 : arg7.IsWhole)
    (arg8 : Memref sig .tc .vmem S512x1024 .bf16) (harg8 : arg8.IsWhole)
    (arg9 : Memref sig .tc .vmem S512x1024 .bf16) (harg9 : arg9.IsWhole)
    (arg10 : Memref sig .tc .vmem S512x1024 .bf16) (harg10 : arg10.IsWhole)
    (x0 : Vec F S512x1024 .f32) (x1 : Vec F S512x1 .i32) (x2 : Vec F S128x1024 .bf16) (x3 : Vec F S1024x1024 .bf16) (x4 : Vec F S1024x1024 .bf16) (x5 : Vec F S1024x1024 .bf16) (x6 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x3) ∗ owns (c : Thread nD τ) arg9 fullShare (out0_8 x1 x2 x3) ∗ owns (c : Thread nD τ) arg10 fullShare (out0_9 x0 x1 x2 x4 x5 x6)) -∗ K ⟨⟩))
      ⊢ wp frame (wpE (defs₀ (F := F)) Variants.none c none) E (cc0_proj_kernel i arg1 harg1 arg2 harg2 arg3 harg3 arg4 harg4 arg5 harg5 arg6 harg6 arg7 harg7 arg8 harg8 arg9 harg9 arg10 harg10) K := by
  simp only [cc0_proj_kernel_eq_skeleton]; unfold cc0_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_o _)
  isplitl [H8]
  · iexists _; isplitr
    swap; · iexact H8
    ipureintro
    exact View.read_writes_eq_canon _ _ _ (cover0_o _)
  iexists _; isplitr
  swap; · iexact H9
  ipureintro
  exact View.read_writes_eq_canon _ _ _ (cover0_o _)

/-! ## The region's proof data -/

/-- The proof data of the region on core `c`. The arrays are as the region finds them. After the body at point
    `t` an input's buffer holds its block and an output's holds `out0_W` of the input blocks at `t`. The
    invariant is the one of a body that keeps nothing between points (the scoped rest and the generator register,
    untouched); every share is full and nothing is owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 3 t)
    | ⟨8, _⟩ => out0_8 (iblk0 V c 1 t) (iblk0 V c 2 t) (iblk0 V c 3 t)
    | ⟨9, _⟩ => out0_9 (iblk0 V c 0 t) (iblk0 V c 1 t) (iblk0 V c 2 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window: the definition's case split reduced at each literal window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 3 t) := by dsimp only [dat0]
theorem after0_8 (c : Dev nD) (t : Fin cfg0.N) : (dat0 V c).after 8 t = out0_8 (iblk0 V c 1 t) (iblk0 V c 2 t) (iblk0 V c 3 t) := by dsimp only [dat0]
theorem after0_9 (c : Dev nD) (t : Fin cfg0.N) : (dat0 V c).after 9 t = out0_9 (iblk0 V c 0 t) (iblk0 V c 1 t) (iblk0 V c 2 t) (iblk0 V c 4 t) (iblk0 V c 5 t) (iblk0 V c 6 t) := by dsimp only [dat0]

/-! Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`: the invariant, the core's debts, and each window's current
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns: the same at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point. The inputs' buffers hold their blocks, so the body's triple applies at those blocks;
    the invariant and the debts do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point: its conjunction over the ten windows written out. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KR1Runs.lean ====
import proofs.«404873_j80685255623116_3_alg».proof.Proof.Gen.Kernel.Launch
import proofs.«404873_j80685255623116_3_alg».proof.Proof.Gen.Kernel.Skeleton
import proofs.«404873_j80685255623116_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 (the attention call): what its three control cases share

The grid is 16 × 16: point `t` works on query block `t / 16` and key block `t % 16`. The body has two
guards, both on the key block alone: the first (key block 0) resets the running maximum, the running
normaliser and the accumulator; the second (key block 15) runs the epilogue and stores the output block.
So a point is in exactly one of three cases: A (key block 0), B (key blocks 1 to 14), C (key block 15). -/

/-! ## The two guards, from the grid coordinates -/

/-- The first guard: "the key block is block 0", spelt as the body's scalar chain spells it. -/
abbrev cond1_0 (i : grid1.Coords) : Prop := (Scalar.cmpi .ne (Scalar.extui (Scalar.cmpi .eq (BitVec.ofNat 32 (i 1).val) 0#32)) 0#32) = 1#1
/-- It holds exactly at the points whose key block is 0: decided over the 256 points. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second guard: "the key block is block 15, the last". -/
abbrev cond1_1 (i : grid1.Coords) : Prop := k1_cond2 i = 1#1
/-- It holds exactly at the points whose key block is 15: decided over the 256 points. -/
theorem hcond1_1 : ∀ t : Fin cfg1.N, cond1_1 (grid1.coords t) ↔ t.val % 16 = 15 :=
  (by decide +kernel : ∀ t : Fin grid1.N, cond1_1 (grid1.coords t) ↔ t.val % 16 = 15)

/-- The two guards never hold together (16 key blocks: block 0 is not block 15). -/
theorem cond1_excl : ∀ t : Fin cfg1.N, cond1_0 (grid1.coords t) → ¬cond1_1 (grid1.coords t) :=
  (by decide +kernel : ∀ t : Fin grid1.N, cond1_0 (grid1.coords t) → ¬cond1_1 (grid1.coords t))

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (an input). -/
theorem liveAt1_6 : ∀ t : Fin cfg1.N, cfg1.idle 6 (grid1.coords t) = false := by decide +kernel
/-- Window 7 is never idle (an input). -/
theorem liveAt1_7 : ∀ t : Fin cfg1.N, cfg1.idle 7 (grid1.coords t) = false := by decide +kernel
/-- Window 8 is never idle (an input). -/
theorem liveAt1_8 : ∀ t : Fin cfg1.N, cfg1.idle 8 (grid1.coords t) = false := by decide +kernel
/-- Window 9 is never idle (an input). -/
theorem liveAt1_9 : ∀ t : Fin cfg1.N, cfg1.idle 9 (grid1.coords t) = false := by decide +kernel
/-- Window 10 is never idle (an input). -/
theorem liveAt1_10 : ∀ t : Fin cfg1.N, cfg1.idle 10 (grid1.coords t) = false := by decide +kernel
/-- Window 11 is never idle (an input). -/
theorem liveAt1_11 : ∀ t : Fin cfg1.N, cfg1.idle 11 (grid1.coords t) = false := by decide +kernel
/-- Window 12 is never idle (an input). -/
theorem liveAt1_12 : ∀ t : Fin cfg1.N, cfg1.idle 12 (grid1.coords t) = false := by decide +kernel
/-- Window 13 is never idle (an input). -/
theorem liveAt1_13 : ∀ t : Fin cfg1.N, cfg1.idle 13 (grid1.coords t) = false := by decide +kernel
/-- Window 14 is never idle (an input). -/
theorem liveAt1_14 : ∀ t : Fin cfg1.N, cfg1.idle 14 (grid1.coords t) = false := by decide +kernel
/-- Window 15 is never idle (an input). -/
theorem liveAt1_15 : ∀ t : Fin cfg1.N, cfg1.idle 15 (grid1.coords t) = false := by decide +kernel
/-- Window 16 is never idle (an input). -/
theorem liveAt1_16 : ∀ t : Fin cfg1.N, cfg1.idle 16 (grid1.coords t) = false := by decide +kernel
/-- Window 17 is never idle (an input). -/
theorem liveAt1_17 : ∀ t : Fin cfg1.N, cfg1.idle 17 (grid1.coords t) = false := by decide +kernel
/-- Window 18 is never idle (an input). -/
theorem liveAt1_18 : ∀ t : Fin cfg1.N, cfg1.idle 18 (grid1.coords t) = false := by decide +kernel
/-- In case A the output window is idle: the body stores nothing into it. -/
theorem idleAt1_19_A : ∀ t : Fin cfg1.N, cond1_0 (grid1.coords t) → ¬cond1_1 (grid1.coords t) → cfg1.idle 19 (grid1.coords t) = true := by decide +kernel
/-- In case A the output block is not written back. -/
theorem noFlush1_19_A : ∀ t : Fin cfg1.N, cond1_0 (grid1.coords t) → ¬cond1_1 (grid1.coords t) → (cfg1.win 19).flush t = false := by decide +kernel
/-- In case B the output window is idle: the body stores nothing into it. -/
theorem idleAt1_19_B : ∀ t : Fin cfg1.N, ¬cond1_0 (grid1.coords t) → ¬cond1_1 (grid1.coords t) → cfg1.idle 19 (grid1.coords t) = true := by decide +kernel
/-- In case B the output block is not written back. -/
theorem noFlush1_19_B : ∀ t : Fin cfg1.N, ¬cond1_0 (grid1.coords t) → ¬cond1_1 (grid1.coords t) → (cfg1.win 19).flush t = false := by decide +kernel
/-- In case C the output window is live: the epilogue stores the whole block. -/
theorem liveAt1_19_C : ∀ t : Fin cfg1.N, ¬cond1_0 (grid1.coords t) → cond1_1 (grid1.coords t) → cfg1.idle 19 (grid1.coords t) = false := by decide +kernel
/-- In case C the output block is written back. -/
theorem flush1_19_C : ∀ t : Fin cfg1.N, ¬cond1_0 (grid1.coords t) → cond1_1 (grid1.coords t) → (cfg1.win 19).flush t = true := by decide +kernel

/-! ## The memrefs the body is called on -/

/-- One staging buffer of the output window, through which its contents are stated (which of the two does not
    matter: what is read through a whole view after covering stores is the same). -/
abbrev VO1_19 : View sig .tc .vmem S512x1024 .f32 := (Memref.whole cc1_stg19_0 : Memref sig .tc .vmem S512x1024 .f32).view
/-- Each window's current staging memref at point `t`, and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x512 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S512x1024 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x1024 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1024x1024 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1024 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1024x1024 .bf16 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1024 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1024x1024 .bf16 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S1024 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1024 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S1024 .f32 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S512x1024 .f32 := win1_19.stage (cfg1.slots t 19)
abbrev hs1_19 (t : Fin cfg1.N) : (ms1_19 t).IsWhole := hstage1_19 ((cfg1.slots t 19).cast nbuf1_19)
/-- The three scratch operands, whole buffers of the call's own, passed beside the windows: the accumulator
    (512 × 1024), the running maximum and the running normaliser (512 × 1 each). -/
abbrev scM1_0 : Memref sig .tc .vmem S512x1024 .f32 := Memref.whole cc1_scratch0
abbrev scM1_1 : Memref sig .tc .vmem S512x1 .f32 := Memref.whole cc1_scratch1
abbrev scM1_2 : Memref sig .tc .vmem S512x1 .f32 := Memref.whole cc1_scratch2
/-- The scratch operands as views: what they hold between points is stated through these. -/
abbrev VS1_0 : View sig .tc .vmem S512x1024 .f32 := scM1_0.view
abbrev VS1_1 : View sig .tc .vmem S512x1 .f32 := scM1_1.view
abbrev VS1_2 : View sig .tc .vmem S512x1 .f32 := scM1_2.view

/-- The body at point `t` is the kernel function on the staging memrefs and the three scratch memrefs. -/
theorem bodyAt1_eq (t : Fin cfg1.N) :
    bodyAt1 (F := F) t = cc1_kernel (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) := rfl

/-! ## The invariant between points -/

/-- The invariant the pipeline keeps for the body between points, spelt out: the staging buffers of the
    projection call (not this call's: held at some contents and never touched here), then the three scratch
    memrefs each owned at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg7_1), ((c : Thread nD τ).loc cc0_stg7_1) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_stg8_1), ((c : Thread nD τ).loc cc0_stg8_1) ↦{fullShare} f)
          ∗ (∃ f : Buf (Elt F) ((c : Thread nD τ).loc cc0_stg9_0), ((c : Thread nD τ).loc cc0_stg9_0) ↦{fullShare} f)
          ∗ (∃ f : Buf (Elt F) ((c : Thread nD τ).loc cc0_stg9_1), ((c : Thread nD τ).loc cc0_stg9_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Frm

end
-- ==== Proof.KR1RunA.lean ====
import proofs.«404873_j80685255623116_3_alg».proof.Proof.KR1Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! Reading through a whole memref is a bijection between what the buffer holds and what the memref reads, so
"the memref is owned at the contents X" and "its buffer is held at the one raw contents that read X" say the same.
The three lemmas below pass between the two forms one operand at a time. -/

/-- A whole memref owned at the contents X it reads is its buffer held at the raw contents that read X. -/
private theorem owns_open (c : Dev nD) {sh : Shape} {e : EltTy} {m : Memref sig .tc .vmem sh e} (h : m.IsWhole) (X : sh.Idx → Elt F e) :
    (owns (c : Thread nD τ) m fullShare X : sProp 𝕄) ⊢ m.view.loc (c : Thread nD τ) ↦[m.view.set]{fullShare} h.unread X := by
  unfold owns; iintro ⟨%f, %hf, H⟩; obtain rfl := h.eq_unread hf; iexact H

/-- And back: the buffer held at the raw contents that read X is the memref owned at X. -/
private theorem owns_close (c : Dev nD) {sh : Shape} {e : EltTy} {m : Memref sig .tc .vmem sh e} (h : m.IsWhole) (X : sh.Idx → Elt F e) :
    (m.view.loc (c : Thread nD τ) ↦[m.view.set]{fullShare} h.unread X : sProp 𝕄) ⊢ owns (c : Thread nD τ) m fullShare X := by
  unfold owns; iintro H; iexists _; isplitr; · ipureintro; exact h.read_unread _
  iexact H

/-- A memref owned at some contents is its buffer held at some raw contents. -/
private theorem owns_any_open (c : Dev nD) {sh : Shape} {e : EltTy} (m : Memref sig .tc .vmem sh e) :
    (iprop(∃ d, owns (c : Thread nD τ) m fullShare d) : sProp 𝕄) ⊢ iprop(∃ f, m.view.loc (c : Thread nD τ) ↦[m.view.set]{fullShare} f) := by
  unfold owns; iintro ⟨%d, %f, -, H⟩; iexists f; iexact H

set_option maxHeartbeats 1000000 in
/-- The attention call's body on any whole memrefs, CASE A: the key block is block 0. The first guard is taken (the running maximum, the running normaliser and
    the accumulator are reset), the second is not (no epilogue). Each scratch buffer is stored whole before anything
    read from it is used, so it is taken at ANY contents; the output block is not touched and is handed back as it came
    (at xi19).
    The inputs are owned at the contents read from them (x0 to x18) and handed back unchanged. What the body's
    stores leave in each buffer it writes is a list of pieces (the last store first): LS0 for the accumulator, LS1 for
    the running maximum, LS2 for the running normaliser, L19 for the output block (empty where it is not written).
    The lists are found by running the body: they are the witness, and the statement is the triple that holds of them.
    Only the query, key and value blocks are read in this case: the other sixteen inputs (and the output block) are never
    opened and go back to the continuation exactly as they came. -/
noncomputable def kernelRun1_A (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) :
    Σ' (L19 : List (View.Piece (Elt F) S512x1024 .f32)) (LS0 : List (View.Piece (Elt F) S512x1024 .f32)) (LS1 : List (View.Piece (Elt F) S512x1 .f32)), { LS2 : List (View.Piece (Elt F) S512x1 .f32) //
      ∀ (xi19 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare xi19 ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare xi19 ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LS1) ∗ (∃ f, arg24.view.loc (c : Thread nD τ) ↦[arg24.view.set]{fullShare} arg24.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨[], ?_, ?_, ?_, fun xi19 E K => ?run⟩
  case run =>
    iintro ⟨H0, H1, H2, H3, H4, H5, H6, H7, H8, H9, H10, H11, H12, H13, H14, H15, H16, H17, H18, H19, HS0, HS1, HS2, Hk⟩
    ihave H0 := (owns_open c harg2 x0) $$ H0
    ihave H1 := (owns_open c harg3 x1) $$ H1
    ihave H2 := (owns_open c harg4 x2) $$ H2
    ihave HS0 := (owns_any_open c arg22) $$ HS0
    icases HS0 with ⟨%fs0, HS0⟩
    ihave HS1 := (owns_any_open c arg23) $$ HS1
    icases HS1 with ⟨%fs1, HS1⟩
    ihave HS2 := (owns_any_open c arg24) $$ HS2
    icases HS2 with ⟨%fs2, HS2⟩
    simp only [cc1_kernel_eq_skeleton]; unfold cc1_kernel_skel
    simp only [k1_part1_eq_skeleton, k1_part2_eq_skeleton, k1_part3_eq_skeleton]
    sl_exec (disch := first | exact hc0 | exact hc1)
    sl_step
    iapply Hk
    isplitl [H0]; · iapply (owns_close c harg2 x0); iexact H0
    isplitl [H1]; · iapply (owns_close c harg3 x1); iexact H1
    isplitl [H2]; · iapply (owns_close c harg4 x2); iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexists _; iexact HS0
    isplitl [HS1]; · iexists _; iexact HS1
    iexists _; iexact HS2

end Cert.Kernel.Frm

end
-- ==== Proof.KR1RunB.lean ====
import proofs.«404873_j80685255623116_3_alg».proof.Proof.KR1Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! Reading through a whole memref is a bijection between what the buffer holds and what the memref reads, so
"the memref is owned at the contents X" and "its buffer is held at the one raw contents that read X" say the same.
The three lemmas below pass between the two forms one operand at a time. -/

/-- A whole memref owned at the contents X it reads is its buffer held at the raw contents that read X. -/
private theorem owns_open (c : Dev nD) {sh : Shape} {e : EltTy} {m : Memref sig .tc .vmem sh e} (h : m.IsWhole) (X : sh.Idx → Elt F e) :
    (owns (c : Thread nD τ) m fullShare X : sProp 𝕄) ⊢ m.view.loc (c : Thread nD τ) ↦[m.view.set]{fullShare} h.unread X := by
  unfold owns; iintro ⟨%f, %hf, H⟩; obtain rfl := h.eq_unread hf; iexact H

/-- And back: the buffer held at the raw contents that read X is the memref owned at X. -/
private theorem owns_close (c : Dev nD) {sh : Shape} {e : EltTy} {m : Memref sig .tc .vmem sh e} (h : m.IsWhole) (X : sh.Idx → Elt F e) :
    (m.view.loc (c : Thread nD τ) ↦[m.view.set]{fullShare} h.unread X : sProp 𝕄) ⊢ owns (c : Thread nD τ) m fullShare X := by
  unfold owns; iintro H; iexists _; isplitr; · ipureintro; exact h.read_unread _
  iexact H

/-- A memref owned at some contents is its buffer held at some raw contents. -/
private theorem owns_any_open (c : Dev nD) {sh : Shape} {e : EltTy} (m : Memref sig .tc .vmem sh e) :
    (iprop(∃ d, owns (c : Thread nD τ) m fullShare d) : sProp 𝕄) ⊢ iprop(∃ f, m.view.loc (c : Thread nD τ) ↦[m.view.set]{fullShare} f) := by
  unfold owns; iintro ⟨%d, %f, -, H⟩; iexists f; iexact H

set_option maxHeartbeats 1000000 in
/-- The attention call's body on any whole memrefs, CASE B: the key block is one of blocks 1 to 14. Neither guard is taken: the body reads the query, key and value
    blocks and the three scratch buffers as the point before left them (xs0, xs1, xs2), and stores the three
    scratch buffers; the output block is not touched and is handed back as it came (at xi19).
    The inputs are owned at the contents read from them (x0 to x18) and handed back unchanged. What the body's
    stores leave in each buffer it writes is a list of pieces (the last store first): LS0 for the accumulator, LS1 for
    the running maximum, LS2 for the running normaliser, L19 for the output block (empty where it is not written).
    The lists are found by running the body: they are the witness, and the statement is the triple that holds of them.
    Only the query, key and value blocks are read in this case: the other sixteen inputs (and the output block) are never
    opened and go back to the continuation exactly as they came. -/
noncomputable def kernelRun1_B (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) :
    Σ' (L19 : List (View.Piece (Elt F) S512x1024 .f32)) (LS0 : List (View.Piece (Elt F) S512x1024 .f32)) (LS1 : List (View.Piece (Elt F) S512x1 .f32)), { LS2 : List (View.Piece (Elt F) S512x1 .f32) //
      ∀ (xi19 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare xi19 ∗ owns (c : Thread nD τ) arg22 fullShare xs0 ∗ owns (c : Thread nD τ) arg23 fullShare xs1 ∗ owns (c : Thread nD τ) arg24 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare xi19 ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LS1) ∗ (∃ f, arg24.view.loc (c : Thread nD τ) ↦[arg24.view.set]{fullShare} arg24.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨[], ?_, ?_, ?_, fun xi19 E K => ?run⟩
  case run =>
    iintro ⟨H0, H1, H2, H3, H4, H5, H6, H7, H8, H9, H10, H11, H12, H13, H14, H15, H16, H17, H18, H19, HS0, HS1, HS2, Hk⟩
    ihave H0 := (owns_open c harg2 x0) $$ H0
    ihave H1 := (owns_open c harg3 x1) $$ H1
    ihave H2 := (owns_open c harg4 x2) $$ H2
    ihave HS0 := (owns_open c harg22 xs0) $$ HS0
    ihave HS1 := (owns_open c harg23 xs1) $$ HS1
    ihave HS2 := (owns_open c harg24 xs2) $$ HS2
    simp only [cc1_kernel_eq_skeleton]; unfold cc1_kernel_skel
    simp only [k1_part1_eq_skeleton, k1_part2_eq_skeleton, k1_part3_eq_skeleton]
    sl_exec (disch := first | exact hc0 | exact hc1)
    sl_step
    iapply Hk
    isplitl [H0]; · iapply (owns_close c harg2 x0); iexact H0
    isplitl [H1]; · iapply (owns_close c harg3 x1); iexact H1
    isplitl [H2]; · iapply (owns_close c harg4 x2); iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexists _; iexact HS0
    isplitl [HS1]; · iexists _; iexact HS1
    iexists _; iexact HS2

end Cert.Kernel.Frm

end
-- ==== Proof.KR1RunC.lean ====
import proofs.«404873_j80685255623116_3_alg».proof.Proof.KR1Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! Reading through a whole memref is a bijection between what the buffer holds and what the memref reads, so
"the memref is owned at the contents X" and "its buffer is held at the one raw contents that read X" say the same.
The three lemmas below pass between the two forms one operand at a time. -/

/-- A whole memref owned at the contents X it reads is its buffer held at the raw contents that read X. -/
private theorem owns_open (c : Dev nD) {sh : Shape} {e : EltTy} {m : Memref sig .tc .vmem sh e} (h : m.IsWhole) (X : sh.Idx → Elt F e) :
    (owns (c : Thread nD τ) m fullShare X : sProp 𝕄) ⊢ m.view.loc (c : Thread nD τ) ↦[m.view.set]{fullShare} h.unread X := by
  unfold owns; iintro ⟨%f, %hf, H⟩; obtain rfl := h.eq_unread hf; iexact H

/-- And back: the buffer held at the raw contents that read X is the memref owned at X. -/
private theorem owns_close (c : Dev nD) {sh : Shape} {e : EltTy} {m : Memref sig .tc .vmem sh e} (h : m.IsWhole) (X : sh.Idx → Elt F e) :
    (m.view.loc (c : Thread nD τ) ↦[m.view.set]{fullShare} h.unread X : sProp 𝕄) ⊢ owns (c : Thread nD τ) m fullShare X := by
  unfold owns; iintro H; iexists _; isplitr; · ipureintro; exact h.read_unread _
  iexact H

/-- A memref owned at some contents is its buffer held at some raw contents. -/
private theorem owns_any_open (c : Dev nD) {sh : Shape} {e : EltTy} (m : Memref sig .tc .vmem sh e) :
    (iprop(∃ d, owns (c : Thread nD τ) m fullShare d) : sProp 𝕄) ⊢ iprop(∃ f, m.view.loc (c : Thread nD τ) ↦[m.view.set]{fullShare} f) := by
  unfold owns; iintro ⟨%d, %f, -, H⟩; iexists f; iexact H

set_option maxHeartbeats 1000000 in
/-- The attention call's body on any whole memrefs, CASE C: the key block is block 15, the last. The first guard is not taken, the second is: after the same update of
    the three scratch buffers as in case B (from xs0, xs1, xs2), the epilogue reads the remaining inputs and stores
    the whole output block, which is therefore taken at ANY contents and left with its pieces L19.
    The inputs are owned at the contents read from them (x0 to x18) and handed back unchanged. What the body's
    stores leave in each buffer it writes is a list of pieces (the last store first): LS0 for the accumulator, LS1 for
    the running maximum, LS2 for the running normaliser, L19 for the output block (empty where it is not written).
    The lists are found by running the body: they are the witness, and the statement is the triple that holds of them.
    Every input is read in this case, so every input is opened to its buffer. -/
noncomputable def kernelRun1_C (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) :
    Σ' (L19 : List (View.Piece (Elt F) S512x1024 .f32)) (LS0 : List (View.Piece (Elt F) S512x1024 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ owns (c : Thread nD τ) arg22 fullShare xs0 ∗ owns (c : Thread nD τ) arg23 fullShare xs1 ∗ owns (c : Thread nD τ) arg24 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f LS0) ∗ (∃ f, arg23.view.loc (c : Thread nD τ) ↦[arg23.view.set]{fullShare} arg23.view.writes (Elt F) f LS1) ∗ (∃ f, arg24.view.loc (c : Thread nD τ) ↦[arg24.view.set]{fullShare} arg24.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, fun E K => ?run⟩
  case run =>
    iintro ⟨H0, H1, H2, H3, H4, H5, H6, H7, H8, H9, H10, H11, H12, H13, H14, H15, H16, H17, H18, H19, HS0, HS1, HS2, Hk⟩
    ihave H0 := (owns_open c harg2 x0) $$ H0
    ihave H1 := (owns_open c harg3 x1) $$ H1
    ihave H2 := (owns_open c harg4 x2) $$ H2
    ihave H3 := (owns_open c harg5 x3) $$ H3
    ihave H4 := (owns_open c harg6 x4) $$ H4
    ihave H5 := (owns_open c harg7 x5) $$ H5
    ihave H6 := (owns_open c harg8 x6) $$ H6
    ihave H7 := (owns_open c harg9 x7) $$ H7
    ihave H8 := (owns_open c harg10 x8) $$ H8
    ihave H9 := (owns_open c harg11 x9) $$ H9
    ihave H10 := (owns_open c harg12 x10) $$ H10
    ihave H11 := (owns_open c harg13 x11) $$ H11
    ihave H12 := (owns_open c harg14 x12) $$ H12
    ihave H13 := (owns_open c harg15 x13) $$ H13
    ihave H14 := (owns_open c harg16 x14) $$ H14
    ihave H15 := (owns_open c harg17 x15) $$ H15
    ihave H16 := (owns_open c harg18 x16) $$ H16
    ihave H17 := (owns_open c harg19 x17) $$ H17
    ihave H18 := (owns_open c harg20 x18) $$ H18
    ihave H19 := (owns_any_open c arg21) $$ H19
    icases H19 with ⟨%f19, H19⟩
    ihave HS0 := (owns_open c harg22 xs0) $$ HS0
    ihave HS1 := (owns_open c harg23 xs1) $$ HS1
    ihave HS2 := (owns_open c harg24 xs2) $$ HS2
    simp only [cc1_kernel_eq_skeleton]; unfold cc1_kernel_skel
    simp only [k1_part1_eq_skeleton, k1_part2_eq_skeleton, k1_part3_eq_skeleton]
    sl_exec (disch := first | exact hc0 | exact hc1)
    sl_step
    iapply Hk
    isplitl [H0]; · iapply (owns_close c harg2 x0); iexact H0
    isplitl [H1]; · iapply (owns_close c harg3 x1); iexact H1
    isplitl [H2]; · iapply (owns_close c harg4 x2); iexact H2
    isplitl [H3]; · iapply (owns_close c harg5 x3); iexact H3
    isplitl [H4]; · iapply (owns_close c harg6 x4); iexact H4
    isplitl [H5]; · iapply (owns_close c harg7 x5); iexact H5
    isplitl [H6]; · iapply (owns_close c harg8 x6); iexact H6
    isplitl [H7]; · iapply (owns_close c harg9 x7); iexact H7
    isplitl [H8]; · iapply (owns_close c harg10 x8); iexact H8
    isplitl [H9]; · iapply (owns_close c harg11 x9); iexact H9
    isplitl [H10]; · iapply (owns_close c harg12 x10); iexact H10
    isplitl [H11]; · iapply (owns_close c harg13 x11); iexact H11
    isplitl [H12]; · iapply (owns_close c harg14 x12); iexact H12
    isplitl [H13]; · iapply (owns_close c harg15 x13); iexact H13
    isplitl [H14]; · iapply (owns_close c harg16 x14); iexact H14
    isplitl [H15]; · iapply (owns_close c harg17 x15); iexact H15
    isplitl [H16]; · iapply (owns_close c harg18 x16); iexact H16
    isplitl [H17]; · iapply (owns_close c harg19 x17); iexact H17
    isplitl [H18]; · iapply (owns_close c harg20 x18); iexact H18
    isplitl [H19]; · iexists _; iexact H19
    isplitl [HS0]; · iexists _; iexact HS0
    isplitl [HS1]; · iexists _; iexact HS1
    iexists _; iexact HS2

end Cert.Kernel.Frm

end
-- ==== Proof.KR1Data.lean ====
import proofs.«404873_j80685255623116_3_alg».proof.Proof.KR1RunA
import proofs.«404873_j80685255623116_3_alg».proof.Proof.KR1RunB
import proofs.«404873_j80685255623116_3_alg».proof.Proof.KR1RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 (the attention call): the pipeline's proof data

The body carries three buffers from one grid point to the next: the accumulator, the running maximum and the running
normaliser of the streaming softmax. The proof data therefore names, point by point, what those three hold after the
body (and what the output block holds where it is stored), and the invariant between points says exactly that. -/

-- the buffer contents of the core when the region is entered: a parameter, which the program's run instantiates
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (unfetched, the block
index has not moved), for ANY proof data whose array is the entry contents and whose body leaves the block in place. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (Pipeline.UD sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (Pipeline.UD sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (Pipeline.UD sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (Pipeline.UD sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (Pipeline.UD sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (Pipeline.UD sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (Pipeline.UD sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (Pipeline.UD sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (Pipeline.UD sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
theorem before1_17_of {c : Dev nD} (dat : Dat τ (Elt F) Unit ℕ (Pipeline.UD sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
theorem before1_18_of {c : Dev nD} (dat : Dat τ (Elt F) Unit ℕ (Pipeline.UD sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves, on any memrefs

Each case's run found, for every buffer the body stores into, the list of pieces its stores leave. The pieces of a buffer
tile it (each case stores every scratch buffer whole, and case C the output block whole), so what the buffer then reads is
the pieces read back over arbitrary prior contents: it does not depend on what the buffer held before. -/

/-- Case A (key block 0): the pieces found for the accumulator cover it. -/
theorem scover1_A_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (y : S512x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.1 S512x1024.size (by sl_kernel_rfl) y

/-- Case A (key block 0): what the accumulator holds after the body, its pieces read back. -/
def sout1_A_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) : Vec F S512x1024 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.1)

/-- Case A (key block 0): the pieces found for the running maximum cover it. -/
theorem scover1_A_1 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (y : S512x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.2.1 S512x1.size (by sl_kernel_rfl) y

/-- Case A (key block 0): what the running maximum holds after the body, its pieces read back. -/
def sout1_A_1 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) : Vec F S512x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.2.1)

/-- Case A (key block 0): the pieces found for the running normaliser cover it. -/
theorem scover1_A_2 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (y : S512x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.2.2.1 S512x1.size (by sl_kernel_rfl) y

/-- Case A (key block 0): what the running normaliser holds after the body, its pieces read back. -/
def sout1_A_2 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) : Vec F S512x1 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18).2.2.2.1)

/-- Case B (key blocks 1 to 14): the pieces found for the accumulator cover it. -/
theorem scover1_B_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) (y : S512x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.1 S512x1024.size (by sl_kernel_rfl) y

/-- Case B (key blocks 1 to 14): what the accumulator holds after the body, its pieces read back. -/
def sout1_B_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) : Vec F S512x1024 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.1)

/-- Case B (key blocks 1 to 14): the pieces found for the running maximum cover it. -/
theorem scover1_B_1 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) (y : S512x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.1 S512x1.size (by sl_kernel_rfl) y

/-- Case B (key blocks 1 to 14): what the running maximum holds after the body, its pieces read back. -/
def sout1_B_1 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.1)

/-- Case B (key blocks 1 to 14): the pieces found for the running normaliser cover it. -/
theorem scover1_B_2 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) (y : S512x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.2.1 S512x1.size (by sl_kernel_rfl) y

/-- Case B (key blocks 1 to 14): what the running normaliser holds after the body, its pieces read back. -/
def sout1_B_2 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) : Vec F S512x1 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.2.1)

/-- Case C (key block 15): the pieces found for the accumulator cover it. -/
theorem scover1_C_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.1 S512x1024.size (by sl_kernel_rfl) y

/-- Case C (key block 15): what the accumulator holds after the body, its pieces read back. -/
def sout1_C_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) : Vec F S512x1024 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.1)

/-- Case C (key block 15): the pieces found for the running maximum cover it. -/
theorem scover1_C_1 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) (y : S512x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.1 S512x1.size (by sl_kernel_rfl) y

/-- Case C (key block 15): what the running maximum holds after the body, its pieces read back. -/
def sout1_C_1 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.1)

/-- Case C (key block 15): the pieces found for the running normaliser cover it. -/
theorem scover1_C_2 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) (y : S512x1.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.2.1 S512x1.size (by sl_kernel_rfl) y

/-- Case C (key block 15): what the running normaliser holds after the body, its pieces read back. -/
def sout1_C_2 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) : Vec F S512x1 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).2.2.2.1)

/-- Case C: the pieces found for the output block cover it (the epilogue stores the whole block). -/
theorem cover1_C_19 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).1 S512x1024.size (by sl_kernel_rfl) y

/-- Case C: what the output block's staging buffer holds after the body, its pieces read back. -/
def out1_C_19 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) : Vec F S512x1024 .f32 :=
  VO1_19.read (Elt F) (VO1_19.writes (Elt F) VO1_19.junk (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2).1)

/-- Where the body stores nothing into the output block (cases A and B) the window is idle and is not written back:
    a placeholder stands for its contents there, which nothing consults. -/
def out1_idle : Vec F S512x1024 .f32 := VO1_19.read (Elt F) (VO1_19.writes (Elt F) VO1_19.junk [])

/-! ## The same at a grid point

At point t the body is called on the windows' current staging memrefs and the three scratch memrefs, the inputs at their
blocks. Each case's four contents there (output block, accumulator, running maximum, running normaliser), as one tuple. -/

/-- Case A at point t: nothing of the point before is read. -/
def outs1_A (c : Dev nD) (t : Fin cfg1.N) (hc0 : cond1_0 (grid1.coords t)) (hc1 : ¬cond1_1 (grid1.coords t)) : Vec F S512x1024 .f32 × Vec F S512x1024 .f32 × Vec F S512x1 .f32 × Vec F S512x1 .f32 :=
  (out1_idle (F := F), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t),
    sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t),
    sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t))

/-- Case B at point t, over what the point before left in the three scratch buffers. -/
def outs1_B (c : Dev nD) (t : Fin cfg1.N) (hc0 : ¬cond1_0 (grid1.coords t)) (hc1 : ¬cond1_1 (grid1.coords t)) (xs0 : Vec F S512x1024 .f32) (xs1 : Vec F S512x1 .f32) (xs2 : Vec F S512x1 .f32) : Vec F S512x1024 .f32 × Vec F S512x1024 .f32 × Vec F S512x1 .f32 × Vec F S512x1 .f32 :=
  (out1_idle (F := F), sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) xs0 xs1 xs2,
    sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) xs0 xs1 xs2,
    sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) xs0 xs1 xs2)

/-- Case C at point t, over what the point before left in the three scratch buffers. -/
def outs1_C (c : Dev nD) (t : Fin cfg1.N) (hc0 : ¬cond1_0 (grid1.coords t)) (hc1 : cond1_1 (grid1.coords t)) (xs0 : Vec F S512x1024 .f32) (xs1 : Vec F S512x1 .f32) (xs2 : Vec F S512x1 .f32) : Vec F S512x1024 .f32 × Vec F S512x1024 .f32 × Vec F S512x1 .f32 × Vec F S512x1 .f32 :=
  (out1_C_19 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) xs0 xs1 xs2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) xs0 xs1 xs2,
    sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) xs0 xs1 xs2,
    sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) xs0 xs1 xs2)

/-! ## What the buffers hold after each point -/

/-- THE ACCUMULATION. After the body at position n: the output block's staging buffer, then the accumulator, the running
    maximum and the running normaliser. The point's key block (n mod 16) selects the case; cases B and C run over what
    position n - 1 left in the three scratch buffers, case A over nothing (it resets them). -/
def outsAt1 (c : Dev nD) : (n : ℕ) → n < cfg1.N → Vec F S512x1024 .f32 × Vec F S512x1024 .f32 × Vec F S512x1 .f32 × Vec F S512x1 .f32
  | 0, hn => outs1_A V c ⟨0, hn⟩ ((hcond1_0 ⟨0, hn⟩).mpr (Nat.zero_mod _)) (cond1_excl ⟨0, hn⟩ ((hcond1_0 ⟨0, hn⟩).mpr (Nat.zero_mod _)))
  | n + 1, hn =>
    if h0 : (n + 1) % 16 = 0 then
      outs1_A V c ⟨n + 1, hn⟩ ((hcond1_0 ⟨n + 1, hn⟩).mpr h0) (cond1_excl ⟨n + 1, hn⟩ ((hcond1_0 ⟨n + 1, hn⟩).mpr h0))
    else if h1 : (n + 1) % 16 = 15 then
      outs1_C V c ⟨n + 1, hn⟩ (fun h => cond1_excl ⟨n + 1, hn⟩ h ((hcond1_1 ⟨n + 1, hn⟩).mpr h1)) ((hcond1_1 ⟨n + 1, hn⟩).mpr h1)
        (outsAt1 c n (Nat.lt_of_succ_lt hn)).2.1 (outsAt1 c n (Nat.lt_of_succ_lt hn)).2.2.1 (outsAt1 c n (Nat.lt_of_succ_lt hn)).2.2.2
    else
      outs1_B V c ⟨n + 1, hn⟩ (fun h => h0 ((hcond1_0 ⟨n + 1, hn⟩).mp h)) (fun h => h1 ((hcond1_1 ⟨n + 1, hn⟩).mp h))
        (outsAt1 c n (Nat.lt_of_succ_lt hn)).2.1 (outsAt1 c n (Nat.lt_of_succ_lt hn)).2.2.1 (outsAt1 c n (Nat.lt_of_succ_lt hn)).2.2.2

/-- At a point of case A (key block 0): that case's contents. -/
theorem outsAt1_A (c : Dev nD) (t : Fin cfg1.N) (h0 : t.val % 16 = 0) :
    outsAt1 V c t.val t.isLt = outs1_A V c t ((hcond1_0 t).mpr h0) (cond1_excl t ((hcond1_0 t).mpr h0)) := by
  obtain ⟨n, hn⟩ := t
  cases n with
  | zero => rfl
  | succ n => exact dif_pos h0

/-- At a point of case B (key blocks 1 to 14): that case's contents, over what the point before left. -/
theorem outsAt1_B (c : Dev nD) (t : Fin cfg1.N) (h0 : ¬t.val % 16 = 0) (h1 : ¬t.val % 16 = 15) :
    outsAt1 V c t.val t.isLt = outs1_B V c t (fun h => h0 ((hcond1_0 t).mp h)) (fun h => h1 ((hcond1_1 t).mp h))
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

/-- At a point of case C (key block 15): that case's contents, over what the point before left. -/
theorem outsAt1_C (c : Dev nD) (t : Fin cfg1.N) (h1 : t.val % 16 = 15) :
    outsAt1 V c t.val t.isLt = outs1_C V c t (fun h => cond1_excl t h ((hcond1_1 t).mpr h1)) ((hcond1_1 t).mpr h1)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (show (0 : ℕ) % 16 = 15 from h1) (by decide)
  | succ n =>
    have h0 : ¬(n + 1) % 16 = 0 := fun h => by have h1' : (n + 1) % 16 = 15 := h1; omega
    exact (dif_neg h0).trans ((dif_pos h1).trans rfl)

/-! ## The invariant between points -/

/-- The region's invariant before position n. Before the first point it is what the launch hands the region (every
    scratch buffer at anything). Afterwards: the projection call's staging buffers at anything (never touched here), the
    three scratch buffers at what the point before left in them, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg7_1), ((c : Thread nD τ).loc cc0_stg7_1) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_stg8_1), ((c : Thread nD τ).loc cc0_stg8_1) ↦{fullShare} f)
          ∗ (∃ f : Buf (Elt F) ((c : Thread nD τ).loc cc0_stg9_0), ((c : Thread nD τ).loc cc0_stg9_0) ↦{fullShare} f)
          ∗ (∃ f : Buf (Elt F) ((c : Thread nD τ).loc cc0_stg9_1), ((c : Thread nD τ).loc cc0_stg9_1) ↦{fullShare} f)
          ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the three scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg7_1), ((c : Thread nD τ).loc cc0_stg7_1) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_stg8_1), ((c : Thread nD τ).loc cc0_stg8_1) ↦{fullShare} f)
          ∗ (∃ f : Buf (Elt F) ((c : Thread nD τ).loc cc0_stg9_0), ((c : Thread nD τ).loc cc0_stg9_0) ↦{fullShare} f)
          ∗ (∃ f : Buf (Elt F) ((c : Thread nD τ).loc cc0_stg9_1), ((c : Thread nD τ).loc cc0_stg9_1) ↦{fullShare} f)
          ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

/-- Before a point that is not the first: the three scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg7_1), ((c : Thread nD τ).loc cc0_stg7_1) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_stg8_1), ((c : Thread nD τ).loc cc0_stg8_1) ↦{fullShare} f)
          ∗ (∃ f : Buf (Elt F) ((c : Thread nD τ).loc cc0_stg9_0), ((c : Thread nD τ).loc cc0_stg9_0) ↦{fullShare} f)
          ∗ (∃ f : Buf (Elt F) ((c : Thread nD τ).loc cc0_stg9_1), ((c : Thread nD τ).loc cc0_stg9_1) ↦{fullShare} f)
          ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The proof data -/

/-- The proof data of the attention call's pipeline on core c: the arrays as the region finds them; after the body at
    point t each input's buffer at its block (the body leaves the inputs in place) and the output's at the accumulation's
    first component; the invariant above; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => (outsAt1 V c t.val t.isLt).1
    | ⟨_ + 20, h⟩ => absurd h (Nat.not_lt.2 (Nat.le_add_left _ _))
  Φ t := PhiS1 V c t.val (Nat.le_of_lt_succ t.isLt)
  q _ := fullShare
  owed _ := 0

/-- The proof data's arrays are the region-entry contents (the definition projected; the entry contents are never unfolded). -/
theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d

end Cert.Kernel.Frm

end
-- ==== Proof.KR1Body.lean ====
import proofs.«404873_j80685255623116_3_alg».proof.Proof.KR1Data

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 (the attention call): the body obligation

At every grid point the body, called on the windows' current staging memrefs and the three scratch memrefs, takes the
invariant before the point and the inputs at their blocks to the invariant after the point and every window's buffer at
what the proof data says the body leaves. The point's key block selects one of three cases, each discharged by that
case's whole-body run. -/

variable (V : (c : Dev nD) → (b : Ref sig .tc) → Buf (Elt F) ((c : Thread nD τ).loc b))

/-! ## The obligation's conjuncts, one by one -/

/-- An input window is never idle: after the body its buffer is owned at its block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1_5 t, after1_5]
theorem leaves1_6 (c : Dev nD) (t : Fin cfg1.N) : (dat1 V c).leavesExact 6 t = owns (c : Thread nD τ) (ms1_6 t) fullShare (iblk1 V c 6 t) := by
  unfold Dat.leavesExact; rw [liveAt1_6 t, after1_6]
theorem leaves1_7 (c : Dev nD) (t : Fin cfg1.N) : (dat1 V c).leavesExact 7 t = owns (c : Thread nD τ) (ms1_7 t) fullShare (iblk1 V c 7 t) := by
  unfold Dat.leavesExact; rw [liveAt1_7 t, after1_7]
theorem leaves1_8 (c : Dev nD) (t : Fin cfg1.N) : (dat1 V c).leavesExact 8 t = owns (c : Thread nD τ) (ms1_8 t) fullShare (iblk1 V c 8 t) := by
  unfold Dat.leavesExact; rw [liveAt1_8 t, after1_8]
theorem leaves1_9 (c : Dev nD) (t : Fin cfg1.N) : (dat1 V c).leavesExact 9 t = owns (c : Thread nD τ) (ms1_9 t) fullShare (iblk1 V c 9 t) := by
  unfold Dat.leavesExact; rw [liveAt1_9 t, after1_9]
theorem leaves1_10 (c : Dev nD) (t : Fin cfg1.N) : (dat1 V c).leavesExact 10 t = owns (c : Thread nD τ) (ms1_10 t) fullShare (iblk1 V c 10 t) := by
  unfold Dat.leavesExact; rw [liveAt1_10 t, after1_10]
theorem leaves1_11 (c : Dev nD) (t : Fin cfg1.N) : (dat1 V c).leavesExact 11 t = owns (c : Thread nD τ) (ms1_11 t) fullShare (iblk1 V c 11 t) := by
  unfold Dat.leavesExact; rw [liveAt1_11 t, after1_11]
theorem leaves1_12 (c : Dev nD) (t : Fin cfg1.N) : (dat1 V c).leavesExact 12 t = owns (c : Thread nD τ) (ms1_12 t) fullShare (iblk1 V c 12 t) := by
  unfold Dat.leavesExact; rw [liveAt1_12 t, after1_12]
theorem leaves1_13 (c : Dev nD) (t : Fin cfg1.N) : (dat1 V c).leavesExact 13 t = owns (c : Thread nD τ) (ms1_13 t) fullShare (iblk1 V c 13 t) := by
  unfold Dat.leavesExact; rw [liveAt1_13 t, after1_13]
theorem leaves1_14 (c : Dev nD) (t : Fin cfg1.N) : (dat1 V c).leavesExact 14 t = owns (c : Thread nD τ) (ms1_14 t) fullShare (iblk1 V c 14 t) := by
  unfold Dat.leavesExact; rw [liveAt1_14 t, after1_14]
theorem leaves1_15 (c : Dev nD) (t : Fin cfg1.N) : (dat1 V c).leavesExact 15 t = owns (c : Thread nD τ) (ms1_15 t) fullShare (iblk1 V c 15 t) := by
  unfold Dat.leavesExact; rw [liveAt1_15 t, after1_15]
theorem leaves1_16 (c : Dev nD) (t : Fin cfg1.N) : (dat1 V c).leavesExact 16 t = owns (c : Thread nD τ) (ms1_16 t) fullShare (iblk1 V c 16 t) := by
  unfold Dat.leavesExact; rw [liveAt1_16 t, after1_16]
theorem leaves1_17 (c : Dev nD) (t : Fin cfg1.N) : (dat1 V c).leavesExact 17 t = owns (c : Thread nD τ) (ms1_17 t) fullShare (iblk1 V c 17 t) := by
  unfold Dat.leavesExact; rw [liveAt1_17 t, after1_17]
theorem leaves1_18 (c : Dev nD) (t : Fin cfg1.N) : (dat1 V c).leavesExact 18 t = owns (c : Thread nD τ) (ms1_18 t) fullShare (iblk1 V c 18 t) := by
  unfold Dat.leavesExact; rw [liveAt1_18 t, after1_18]
/-- In case C the output window is live: after the body its buffer is owned at the accumulation's output component. -/
theorem leaves1_19_C (c : Dev nD) (t : Fin cfg1.N) (hc0 : ¬cond1_0 (grid1.coords t)) (hc1 : cond1_1 (grid1.coords t)) :
    (dat1 V c).leavesExact 19 t = owns (c : Thread nD τ) (ms1_19 t) fullShare (outsAt1 V c t.val t.isLt).1 := by
  unfold Dat.leavesExact; rw [liveAt1_19_C t hc0 hc1, after1_19]

/-- The core owes nothing before or after any point. -/
theorem owes1_succ (c : Dev nD) (t : Fin cfg1.N) : (dat1 V c).owesAt () t.succ = (dat1 V c).owesAt () t.castSucc := rfl

/-- The invariant after point t: the three scratch buffers at that point's contents. -/
theorem PhiOut1 (c : Dev nD) (t : Fin cfg1.N) :
    (dat1 V c).Φ t.succ = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg7_1), ((c : Thread nD τ).loc cc0_stg7_1) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_stg8_1), ((c : Thread nD τ).loc cc0_stg8_1) ↦{fullShare} f)
          ∗ (∃ f : Buf (Elt F) ((c : Thread nD τ).loc cc0_stg9_0), ((c : Thread nD τ).loc cc0_stg9_0) ↦{fullShare} f)
          ∗ (∃ f : Buf (Elt F) ((c : Thread nD τ).loc cc0_stg9_1), ((c : Thread nD τ).loc cc0_stg9_1) ↦{fullShare} f)
          ∗ owns (c : Thread nD τ) scM1_0 fullShare (outsAt1 V c t.val t.isLt).2.1 ∗ owns (c : Thread nD τ) scM1_1 fullShare (outsAt1 V c t.val t.isLt).2.2.1 ∗ owns (c : Thread nD τ) scM1_2 fullShare (outsAt1 V c t.val t.isLt).2.2.2) ∗ (∃ r, prngReg c r)) := by
  rw [show (dat1 V c).Φ t.succ = PhiS1 V c (t.val + 1) t.isLt from rfl, PhiS1_succ]

/-- The invariant before the grid's first point: what the launch hands the region. -/
theorem PhiIn1_zero (c : Dev nD) (t : Fin cfg1.N) (hz : t.val = 0) :
    (dat1 V c).Φ t.castSucc = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg7_1), ((c : Thread nD τ).loc cc0_stg7_1) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_stg8_1), ((c : Thread nD τ).loc cc0_stg8_1) ↦{fullShare} f)
          ∗ (∃ f : Buf (Elt F) ((c : Thread nD τ).loc cc0_stg9_0), ((c : Thread nD τ).loc cc0_stg9_0) ↦{fullShare} f)
          ∗ (∃ f : Buf (Elt F) ((c : Thread nD τ).loc cc0_stg9_1), ((c : Thread nD τ).loc cc0_stg9_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  rw [PhiS1_castSucc V c t, PhiS1_zero V c _ _ hz, PhiA1_eq]

/-- The invariant before a later point: the three scratch buffers at what the point before left. -/
theorem PhiIn1_pos (c : Dev nD) (t : Fin cfg1.N) (hz : t.val ≠ 0) :
    (dat1 V c).Φ t.castSucc = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg7_0), ((c : Thread nD τ).loc cc0_stg7_0) ↦{fullShare} f)
          ∗ (∃ f : Buf (Elt F) ((c : Thread nD τ).loc cc0_stg7_1), ((c : Thread nD τ).loc cc0_stg7_1) ↦{fullShare} f)
          ∗ (∃ f : Buf (Elt F) ((c : Thread nD τ).loc cc0_stg8_0), ((c : Thread nD τ).loc cc0_stg8_0) ↦{fullShare} f)
          ∗ (∃ f : Buf (Elt F) ((c : Thread nD τ).loc cc0_stg8_1), ((c : Thread nD τ).loc cc0_stg8_1) ↦{fullShare} f)
          ∗ (∃ f : Buf (Elt F) ((c : Thread nD τ).loc cc0_stg9_0), ((c : Thread nD τ).loc cc0_stg9_0) ↦{fullShare} f)
          ∗ (∃ f : Buf (Elt F) ((c : Thread nD τ).loc cc0_stg9_1), ((c : Thread nD τ).loc cc0_stg9_1) ↦{fullShare} f)
          ∗ owns (c : Thread nD τ) scM1_0 fullShare (outsAt1 V c (t.val - 1) (Nat.lt_of_le_of_lt (Nat.sub_le _ _) t.isLt)).2.1 ∗ owns (c : Thread nD τ) scM1_1 fullShare (outsAt1 V c (t.val - 1) (Nat.lt_of_le_of_lt (Nat.sub_le _ _) t.isLt)).2.2.1 ∗ owns (c : Thread nD τ) scM1_2 fullShare (outsAt1 V c (t.val - 1) (Nat.lt_of_le_of_lt (Nat.sub_le _ _) t.isLt)).2.2.2) ∗ (∃ r, prngReg c r)) := by
  rw [PhiS1_castSucc V c t, PhiS1_pos V c _ _ hz]

/-! ## The obligation at a generic point -/

/-- What the body is called with at point t: the invariant, what the core owes, and every window's current staging buffer
    at what it holds before the body. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t
    ∗ (dat1 V c).leavesExact 16 t
    ∗ (dat1 V c).leavesExact 17 t
    ∗ (dat1 V c).leavesExact 18 t
    ∗ (dat1 V c).leavesExact 19 t)

set_option maxHeartbeats 16000000 in
/-- The body at a point of CASE A, the key block is block 0. The body resets the three scratch buffers before it reads them, so it takes them at
    anything: at the grid's first point that is what the launch hands the region, at a later point (a new query block) the
    contents the point before left are simply forgotten.
    The inputs' memrefs hold their blocks; the case's run applies; the invariant takes the three scratch buffers back at this
    point's contents (the pieces the run found cover each buffer, so what it reads is the pieces read back). -/
theorem sound_body1_A (c : Dev nD) (t : Fin cfg1.N) (h0 : t.val % 16 = 0) :
    bodyPre1 V c t ⊢ wp frame (wpE (defs₀ (F := F)) Variants.none c none) Set.univ (bodyAt1 t) (fun _ => bodyPost1 V c t) := by
  have hc0 : cond1_0 (grid1.coords t) := (hcond1_0 t).mpr h0
  have hc1 : ¬cond1_1 (grid1.coords t) := cond1_excl t ((hcond1_0 t).mpr h0)
  unfold bodyPre1 bodyPost1 bodyAt1
  simp only [before1_0 V c t, before1_1 V c t, before1_2 V c t, before1_3 V c t, before1_4 V c t, before1_5 V c t, before1_6 V c t, before1_7 V c t, before1_8 V c t, before1_9 V c t, before1_10 V c t, before1_11 V c t, before1_12 V c t, before1_13 V c t, before1_14 V c t, before1_15 V c t, before1_16 V c t, before1_17 V c t, before1_18 V c t]
  by_cases hz : t.val = 0
  · rw [PhiIn1_zero V c t hz]
    iintro ⟨⟨⟨G0, G1, G2, G3, G4, G5, G6, G7, G8, G9, G10, G11, G12, G13, G14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, ⟨%es0, HS0⟩, ⟨%es1, HS1⟩, ⟨%es2, HS2⟩⟩
    isplitl [G0 G1 G2 G3 G4 G5 G6 G7 G8 G9 G10 G11 G12 G13 G14 HS0 HS1 HS2 Hg]
    · rw [PhiOut1 V c t]
      isplitl [G0 G1 G2 G3 G4 G5 G6 G7 G8 G9 G10 G11 G12 G13 G14 HS0 HS1 HS2]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [G11]; · iexact G11
        isplitl [G12]; · iexact G12
        isplitl [G13]; · iexact G13
        isplitl [G14]; · iexact G14
        isplitl [HS0]
        · unfold owns; iexists _; isplitr
          swap; · iexact HS0
          ipureintro; rw [outsAt1_A V c t h0]; unfold outs1_A sout1_A_0; dsimp only
          exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t))
        isplitl [HS1]
        · unfold owns; iexists _; isplitr
          swap; · iexact HS1
          ipureintro; rw [outsAt1_A V c t h0]; unfold outs1_A sout1_A_1; dsimp only
          exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t))
        unfold owns; iexists _; isplitr
        swap; · iexact HS2
        ipureintro; rw [outsAt1_A V c t h0]; unfold outs1_A sout1_A_2; dsimp only
        exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t))
      iexact Hg
    isplitl [Ho]; · rw [owes1_succ V c t]; iexact Ho
    isplitl [H0]; · rw [leaves1_0 V c t]; iexact H0
    isplitl [H1]; · rw [leaves1_1 V c t]; iexact H1
    isplitl [H2]; · rw [leaves1_2 V c t]; iexact H2
    isplitl [H3]; · rw [leaves1_3 V c t]; iexact H3
    isplitl [H4]; · rw [leaves1_4 V c t]; iexact H4
    isplitl [H5]; · rw [leaves1_5 V c t]; iexact H5
    isplitl [H6]; · rw [leaves1_6 V c t]; iexact H6
    isplitl [H7]; · rw [leaves1_7 V c t]; iexact H7
    isplitl [H8]; · rw [leaves1_8 V c t]; iexact H8
    isplitl [H9]; · rw [leaves1_9 V c t]; iexact H9
    isplitl [H10]; · rw [leaves1_10 V c t]; iexact H10
    isplitl [H11]; · rw [leaves1_11 V c t]; iexact H11
    isplitl [H12]; · rw [leaves1_12 V c t]; iexact H12
    isplitl [H13]; · rw [leaves1_13 V c t]; iexact H13
    isplitl [H14]; · rw [leaves1_14 V c t]; iexact H14
    isplitl [H15]; · rw [leaves1_15 V c t]; iexact H15
    isplitl [H16]; · rw [leaves1_16 V c t]; iexact H16
    isplitl [H17]; · rw [leaves1_17 V c t]; iexact H17
    isplitl [H18]; · rw [leaves1_18 V c t]; iexact H18
    rw [Dat.leavesExact_idle (dat1 V c) 19 t (idleAt1_19_A t hc0 hc1) (noFlush1_19_A t hc0 hc1)]
    iexists _; iexact H19
  · rw [PhiIn1_pos V c t hz]
    iintro ⟨⟨⟨G0, G1, G2, G3, G4, G5, G6, G7, G8, G9, G10, G11, G12, G13, G14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexists _; iexact HS0
    isplitl [HS1]; · iexists _; iexact HS1
    isplitl [HS2]; · iexists _; iexact HS2
    iintro ⟨H0, H1, H2, H3, H4, H5, H6, H7, H8, H9, H10, H11, H12, H13, H14, H15, H16, H17, H18, H19, ⟨%es0, HS0⟩, ⟨%es1, HS1⟩, ⟨%es2, HS2⟩⟩
    isplitl [G0 G1 G2 G3 G4 G5 G6 G7 G8 G9 G10 G11 G12 G13 G14 HS0 HS1 HS2 Hg]
    · rw [PhiOut1 V c t]
      isplitl [G0 G1 G2 G3 G4 G5 G6 G7 G8 G9 G10 G11 G12 G13 G14 HS0 HS1 HS2]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [G11]; · iexact G11
        isplitl [G12]; · iexact G12
        isplitl [G13]; · iexact G13
        isplitl [G14]; · iexact G14
        isplitl [HS0]
        · unfold owns; iexists _; isplitr
          swap; · iexact HS0
          ipureintro; rw [outsAt1_A V c t h0]; unfold outs1_A sout1_A_0; dsimp only
          exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t))
        isplitl [HS1]
        · unfold owns; iexists _; isplitr
          swap; · iexact HS1
          ipureintro; rw [outsAt1_A V c t h0]; unfold outs1_A sout1_A_1; dsimp only
          exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t))
        unfold owns; iexists _; isplitr
        swap; · iexact HS2
        ipureintro; rw [outsAt1_A V c t h0]; unfold outs1_A sout1_A_2; dsimp only
        exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t))
      iexact Hg
    isplitl [Ho]; · rw [owes1_succ V c t]; iexact Ho
    isplitl [H0]; · rw [leaves1_0 V c t]; iexact H0
    isplitl [H1]; · rw [leaves1_1 V c t]; iexact H1
    isplitl [H2]; · rw [leaves1_2 V c t]; iexact H2
    isplitl [H3]; · rw [leaves1_3 V c t]; iexact H3
    isplitl [H4]; · rw [leaves1_4 V c t]; iexact H4
    isplitl [H5]; · rw [leaves1_5 V c t]; iexact H5
    isplitl [H6]; · rw [leaves1_6 V c t]; iexact H6
    isplitl [H7]; · rw [leaves1_7 V c t]; iexact H7
    isplitl [H8]; · rw [leaves1_8 V c t]; iexact H8
    isplitl [H9]; · rw [leaves1_9 V c t]; iexact H9
    isplitl [H10]; · rw [leaves1_10 V c t]; iexact H10
    isplitl [H11]; · rw [leaves1_11 V c t]; iexact H11
    isplitl [H12]; · rw [leaves1_12 V c t]; iexact H12
    isplitl [H13]; · rw [leaves1_13 V c t]; iexact H13
    isplitl [H14]; · rw [leaves1_14 V c t]; iexact H14
    isplitl [H15]; · rw [leaves1_15 V c t]; iexact H15
    isplitl [H16]; · rw [leaves1_16 V c t]; iexact H16
    isplitl [H17]; · rw [leaves1_17 V c t]; iexact H17
    isplitl [H18]; · rw [leaves1_18 V c t]; iexact H18
    rw [Dat.leavesExact_idle (dat1 V c) 19 t (idleAt1_19_A t hc0 hc1) (noFlush1_19_A t hc0 hc1)]
    iexists _; iexact H19

set_option maxHeartbeats 16000000 in
/-- The body at a point of CASE B, the key block is one of blocks 1 to 14. The three scratch buffers come in at what the point before left; the output
    block is idle and is handed back as it came.
    The inputs' memrefs hold their blocks; the case's run applies; the invariant takes the three scratch buffers back at this
    point's contents (the pieces the run found cover each buffer, so what it reads is the pieces read back). -/
theorem sound_body1_B (c : Dev nD) (t : Fin cfg1.N) (h0 : ¬t.val % 16 = 0) (h1 : ¬t.val % 16 = 15) :
    bodyPre1 V c t ⊢ wp frame (wpE (defs₀ (F := F)) Variants.none c none) Set.univ (bodyAt1 t) (fun _ => bodyPost1 V c t) := by
  have hc0 : ¬cond1_0 (grid1.coords t) := fun h => h0 ((hcond1_0 t).mp h)
  have hc1 : ¬cond1_1 (grid1.coords t) := fun h => h1 ((hcond1_1 t).mp h)
  unfold bodyPre1 bodyPost1 bodyAt1
  simp only [before1_0 V c t, before1_1 V c t, before1_2 V c t, before1_3 V c t, before1_4 V c t, before1_5 V c t, before1_6 V c t, before1_7 V c t, before1_8 V c t, before1_9 V c t, before1_10 V c t, before1_11 V c t, before1_12 V c t, before1_13 V c t, before1_14 V c t, before1_15 V c t, before1_16 V c t, before1_17 V c t, before1_18 V c t]
  have hz : t.val ≠ 0 := fun h => by rw [h] at h0; exact h0 (Nat.zero_mod _)
  rw [PhiIn1_pos V c t hz]
  iintro ⟨⟨⟨G0, G1, G2, G3, G4, G5, G6, G7, G8, G9, G10, G11, G12, G13, G14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, ⟨%es0, HS0⟩, ⟨%es1, HS1⟩, ⟨%es2, HS2⟩⟩
  isplitl [G0 G1 G2 G3 G4 G5 G6 G7 G8 G9 G10 G11 G12 G13 G14 HS0 HS1 HS2 Hg]
  · rw [PhiOut1 V c t]
    isplitl [G0 G1 G2 G3 G4 G5 G6 G7 G8 G9 G10 G11 G12 G13 G14 HS0 HS1 HS2]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      isplitl [G12]; · iexact G12
      isplitl [G13]; · iexact G13
      isplitl [G14]; · iexact G14
      isplitl [HS0]
      · unfold owns; iexists _; isplitr
        swap; · iexact HS0
        ipureintro; rw [outsAt1_B V c t h0 h1]; unfold outs1_B sout1_B_0; dsimp only
        exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      isplitl [HS1]
      · unfold owns; iexists _; isplitr
        swap; · iexact HS1
        ipureintro; rw [outsAt1_B V c t h0 h1]; unfold outs1_B sout1_B_1; dsimp only
        exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      unfold owns; iexists _; isplitr
      swap; · iexact HS2
      ipureintro; rw [outsAt1_B V c t h0 h1]; unfold outs1_B sout1_B_2; dsimp only
      exact View.read_writes_of_cover _ _ _ _ _ (scover1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
    iexact Hg
  isplitl [Ho]; · rw [owes1_succ V c t]; iexact Ho
  isplitl [H0]; · rw [leaves1_0 V c t]; iexact H0
  isplitl [H1]; · rw [leaves1_1 V c t]; iexact H1
  isplitl [H2]; · rw [leaves1_2 V c t]; iexact H2
  isplitl [H3]; · rw [leaves1_3 V c t]; iexact H3
  isplitl [H4]; · rw [leaves1_4 V c t]; iexact H4
  isplitl [H5]; · rw [leaves1_5 V c t]; iexact H5
  isplitl [H6]; · rw [leaves1_6 V c t]; iexact H6
  isplitl [H7]; · rw [leaves1_7 V c t]; iexact H7
  isplitl [H8]; · rw [leaves1_8 V c t]; iexact H8
  isplitl [H9]; · rw [leaves1_9 V c t]; iexact H9
  isplitl [H10]; · rw [leaves1_10 V c t]; iexact H10
  isplitl [H11]; · rw [leaves1_11 V c t]; iexact H11
  isplitl [H12]; · rw [leaves1_12 V c t]; iexact H12
  isplitl [H13]; · rw [leaves1_13 V c t]; iexact H13
  isplitl [H14]; · rw [leaves1_14 V c t]; iexact H14
  isplitl [H15]; · rw [leaves1_15 V c t]; iexact H15
  isplitl [H16]; · rw [leaves1_16 V c t]; iexact H16
  isplitl [H17]; · rw [leaves1_17 V c t]; iexact H17
  isplitl [H18]; · rw [leaves1_18 V c t]; iexact H18
  rw [Dat.leavesExact_idle (dat1 V c) 19 t (idleAt1_19_B t hc0 hc1) (noFlush1_19_B t hc0 hc1)]
  iexists _; iexact H19

set_option maxHeartbeats 16000000 in
/-- The body at a point of CASE C, the key block is block 15. The three scratch buffers come in at what the point before left; the epilogue stores the
    whole output block, which is live here and is written back.
    The inputs' memrefs hold their blocks; the case's run applies; the invariant takes the three scratch buffers back at this
    point's contents (the pieces the run found cover each buffer, so what it reads is the pieces read back). -/
theorem sound_body1_C (c : Dev nD) (t : Fin cfg1.N) (h1 : t.val % 16 = 15) :
    bodyPre1 V c t ⊢ wp frame (wpE (defs₀ (F := F)) Variants.none c none) Set.univ (bodyAt1 t) (fun _ => bodyPost1 V c t) := by
  have hc0 : ¬cond1_0 (grid1.coords t) := fun h => cond1_excl t h ((hcond1_1 t).mpr h1)
  have hc1 : cond1_1 (grid1.coords t) := (hcond1_1 t).mpr h1
  unfold bodyPre1 bodyPost1 bodyAt1
  simp only [before1_0 V c t, before1_1 V c t, before1_2 V c t, before1_3 V c t, before1_4 V c t, before1_5 V c t, before1_6 V c t, before1_7 V c t, before1_8 V c t, before1_9 V c t, before1_10 V c t, before1_11 V c t, before1_12 V c t, before1_13 V c t, before1_14 V c t, before1_15 V c t, before1_16 V c t, before1_17 V c t, before1_18 V c t]
  have hz : t.val ≠ 0 := fun h => by rw [h] at h1; exact absurd h1 (by decide)
  rw [PhiIn1_pos V c t hz]
  iintro ⟨⟨⟨G0, G1, G2, G3, G4, G5, G6, G7, G8, G9, G10, G11, G12, G13, G14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [HS0]; · iexact HS0
  isplitl [HS1]; · iexact HS1
  isplitl [HS2]; · iexact HS2
  iintro ⟨H0, H1, H2, H3, H4, H5, H6, H7, H8, H9, H10, H11, H12, H13, H14, H15, H16, H17, H18, ⟨%e19, H19⟩, ⟨%es0, HS0⟩, ⟨%es1, HS1⟩, ⟨%es2, HS2⟩⟩
  isplitl [G0 G1 G2 G3 G4 G5 G6 G7 G8 G9 G10 G11 G12 G13 G14 HS0 HS1 HS2 Hg]
  · rw [PhiOut1 V c t]
    isplitl [G0 G1 G2 G3 G4 G5 G6 G7 G8 G9 G10 G11 G12 G13 G14 HS0 HS1 HS2]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      isplitl [G12]; · iexact G12
      isplitl [G13]; · iexact G13
      isplitl [G14]; · iexact G14
      isplitl [HS0]
      · unfold owns; iexists _; isplitr
        swap; · iexact HS0
        ipureintro; rw [outsAt1_C V c t h1]; unfold outs1_C sout1_C_0; dsimp only
        exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      isplitl [HS1]
      · unfold owns; iexists _; isplitr
        swap; · iexact HS1
        ipureintro; rw [outsAt1_C V c t h1]; unfold outs1_C sout1_C_1; dsimp only
        exact View.read_writes_of_cover _ _ _ _ _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      unfold owns; iexists _; isplitr
      swap; · iexact HS2
      ipureintro; rw [outsAt1_C V c t h1]; unfold outs1_C sout1_C_2; dsimp only
      exact View.read_writes_of_cover _ _ _ _ _ (scover1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
    iexact Hg
  isplitl [Ho]; · rw [owes1_succ V c t]; iexact Ho
  isplitl [H0]; · rw [leaves1_0 V c t]; iexact H0
  isplitl [H1]; · rw [leaves1_1 V c t]; iexact H1
  isplitl [H2]; · rw [leaves1_2 V c t]; iexact H2
  isplitl [H3]; · rw [leaves1_3 V c t]; iexact H3
  isplitl [H4]; · rw [leaves1_4 V c t]; iexact H4
  isplitl [H5]; · rw [leaves1_5 V c t]; iexact H5
  isplitl [H6]; · rw [leaves1_6 V c t]; iexact H6
  isplitl [H7]; · rw [leaves1_7 V c t]; iexact H7
  isplitl [H8]; · rw [leaves1_8 V c t]; iexact H8
  isplitl [H9]; · rw [leaves1_9 V c t]; iexact H9
  isplitl [H10]; · rw [leaves1_10 V c t]; iexact H10
  isplitl [H11]; · rw [leaves1_11 V c t]; iexact H11
  isplitl [H12]; · rw [leaves1_12 V c t]; iexact H12
  isplitl [H13]; · rw [leaves1_13 V c t]; iexact H13
  isplitl [H14]; · rw [leaves1_14 V c t]; iexact H14
  isplitl [H15]; · rw [leaves1_15 V c t]; iexact H15
  isplitl [H16]; · rw [leaves1_16 V c t]; iexact H16
  isplitl [H17]; · rw [leaves1_17 V c t]; iexact H17
  isplitl [H18]; · rw [leaves1_18 V c t]; iexact H18
  rw [leaves1_19_C V c t hc0 hc1]
  unfold owns; iexists _; isplitr
  swap; · iexact H19
  ipureintro; rw [outsAt1_C V c t h1]; unfold outs1_C out1_C_19; dsimp only
  exact View.read_writes_of_cover _ _ _ _ _ (cover1_C_19 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)

/-- The body at any point: the point's key block selects the case. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · exact sound_body1_A V c t h0
  · by_cases h1 : t.val % 16 = 15
    · exact sound_body1_C V c t h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point (anywhere but before the first) the invariant gives the launch's form back: the scratch buffers' named
    contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨G0, G1, G2, G3, G4, G5, G6, G7, G8, G9, G10, G11, G12, G13, G14, HS0, HS1, HS2⟩, Hg⟩
  isplitl [G0 G1 G2 G3 G4 G5 G6 G7 G8 G9 G10 G11 G12 G13 G14 HS0 HS1 HS2]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi1_out V c _ (by rw [Fin.val_last]; have : cfg1.N = 256 := N_1; omega)

end Cert.Kernel.Frm

end
-- ==== Proof.KFitsAll.lean ====
import proofs.«404873_j80685255623116_3_alg».proof.Proof.KRun
import proofs.«404873_j80685255623116_3_alg».proof.Proof.KR0Body
import proofs.«404873_j80685255623116_3_alg».proof.Proof.KR1Body

/-!
# The two regions' proof data fit the program

The run of the whole program is stated for any proof data of the two regions that fit it. Here the two
regions' own proof data are put in: the first region's at the contents its three host stretches leave, the
second's at the contents the first region and the fourth stretch leave. The first region keeps nothing
between points, so its invariant IS the scoped rest beside the generator register and the two entailments
around it are reflexivity; the second region's come with its body. The run's two conclusions then hold
outright: every argument ends as launched, and the result buffer ends at the second region's output array
after all its write-backs.
-/

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The first region's proof data, at the contents the three host stretches before it leave. -/
abbrev d0Of : (c : Dev nD) → Dat0 F c := fun c => dat0 (V3 m) c

/-- The second region's proof data, at the contents the first region and the fourth stretch leave. -/
abbrev d1Of : (c : Dev nD) → Dat1 F c := fun c => dat1 (V5 m (d0Of m)) c

/-- The two fit the program. -/
theorem fits : Fits m (d0Of m) (d1Of m) where
  hA0 c w := A_eq0 _ c w
  hA1 c w := A_eq1 _ c w
  hq0 _ := rfl
  hq1 _ := rfl
  howed0 _ := rfl
  howed1 _ := rfl
  hrec0 _ := rfl
  hrec1 _ := rfl
  hin0 _ := .rfl
  hout0 _ := .rfl
  hin1 c := hin1 _ c
  hout1 c := hout1 _ c
  hbody0 c := body_obligation0 _ c
  hbody1 c := body_obligation1 _ c

/-- The program runs and every argument ends as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of_fits m (d0Of m) (d1Of m) (fits m) ρ

/-- The program runs, the result buffer ends at the second region's output array after all its write-backs,
    and every argument ends as launched. -/
theorem result_all (ρ : Dev nD → PrngReg) :
    θ_run defs (onTc (τ := τ) (main (F := F))) ⟨m, fun _ => 0, ρ⟩ (fun r => ∀ c : Dev nD,
      r.2.mem ((c.tc : Thread nD τ).loc main_v37) = (d1Of m c).arrAt 19 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  result_of_fits m (d0Of m) (d1Of m) (fits m) ρ

end Cert.Kernel.Frm

end
-- ==== Proof.Flash.lean ====
import Mathlib.Analysis.SpecialFunctions.Exp
import Mathlib.Algebra.BigOperators.Fin
import Mathlib.Algebra.Order.BigOperators.Group.Finset
import Mathlib.Data.Finset.Lattice.Fold

/-!
# Softmax attention accumulated block by block under a running maximum

For scores `s : ι → ℝ` and values `v : ι → ℝ` over a nonempty finite key set `S`, write
`M S = max_{j ∈ S} s j`, `L S = ∑_{j ∈ S} exp (s j - M S)` and
`A S = ∑_{j ∈ S} exp (s j - M S) * v j`.  The softmax-weighted value is `A S / L S`.

The algebra below says how `(M, L, A)` of a disjoint union `S ∪ T` is obtained from
`(M, L, A)` of `S` and the raw scores on `T`, how one extra key with value zero enters the
quotient, and how a row of `nb * tk` keys is cut into `nb` consecutive blocks of `tk` keys.

Everything rests on one identity: changing the reference point of the exponentials from `m`
to `m'` multiplies every term by `exp (m - m')`.
-/

namespace Cert.Flash

open Finset

section Recurrence

variable {ι : Type*}

/-- The maximum of the scores over a nonempty key set. -/
noncomputable def M (s : ι → ℝ) (S : Finset ι) (hS : S.Nonempty) : ℝ :=
  S.sup' hS s

/-- The sum of the exponentials of the scores, taken relative to their maximum. -/
noncomputable def L (s : ι → ℝ) (S : Finset ι) (hS : S.Nonempty) : ℝ :=
  ∑ j ∈ S, Real.exp (s j - M s S hS)

/-- The exponential-weighted sum of the values, exponentials taken relative to the maximum. -/
noncomputable def A (s v : ι → ℝ) (S : Finset ι) (hS : S.Nonempty) : ℝ :=
  ∑ j ∈ S, Real.exp (s j - M s S hS) * v j

/-- Moving the reference point of the exponentials from `m` to `m'` multiplies the weighted
sum by `exp (m - m')`. -/
theorem exp_shift_mul_sum (s w : ι → ℝ) (S : Finset ι) (m m' : ℝ) :
    Real.exp (m - m') * ∑ j ∈ S, Real.exp (s j - m) * w j
      = ∑ j ∈ S, Real.exp (s j - m') * w j := by
  rw [Finset.mul_sum]
  refine Finset.sum_congr rfl fun j _ => ?_
  rw [← mul_assoc, ← Real.exp_add]
  congr 2
  ring

/-- The same change of reference point for the plain sum of exponentials. -/
theorem exp_shift_mul_sum_one (s : ι → ℝ) (S : Finset ι) (m m' : ℝ) :
    Real.exp (m - m') * ∑ j ∈ S, Real.exp (s j - m)
      = ∑ j ∈ S, Real.exp (s j - m') := by
  have h := exp_shift_mul_sum s (fun _ => (1 : ℝ)) S m m'
  simpa using h

/-- Every score is at most the maximum. -/
theorem le_M (s : ι → ℝ) {S : Finset ι} (hS : S.Nonempty) {j : ι} (hj : j ∈ S) :
    s j ≤ M s S hS :=
  Finset.le_sup' s hj

/-- The sum of exponentials relative to the maximum is positive. -/
theorem L_pos (s : ι → ℝ) {S : Finset ι} (hS : S.Nonempty) : 0 < L s S hS :=
  Finset.sum_pos (fun _ _ => Real.exp_pos _) hS

/-- `L` of `S` re-based at any other reference point. -/
theorem exp_mul_L (s : ι → ℝ) {S : Finset ι} (hS : S.Nonempty) (m' : ℝ) :
    Real.exp (M s S hS - m') * L s S hS = ∑ j ∈ S, Real.exp (s j - m') :=
  exp_shift_mul_sum_one s S (M s S hS) m'

/-- `A` of `S` re-based at any other reference point. -/
theorem exp_mul_A (s v : ι → ℝ) {S : Finset ι} (hS : S.Nonempty) (m' : ℝ) :
    Real.exp (M s S hS - m') * A s v S hS = ∑ j ∈ S, Real.exp (s j - m') * v j :=
  exp_shift_mul_sum s v S (M s S hS) m'

variable [DecidableEq ι]

/-- **Step, maximum.** The maximum over a union is the larger of the two maxima. -/
theorem max_M_eq_M_union (s : ι → ℝ) {S T : Finset ι} (hS : S.Nonempty) (hT : T.Nonempty) :
    max (M s S hS) (M s T hT) = M s (S ∪ T) (hS.mono subset_union_left) :=
  (Finset.sup'_union hS hT s).symm

/-- **Step, normaliser.** Re-base the old normaliser at the new maximum and add the new
block's exponentials. -/
theorem step_L (s : ι → ℝ) {S T : Finset ι} (hS : S.Nonempty) (hT : T.Nonempty)
    (hST : Disjoint S T) :
    Real.exp (M s S hS - max (M s S hS) (M s T hT)) * L s S hS
        + ∑ j ∈ T, Real.exp (s j - max (M s S hS) (M s T hT))
      = L s (S ∪ T) (hS.mono subset_union_left) := by
  rw [exp_mul_L, max_M_eq_M_union s hS hT]
  unfold L
  rw [Finset.sum_union hST]

/-- **Step, accumulator.** Re-base the old accumulator at the new maximum and add the new
block's weighted values. -/
theorem step_A (s v : ι → ℝ) {S T : Finset ι} (hS : S.Nonempty) (hT : T.Nonempty)
    (hST : Disjoint S T) :
    Real.exp (M s S hS - max (M s S hS) (M s T hT)) * A s v S hS
        + ∑ j ∈ T, Real.exp (s j - max (M s S hS) (M s T hT)) * v j
      = A s v (S ∪ T) (hS.mono subset_union_left) := by
  rw [exp_mul_A, max_M_eq_M_union s hS hT]
  unfold A
  rw [Finset.sum_union hST]

end Recurrence

section Congr

variable {ι : Type*}

/-- `M` depends only on the key set. -/
theorem M_congr (s : ι → ℝ) {S S' : Finset ι} (h : S = S') (hS : S.Nonempty)
    (hS' : S'.Nonempty) : M s S hS = M s S' hS' := by
  subst h; rfl

/-- `L` depends only on the key set. -/
theorem L_congr (s : ι → ℝ) {S S' : Finset ι} (h : S = S') (hS : S.Nonempty)
    (hS' : S'.Nonempty) : L s S hS = L s S' hS' := by
  subst h; rfl

/-- `A` depends only on the key set. -/
theorem A_congr (s v : ι → ℝ) {S S' : Finset ι} (h : S = S') (hS : S.Nonempty)
    (hS' : S'.Nonempty) : A s v S hS = A s v S' hS' := by
  subst h; rfl

end Congr

section Final

variable {ι : Type*}

/-- **Final step, one extra key of score `sd` and value zero.**  Re-basing numerator and
denominator at `max (M S) sd` turns the accumulated pair into plain sums at that reference
point; the extra key contributes `exp (sd - m2)` to the denominator only. -/
theorem final_quotient (s v : ι → ℝ) {S : Finset ι} (hS : S.Nonempty) (sd : ℝ) :
    (Real.exp (M s S hS - max (M s S hS) sd) * A s v S hS)
        / (Real.exp (M s S hS - max (M s S hS) sd) * L s S hS
            + Real.exp (sd - max (M s S hS) sd))
      = (∑ j ∈ S, Real.exp (s j - max (M s S hS) sd) * v j)
        / ((∑ j ∈ S, Real.exp (s j - max (M s S hS) sd))
            + Real.exp (sd - max (M s S hS) sd)) := by
  rw [exp_mul_A, exp_mul_L]

/-- The same with an arbitrary reference point `m2` in place of `max (M S) sd`. -/
theorem final_quotient_at (s v : ι → ℝ) {S : Finset ι} (hS : S.Nonempty) (sd m2 : ℝ) :
    (Real.exp (M s S hS - m2) * A s v S hS)
        / (Real.exp (M s S hS - m2) * L s S hS + Real.exp (sd - m2))
      = (∑ j ∈ S, Real.exp (s j - m2) * v j)
        / ((∑ j ∈ S, Real.exp (s j - m2)) + Real.exp (sd - m2)) := by
  rw [exp_mul_A, exp_mul_L]

/-- The denominator with the extra key is positive, at any reference point. -/
theorem final_denom_pos (s : ι → ℝ) (S : Finset ι) (sd m2 : ℝ) :
    0 < (∑ j ∈ S, Real.exp (s j - m2)) + Real.exp (sd - m2) :=
  add_pos_of_nonneg_of_pos (Finset.sum_nonneg fun _ _ => (Real.exp_pos _).le) (Real.exp_pos _)

/-- The accumulated form of that denominator is positive as well. -/
theorem final_denom_pos' (s : ι → ℝ) {S : Finset ι} (hS : S.Nonempty) (sd m2 : ℝ) :
    0 < Real.exp (M s S hS - m2) * L s S hS + Real.exp (sd - m2) := by
  rw [exp_mul_L]
  exact final_denom_pos s S sd m2

/-- **The all-at-once form.**  Dividing every weight by the normaliser `Z` and then summing
is the weighted sum divided by `Z`. -/
theorem sum_div_mul (s v : ι → ℝ) (S : Finset ι) (m Z : ℝ) :
    ∑ j ∈ S, (Real.exp (s j - m) / Z) * v j = (∑ j ∈ S, Real.exp (s j - m) * v j) / Z := by
  rw [div_eq_mul_inv, Finset.sum_mul]
  refine Finset.sum_congr rfl fun j _ => ?_
  rw [div_eq_mul_inv]
  ring

end Final

section OneMoreKey

/-- The maximum over `n + 1` keys is the larger of the maximum over the first `n` and the
last one. -/
theorem sup'_univ_castSucc {n : ℕ} (f : Fin (n + 1) → ℝ)
    (h1 : (univ : Finset (Fin (n + 1))).Nonempty) (h0 : (univ : Finset (Fin n)).Nonempty) :
    (univ : Finset (Fin (n + 1))).sup' h1 f
      = max ((univ : Finset (Fin n)).sup' h0 fun j => f j.castSucc) (f (Fin.last n)) := by
  apply le_antisymm
  · rw [Finset.sup'_le_iff]
    intro j _
    refine Fin.lastCases ?_ (fun i => ?_) j
    · exact le_max_right _ _
    · exact le_max_of_le_left (Finset.le_sup' (fun j => f j.castSucc) (mem_univ i))
  · apply max_le
    · rw [Finset.sup'_le_iff]
      intro i _
      exact Finset.le_sup' f (mem_univ _)
    · exact Finset.le_sup' f (mem_univ _)

/-- The same, with the nonemptiness witnesses spelled out as the key `0`. -/
theorem sup'_univ_castSucc_zero {n : ℕ} (hn : 0 < n) (f : Fin (n + 1) → ℝ) :
    (univ : Finset (Fin (n + 1))).sup' ⟨0, mem_univ _⟩ f
      = max ((univ : Finset (Fin n)).sup' ⟨⟨0, hn⟩, mem_univ _⟩ fun j => f j.castSucc)
          (f (Fin.last n)) :=
  sup'_univ_castSucc f _ _

/-- The sum over `n + 1` keys is the sum over the first `n` plus the last term. -/
theorem sum_univ_castSucc {n : ℕ} (f : Fin (n + 1) → ℝ) :
    ∑ j : Fin (n + 1), f j = (∑ j : Fin n, f j.castSucc) + f (Fin.last n) :=
  Fin.sum_univ_castSucc f

end OneMoreKey

section Blocks

/-- The keys of block `b` when `n` keys are cut into consecutive runs of length `tk`:
those positions `j` with `j / tk = b`. -/
def block (n tk b : ℕ) : Finset (Fin n) :=
  univ.filter fun j => j.val / tk = b

/-- The keys of all blocks before block `k`: positions `j` with `j / tk < k`. -/
def blocksBelow (n tk k : ℕ) : Finset (Fin n) :=
  univ.filter fun j => j.val / tk < k

variable {n nb tk : ℕ}

@[simp] theorem mem_block {b : ℕ} {j : Fin n} : j ∈ block n tk b ↔ j.val / tk = b := by
  simp [block]

@[simp] theorem mem_blocksBelow {k : ℕ} {j : Fin n} :
    j ∈ blocksBelow n tk k ↔ j.val / tk < k := by
  simp [blocksBelow]

/-- The blocks before `k + 1` are the blocks before `k` together with block `k`. -/
theorem blocksBelow_succ (n tk k : ℕ) :
    blocksBelow n tk (k + 1) = blocksBelow n tk k ∪ block n tk k := by
  ext j
  simp only [mem_blocksBelow, mem_union, mem_block]
  exact Nat.lt_succ_iff_lt_or_eq

/-- Block `k` shares no key with the blocks before it. -/
theorem disjoint_blocksBelow_block (n tk k : ℕ) :
    Disjoint (blocksBelow n tk k) (block n tk k) := by
  rw [Finset.disjoint_left]
  intro j hj hj'
  rw [mem_blocksBelow] at hj
  rw [mem_block] at hj'
  exact absurd hj' (Nat.ne_of_lt hj)

/-- Two different blocks share no key. -/
theorem disjoint_block_block (n tk : ℕ) {b b' : ℕ} (h : b ≠ b') :
    Disjoint (block n tk b) (block n tk b') := by
  rw [Finset.disjoint_left]
  intro j hj hj'
  rw [mem_block] at hj hj'
  exact h (hj.symm.trans hj')

/-- Before block `1` there is exactly block `0`. -/
theorem blocksBelow_one (n tk : ℕ) : blocksBelow n tk 1 = block n tk 0 := by
  ext j
  simp only [mem_blocksBelow, mem_block]
  exact Nat.lt_one_iff

/-- The blocks before `k`, written as a union of blocks. -/
theorem blocksBelow_eq_biUnion (n tk k : ℕ) :
    blocksBelow n tk k = (range k).biUnion (block n tk) := by
  ext j
  simp only [mem_blocksBelow, mem_biUnion, mem_range, mem_block]
  constructor
  · intro h
    exact ⟨_, h, rfl⟩
  · rintro ⟨b, hb, rfl⟩
    exact hb

/-- The union of the first `k + 1` blocks is the union of the first `k` with block `k`. -/
theorem biUnion_block_succ (n tk k : ℕ) :
    (range (k + 1)).biUnion (block n tk) = (range k).biUnion (block n tk) ∪ block n tk k := by
  rw [← blocksBelow_eq_biUnion, ← blocksBelow_eq_biUnion, blocksBelow_succ]

/-- Block `k` shares no key with the union of the first `k` blocks. -/
theorem disjoint_biUnion_block (n tk k : ℕ) :
    Disjoint ((range k).biUnion (block n tk)) (block n tk k) := by
  rw [← blocksBelow_eq_biUnion]
  exact disjoint_blocksBelow_block n tk k

/-- With `n = nb * tk` keys, the `nb` blocks exhaust the row. -/
theorem blocksBelow_eq_univ (hn : n = nb * tk) (htk : 0 < tk) :
    blocksBelow n tk nb = univ := by
  ext j
  simp only [mem_blocksBelow, mem_univ, iff_true]
  rw [Nat.div_lt_iff_lt_mul htk, ← hn]
  exact j.isLt

/-- The same, written as a union of blocks. -/
theorem biUnion_block_eq_univ (hn : n = nb * tk) (htk : 0 < tk) :
    (range nb).biUnion (block n tk) = (univ : Finset (Fin n)) := by
  rw [← blocksBelow_eq_biUnion, blocksBelow_eq_univ hn htk]

/-- Position `tk * b + c` of the row is a valid key when `b < nb` and `c < tk`. -/
theorem blockKey_lt (hn : n = nb * tk) {b : ℕ} (hb : b < nb) (c : Fin tk) :
    tk * b + c.val < n := by
  have h1 : tk * b + c.val < tk * (b + 1) := by
    rw [Nat.mul_succ]
    exact Nat.add_lt_add_left c.isLt _
  have h2 : tk * (b + 1) ≤ tk * nb := Nat.mul_le_mul_left tk hb
  rw [hn, Nat.mul_comm nb tk]
  exact lt_of_lt_of_le h1 h2

/-- The `c`-th key of block `b`: position `tk * b + c`. -/
def blockKey (hn : n = nb * tk) {b : ℕ} (hb : b < nb) (c : Fin tk) : Fin n :=
  ⟨tk * b + c.val, blockKey_lt hn hb c⟩

@[simp] theorem blockKey_val (hn : n = nb * tk) {b : ℕ} (hb : b < nb) (c : Fin tk) :
    (blockKey hn hb c).val = tk * b + c.val :=
  rfl

/-- Any enumeration of positions `tk * b + c` is `blockKey`. -/
theorem eq_blockKey_of_val (hn : n = nb * tk) {b : ℕ} (hb : b < nb) (e : Fin tk → Fin n)
    (he : ∀ c, (e c).val = tk * b + c.val) : e = blockKey hn hb := by
  funext c
  exact Fin.ext (he c)

theorem blockKey_injective (hn : n = nb * tk) {b : ℕ} (hb : b < nb) :
    Function.Injective (blockKey hn hb) := by
  intro c c' h
  have h' : tk * b + c.val = tk * b + c'.val := congrArg Fin.val h
  exact Fin.ext (Nat.add_left_cancel h')

/-- The quotient by `tk` of the `c`-th key of block `b` is `b`. -/
theorem blockKey_div (hn : n = nb * tk) {b : ℕ} (hb : b < nb) (c : Fin tk) :
    (blockKey hn hb c).val / tk = b := by
  have htk : 0 < tk := lt_of_le_of_lt (Nat.zero_le _) c.isLt
  rw [blockKey_val, Nat.mul_add_div htk, Nat.div_eq_of_lt c.isLt, Nat.add_zero]

theorem blockKey_mem_block (hn : n = nb * tk) {b : ℕ} (hb : b < nb) (c : Fin tk) :
    blockKey hn hb c ∈ block n tk b :=
  mem_block.2 (blockKey_div hn hb c)

/-- Every key of block `b` is its `(j % tk)`-th key. -/
theorem exists_blockKey_eq (hn : n = nb * tk) (htk : 0 < tk) {b : ℕ} (hb : b < nb)
    {j : Fin n} (hj : j ∈ block n tk b) : ∃ c : Fin tk, blockKey hn hb c = j := by
  rw [mem_block] at hj
  refine ⟨⟨j.val % tk, Nat.mod_lt _ htk⟩, Fin.ext ?_⟩
  rw [blockKey_val, ← hj]
  exact Nat.div_add_mod j.val tk

/-- Block `b` is the image of `Fin tk` under `c ↦ tk * b + c`. -/
theorem block_eq_image (hn : n = nb * tk) (htk : 0 < tk) {b : ℕ} (hb : b < nb) :
    block n tk b = (univ : Finset (Fin tk)).image (blockKey hn hb) := by
  ext j
  rw [mem_image]
  constructor
  · intro hj
    obtain ⟨c, hc⟩ := exists_blockKey_eq hn htk hb hj
    exact ⟨c, mem_univ _, hc⟩
  · rintro ⟨c, _, rfl⟩
    exact blockKey_mem_block hn hb c

/-- Every block `b < nb` has a key. -/
theorem block_nonempty (hn : n = nb * tk) (htk : 0 < tk) {b : ℕ} (hb : b < nb) :
    (block n tk b).Nonempty :=
  ⟨blockKey hn hb ⟨0, htk⟩, blockKey_mem_block hn hb _⟩

/-- The blocks before `k` have a key as soon as `0 < k` and there is a block at all. -/
theorem blocksBelow_nonempty (hn : n = nb * tk) (htk : 0 < tk) (hnb : 0 < nb) {k : ℕ}
    (hk : 0 < k) : (blocksBelow n tk k).Nonempty := by
  refine ⟨blockKey hn hnb ⟨0, htk⟩, ?_⟩
  rw [mem_blocksBelow, blockKey_div]
  exact hk

/-- **Sum over a block**, re-indexed by the position inside the block. -/
theorem sum_block {α : Type*} [AddCommMonoid α] (hn : n = nb * tk) (htk : 0 < tk) {b : ℕ}
    (hb : b < nb) (f : Fin n → α) :
    ∑ j ∈ block n tk b, f j = ∑ c : Fin tk, f (blockKey hn hb c) := by
  rw [block_eq_image hn htk hb]
  exact Finset.sum_image fun c _ c' _ h => blockKey_injective hn hb h

/-- **Maximum over a block**, re-indexed by the position inside the block. -/
theorem sup'_block {α : Type*} [SemilatticeSup α] (hn : n = nb * tk) (htk : 0 < tk) {b : ℕ}
    (hb : b < nb) (f : Fin n → α) (h : (block n tk b).Nonempty)
    (h' : (univ : Finset (Fin tk)).Nonempty) :
    (block n tk b).sup' h f = (univ : Finset (Fin tk)).sup' h' fun c => f (blockKey hn hb c) := by
  apply le_antisymm
  · rw [Finset.sup'_le_iff]
    intro j hj
    obtain ⟨c, rfl⟩ := exists_blockKey_eq hn htk hb hj
    exact Finset.le_sup' (fun c => f (blockKey hn hb c)) (mem_univ c)
  · rw [Finset.sup'_le_iff]
    intro c _
    exact Finset.le_sup' f (blockKey_mem_block hn hb c)

end Blocks

section BlockRecurrence

variable {n tk : ℕ}

/-- **Running maximum after one more block.** -/
theorem M_blocksBelow_succ (s : Fin n → ℝ) (k : ℕ) (h : (blocksBelow n tk k).Nonempty)
    (hb : (block n tk k).Nonempty) (h' : (blocksBelow n tk (k + 1)).Nonempty) :
    M s (blocksBelow n tk (k + 1)) h'
      = max (M s (blocksBelow n tk k) h) (M s (block n tk k) hb) := by
  rw [max_M_eq_M_union s h hb]
  exact M_congr s (blocksBelow_succ n tk k) _ _

/-- **Running normaliser after one more block.** -/
theorem L_blocksBelow_succ (s : Fin n → ℝ) (k : ℕ) (h : (blocksBelow n tk k).Nonempty)
    (hb : (block n tk k).Nonempty) (h' : (blocksBelow n tk (k + 1)).Nonempty) :
    L s (blocksBelow n tk (k + 1)) h'
      = Real.exp (M s (blocksBelow n tk k) h
            - max (M s (blocksBelow n tk k) h) (M s (block n tk k) hb))
          * L s (blocksBelow n tk k) h
        + ∑ j ∈ block n tk k,
            Real.exp (s j - max (M s (blocksBelow n tk k) h) (M s (block n tk k) hb)) := by
  rw [step_L s h hb (disjoint_blocksBelow_block n tk k)]
  exact L_congr s (blocksBelow_succ n tk k) _ _

/-- **Running accumulator after one more block.** -/
theorem A_blocksBelow_succ (s v : Fin n → ℝ) (k : ℕ) (h : (blocksBelow n tk k).Nonempty)
    (hb : (block n tk k).Nonempty) (h' : (blocksBelow n tk (k + 1)).Nonempty) :
    A s v (blocksBelow n tk (k + 1)) h'
      = Real.exp (M s (blocksBelow n tk k) h
            - max (M s (blocksBelow n tk k) h) (M s (block n tk k) hb))
          * A s v (blocksBelow n tk k) h
        + ∑ j ∈ block n tk k,
            Real.exp (s j - max (M s (blocksBelow n tk k) h) (M s (block n tk k) hb)) * v j := by
  rw [step_A s v h hb (disjoint_blocksBelow_block n tk k)]
  exact A_congr s v (blocksBelow_succ n tk k) _ _

end BlockRecurrence

end Cert.Flash
-- ==== Proof.Spec.lean ====
import Idealize.ShloMosaic.PureOps.Ideal
import Idealize.ShloMosaic.Lib.ValueIdx

/-!
# The specification over the reals

Every float input is finite under the precondition, so each is the coercion of a real array, and every
intermediate of both programs stays finite. The result is stated here once, as a function over real arrays:
a table of 81 projected class embeddings gathered per row by the class index; query, key and value
projections; single-head attention over the 8192 rows and one extra key (the dummy token, whose value
row is zero, so that it only adds a term to the normaliser); two residual branches, a third projection, a
feed-forward block and a layer normalisation, joined by a rectifier.

Both programs compute the coercion of `result`: the kernel with the softmax scale folded into the
queries and the normaliser applied after the value sum, accumulated block by block under a running
maximum; the reference with the scale applied to the scores and the normaliser before the value sum.
-/

noncomputable section

namespace Cert.Spec

open Idealize.ShloMosaic

/-- The real-valued inputs: the class index of a row is a number below 81 (the label range). -/
structure Args where
  X : Fin 8192 → Fin 1024 → ℝ
  g : Fin 8192 → Fin 81
  CLS : Fin 80 → Fin 300 → ℝ
  BG : Fin 300 → ℝ
  Wp : Fin 1024 → Fin 300 → ℝ
  bp : Fin 1024 → ℝ
  Wc : Fin 1024 → Fin 2048 → ℝ
  bc : Fin 1024 → ℝ
  Wqk : Fin 1024 → Fin 1024 → ℝ
  dm : Fin 1024 → ℝ
  W1 : Fin 512 → Fin 1024 → ℝ
  b1 : Fin 512 → ℝ
  W2 : Fin 512 → Fin 1024 → ℝ
  b2 : Fin 512 → ℝ
  W3 : Fin 1024 → Fin 2048 → ℝ
  b3 : Fin 1024 → ℝ
  Wf1 : Fin 1024 → Fin 1024 → ℝ
  bf1 : Fin 1024 → ℝ
  Wf2 : Fin 1024 → Fin 1024 → ℝ
  bf2 : Fin 1024 → ℝ
  lg : Fin 1024 → ℝ
  lb : Fin 1024 → ℝ

/-- A real matrix, a real vector, and a one-row real matrix read as arrays of extended reals. -/
def mat {n k : Nat} (A : Fin n → Fin k → ℝ) : (⟨2, ![n, k]⟩ : Shape).Idx → EReal := fun j => ((A (j 0) (j 1) : ℝ) : EReal)
def vec {n : Nat} (v : Fin n → ℝ) : (⟨1, ![n]⟩ : Shape).Idx → EReal := fun j => ((v (j 0) : ℝ) : EReal)
def row {k : Nat} (v : Fin k → ℝ) : (⟨2, ![1, k]⟩ : Shape).Idx → EReal := fun j => ((v (j 1) : ℝ) : EReal)
/-- Class indices as 32-bit words. -/
def words {n k : Nat} (g : Fin n → Fin k) : (⟨1, ![n]⟩ : Shape).Idx → BitVec 32 := fun j => BitVec.ofNat 32 (g (j 0)).val

variable (a : Args)

/-- Columns of a 2048-wide weight: the first half, the second half; and of the third projection's
    first half, its two quarters. -/
def lo (d : Fin 1024) : Fin 2048 := ⟨d.val, by omega⟩
def hi (d : Fin 1024) : Fin 2048 := ⟨1024 + d.val, by omega⟩
def q1 (h : Fin 512) : Fin 2048 := ⟨h.val, by omega⟩
def q2 (h : Fin 512) : Fin 2048 := ⟨512 + h.val, by omega⟩

/-- The 81 embeddings: the 80 classes, then the background row. -/
def emb (k : Fin 81) (s : Fin 300) : ℝ := if h : k.val < 80 then a.CLS ⟨k.val, h⟩ s else a.BG s
/-- The embeddings projected to the model width. -/
def ce (k : Fin 81) (e : Fin 1024) : ℝ := (∑ s : Fin 300, emb a k s * a.Wp e s) + a.bp e
/-- Row `i`'s class embedding. -/
def sem (i : Fin 8192) (e : Fin 1024) : ℝ := ce a (a.g i) e
/-- The rectified features. -/
def vis (i : Fin 8192) (d : Fin 1024) : ℝ := max (a.X i d) 0
/-- Queries, keys, values. -/
def qp (i : Fin 8192) (e : Fin 1024) : ℝ := ∑ d : Fin 1024, vis a i d * a.Wqk e d
def kp (j : Fin 8192) (e : Fin 1024) : ℝ := ∑ d : Fin 1024, max (sem a j d) 0 * a.Wqk e d
def comb (j : Fin 8192) (e : Fin 1024) : ℝ :=
  (∑ d : Fin 1024, sem a j d * a.Wc e (lo d)) + (∑ d : Fin 1024, a.X j d * a.Wc e (hi d)) + a.bc e
/-- Scaled scores against the 8192 keys and against the dummy key. -/
def score (i j : Fin 8192) : ℝ := (∑ e : Fin 1024, qp a i e * kp a j e) / 32
def scoreD (i : Fin 8192) : ℝ := (∑ e : Fin 1024, qp a i e * a.dm e) / 32
/-- The row maximum over all 8193 scores. -/
def top (i : Fin 8192) : ℝ := max (Finset.univ.sup' ⟨(0 : Fin 8192), Finset.mem_univ _⟩ (score a i)) (scoreD a i)
/-- The softmax normaliser, the dummy key's term included. -/
def den (i : Fin 8192) : ℝ := (∑ j : Fin 8192, Real.exp (score a i j - top a i)) + Real.exp (scoreD a i - top a i)
/-- The attention output: the dummy key's value row is zero. -/
def att (i : Fin 8192) (e : Fin 1024) : ℝ := (∑ j : Fin 8192, Real.exp (score a i j - top a i) * comb a j e) / den a i
/-- The two residual branches and the third projection. -/
def o1 (i : Fin 8192) (h : Fin 512) : ℝ := max ((∑ d : Fin 1024, (att a i d * vis a i d) * a.W1 h d) + a.b1 h) 0
def o2 (i : Fin 8192) (h : Fin 512) : ℝ := max ((∑ d : Fin 1024, (vis a i d - att a i d) * a.W2 h d) + a.b2 h) 0
def o (i : Fin 8192) (e : Fin 1024) : ℝ :=
  (∑ h : Fin 512, o1 a i h * a.W3 e (q1 h)) + (∑ h : Fin 512, o2 a i h * a.W3 e (q2 h))
    + (∑ d : Fin 1024, vis a i d * a.W3 e (hi d)) + a.b3 e
/-- The feed-forward block. -/
def hid (i : Fin 8192) (f : Fin 1024) : ℝ := max ((∑ d : Fin 1024, o a i d * a.Wf1 f d) + a.bf1 f) 0
def ffn (i : Fin 8192) (e : Fin 1024) : ℝ := (∑ f : Fin 1024, hid a i f * a.Wf2 e f) + a.bf2 e
/-- The layer normalisation: mean, variance, the small constant under the root (its word is the same
    in both programs and is never evaluated beyond its sign). -/
def mu (i : Fin 8192) : ℝ := (∑ d : Fin 1024, o a i d) / 1024
def var (i : Fin 8192) : ℝ := (∑ d : Fin 1024, (o a i d - mu a i) * (o a i d - mu a i)) / 1024
def eps : ℝ := (Ideal.ofBits .f32 0x3727C5AC#32).toReal
def normed (i : Fin 8192) (e : Fin 1024) : ℝ :=
  a.lg e * (o a i e - mu a i) * (Real.sqrt (var a i + eps))⁻¹ + a.lb e
/-- The result. -/
def result (i : Fin 8192) (e : Fin 1024) : ℝ := max (ffn a i e + normed a i e) 0

end Cert.Spec

end
-- ==== Proof.Blk.lean ====
import proofs.«404873_j80685255623116_3_alg».proof.Proof.Spec

/-!
# One block of the recurrence, and one row of the epilogue, over the reals

The second kernel visits, for each block of 512 query rows, the 16 blocks of 512 keys in turn, keeping per
row a running maximum `m`, a running normaliser `l` and a running value sum `acc`. One visit is the map
below; the first visit starts from nothing. After the last visit the dummy key is folded into the
normaliser and the row is passed through the epilogue, which depends on the row's attention output and on
the row's rectified features only — stated here once, as `epiRow`, so that the kernel's block and the
reference's whole array are read against the same function.
-/

noncomputable section

namespace Cert.Blk

open Idealize.ShloMosaic Cert.Spec

/-- A real column read as a [n, 1] array of extended reals. -/
def col {n : Nat} (v : Fin n → ℝ) : (⟨2, ![n, 1]⟩ : Shape).Idx → EReal := fun j => ((v (j 0) : ℝ) : EReal)

section Step

variable (q k v : Fin 512 → Fin 1024 → ℝ)

/-- The block of scores: query row `r` against key `c` of the block (the scale is already in `q`). -/
def sblk (r c : Fin 512) : ℝ := ∑ e : Fin 1024, q r e * k c e
/-- The block's row maximum. -/
def bmax (r : Fin 512) : ℝ := (Finset.univ : Finset (Fin 512)).sup' ⟨0, Finset.mem_univ _⟩ (sblk q k r)
/-- A visit from the state `(m0, l0, acc0)`. -/
def mNext (m0 : Fin 512 → ℝ) (r : Fin 512) : ℝ := max (m0 r) (bmax q k r)
def lNext (m0 l0 : Fin 512 → ℝ) (r : Fin 512) : ℝ :=
  Real.exp (m0 r - mNext q k m0 r) * l0 r + ∑ c : Fin 512, Real.exp (sblk q k r c - mNext q k m0 r)
def accNext (m0 : Fin 512 → ℝ) (acc0 : Fin 512 → Fin 1024 → ℝ) (r : Fin 512) (e : Fin 1024) : ℝ :=
  Real.exp (m0 r - mNext q k m0 r) * acc0 r e + ∑ c : Fin 512, Real.exp (sblk q k r c - mNext q k m0 r) * v c e
/-- The first visit: the maximum is the block's, nothing is carried in. -/
def lFirst (r : Fin 512) : ℝ := ∑ c : Fin 512, Real.exp (sblk q k r c - bmax q k r)
def accFirst (r : Fin 512) (e : Fin 1024) : ℝ := ∑ c : Fin 512, Real.exp (sblk q k r c - bmax q k r) * v c e

end Step

section Dummy

/-- The dummy key folded in after the last visit: its score, the new maximum, the attention row. -/
def sdum (q : Fin 512 → Fin 1024 → ℝ) (dm : Fin 1024 → ℝ) (r : Fin 512) : ℝ := ∑ e : Fin 1024, q r e * dm e
def attBlk (q : Fin 512 → Fin 1024 → ℝ) (dm : Fin 1024 → ℝ) (m l : Fin 512 → ℝ) (acc : Fin 512 → Fin 1024 → ℝ)
    (r : Fin 512) (e : Fin 1024) : ℝ :=
  (Real.exp (m r - max (m r) (sdum q dm r)) * acc r e)
    / (Real.exp (m r - max (m r) (sdum q dm r)) * l r + Real.exp (sdum q dm r - max (m r) (sdum q dm r)))

end Dummy

section Row

variable (a : Args) (at' vi : Fin 1024 → ℝ)

/-- The epilogue of one row, from its attention output `at'` and its rectified features `vi`. -/
def o1R (h : Fin 512) : ℝ := max ((∑ d : Fin 1024, (at' d * vi d) * a.W1 h d) + a.b1 h) 0
def o2R (h : Fin 512) : ℝ := max ((∑ d : Fin 1024, (vi d - at' d) * a.W2 h d) + a.b2 h) 0
def oR (e : Fin 1024) : ℝ :=
  (∑ h : Fin 512, o1R a at' vi h * a.W3 e (q1 h)) + (∑ h : Fin 512, o2R a at' vi h * a.W3 e (q2 h))
    + (∑ d : Fin 1024, vi d * a.W3 e (hi d)) + a.b3 e
def hidR (f : Fin 1024) : ℝ := max ((∑ d : Fin 1024, oR a at' vi d * a.Wf1 f d) + a.bf1 f) 0
def ffnR (e : Fin 1024) : ℝ := (∑ f : Fin 1024, hidR a at' vi f * a.Wf2 e f) + a.bf2 e
def muR : ℝ := (∑ d : Fin 1024, oR a at' vi d) / 1024
def varR : ℝ := (∑ d : Fin 1024, (oR a at' vi d - muR a at' vi) * (oR a at' vi d - muR a at' vi)) / 1024
def normedR (e : Fin 1024) : ℝ :=
  a.lg e * (oR a at' vi e - muR a at' vi) * (Real.sqrt (varR a at' vi + eps))⁻¹ + a.lb e
def epiRow (e : Fin 1024) : ℝ := max (ffnR a at' vi e + normedR a at' vi e) 0

end Row

/-- The specification's result is the epilogue of the row's attention output and rectified features. -/
theorem result_eq_epiRow (a : Args) (i : Fin 8192) (e : Fin 1024) :
    result a i e = epiRow a (att a i) (vis a i) e := rfl

end Cert.Blk

end
-- ==== Proof.FlashSpec.lean ====
import proofs.«404873_j80685255623116_3_alg».proof.Proof.Flash
import proofs.«404873_j80685255623116_3_alg».proof.Proof.Spec
import proofs.«404873_j80685255623116_3_alg».proof.Proof.Blk

/-!
# The block recurrence of one query row computes the specification's attention

A query row `i = 512 * qi + r` meets the 8192 keys in 16 consecutive blocks of 512.  With the
softmax scale folded into the queries, the block of scores of a visit is the specification's
`score` restricted to that block; hence the first visit produces the maximum, the normaliser and
the value sum of block `0`, every later visit turns those of the blocks `0, …, kb` into those of
the blocks `0, …, kb + 1`, and after the last visit the extra key of value zero gives the
specification's `att`.

`mAfter a qi kb`, `lAfter a qi kb`, `accAfter a qi kb` are the closed forms of the state after the
visits `0, …, kb`: maximum, normaliser and value sum over the keys `j` with `j / 512 < kb + 1`.
-/

noncomputable section

namespace Cert.FlashSpec

open Finset Cert.Spec Cert.Flash

/-- The row of 8192 keys is 16 blocks of 512. -/
theorem hn : (8192 : ℕ) = 16 * 512 := by norm_num

theorem htk : 0 < 512 := by norm_num

/-- Position `r` of block `b`: row `512 * b + r`. -/
def rowIdx (b : Fin 16) (r : Fin 512) : Fin 8192 := ⟨512 * b.val + r.val, by omega⟩

@[simp] theorem rowIdx_val (b : Fin 16) (r : Fin 512) : (rowIdx b r).val = 512 * b.val + r.val := rfl

theorem rowIdx_eq_blockKey (b : Fin 16) (r : Fin 512) : rowIdx b r = blockKey hn b.isLt r := rfl

/-- Every block has a key, and so have the blocks up to any block. -/
theorem blk_ne (kb : Fin 16) : (block 8192 512 kb.val).Nonempty := block_nonempty hn htk kb.isLt

theorem bb_ne (k : ℕ) : (blocksBelow 8192 512 (k + 1)).Nonempty :=
  blocksBelow_nonempty hn htk (by norm_num) (Nat.succ_pos k)

/-- The sixteen blocks are the whole row. -/
theorem bb_last : blocksBelow 8192 512 (15 + 1) = (univ : Finset (Fin 8192)) :=
  blocksBelow_eq_univ (nb := 16) hn htk

variable (a : Args)

/-- The scaled queries of row block `qi`; the keys and the values of key block `kb`. -/
def qS (qi : Fin 16) (r : Fin 512) (e : Fin 1024) : ℝ := qp a (rowIdx qi r) e * (1 / 32)
def kB (kb : Fin 16) (c : Fin 512) (e : Fin 1024) : ℝ := kp a (rowIdx kb c) e
def vB (kb : Fin 16) (c : Fin 512) (e : Fin 1024) : ℝ := comb a (rowIdx kb c) e

/-! ## The scores of a visit are the specification's scores -/

/-- Scaling the query by `1 / 32` before the dot product divides the dot product by `32`. -/
theorem sum_scaled_mul {n : ℕ} (x y : Fin n → ℝ) :
    ∑ e : Fin n, (x e * (1 / 32)) * y e = (∑ e : Fin n, x e * y e) / 32 := by
  rw [eq_div_iff (by norm_num : (32 : ℝ) ≠ 0), Finset.sum_mul]
  refine Finset.sum_congr rfl fun e _ => ?_
  ring

theorem sblk_eq (qi kb : Fin 16) (r c : Fin 512) :
    Blk.sblk (qS a qi) (kB a kb) r c = score a (rowIdx qi r) (rowIdx kb c) :=
  sum_scaled_mul (qp a (rowIdx qi r)) (kp a (rowIdx kb c))

theorem sdum_eq (qi : Fin 16) (r : Fin 512) :
    Blk.sdum (qS a qi) a.dm r = scoreD a (rowIdx qi r) :=
  sum_scaled_mul (qp a (rowIdx qi r)) a.dm

/-! ## One key block, read as a set of keys of the row -/

theorem bmax_eq (qi kb : Fin 16) (r : Fin 512) :
    Blk.bmax (qS a qi) (kB a kb) r
      = M (score a (rowIdx qi r)) (block 8192 512 kb.val) (blk_ne kb) := by
  unfold Blk.bmax M
  rw [sup'_block hn htk kb.isLt (score a (rowIdx qi r)) (blk_ne kb) ⟨0, mem_univ _⟩]
  exact Finset.sup'_congr _ rfl fun c _ => sblk_eq a qi kb r c

theorem sum_exp_blk (qi kb : Fin 16) (r : Fin 512) (m : ℝ) :
    ∑ c : Fin 512, Real.exp (Blk.sblk (qS a qi) (kB a kb) r c - m)
      = ∑ j ∈ block 8192 512 kb.val, Real.exp (score a (rowIdx qi r) j - m) := by
  rw [sum_block hn htk kb.isLt fun j => Real.exp (score a (rowIdx qi r) j - m)]
  refine Finset.sum_congr rfl fun c _ => ?_
  rw [sblk_eq]
  rfl

theorem sum_exp_mul_blk (qi kb : Fin 16) (r : Fin 512) (e : Fin 1024) (m : ℝ) :
    ∑ c : Fin 512, Real.exp (Blk.sblk (qS a qi) (kB a kb) r c - m) * vB a kb c e
      = ∑ j ∈ block 8192 512 kb.val, Real.exp (score a (rowIdx qi r) j - m) * comb a j e := by
  rw [sum_block hn htk kb.isLt fun j => Real.exp (score a (rowIdx qi r) j - m) * comb a j e]
  refine Finset.sum_congr rfl fun c _ => ?_
  rw [sblk_eq]
  rfl

/-- The first-visit normaliser and value sum of any key block are `L` and `A` of that block. -/
theorem lFirst_eq_L (qi kb : Fin 16) (r : Fin 512) :
    Blk.lFirst (qS a qi) (kB a kb) r
      = L (score a (rowIdx qi r)) (block 8192 512 kb.val) (blk_ne kb) := by
  unfold Blk.lFirst L
  rw [sum_exp_blk, bmax_eq]

theorem accFirst_eq_A (qi kb : Fin 16) (r : Fin 512) (e : Fin 1024) :
    Blk.accFirst (qS a qi) (kB a kb) (vB a kb) r e
      = A (score a (rowIdx qi r)) (fun j => comb a j e) (block 8192 512 kb.val) (blk_ne kb) := by
  unfold Blk.accFirst A
  rw [sum_exp_mul_blk, bmax_eq]

/-! ## The closed form of the state after the visits `0, …, kb` -/

def mAfter (qi : Fin 16) (kb : ℕ) (r : Fin 512) : ℝ :=
  M (score a (rowIdx qi r)) (blocksBelow 8192 512 (kb + 1)) (bb_ne kb)

def lAfter (qi : Fin 16) (kb : ℕ) (r : Fin 512) : ℝ :=
  L (score a (rowIdx qi r)) (blocksBelow 8192 512 (kb + 1)) (bb_ne kb)

def accAfter (qi : Fin 16) (kb : ℕ) (r : Fin 512) (e : Fin 1024) : ℝ :=
  A (score a (rowIdx qi r)) (fun j => comb a j e) (blocksBelow 8192 512 (kb + 1)) (bb_ne kb)

/-- The normaliser is positive after any number of visits. -/
theorem lAfter_pos (qi : Fin 16) (kb : ℕ) (r : Fin 512) : 0 < lAfter a qi kb r :=
  L_pos _ _

/-! ### The first visit -/

theorem bmax_first (qi : Fin 16) (r : Fin 512) :
    Blk.bmax (qS a qi) (kB a 0) r = mAfter a qi 0 r :=
  (bmax_eq a qi 0 r).trans (M_congr _ (blocksBelow_one 8192 512).symm _ _)

theorem lFirst_first (qi : Fin 16) (r : Fin 512) :
    Blk.lFirst (qS a qi) (kB a 0) r = lAfter a qi 0 r :=
  (lFirst_eq_L a qi 0 r).trans (L_congr _ (blocksBelow_one 8192 512).symm _ _)

theorem accFirst_first (qi : Fin 16) (r : Fin 512) (e : Fin 1024) :
    Blk.accFirst (qS a qi) (kB a 0) (vB a 0) r e = accAfter a qi 0 r e :=
  (accFirst_eq_A a qi 0 r e).trans (A_congr _ _ (blocksBelow_one 8192 512).symm _ _)

/-! ### A later visit, row by row: if the state of row `r` before visit `kb + 1` is the closed
form after the visits `0, …, kb`, the visit produces the closed form after `0, …, kb + 1`. -/

theorem mNext_row (qi : Fin 16) (kb : ℕ) (h : kb + 1 < 16) (m0 : Fin 512 → ℝ) (r : Fin 512)
    (hm : m0 r = mAfter a qi kb r) :
    Blk.mNext (qS a qi) (kB a ⟨kb + 1, h⟩) m0 r = mAfter a qi (kb + 1) r := by
  unfold Blk.mNext
  rw [hm, bmax_eq]
  exact (M_blocksBelow_succ _ (kb + 1) _ _ _).symm

theorem lNext_row (qi : Fin 16) (kb : ℕ) (h : kb + 1 < 16) (m0 l0 : Fin 512 → ℝ) (r : Fin 512)
    (hm : m0 r = mAfter a qi kb r) (hl : l0 r = lAfter a qi kb r) :
    Blk.lNext (qS a qi) (kB a ⟨kb + 1, h⟩) m0 l0 r = lAfter a qi (kb + 1) r := by
  unfold Blk.lNext Blk.mNext
  rw [hm, hl, sum_exp_blk, bmax_eq]
  exact (L_blocksBelow_succ _ (kb + 1) _ _ _).symm

theorem accNext_row (qi : Fin 16) (kb : ℕ) (h : kb + 1 < 16) (m0 : Fin 512 → ℝ)
    (acc0 : Fin 512 → Fin 1024 → ℝ) (r : Fin 512) (e : Fin 1024)
    (hm : m0 r = mAfter a qi kb r) (hacc : acc0 r e = accAfter a qi kb r e) :
    Blk.accNext (qS a qi) (kB a ⟨kb + 1, h⟩) (vB a ⟨kb + 1, h⟩) m0 acc0 r e
      = accAfter a qi (kb + 1) r e := by
  unfold Blk.accNext Blk.mNext
  rw [hm, hacc, sum_exp_mul_blk, bmax_eq]
  exact (A_blocksBelow_succ _ _ (kb + 1) _ _ _).symm

/-! ### The same, for whole states -/

theorem bmax_first_fun (qi : Fin 16) : Blk.bmax (qS a qi) (kB a 0) = mAfter a qi 0 :=
  funext fun r => bmax_first a qi r

theorem lFirst_first_fun (qi : Fin 16) : Blk.lFirst (qS a qi) (kB a 0) = lAfter a qi 0 :=
  funext fun r => lFirst_first a qi r

theorem accFirst_first_fun (qi : Fin 16) :
    Blk.accFirst (qS a qi) (kB a 0) (vB a 0) = accAfter a qi 0 :=
  funext fun r => funext fun e => accFirst_first a qi r e

theorem mNext_fun (qi : Fin 16) (kb : ℕ) (h : kb + 1 < 16) (m0 : Fin 512 → ℝ)
    (hm : m0 = mAfter a qi kb) :
    Blk.mNext (qS a qi) (kB a ⟨kb + 1, h⟩) m0 = mAfter a qi (kb + 1) :=
  funext fun r => mNext_row a qi kb h m0 r (congrFun hm r)

theorem lNext_fun (qi : Fin 16) (kb : ℕ) (h : kb + 1 < 16) (m0 l0 : Fin 512 → ℝ)
    (hm : m0 = mAfter a qi kb) (hl : l0 = lAfter a qi kb) :
    Blk.lNext (qS a qi) (kB a ⟨kb + 1, h⟩) m0 l0 = lAfter a qi (kb + 1) :=
  funext fun r => lNext_row a qi kb h m0 l0 r (congrFun hm r) (congrFun hl r)

theorem accNext_fun (qi : Fin 16) (kb : ℕ) (h : kb + 1 < 16) (m0 : Fin 512 → ℝ)
    (acc0 : Fin 512 → Fin 1024 → ℝ) (hm : m0 = mAfter a qi kb) (hacc : acc0 = accAfter a qi kb) :
    Blk.accNext (qS a qi) (kB a ⟨kb + 1, h⟩) (vB a ⟨kb + 1, h⟩) m0 acc0 = accAfter a qi (kb + 1) :=
  funext fun r => funext fun e =>
    accNext_row a qi kb h m0 acc0 r e (congrFun hm r) (congrFun (congrFun hacc r) e)

/-! ## After the last visit -/

/-- After the sixteenth visit the running maximum is the maximum over the whole row. -/
theorem mAfter_last (qi : Fin 16) (r : Fin 512) :
    mAfter a qi 15 r
      = (univ : Finset (Fin 8192)).sup' ⟨0, mem_univ _⟩ (score a (rowIdx qi r)) :=
  M_congr _ bb_last _ _

/-- With the extra key it is the specification's row maximum. -/
theorem max_mAfter_last (qi : Fin 16) (r : Fin 512) :
    max (mAfter a qi 15 r) (Blk.sdum (qS a qi) a.dm r) = top a (rowIdx qi r) := by
  rw [mAfter_last, sdum_eq]
  rfl

/-- **The end, row by row**: from the closed form after all sixteen visits, the extra key of
value zero gives the specification's attention output. -/
theorem attBlk_row (qi : Fin 16) (m l : Fin 512 → ℝ) (acc : Fin 512 → Fin 1024 → ℝ)
    (r : Fin 512) (e : Fin 1024) (hm : m r = mAfter a qi 15 r) (hl : l r = lAfter a qi 15 r)
    (hacc : acc r e = accAfter a qi 15 r e) :
    Blk.attBlk (qS a qi) a.dm m l acc r e = att a (rowIdx qi r) e := by
  unfold Blk.attBlk
  rw [hm, hl, hacc, max_mAfter_last, sdum_eq]
  unfold mAfter lAfter accAfter
  rw [final_quotient_at, bb_last]
  unfold att den
  rfl

theorem attBlk_last (qi : Fin 16) (r : Fin 512) (e : Fin 1024) :
    Blk.attBlk (qS a qi) a.dm (mAfter a qi 15) (lAfter a qi 15) (accAfter a qi 15) r e
      = att a (rowIdx qi r) e :=
  attBlk_row a qi _ _ _ r e rfl rfl rfl

/-- The denominator of that quotient is positive (so the quotient is a genuine division). -/
theorem attBlk_denom_pos (qi : Fin 16) (r : Fin 512) :
    0 < Real.exp (mAfter a qi 15 r - max (mAfter a qi 15 r) (Blk.sdum (qS a qi) a.dm r))
          * lAfter a qi 15 r
        + Real.exp (Blk.sdum (qS a qi) a.dm r
            - max (mAfter a qi 15 r) (Blk.sdum (qS a qi) a.dm r)) :=
  final_denom_pos' _ _ _ _

/-- The specification's normaliser is positive. -/
theorem den_pos (i : Fin 8192) : 0 < den a i :=
  final_denom_pos (score a i) univ (scoreD a i) (top a i)

/-! ## The state after the visits `0, …, kb`, by recursion -/

/-- A state: running maximum, running normaliser, running value sum of the 512 rows. -/
structure St where
  m : Fin 512 → ℝ
  l : Fin 512 → ℝ
  acc : Fin 512 → Fin 1024 → ℝ

/-- The state after the first visit. -/
def first (qi : Fin 16) : St :=
  ⟨Blk.bmax (qS a qi) (kB a 0), Blk.lFirst (qS a qi) (kB a 0),
    Blk.accFirst (qS a qi) (kB a 0) (vB a 0)⟩

/-- One later visit, of key block `kb`. -/
def next (qi kb : Fin 16) (st : St) : St :=
  ⟨Blk.mNext (qS a qi) (kB a kb) st.m, Blk.lNext (qS a qi) (kB a kb) st.m st.l,
    Blk.accNext (qS a qi) (kB a kb) (vB a kb) st.m st.acc⟩

/-- The state after the visits `0, …, kb`. -/
def run (qi : Fin 16) : (kb : ℕ) → kb < 16 → St
  | 0, _ => first a qi
  | kb + 1, h => next a qi ⟨kb + 1, h⟩ (run qi kb (Nat.lt_of_succ_lt h))

/-- The closed form, as a state. -/
def closed (qi : Fin 16) (kb : ℕ) : St :=
  ⟨mAfter a qi kb, lAfter a qi kb, accAfter a qi kb⟩

@[simp] theorem closed_m (qi : Fin 16) (kb : ℕ) : (closed a qi kb).m = mAfter a qi kb := by
  simp only [closed]

@[simp] theorem closed_l (qi : Fin 16) (kb : ℕ) : (closed a qi kb).l = lAfter a qi kb := by
  simp only [closed]

@[simp] theorem closed_acc (qi : Fin 16) (kb : ℕ) : (closed a qi kb).acc = accAfter a qi kb := by
  simp only [closed]

theorem first_eq_closed (qi : Fin 16) : first a qi = closed a qi 0 := by
  unfold first closed
  rw [bmax_first_fun, lFirst_first_fun, accFirst_first_fun]

theorem next_closed (qi : Fin 16) (kb : ℕ) (h : kb + 1 < 16) :
    next a qi ⟨kb + 1, h⟩ (closed a qi kb) = closed a qi (kb + 1) := by
  unfold next closed
  rw [mNext_fun a qi kb h _ rfl, lNext_fun a qi kb h _ _ rfl rfl,
    accNext_fun a qi kb h _ _ rfl rfl]

theorem run_eq_closed (qi : Fin 16) (kb : ℕ) (h : kb < 16) : run a qi kb h = closed a qi kb := by
  induction kb with
  | zero => exact first_eq_closed a qi
  | succ kb ih =>
    show next a qi ⟨kb + 1, h⟩ (run a qi kb (Nat.lt_of_succ_lt h)) = closed a qi (kb + 1)
    rw [ih (Nat.lt_of_succ_lt h)]
    exact next_closed a qi kb h

/-- **The end**, from the recursively defined state. -/
theorem attBlk_run (qi : Fin 16) (h15 : 15 < 16) (r : Fin 512) (e : Fin 1024) :
    Blk.attBlk (qS a qi) a.dm (run a qi 15 h15).m (run a qi 15 h15).l (run a qi 15 h15).acc r e
      = att a (rowIdx qi r) e := by
  rw [run_eq_closed a qi 15 h15, closed_m, closed_l, closed_acc]
  exact attBlk_last a qi r e

end Cert.FlashSpec

end
-- ==== Proof.Lift.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

/-!
# Real arrays inside the extended reals

At the exact reading of the float operations a vector is a function into the extended reals, and each
operation is the textbook one there. When every entry of the operands is a (finite) real number, the
result of each operation is again an array of real numbers, given by the same formula over ℝ. This file
states that, operation by operation: "the operation applied to coerced real arrays is the coercion of
the real formula". Pointwise operations are stated for whole vectors and for one element; contractions
and reductions are read at an index.
-/

noncomputable section

open scoped BigOperators

namespace Cert.Lift

open Idealize.ShloMosaic

variable {S : Shape} {φ : FTy}

/-! ## One element -/

/-- The coercion ℝ → [-∞, +∞] commutes with the maximum (it is monotone). -/
theorem coe_max (a b : ℝ) : ((max a b : ℝ) : EReal) = max (a : EReal) (b : EReal) :=
  EReal.coe_strictMono.monotone.map_max

/-- The coercion commutes with the minimum. -/
theorem coe_min (a b : ℝ) : ((min a b : ℝ) : EReal) = min (a : EReal) (b : EReal) :=
  EReal.coe_strictMono.monotone.map_min

/-- A finite sum of reals, coerced, is the sum of the coercions: the coercion is additive, and the
    statement follows by induction on the index set. -/
theorem coe_finset_sum {ι : Type*} (s : Finset ι) (f : ι → ℝ) :
    ((∑ k ∈ s, f k : ℝ) : EReal) = ∑ k ∈ s, ((f k : ℝ) : EReal) := by
  induction s using Finset.cons_induction with
  | empty => simp
  | cons a s ha ih => rw [Finset.sum_cons, Finset.sum_cons, EReal.coe_add, ih]

/-- The quotient of two reals with a nonzero divisor: the exact division's first branch. -/
theorem div_coe_coe (a : ℝ) {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

/-- The reciprocal square root of a positive real. -/
theorem rsqrt_coe_pos {b : ℝ} (hb : 0 < b) : Ideal.rsqrt (b : EReal) = (((Real.sqrt b)⁻¹ : ℝ) : EReal) := by
  rw [Ideal.rsqrt_coe, if_neg (not_lt.mpr hb.le), if_neg hb.ne']

/-- The square root of a nonnegative real. -/
theorem sqrt_coe_nonneg {b : ℝ} (hb : 0 ≤ b) : Ideal.sqrt (b : EReal) = ((Real.sqrt b : ℝ) : EReal) := by
  rw [Ideal.sqrt_coe, if_neg (not_lt.mpr hb)]

/-- Dividing by the square root of a positive real is multiplying by its reciprocal square root:
    both are a · (√b)⁻¹. -/
theorem div_sqrt_eq_mul_rsqrt (a : ℝ) {b : ℝ} (hb : 0 < b) :
    Ideal.div (a : EReal) (Ideal.sqrt (b : EReal)) = (a : EReal) * Ideal.rsqrt (b : EReal) := by
  rw [sqrt_coe_nonneg hb.le, rsqrt_coe_pos hb, div_coe_coe a (Real.sqrt_pos.mpr hb).ne', ← EReal.coe_mul,
    div_eq_mul_inv]

/-! ## Whole vectors, pointwise -/

theorem addf_coe (x y : S.Idx → ℝ) :
    addf (F := Ideal) (φ := φ) (fun i => ((x i : ℝ) : EReal)) (fun i => ((y i : ℝ) : EReal))
      = fun i => ((x i + y i : ℝ) : EReal) :=
  funext fun i => (EReal.coe_add (x i) (y i)).symm

theorem subf_coe (x y : S.Idx → ℝ) :
    subf (F := Ideal) (φ := φ) (fun i => ((x i : ℝ) : EReal)) (fun i => ((y i : ℝ) : EReal))
      = fun i => ((x i - y i : ℝ) : EReal) :=
  funext fun i => (EReal.coe_sub (x i) (y i)).symm

theorem mulf_coe (x y : S.Idx → ℝ) :
    mulf (F := Ideal) (φ := φ) (fun i => ((x i : ℝ) : EReal)) (fun i => ((y i : ℝ) : EReal))
      = fun i => ((x i * y i : ℝ) : EReal) :=
  funext fun i => (EReal.coe_mul (x i) (y i)).symm

theorem maximumf_coe (x y : S.Idx → ℝ) :
    maximumf (F := Ideal) (φ := φ) (fun i => ((x i : ℝ) : EReal)) (fun i => ((y i : ℝ) : EReal))
      = fun i => ((max (x i) (y i) : ℝ) : EReal) :=
  funext fun i => (coe_max (x i) (y i)).symm

/-- The exponential of a real array. -/
theorem exp_coe (x : S.Idx → ℝ) :
    exp (F := Ideal) (φ := φ) (fun i => ((x i : ℝ) : EReal)) = fun i => ((Real.exp (x i) : ℝ) : EReal) :=
  rfl

/-- The host's exponential is the same function. -/
theorem hostExp_coe (x : S.Idx → ℝ) :
    Host.exp (F := Ideal) (φ := φ) (fun i => ((x i : ℝ) : EReal)) = fun i => ((Real.exp (x i) : ℝ) : EReal) :=
  rfl

/-- A quotient whose divisor has no zero entry. -/
theorem divf_coe (x y : S.Idx → ℝ) (hy : ∀ i, y i ≠ 0) :
    divf (F := Ideal) (φ := φ) (fun i => ((x i : ℝ) : EReal)) (fun i => ((y i : ℝ) : EReal))
      = fun i => ((x i / y i : ℝ) : EReal) :=
  funext fun i => div_coe_coe (x i) (hy i)

/-- The host's quotient is the same function. -/
theorem hostDivf_coe (x y : S.Idx → ℝ) (hy : ∀ i, y i ≠ 0) :
    Host.divf (F := Ideal) (φ := φ) (fun i => ((x i : ℝ) : EReal)) (fun i => ((y i : ℝ) : EReal))
      = fun i => ((x i / y i : ℝ) : EReal) :=
  funext fun i => div_coe_coe (x i) (hy i)

/-- The reciprocal square root of a positive array. -/
theorem rsqrt_coe (x : S.Idx → ℝ) (hx : ∀ i, 0 < x i) :
    rsqrt (F := Ideal) (φ := φ) (fun i => ((x i : ℝ) : EReal)) = fun i => (((Real.sqrt (x i))⁻¹ : ℝ) : EReal) :=
  funext fun i => rsqrt_coe_pos (hx i)

/-- The square root of a nonnegative array, the kernel's and the host's. -/
theorem sqrt_coe (x : S.Idx → ℝ) (hx : ∀ i, 0 ≤ x i) :
    sqrt (F := Ideal) (φ := φ) (fun i => ((x i : ℝ) : EReal)) = fun i => ((Real.sqrt (x i) : ℝ) : EReal) :=
  funext fun i => sqrt_coe_nonneg (hx i)

theorem hostSqrt_coe (x : S.Idx → ℝ) (hx : ∀ i, 0 ≤ x i) :
    Host.sqrt (F := Ideal) (φ := φ) (fun i => ((x i : ℝ) : EReal)) = fun i => ((Real.sqrt (x i) : ℝ) : EReal) :=
  funext fun i => sqrt_coe_nonneg (hx i)

/-- The two spellings of a normalisation by a standard deviation agree on real arrays: the host's
    quotient by a square root, and the product with a reciprocal square root, for a positive radicand. -/
theorem hostDivf_hostSqrt_eq_mulf_rsqrt (a b : S.Idx → ℝ) (hb : ∀ i, 0 < b i) :
    Host.divf (F := Ideal) (φ := φ) (fun i => ((a i : ℝ) : EReal)) (Host.sqrt (fun i => ((b i : ℝ) : EReal)))
      = mulf (fun i => ((a i : ℝ) : EReal)) (rsqrt (fun i => ((b i : ℝ) : EReal))) :=
  funext fun i => div_sqrt_eq_mul_rsqrt (a i) (hb i)

/-- Both spellings as the real formula a · (√b)⁻¹. -/
theorem hostDivf_hostSqrt_coe (a b : S.Idx → ℝ) (hb : ∀ i, 0 < b i) :
    Host.divf (F := Ideal) (φ := φ) (fun i => ((a i : ℝ) : EReal)) (Host.sqrt (fun i => ((b i : ℝ) : EReal)))
      = fun i => ((a i * (Real.sqrt (b i))⁻¹ : ℝ) : EReal) := by
  rw [hostDivf_hostSqrt_eq_mulf_rsqrt a b hb, rsqrt_coe b hb, mulf_coe]

/-- A change of format is the identity. -/
theorem truncf_eq {ψ : FTy} (x : FVec Ideal S φ) (h : ψ.bits < φ.bits) :
    (truncf ψ x h : S.Idx → EReal) = x := rfl

theorem extf_eq {ψ : FTy} (x : FVec Ideal S φ) (h : φ.bits < ψ.bits) :
    (extf ψ x h : S.Idx → EReal) = x := rfl

/-! ## Re-indexing operations carry the coercion along

A broadcast, a shape cast and a transpose only re-index their operand, so they commute with any
pointwise map, the coercion among them. -/

theorem broadcastTo_coe {s t : Shape} (x : s.Idx → ℝ) (h : s.Broadcasts t) :
    broadcastTo t (fun i => ((x i : ℝ) : EReal)) h = fun j => ((broadcastTo t x h j : ℝ) : EReal) := rfl

theorem shapeCast_coe {s t : Shape} (x : s.Idx → ℝ) (h : s.ShapeCasts t) :
    shapeCast t (fun i => ((x i : ℝ) : EReal)) h = fun j => ((shapeCast t x h j : ℝ) : EReal) := rfl

theorem transpose_coe {s t : Shape} (perm : List (Fin s.rank)) (x : s.Idx → ℝ) (h : s.Transposes perm t) :
    transpose t perm (fun i => ((x i : ℝ) : EReal)) h = fun j => ((transpose t perm x h j : ℝ) : EReal) := rfl

theorem broadcast_coe (t : Shape) (r : ℝ) :
    broadcast t ((r : ℝ) : EReal) = fun _ : t.Idx => ((r : ℝ) : EReal) := rfl

/-! ## Contractions, read at an index -/

section Contraction
variable {sl sr so : Shape} {φ₁ φ₂ : FTy}

/-- A matrix product of two real arrays into a real accumulator: the accumulator's entry plus the sum
    over the contraction index of the products. -/
theorem matmul_coe_apply (d : DotDims sl sr so) (prec : Option ContractPrecision)
    (A : sl.Idx → ℝ) (B : sr.Idx → ℝ) (C : so.Idx → ℝ) (j : so.Idx) :
    matmul (F := Ideal) (φ₁ := φ₁) (φ₂ := φ₂) d prec (fun i => ((A i : ℝ) : EReal)) (fun i => ((B i : ℝ) : EReal))
        (fun i => ((C i : ℝ) : EReal)) j
      = ((C j + ∑ k : d.contr.Idx, A (d.lhsIdx j k) * B (d.rhsIdx j k) : ℝ) : EReal) := by
  refine (Ideal.matmul_apply (φ₁ := φ₁) (φ₂ := φ₂) d prec _ _ _ j).trans ?_
  rw [EReal.coe_add, coe_finset_sum]
  exact congrArg _ (Finset.sum_congr rfl fun k _ => (EReal.coe_mul _ _).symm)

/-- Into the zero accumulator a payload passes: just the sum. -/
theorem matmul_zero_coe_apply (d : DotDims sl sr so) (prec : Option ContractPrecision)
    (A : sl.Idx → ℝ) (B : sr.Idx → ℝ) (j : so.Idx) :
    matmul (F := Ideal) (φ₁ := φ₁) (φ₂ := φ₂) d prec (fun i => ((A i : ℝ) : EReal)) (fun i => ((B i : ℝ) : EReal))
        (constant so .f32 0x00000000#32) j
      = ((∑ k : d.contr.Idx, A (d.lhsIdx j k) * B (d.rhsIdx j k) : ℝ) : EReal) := by
  refine (Ideal.matmul_constant_zero_apply (φ₁ := φ₁) (φ₂ := φ₂) d prec _ _ j).trans ?_
  rw [coe_finset_sum]
  exact Finset.sum_congr rfl fun k _ => (EReal.coe_mul _ _).symm

/-- The same for the whole result. -/
theorem matmul_zero_coe (d : DotDims sl sr so) (prec : Option ContractPrecision) (A : sl.Idx → ℝ) (B : sr.Idx → ℝ) :
    matmul (F := Ideal) (φ₁ := φ₁) (φ₂ := φ₂) d prec (fun i => ((A i : ℝ) : EReal)) (fun i => ((B i : ℝ) : EReal))
        (constant so .f32 0x00000000#32)
      = fun j => ((∑ k : d.contr.Idx, A (d.lhsIdx j k) * B (d.rhsIdx j k) : ℝ) : EReal) :=
  funext fun j => matmul_zero_coe_apply (φ₁ := φ₁) (φ₂ := φ₂) d prec A B j

/-- The host's general product of two real arrays: the same sum, with no accumulator. -/
theorem dotGeneral_coe_apply (d : DotDims sl sr so) (prec : Option ContractPrecision)
    (A : sl.Idx → ℝ) (B : sr.Idx → ℝ) (j : so.Idx) :
    Host.dotGeneral (F := Ideal) (φ₁ := φ₁) (φ₂ := φ₂) d prec (fun i => ((A i : ℝ) : EReal)) (fun i => ((B i : ℝ) : EReal)) j
      = ((∑ k : d.contr.Idx, A (d.lhsIdx j k) * B (d.rhsIdx j k) : ℝ) : EReal) := by
  refine (Ideal.dotGeneral_apply (φ₁ := φ₁) (φ₂ := φ₂) d prec .single _ _ j).trans ?_
  rw [coe_finset_sum]
  exact Finset.sum_congr rfl fun k _ => (EReal.coe_mul _ _).symm

theorem dotGeneral_coe (d : DotDims sl sr so) (prec : Option ContractPrecision) (A : sl.Idx → ℝ) (B : sr.Idx → ℝ) :
    Host.dotGeneral (F := Ideal) (φ₁ := φ₁) (φ₂ := φ₂) d prec (fun i => ((A i : ℝ) : EReal)) (fun i => ((B i : ℝ) : EReal))
      = fun j => ((∑ k : d.contr.Idx, A (d.lhsIdx j k) * B (d.rhsIdx j k) : ℝ) : EReal) :=
  funext fun j => dotGeneral_coe_apply (φ₁ := φ₁) (φ₂ := φ₂) d prec A B j

end Contraction

/-! ## Reductions over one axis, read at an index -/

section Reduction
variable {s t : Shape} {a : Fin s.rank}

/-- A sum over one axis of a real array: the sum over that axis's coordinates. -/
theorem multiReduction_add_coe_apply (X : s.Idx → ℝ) (acc : BitVec φ.bits) (h : s.Reduces [a] t)
    (hφ : FKind.Formats φ) (hacc : acc = FKind.add.neutral φ hφ) (j : t.Idx) :
    multiReduction (F := Ideal) .add [a] t (fun i => ((X i : ℝ) : EReal)) acc h hφ hacc j
      = ((∑ k : Fin (s.size a), X (h.lift j k) : ℝ) : EReal) := by
  rw [Ideal.multiReduction_add_single, coe_finset_sum]

/-- The host's sum over one axis from a real initial value c: c plus the sum over that axis. -/
theorem hostReduceAdd_coe_apply {u : Shape} (X : s.Idx → ℝ) (init : u.Idx → EReal) (c : ℝ) (h' : s.ReducesTo [a] t)
    (h : s.Reduces [a] t) (hu : 0 < u.numel) (hinit : init (Shape.Idx.first hu) = ((c : ℝ) : EReal)) (j : t.Idx) :
    Host.reduceAdd (F := Ideal) (φ := φ) (fun i => ((X i : ℝ) : EReal)) init h' hu j
      = ((c + ∑ k : Fin (s.size a), X (h.lift j k) : ℝ) : EReal) := by
  show Ideal.hostReduceAdd h' _ (init (Shape.Idx.first hu)) j = _
  rw [Ideal.hostReduceAdd_single h' h, hinit, EReal.coe_add, coe_finset_sum]

/-- The fold of the maximum from -∞ over a nonempty index set of reals is the coercion of their
    largest. -/
theorem fold_max_bot_coe {ι : Type*} (S : Finset ι) (hS : S.Nonempty) (f : ι → ℝ) :
    S.fold max (⊥ : EReal) (fun k => ((f k : ℝ) : EReal)) = ((S.sup' hS f : ℝ) : EReal) := by
  have h1 : S.fold max (⊥ : EReal) (fun k => ((f k : ℝ) : EReal)) = S.sup (fun k => ((f k : ℝ) : EReal)) := rfl
  rw [h1, ← Finset.sup'_eq_sup hS, Finset.apply_sup'_eq_sup'_comp hS (fun r : ℝ => (r : EReal)) coe_max]
  rfl

/-- The pattern of -∞. -/
theorem ofBits_neg_inf : Ideal.ofBits .f32 0xFF800000#32 = ⊥ := by simp [Ideal.ofBits, Ideal.ieee]

/-- A maximum over one (nonempty) axis of a real array: the largest entry along that axis. -/
theorem multiReduction_maximumf_coe_apply (X : s.Idx → ℝ) (h : s.Reduces [a] t) (hφ : FKind.Formats .f32)
    (hacc : (0xFF800000#32 : BitVec 32) = FKind.maximumf.neutral .f32 hφ) (j : t.Idx)
    (hne : (Finset.univ : Finset (Fin (s.size a))).Nonempty) :
    multiReduction (F := Ideal) (φ := .f32) .maximumf [a] t (fun i => ((X i : ℝ) : EReal)) 0xFF800000#32 h hφ hacc j
      = ((Finset.univ.sup' hne (fun k => X (h.lift j k)) : ℝ) : EReal) := by
  rw [Ideal.multiReduction_maximumf_single]
  show Finset.univ.fold max (Ideal.ofBits .f32 0xFF800000#32) (fun k => ((X (h.lift j k) : ℝ) : EReal)) = _
  rw [ofBits_neg_inf, fold_max_bot_coe]

/-- The host's maximum over one (nonempty) axis from -∞. -/
theorem hostReduce_maximumf_coe_apply {u : Shape} (X : s.Idx → ℝ) (init : u.Idx → EReal) (h' : s.ReducesTo [a] t)
    (h : s.Reduces [a] t) (hu : 0 < u.numel) (hinit : init (Shape.Idx.first hu) = ⊥) (j : t.Idx)
    (hne : (Finset.univ : Finset (Fin (s.size a))).Nonempty) :
    Host.reduce (FloatOps.maximumf (F := Ideal) (φ := φ)) (fun i => ((X i : ℝ) : EReal)) init h' hu j
      = ((Finset.univ.sup' hne (fun k => X (h.lift j k)) : ℝ) : EReal) := by
  rw [Host.reduce_eq_fold_single _ _ _ h' h hu j, hinit]
  exact fold_max_bot_coe _ hne _

end Reduction

/-! ## The float literals, as real numbers -/

theorem ofBits_zero : Ideal.ofBits .f32 0x00000000#32 = ((0 : ℝ) : EReal) := by
  rw [Ideal.ofBits_zero_f32, EReal.coe_zero]

theorem ofBits_inv32 : Ideal.ofBits .f32 0x3D000000#32 = ((1 / 32 : ℝ) : EReal) := by
  simp [Ideal.ofBits, Ideal.ieee, -EReal.coe_mul]; norm_num

theorem ofBits_32 : Ideal.ofBits .f32 0x42000000#32 = ((32 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

/-- The variance offset of the layer normalisation: the real number its pattern denotes, a positive
    dyadic rational (the significand 2²³ + 2606508 at the exponent 2⁻⁴⁰). -/
def eps : ℝ := (Ideal.ofBits .f32 0x3727C5AC#32).toReal

theorem ofBits_eps_dyadic : Ideal.ofBits .f32 0x3727C5AC#32 = (((10995116 : ℝ) * 2 ^ (-40 : ℤ) : ℝ) : EReal) := by
  simp [Ideal.ofBits, Ideal.ieee, -EReal.coe_mul]

theorem ofBits_eps : Ideal.ofBits .f32 0x3727C5AC#32 = ((eps : ℝ) : EReal) := by
  rw [eps, ofBits_eps_dyadic, EReal.toReal_coe]

theorem eps_pos : 0 < eps := by
  rw [eps, ofBits_eps_dyadic, EReal.toReal_coe]; positivity

/-- A splat of a literal whose pattern denotes the real r is the constant real array r; likewise the
    broadcast of the scalar literal. -/
theorem constant_coe (b : BitVec φ.bits) (r : ℝ) (hb : Ideal.ofBits φ b = ((r : ℝ) : EReal)) :
    constant (F := Ideal) S φ b = fun _ => ((r : ℝ) : EReal) :=
  funext fun _ => hb

theorem broadcast_ofBits_coe (b : BitVec φ.bits) (r : ℝ) (hb : Ideal.ofBits φ b = ((r : ℝ) : EReal)) :
    broadcast S (Scalar.ofBits (F := Ideal) φ b) = fun _ => ((r : ℝ) : EReal) :=
  funext fun _ => hb

/-! ## A one-bit word, widened and converted -/

/-- The 32-bit widening of a one-bit word, read as a signed integer, is 1 when the bit is set, else 0. -/
theorem toInt_setWidth_one : ∀ b : BitVec 1, (b.setWidth 32).toInt = if b = 1#1 then 1 else 0 := by decide

/-- So its conversion to a float is the real number 1 or 0. -/
theorem sitofp_setWidth_one (b : BitVec 1) :
    FloatOps.sitofp (F := Ideal) φ (b.setWidth 32) = (((if b = 1#1 then 1 else 0 : ℝ)) : EReal) := by
  show ((((b.setWidth 32).toInt : ℤ) : ℝ) : EReal) = _
  rw [toInt_setWidth_one]
  split <;> simp

/-- The whole vector: an indicator array. -/
theorem sitofp_extui_coe (c : IVec S 1) (h : 1 < 32) :
    sitofp (F := Ideal) φ (extui 32 c h) = fun i => (((if c i = 1#1 then 1 else 0 : ℝ)) : EReal) :=
  funext fun i => sitofp_setWidth_one (c i)

/-! ## Rows of a matrix: the reductions at rank 2 over the last axis -/

section Rows
open ValueIdx
variable {n k : Nat}

/-- Over the last axis of an [n, k] array the index above row j with coordinate c inserted is (j, c). -/
theorem lift_row (h : (⟨2, ![n, k]⟩ : Shape).Reduces [1] ⟨1, ![n]⟩) (j : (⟨1, ![n]⟩ : Shape).Idx) (c : Fin k) :
    h.lift j c = ix2 (j 0) c := by
  funext d; match d with | ⟨0, _⟩ => exact Fin.ext rfl | ⟨1, _⟩ => exact Fin.ext rfl

/-- A row sum of a real matrix. -/
theorem rowSum_coe (X : (⟨2, ![n, k]⟩ : Shape).Idx → ℝ) (acc : BitVec φ.bits)
    (h : (⟨2, ![n, k]⟩ : Shape).Reduces [1] ⟨1, ![n]⟩) (hφ : FKind.Formats φ) (hacc : acc = FKind.add.neutral φ hφ)
    (j : (⟨1, ![n]⟩ : Shape).Idx) :
    multiReduction (F := Ideal) .add [1] ⟨1, ![n]⟩ (fun i => ((X i : ℝ) : EReal)) acc h hφ hacc j
      = ((∑ c : Fin k, X (ix2 (j 0) c) : ℝ) : EReal) := by
  rw [multiReduction_add_coe_apply]
  exact congrArg _ (Finset.sum_congr rfl fun c _ => congrArg X (lift_row h j c))

/-- The host's row sum from the initial value 0. -/
theorem hostRowSum_coe {u : Shape} (X : (⟨2, ![n, k]⟩ : Shape).Idx → ℝ) (init : u.Idx → EReal)
    (h' : (⟨2, ![n, k]⟩ : Shape).ReducesTo [1] ⟨1, ![n]⟩) (h : (⟨2, ![n, k]⟩ : Shape).Reduces [1] ⟨1, ![n]⟩)
    (hu : 0 < u.numel) (hinit : init (Shape.Idx.first hu) = 0) (j : (⟨1, ![n]⟩ : Shape).Idx) :
    Host.reduceAdd (F := Ideal) (φ := φ) (fun i => ((X i : ℝ) : EReal)) init h' hu j
      = ((∑ c : Fin k, X (ix2 (j 0) c) : ℝ) : EReal) := by
  rw [hostReduceAdd_coe_apply X init 0 h' h hu (by rw [hinit, EReal.coe_zero]), zero_add]
  exact congrArg _ (Finset.sum_congr rfl fun c _ => congrArg X (lift_row h j c))

/-- A row maximum of a real matrix with at least one column. -/
theorem rowMax_coe (X : (⟨2, ![n, k]⟩ : Shape).Idx → ℝ) (h : (⟨2, ![n, k]⟩ : Shape).Reduces [1] ⟨1, ![n]⟩)
    (hφ : FKind.Formats .f32) (hacc : (0xFF800000#32 : BitVec 32) = FKind.maximumf.neutral .f32 hφ)
    (j : (⟨1, ![n]⟩ : Shape).Idx) (hne : (Finset.univ : Finset (Fin k)).Nonempty) :
    multiReduction (F := Ideal) (φ := .f32) .maximumf [1] ⟨1, ![n]⟩ (fun i => ((X i : ℝ) : EReal)) 0xFF800000#32 h hφ hacc j
      = ((Finset.univ.sup' hne (fun c : Fin k => X (ix2 (j 0) c)) : ℝ) : EReal) := by
  rw [multiReduction_maximumf_coe_apply X h hφ hacc j hne]
  exact congrArg _ (Finset.sup'_congr hne rfl fun c _ => congrArg X (lift_row h j c))

/-- The host's row maximum from -∞. -/
theorem hostRowMax_coe {u : Shape} (X : (⟨2, ![n, k]⟩ : Shape).Idx → ℝ) (init : u.Idx → EReal)
    (h' : (⟨2, ![n, k]⟩ : Shape).ReducesTo [1] ⟨1, ![n]⟩) (h : (⟨2, ![n, k]⟩ : Shape).Reduces [1] ⟨1, ![n]⟩)
    (hu : 0 < u.numel) (hinit : init (Shape.Idx.first hu) = ⊥) (j : (⟨1, ![n]⟩ : Shape).Idx)
    (hne : (Finset.univ : Finset (Fin k)).Nonempty) :
    Host.reduce (FloatOps.maximumf (F := Ideal) (φ := φ)) (fun i => ((X i : ℝ) : EReal)) init h' hu j
      = ((Finset.univ.sup' hne (fun c : Fin k => X (ix2 (j 0) c)) : ℝ) : EReal) := by
  rw [hostReduce_maximumf_coe_apply X init h' h hu hinit j hne]
  exact congrArg _ (Finset.sup'_congr hne rfl fun c _ => congrArg X (lift_row h j c))

end Rows

/-! ## A running maximum that starts at -∞

An online softmax keeps a running row maximum, initialised to -∞, which is not a real number. At the
first block the old maximum is -∞: the new maximum is the block's (a real), the rescaling factor
exp (-∞ - m) is 0, and 0 times the (zero) running sum and accumulator is 0. -/

theorem max_bot_coe (r : ℝ) : max (⊥ : EReal) (r : EReal) = (r : EReal) := max_eq_right bot_le

theorem bot_sub_coe (r : ℝ) : (⊥ : EReal) - (r : EReal) = ⊥ := EReal.bot_sub _

theorem exp_bot_sub_coe (r : ℝ) : Ideal.exp ((⊥ : EReal) - (r : EReal)) = ((0 : ℝ) : EReal) := by
  rw [bot_sub_coe, Ideal.exp_bot, EReal.coe_zero]

theorem maximumf_bot_coe (y : S.Idx → ℝ) :
    maximumf (F := Ideal) (φ := φ) (fun _ => (⊥ : EReal)) (fun i => ((y i : ℝ) : EReal))
      = fun i => ((y i : ℝ) : EReal) :=
  funext fun i => max_bot_coe (y i)

theorem exp_subf_bot_coe (y : S.Idx → ℝ) :
    exp (F := Ideal) (φ := φ) (subf (fun _ => (⊥ : EReal)) (fun i => ((y i : ℝ) : EReal)))
      = fun _ => ((0 : ℝ) : EReal) :=
  funext fun i => exp_bot_sub_coe (y i)

/-- The general step, for an old maximum that is -∞ or real, written with its real "rescaling factor":
    exp (m_old - m_new) is the coercion of (if m_old = -∞ then 0 else exp (m_old - m_new)). -/
theorem exp_sub_coe_of_bot_or_coe (m : EReal) (hm : m = ⊥ ∨ ∃ r : ℝ, m = (r : EReal)) (r' : ℝ) :
    Ideal.exp (m - (r' : EReal)) = (((if m = ⊥ then 0 else Real.exp (m.toReal - r') : ℝ)) : EReal) := by
  rcases hm with rfl | ⟨r, rfl⟩
  · rw [if_pos rfl]; exact exp_bot_sub_coe r'
  · rw [if_neg (EReal.coe_ne_bot r), EReal.toReal_coe, ← EReal.coe_sub]; rfl

/-! ## Selection, thresholding at zero, gathering -/

/-- A lane-by-lane selection between two real arrays. -/
theorem select_coe (c : IVec S 1) (x y : S.Idx → ℝ) :
    select c (fun i => ((x i : ℝ) : EReal)) (fun i => ((y i : ℝ) : EReal))
      = fun i => (((if c i = 1#1 then x i else y i : ℝ)) : EReal) := by
  funext i
  show Scalar.select (c i) _ _ = _
  by_cases hc : c i = 1#1
  · rw [hc, ValueIdx.select_one, if_pos rfl]
  · rw [ValueIdx.eq_zero_of_ne_one hc, ValueIdx.select_zero, if_neg (by decide)]

/-- The maximum with the zero literal, in the kernel's two spellings (a broadcast scalar, a splat). -/
theorem relu_broadcast_coe (x : S.Idx → ℝ) :
    maximumf (F := Ideal) (φ := .f32) (fun i => ((x i : ℝ) : EReal))
        (broadcast S (Scalar.ofBits (F := Ideal) .f32 0x00000000#32))
      = fun i => ((max (x i) 0 : ℝ) : EReal) := by
  rw [broadcast_ofBits_coe _ 0 ofBits_zero, maximumf_coe]

theorem relu_constant_coe (x : S.Idx → ℝ) :
    maximumf (F := Ideal) (φ := .f32) (fun i => ((x i : ℝ) : EReal)) (constant S .f32 0x00000000#32)
      = fun i => ((max (x i) 0 : ℝ) : EReal) := by
  rw [constant_coe _ 0 ofBits_zero, maximumf_coe]

/-- A gather only re-indexes its operand. -/
theorem hostGather_coe {s si t : Shape} {w : Nat} (d : GatherDims s si t) (x : s.Idx → ℝ) (idx : IVec si w) :
    Host.gather d (fun i => ((x i : ℝ) : EReal)) idx = fun j => ((Host.gather d x idx j : ℝ) : EReal) := rfl

/-! ## Signs the divisions and roots need -/

/-- A nonempty sum of exponentials is positive (a softmax's denominator). -/
theorem sum_exp_pos {ι : Type*} (T : Finset ι) (hT : T.Nonempty) (f : ι → ℝ) : 0 < ∑ k ∈ T, Real.exp (f k) :=
  Finset.sum_pos (fun k _ => Real.exp_pos (f k)) hT

/-- A nonnegative variance plus the offset is positive (a layer normalisation's radicand). -/
theorem add_eps_pos {v : ℝ} (hv : 0 ≤ v) : 0 < v + eps := add_pos_of_nonneg_of_pos hv eps_pos

/-- A mean of squares is nonnegative. -/
theorem mean_sq_nonneg {ι : Type*} (T : Finset ι) (f : ι → ℝ) {N : ℝ} (hN : 0 < N) : 0 ≤ (∑ k ∈ T, f k * f k) / N :=
  div_nonneg (Finset.sum_nonneg fun k _ => mul_self_nonneg (f k)) hN.le

end Cert.Lift
-- ==== Proof.Pay1Step.lean ====
import proofs.«404873_j80685255623116_3_alg».proof.Proof.Gen.KernelIdeal.Skeleton
import proofs.«404873_j80685255623116_3_alg».proof.Proof.Spec
import proofs.«404873_j80685255623116_3_alg».proof.Proof.Blk
import proofs.«404873_j80685255623116_3_alg».proof.Proof.Lift
import Idealize.ShloMosaic.Lib.StackMember

/-!
# One visit of the second kernel, on real blocks

The second kernel keeps, per query row, a running maximum, a running normaliser and a running value sum.
One visit of a block of 512 keys computes the block of scores (the query block times the transposed key
block), the new maximum (the old one against the block's row maximum), the factor exp(old − new) by which
the carried quantities are rescaled, the block of weights exp(score − new), and then the new normaliser
(rescaled old one plus the weights' row sums) and the new value sum (rescaled old one plus the weights times
the value block).

When every operand is an array of real numbers, every operation of that chain is the textbook one on real
numbers, so each stored value is the coercion of the real formula. The first part of this file says so
operation by operation, for whole arrays: a real matrix "mat A" or a real column "col a" under a sum, a
difference, a product, a maximum, an exponential, a broadcast of a column along the rows, a transposition,
a row sum or row maximum kept as a column, and a matrix product into a zero accumulator. The second part
reads the stored values of the visit through those equations.

At the first visit of a row block the carried maximum is −∞ and the carried sums are zero. On the extended
reals max(−∞, x) = x and exp(−∞ − x) = exp(−∞) = 0, so the rescaling factor is 0 and the carried terms
vanish: the first visit stores the block's own maximum, row sums and weighted value sum.
-/

noncomputable section

open scoped BigOperators

namespace Cert.Pay1

open Idealize.ShloMosaic Idealize.ShloMosaic.ValueIdx Cert.Spec Cert.Blk Cert.KernelIdeal Cert.KernelIdeal.Gen

/-! ## Columns under the layout operations, read at an index -/

section Layout
variable {α : Type}

/-- An [a] array cast to [a, 1] reads, at (i, u), the operand at i: both positions are i in row-major
    order, the unit coordinate u being 0. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Real matrices and real columns under the vector operations -/

section Algebra
variable {n k : ℕ} {φ : FTy}

/-- The column of −∞, and the facts about it that the first visit uses. -/
abbrev botCol (n : ℕ) : (⟨2, ![n, 1]⟩ : Shape).Idx → EReal := fun _ => ⊥

theorem addf_mat (A B : Fin n → Fin k → ℝ) :
    addf (F := Ideal) (φ := φ) (mat A) (mat B) = mat (fun r c => A r c + B r c) :=
  funext fun _ => (EReal.coe_add _ _).symm

theorem subf_mat (A B : Fin n → Fin k → ℝ) :
    subf (F := Ideal) (φ := φ) (mat A) (mat B) = mat (fun r c => A r c - B r c) :=
  funext fun _ => (EReal.coe_sub _ _).symm

theorem mulf_mat (A B : Fin n → Fin k → ℝ) :
    mulf (F := Ideal) (φ := φ) (mat A) (mat B) = mat (fun r c => A r c * B r c) :=
  funext fun _ => (EReal.coe_mul _ _).symm

theorem exp_mat (A : Fin n → Fin k → ℝ) :
    exp (F := Ideal) (φ := φ) (mat A) = mat (fun r c => Real.exp (A r c)) := rfl

theorem addf_col (a b : Fin n → ℝ) :
    addf (F := Ideal) (φ := φ) (col a) (col b) = col (fun r => a r + b r) :=
  funext fun _ => (EReal.coe_add _ _).symm

theorem subf_col (a b : Fin n → ℝ) :
    subf (F := Ideal) (φ := φ) (col a) (col b) = col (fun r => a r - b r) :=
  funext fun _ => (EReal.coe_sub _ _).symm

theorem mulf_col (a b : Fin n → ℝ) :
    mulf (F := Ideal) (φ := φ) (col a) (col b) = col (fun r => a r * b r) :=
  funext fun _ => (EReal.coe_mul _ _).symm

theorem maximumf_col (a b : Fin n → ℝ) :
    maximumf (F := Ideal) (φ := φ) (col a) (col b) = col (fun r => max (a r) (b r)) :=
  funext fun _ => (Cert.Lift.coe_max _ _).symm

theorem exp_col (a : Fin n → ℝ) :
    exp (F := Ideal) (φ := φ) (col a) = col (fun r => Real.exp (a r)) := rfl

/-- The maximum against −∞ is the other operand. -/
theorem maximumf_botCol (b : Fin n → ℝ) :
    maximumf (F := Ideal) (φ := φ) (botCol n) (col b) = col b :=
  funext fun _ => max_bot_left _

/-- exp(−∞ − x) = exp(−∞) = 0 for a real x. -/
theorem exp_botCol_sub (b : Fin n → ℝ) :
    exp (F := Ideal) (φ := φ) (subf (F := Ideal) (φ := φ) (botCol n) (col b)) = col (fun _ => (0 : ℝ)) :=
  funext fun j => by
    show Ideal.exp (⊥ - ((b (j 0) : ℝ) : EReal)) = (((0 : ℝ) : ℝ) : EReal)
    rw [EReal.bot_sub, Ideal.exp_bot, EReal.coe_zero]

/-- A change of float format is the identity. -/
theorem truncf_mat {ψ : FTy} (A : Fin n → Fin k → ℝ) (h : ψ.bits < φ.bits) :
    truncf (F := Ideal) ψ (mat A : FVec Ideal ⟨2, ![n, k]⟩ φ) h = (mat A : FVec Ideal ⟨2, ![n, k]⟩ ψ) := rfl

/-- A column broadcast along the rows: every entry of row r is the column's r-th. -/
theorem broadcastTo_col {b : ℕ} (M : Fin n → ℝ) (h : (⟨2, ![n, 1]⟩ : Shape).Broadcasts ⟨2, ![n, b]⟩) :
    broadcastTo ⟨2, ![n, b]⟩ (col M) h = mat (fun r (_ : Fin b) => M r) := by
  funext j
  obtain ⟨r, c, rfl⟩ : ∃ (r : Fin n) (c : Fin b), j = ix2 r c := ⟨j 0, j 1, eq_ix2 j⟩
  exact broadcastTo_a1_ab_apply (col M) h r c

/-- The transpose of a real matrix. -/
theorem transpose_mat (A : Fin n → Fin k → ℝ) (h : (⟨2, ![n, k]⟩ : Shape).Transposes [1, 0] ⟨2, ![k, n]⟩) :
    transpose ⟨2, ![k, n]⟩ [1, 0] (mat A) h = mat (fun c r => A r c) := by
  funext j
  obtain ⟨c, r, rfl⟩ : ∃ (c : Fin k) (r : Fin n), j = ix2 c r := ⟨j 0, j 1, eq_ix2 j⟩
  exact transpose_ix2_apply (mat A) h c r

/-- The row sums of a real matrix, kept as a column. -/
theorem rowSum_col (X : Fin n → Fin k → ℝ) (acc : BitVec φ.bits)
    (h : (⟨2, ![n, k]⟩ : Shape).Reduces [1] ⟨1, ![n]⟩) (hφ : FKind.Formats φ) (hacc : acc = FKind.add.neutral φ hφ)
    (h' : (⟨1, ![n]⟩ : Shape).ShapeCasts ⟨2, ![n, 1]⟩) :
    shapeCast ⟨2, ![n, 1]⟩ (multiReduction (F := Ideal) .add [1] ⟨1, ![n]⟩ (mat X) acc h hφ hacc) h'
      = col (fun r => ∑ c : Fin k, X r c) := by
  funext j
  obtain ⟨r, u, rfl⟩ : ∃ (r : Fin n) (u : Fin 1), j = ix2 r u := ⟨j 0, j 1, eq_ix2 j⟩
  refine (shapeCast_a_a1_apply _ h' r u).trans ?_
  exact Cert.Lift.rowSum_coe (fun i : (⟨2, ![n, k]⟩ : Shape).Idx => X (i 0) (i 1)) acc h hφ hacc (ix1 r)

/-- The row maxima of a real matrix with at least one column, from −∞, kept as a column. -/
theorem rowMax_col (X : Fin n → Fin k → ℝ) (h : (⟨2, ![n, k]⟩ : Shape).Reduces [1] ⟨1, ![n]⟩)
    (hφ : FKind.Formats .f32) (hacc : (0xFF800000#32 : BitVec 32) = FKind.maximumf.neutral .f32 hφ)
    (h' : (⟨1, ![n]⟩ : Shape).ShapeCasts ⟨2, ![n, 1]⟩) (hne : (Finset.univ : Finset (Fin k)).Nonempty) :
    shapeCast ⟨2, ![n, 1]⟩
        (multiReduction (F := Ideal) (φ := .f32) .maximumf [1] ⟨1, ![n]⟩ (mat X) 0xFF800000#32 h hφ hacc) h'
      = col (fun r => Finset.univ.sup' hne (X r)) := by
  funext j
  obtain ⟨r, u, rfl⟩ : ∃ (r : Fin n) (u : Fin 1), j = ix2 r u := ⟨j 0, j 1, eq_ix2 j⟩
  refine (shapeCast_a_a1_apply _ h' r u).trans ?_
  exact Cert.Lift.rowMax_coe (fun i : (⟨2, ![n, k]⟩ : Shape).Idx => X (i 0) (i 1)) h hφ hacc (ix1 r) hne

/-- The product of an n×k by a k×m real matrix into a zero accumulator: entry (r, c) is the sum over the
    contracted coordinate e of A r e · B e c. The operand indices of the plain product at (r, c) and e are
    (r, e) and (e, c); the sum over the contraction's index set is the sum over e. -/
theorem matmul_mat {m : ℕ} {φ₁ φ₂ : FTy} (D : DotDims ⟨2, ![n, k]⟩ ⟨2, ![k, m]⟩ ⟨2, ![n, m]⟩)
    (hD : D = DotDims.plain n k m) (prec : Option ContractPrecision) (A : Fin n → Fin k → ℝ) (B : Fin k → Fin m → ℝ) :
    matmul (F := Ideal) (φ₁ := φ₁) (φ₂ := φ₂) D prec (mat A) (mat B) (constant (F := Ideal) ⟨2, ![n, m]⟩ .f32 0x00000000#32)
      = mat (fun r c => ∑ e : Fin k, A r e * B e c) := by
  subst hD
  funext j
  obtain ⟨r, c, rfl⟩ : ∃ (r : Fin n) (c : Fin m), j = ix2 r c := ⟨j 0, j 1, eq_ix2 j⟩
  refine (Ideal.matmul_constant_zero_apply (φ₁ := φ₁) (φ₂ := φ₂) (DotDims.plain n k m) prec (mat A) (mat B) (ix2 r c)).trans ?_
  refine (Ideal.dotGeneral_apply (φ₁ := φ₁) (φ₂ := φ₂) (DotDims.plain n k m) prec .single (mat A) (mat B) (ix2 r c)).symm.trans ?_
  refine (StackMember.dotGeneral_plain_apply (φ₁ := φ₁) (φ₂ := φ₂) prec (mat A) (mat B) r c).trans ?_
  show ∑ e : Fin k, ((A r e : ℝ) : EReal) * ((B e c : ℝ) : EReal) = ((∑ e : Fin k, A r e * B e c : ℝ) : EReal)
  rw [Cert.Lift.coe_finset_sum]
  exact Finset.sum_congr rfl fun e _ => (EReal.coe_mul _ _).symm

end Algebra

/-! ## The visit's stored values -/

section Visit
variable (q k v : Fin 512 → Fin 1024 → ℝ)

/-- The three constants the first visit starts from: −∞, zero, zero. -/
theorem pay10_eq : (k1_pay10 (F := Ideal)) = botCol 512 := by
  funext j
  simp only [k1_pay10, shapeCast_self]
  exact Cert.Lift.ofBits_neg_inf

theorem pay11_eq : (k1_pay11 (F := Ideal)) = col (fun _ : Fin 512 => (0 : ℝ)) := by
  funext j
  simp only [k1_pay11, shapeCast_self]
  exact Cert.Lift.ofBits_zero

theorem pay12_eq : (k1_pay12 (F := Ideal)) = mat (fun (_ : Fin 512) (_ : Fin 1024) => (0 : ℝ)) := by
  funext j
  simp only [k1_pay12, shapeCast_self]
  exact Cert.Lift.ofBits_zero

/-- The stored maximum is the value computed (a cast to the same shape). -/
theorem pay2_eq (x : FVec Ideal S512x1 .f32) : k1_pay2 (F := Ideal) x = x := by
  simp only [k1_pay2, shapeCast_self]

/-- The stored value sum is the sum of its two parts. -/
theorem pay1_eq (A B : Fin 512 → Fin 1024 → ℝ) :
    k1_pay1 (F := Ideal) (mat A) (mat B) = mat (fun r e => A r e + B r e) := by
  simp only [k1_pay1, shapeCast_self]
  exact addf_mat A B

/-- The block of scores: the query block times the transposed key block. -/
theorem score_eq : k1_pay14 (F := Ideal) (mat q) (mat k) = mat (sblk q k) := by
  simp only [k1_pay14, k1_pay13, shapeCast_self]
  rw [transpose_mat]
  exact matmul_mat _ rfl none q (fun e c => k c e)

/-- The new maximum, whatever the old one: the old one against the block's row maximum. -/
theorem pay15_eq (m : FVec Ideal S512x1 .f32) :
    k1_pay15 (F := Ideal) (mat q) (mat k) m = maximumf (F := Ideal) m (col (bmax q k)) := by
  simp only [k1_pay15]
  rw [score_eq]
  exact congrArg (maximumf (F := Ideal) m) (rowMax_col (sblk q k) _ _ _ _ ⟨0, Finset.mem_univ _⟩)

theorem pay15_col (m0 : Fin 512 → ℝ) :
    k1_pay15 (F := Ideal) (mat q) (mat k) (col m0) = col (mNext q k m0) :=
  (pay15_eq q k (col m0)).trans (maximumf_col m0 (bmax q k))

theorem pay15_first : k1_pay15 (F := Ideal) (mat q) (mat k) (k1_pay10 (F := Ideal)) = col (bmax q k) := by
  rw [pay15_eq, pay10_eq]
  exact maximumf_botCol (bmax q k)

/-- The rescaling factor exp(old − new), from a real old maximum and from −∞. -/
theorem pay16_col (v11 : FVec Ideal S512x1 .f32) (m0 M : Fin 512 → ℝ)
    (hM : k1_pay15 (F := Ideal) (mat q) (mat k) v11 = col M) :
    k1_pay16 (F := Ideal) (mat q) (mat k) v11 (col m0) = col (fun r => Real.exp (m0 r - M r)) := by
  simp only [k1_pay16]
  rw [hM, subf_col, exp_col]

theorem pay16_first (v11 : FVec Ideal S512x1 .f32) (M : Fin 512 → ℝ)
    (hM : k1_pay15 (F := Ideal) (mat q) (mat k) v11 = col M) :
    k1_pay16 (F := Ideal) (mat q) (mat k) v11 (k1_pay10 (F := Ideal)) = col (fun _ => (0 : ℝ)) := by
  simp only [k1_pay16]
  rw [hM, pay10_eq]
  exact exp_botCol_sub M

/-- The block of weights exp(score − new maximum). -/
theorem pay17_eq (v11 : FVec Ideal S512x1 .f32) (M : Fin 512 → ℝ)
    (hM : k1_pay15 (F := Ideal) (mat q) (mat k) v11 = col M) :
    k1_pay17 (F := Ideal) (mat q) (mat k) v11 = mat (fun r c => Real.exp (sblk q k r c - M r)) := by
  simp only [k1_pay17]
  rw [hM, score_eq, broadcastTo_col, subf_mat, exp_mat]

/-- The new normaliser: the rescaled old one plus the weights' row sums. -/
theorem pay18_eq (v11 v15 : FVec Ideal S512x1 .f32) (M α l : Fin 512 → ℝ)
    (hM : k1_pay15 (F := Ideal) (mat q) (mat k) v11 = col M)
    (hA : k1_pay16 (F := Ideal) (mat q) (mat k) v11 v15 = col α) :
    k1_pay18 (F := Ideal) (mat q) (mat k) v11 v15 (col l)
      = col (fun r => α r * l r + ∑ c : Fin 512, Real.exp (sblk q k r c - M r)) := by
  simp only [k1_pay18, shapeCast_self]
  rw [hA, pay17_eq q k v11 M hM, mulf_col]
  refine (congrArg (addf (F := Ideal) _) (rowSum_col _ _ _ _ _ _)).trans ?_
  exact addf_col _ _

/-- The rescaled old value sum. -/
theorem pay19_eq (v11 v15 : FVec Ideal S512x1 .f32) (α : Fin 512 → ℝ) (acc : Fin 512 → Fin 1024 → ℝ)
    (hA : k1_pay16 (F := Ideal) (mat q) (mat k) v11 v15 = col α) :
    k1_pay19 (F := Ideal) (mat q) (mat k) v11 v15 (mat acc) = mat (fun r e => α r * acc r e) := by
  simp only [k1_pay19]
  rw [hA, broadcastTo_col, mulf_mat]

/-- The weights times the value block. -/
theorem pay20_eq (v11 : FVec Ideal S512x1 .f32) (M : Fin 512 → ℝ)
    (hM : k1_pay15 (F := Ideal) (mat q) (mat k) v11 = col M) :
    k1_pay20 (F := Ideal) (mat q) (mat k) (mat v) v11
      = mat (fun r e => ∑ c : Fin 512, Real.exp (sblk q k r c - M r) * v c e) := by
  simp only [k1_pay20, shapeCast_self]
  rw [pay17_eq q k v11 M hM, truncf_mat]
  exact matmul_mat _ rfl none _ v

/-! ### A visit from a real state -/

/-- The new maximum. -/
theorem mNext_eq (m0 : Fin 512 → ℝ) :
    k1_pay2 (F := Ideal) (k1_pay15 (F := Ideal) (mat q) (mat k) (col m0)) = col (mNext q k m0) := by
  rw [pay2_eq, pay15_col]

/-- The new normaliser. -/
theorem lNext_eq (m0 l0 : Fin 512 → ℝ) :
    k1_pay18 (F := Ideal) (mat q) (mat k) (col m0) (col m0) (col l0) = col (lNext q k m0 l0) :=
  pay18_eq q k (col m0) (col m0) (mNext q k m0) _ l0 (pay15_col q k m0)
    (pay16_col q k (col m0) m0 (mNext q k m0) (pay15_col q k m0))

/-- The new value sum. -/
theorem accNext_eq (m0 : Fin 512 → ℝ) (acc0 : Fin 512 → Fin 1024 → ℝ) :
    k1_pay1 (F := Ideal) (k1_pay19 (F := Ideal) (mat q) (mat k) (col m0) (col m0) (mat acc0))
        (k1_pay20 (F := Ideal) (mat q) (mat k) (mat v) (col m0))
      = mat (accNext q k v m0 acc0) := by
  rw [pay19_eq q k (col m0) (col m0) _ acc0 (pay16_col q k (col m0) m0 (mNext q k m0) (pay15_col q k m0)),
    pay20_eq q k v (col m0) (mNext q k m0) (pay15_col q k m0), pay1_eq]
  rfl

/-! ### The first visit of a row block -/

/-- The maximum after the first visit is the block's. -/
theorem mFirst_eq :
    k1_pay2 (F := Ideal) (k1_pay15 (F := Ideal) (mat q) (mat k) (k1_pay10 (F := Ideal))) = col (bmax q k) := by
  rw [pay2_eq, pay15_first]

/-- The normaliser after the first visit: the carried term is 0 · 0. -/
theorem lFirst_eq :
    k1_pay18 (F := Ideal) (mat q) (mat k) (k1_pay10 (F := Ideal)) (k1_pay10 (F := Ideal)) (k1_pay11 (F := Ideal))
      = col (lFirst q k) := by
  rw [pay11_eq, pay18_eq q k _ _ (bmax q k) _ _ (pay15_first q k) (pay16_first q k _ (bmax q k) (pay15_first q k))]
  refine congrArg col (funext fun r => ?_)
  rw [zero_mul, zero_add]
  rfl

/-- The value sum after the first visit: the carried term is 0 · 0. -/
theorem accFirst_eq :
    k1_pay1 (F := Ideal)
        (k1_pay19 (F := Ideal) (mat q) (mat k) (k1_pay10 (F := Ideal)) (k1_pay10 (F := Ideal)) (k1_pay12 (F := Ideal)))
        (k1_pay20 (F := Ideal) (mat q) (mat k) (mat v) (k1_pay10 (F := Ideal)))
      = mat (accFirst q k v) := by
  rw [pay12_eq, pay19_eq q k _ _ _ _ (pay16_first q k _ (bmax q k) (pay15_first q k)),
    pay20_eq q k v _ (bmax q k) (pay15_first q k), pay1_eq]
  refine congrArg mat (funext fun r => funext fun e => ?_)
  rw [zero_mul, zero_add]
  rfl

end Visit

end Cert.Pay1

end
-- ==== Proof.R1Induct.lean ====
import proofs.«404873_j80685255623116_3_alg».proof.Proof.FlashSpec
import proofs.«404873_j80685255623116_3_alg».proof.Proof.Blk
import proofs.«404873_j80685255623116_3_alg».proof.Proof.Spec
import proofs.«404873_j80685255623116_3_alg».proof.Proof.Pay1Step
import proofs.«404873_j80685255623116_3_alg».proof.Proof.Gen.KernelIdeal.Skeleton

/-!
# The carried state over the 256 points of the grid

Point `n` of the grid meets query block `n / 16` with key block `n % 16`. Three arrays are carried
from point to point: the value sum, the running maximum and the running normaliser of the 512 rows of
the query block. At a point with `n % 16 = 0` they are computed from the constants −∞, 0, 0; at every
other point from what the point before left.

Any family of triples that satisfies these equations holds, after point `n`, the closed form of the
recurrence after the visits `0, …, n % 16` of query block `n / 16`: induction on `n`, one visit at a
time. At `n % 16 = 15` the closed form covers the whole row of keys, and the stored block is the
specification's result for the 512 rows of the query block.
-/

noncomputable section

namespace Cert.R1Induct

open Idealize.ShloMosaic Cert.Spec Cert.Blk Cert.FlashSpec Cert.KernelIdeal Cert.KernelIdeal.Gen

/-- The carried triple: value sum, maximum, normaliser. -/
abbrev Carried : Type :=
  FVec Ideal S512x1024 .f32 × FVec Ideal S512x1 .f32 × FVec Ideal S512x1 .f32

theorem div16_lt {n : ℕ} (h : n < 256) : n / 16 < 16 := by omega

theorem mod16_lt (n : ℕ) : n % 16 < 16 := Nat.mod_lt _ (by norm_num)

/-! ## One visit, with the key block given by a number and a bound -/

section Visit

variable (a : Args) (qi : Fin 16)

theorem first_m (k : ℕ) (hk : k < 16) (h0 : k = 0) :
    Blk.bmax (qS a qi) (kB a ⟨k, hk⟩) = mAfter a qi k := by
  subst h0
  exact bmax_first_fun a qi

theorem first_l (k : ℕ) (hk : k < 16) (h0 : k = 0) :
    Blk.lFirst (qS a qi) (kB a ⟨k, hk⟩) = lAfter a qi k := by
  subst h0
  exact lFirst_first_fun a qi

theorem first_acc (k : ℕ) (hk : k < 16) (h0 : k = 0) :
    Blk.accFirst (qS a qi) (kB a ⟨k, hk⟩) (vB a ⟨k, hk⟩) = accAfter a qi k := by
  subst h0
  exact accFirst_first_fun a qi

theorem next_m (k : ℕ) (hk : k < 16) (h0 : k ≠ 0) (m0 : Fin 512 → ℝ)
    (hm : m0 = mAfter a qi (k - 1)) :
    Blk.mNext (qS a qi) (kB a ⟨k, hk⟩) m0 = mAfter a qi k := by
  cases k with
  | zero => exact absurd rfl h0
  | succ k' =>
    rw [Nat.add_sub_cancel] at hm
    exact mNext_fun a qi k' hk m0 hm

theorem next_l (k : ℕ) (hk : k < 16) (h0 : k ≠ 0) (m0 l0 : Fin 512 → ℝ)
    (hm : m0 = mAfter a qi (k - 1)) (hl : l0 = lAfter a qi (k - 1)) :
    Blk.lNext (qS a qi) (kB a ⟨k, hk⟩) m0 l0 = lAfter a qi k := by
  cases k with
  | zero => exact absurd rfl h0
  | succ k' =>
    rw [Nat.add_sub_cancel] at hm hl
    exact lNext_fun a qi k' hk m0 l0 hm hl

theorem next_acc (k : ℕ) (hk : k < 16) (h0 : k ≠ 0) (m0 : Fin 512 → ℝ)
    (acc0 : Fin 512 → Fin 1024 → ℝ) (hm : m0 = mAfter a qi (k - 1))
    (hacc : acc0 = accAfter a qi (k - 1)) :
    Blk.accNext (qS a qi) (kB a ⟨k, hk⟩) (vB a ⟨k, hk⟩) m0 acc0 = accAfter a qi k := by
  cases k with
  | zero => exact absurd rfl h0
  | succ k' =>
    rw [Nat.add_sub_cancel] at hm hacc
    exact accNext_fun a qi k' hk m0 acc0 hm hacc

end Visit

/-! ## The induction over the grid -/

/-- The closed form at point `n`. -/
def ClosedAt (a : Args) (S : ℕ → Carried) (n : ℕ) (hn : n < 256) : Prop :=
  (S n).2.1 = col (mAfter a ⟨n / 16, div16_lt hn⟩ (n % 16))
    ∧ (S n).2.2 = col (lAfter a ⟨n / 16, div16_lt hn⟩ (n % 16))
    ∧ (S n).1 = mat (accAfter a ⟨n / 16, div16_lt hn⟩ (n % 16))

/-- **The carried state is the closed form**, for any family that satisfies the point equations. -/
theorem carried_closed (a : Args) (S : ℕ → Carried)
    (hA : ∀ (n : ℕ) (hn : n < 256), n % 16 = 0 →
      (S n).2.1
          = k1_pay2 (F := Ideal) (k1_pay15 (F := Ideal) (mat (qS a ⟨n / 16, div16_lt hn⟩))
              (mat (kB a ⟨n % 16, mod16_lt n⟩)) (k1_pay10 (F := Ideal)))
        ∧ (S n).2.2
          = k1_pay18 (F := Ideal) (mat (qS a ⟨n / 16, div16_lt hn⟩))
              (mat (kB a ⟨n % 16, mod16_lt n⟩)) (k1_pay10 (F := Ideal)) (k1_pay10 (F := Ideal))
              (k1_pay11 (F := Ideal))
        ∧ (S n).1
          = k1_pay1 (F := Ideal)
              (k1_pay19 (F := Ideal) (mat (qS a ⟨n / 16, div16_lt hn⟩))
                (mat (kB a ⟨n % 16, mod16_lt n⟩)) (k1_pay10 (F := Ideal)) (k1_pay10 (F := Ideal))
                (k1_pay12 (F := Ideal)))
              (k1_pay20 (F := Ideal) (mat (qS a ⟨n / 16, div16_lt hn⟩))
                (mat (kB a ⟨n % 16, mod16_lt n⟩)) (mat (vB a ⟨n % 16, mod16_lt n⟩))
                (k1_pay10 (F := Ideal))))
    (hB : ∀ (n : ℕ) (hn : n < 256), n % 16 ≠ 0 →
      (S n).2.1
          = k1_pay2 (F := Ideal) (k1_pay15 (F := Ideal) (mat (qS a ⟨n / 16, div16_lt hn⟩))
              (mat (kB a ⟨n % 16, mod16_lt n⟩)) (S (n - 1)).2.1)
        ∧ (S n).2.2
          = k1_pay18 (F := Ideal) (mat (qS a ⟨n / 16, div16_lt hn⟩))
              (mat (kB a ⟨n % 16, mod16_lt n⟩)) (S (n - 1)).2.1 (S (n - 1)).2.1 (S (n - 1)).2.2
        ∧ (S n).1
          = k1_pay1 (F := Ideal)
              (k1_pay19 (F := Ideal) (mat (qS a ⟨n / 16, div16_lt hn⟩))
                (mat (kB a ⟨n % 16, mod16_lt n⟩)) (S (n - 1)).2.1 (S (n - 1)).2.1 (S (n - 1)).1)
              (k1_pay20 (F := Ideal) (mat (qS a ⟨n / 16, div16_lt hn⟩))
                (mat (kB a ⟨n % 16, mod16_lt n⟩)) (mat (vB a ⟨n % 16, mod16_lt n⟩))
                (S (n - 1)).2.1)) :
    ∀ (n : ℕ) (hn : n < 256), ClosedAt a S n hn := by
  intro n
  induction n using Nat.strong_induction_on with
  | _ n ih =>
    intro hn
    by_cases h0 : n % 16 = 0
    · obtain ⟨e1, e2, e3⟩ := hA n hn h0
      refine ⟨?_, ?_, ?_⟩
      · rw [e1, Pay1.mFirst_eq, first_m a _ _ _ h0]
      · rw [e2, Pay1.lFirst_eq, first_l a _ _ _ h0]
      · rw [e3, Pay1.accFirst_eq, first_acc a _ _ _ h0]
    · obtain ⟨e1, e2, e3⟩ := hB n hn h0
      have hn' : n - 1 < 256 := by omega
      obtain ⟨i1, i2, i3⟩ := ih (n - 1) (by omega) hn'
      have hq : (⟨(n - 1) / 16, div16_lt hn'⟩ : Fin 16) = ⟨n / 16, div16_lt hn⟩ :=
        Fin.ext (by show (n - 1) / 16 = n / 16; omega)
      have hk : (n - 1) % 16 = n % 16 - 1 := by omega
      rw [hq, hk] at i1 i2 i3
      refine ⟨?_, ?_, ?_⟩
      · rw [e1, i1, Pay1.mNext_eq, next_m a _ _ _ h0 _ rfl]
      · rw [e2, i1, i2, Pay1.lNext_eq, next_l a _ _ _ h0 _ _ rfl rfl]
      · rw [e3, i1, i3, Pay1.accNext_eq, next_acc a _ _ _ h0 _ _ rfl rfl]

/-! ## A point named by its query block and its key block -/

/-- The closed form at the point `16 * qi + kb`, with the blocks named directly. -/
theorem closedAt_point (a : Args) (S : ℕ → Carried) (qi : Fin 16) (kb : ℕ) (hkb : kb < 16)
    (h : 16 * qi.val + kb < 256) (hc : ClosedAt a S (16 * qi.val + kb) h) :
    (S (16 * qi.val + kb)).2.1 = col (mAfter a qi kb)
      ∧ (S (16 * qi.val + kb)).2.2 = col (lAfter a qi kb)
      ∧ (S (16 * qi.val + kb)).1 = mat (accAfter a qi kb) := by
  have hq : (⟨(16 * qi.val + kb) / 16, div16_lt h⟩ : Fin 16) = qi :=
    Fin.ext (by show (16 * qi.val + kb) / 16 = qi.val; omega)
  have hk : (16 * qi.val + kb) % 16 = kb := by omega
  unfold ClosedAt at hc
  rw [hq, hk] at hc
  exact hc

/-- Every point of the grid is below 256. -/
theorem point_lt (qi : Fin 16) (kb : ℕ) (hkb : kb < 16) : 16 * qi.val + kb < 256 := by
  have := qi.isLt
  omega

/-- After the last key block of query block `qi`, for a family that satisfies the point equations. -/
theorem carried_last (a : Args) (S : ℕ → Carried)
    (hc : ∀ (n : ℕ) (hn : n < 256), ClosedAt a S n hn) (qi : Fin 16) :
    (S (16 * qi.val + 15)).2.1 = col (mAfter a qi 15)
      ∧ (S (16 * qi.val + 15)).2.2 = col (lAfter a qi 15)
      ∧ (S (16 * qi.val + 15)).1 = mat (accAfter a qi 15) :=
  closedAt_point a S qi 15 (by norm_num) (point_lt qi 15 (by norm_num)) (hc _ _)

/-! ## The stored block at the last key block is the specification's rows -/

/-- One row: the epilogue of the attention row obtained from the closed form after all sixteen
visits, on the row's rectified features, is the specification's result. -/
theorem epiRow_last (a : Args) (qi : Fin 16) (r : Fin 512) (e : Fin 1024) :
    Blk.epiRow a
        (Blk.attBlk (qS a qi) a.dm (mAfter a qi 15) (lAfter a qi 15) (accAfter a qi 15) r)
        (fun d => max (a.X (rowIdx qi r) d) 0) e
      = result a (rowIdx qi r) e := by
  have h : Blk.attBlk (qS a qi) a.dm (mAfter a qi 15) (lAfter a qi 15) (accAfter a qi 15) r
      = att a (rowIdx qi r) := funext fun e => attBlk_last a qi r e
  rw [Blk.result_eq_epiRow, h]
  rfl

/-- The whole block of 512 rows. -/
theorem epiBlock_last (a : Args) (qi : Fin 16) :
    mat (fun (r : Fin 512) (e : Fin 1024) =>
        Blk.epiRow a
          (Blk.attBlk (qS a qi) a.dm (mAfter a qi 15) (lAfter a qi 15) (accAfter a qi 15) r)
          (fun d => max (a.X (rowIdx qi r) d) 0) e)
      = mat (fun (r : Fin 512) (e : Fin 1024) => result a (rowIdx qi r) e) :=
  congrArg mat (funext fun r => funext fun e => epiRow_last a qi r e)

/-- The normaliser handed to the epilogue is nonnegative. -/
theorem lAfter_nonneg (a : Args) (qi : Fin 16) (kb : ℕ) (r : Fin 512) : 0 ≤ lAfter a qi kb r :=
  (lAfter_pos a qi kb r).le

end Cert.R1Induct

end
-- ==== Proof.R1ValueCore.lean ====
import proofs.«404873_j80685255623116_3_alg».proof.Proof.R1Induct

/-!
# The carried triple at a last visit, from the point equations

The second region carries three arrays from point to point of its 256-point grid: the value sum, the
running maximum and the running normaliser of the 512 rows of the query block. They are given here as a
family indexed by the points of the grid only. Extended by anything beyond the grid, such a family that
satisfies the point equations holds the closed form of the recurrence at every point; at a point whose
key block is the last, that is the closed form after all sixteen visits of the point's query block.
-/

noncomputable section

namespace Cert.KernelIdeal.Val

open Idealize.ShloMosaic Cert.Spec Cert.Blk Cert.FlashSpec Cert.R1Induct Cert.KernelIdeal Cert.KernelIdeal.Gen

/-- A family over the grid's points, extended beyond the grid by a fixed triple. -/
def extend (T : (n : ℕ) → n < 256 → Carried) (n : ℕ) : Carried :=
  if hn : n < 256 then T n hn else (fun _ => 0, fun _ => 0, fun _ => 0)

theorem extend_of_lt (T : (n : ℕ) → n < 256 → Carried) {n : ℕ} (hn : n < 256) : extend T n = T n hn :=
  dif_pos hn

theorem pred_lt {n : ℕ} (hn : n < 256) : n - 1 < 256 := lt_of_le_of_lt (Nat.sub_le n 1) hn

/-- **The carried triple at a last visit.** A family over the grid that satisfies the point equations
    (from the constants at a first visit, from the point before otherwise) holds, at a point whose key
    block is the last, the closed form after all sixteen visits of the point's query block. -/
theorem carried_at_last (a : Args) (T : (n : ℕ) → n < 256 → Carried)
    (hA : ∀ (n : ℕ) (hn : n < 256), n % 16 = 0 →
      (T n hn).2.1
          = k1_pay2 (F := Ideal) (k1_pay15 (F := Ideal) (mat (qS a ⟨n / 16, div16_lt hn⟩))
              (mat (kB a ⟨n % 16, mod16_lt n⟩)) (k1_pay10 (F := Ideal)))
        ∧ (T n hn).2.2
          = k1_pay18 (F := Ideal) (mat (qS a ⟨n / 16, div16_lt hn⟩))
              (mat (kB a ⟨n % 16, mod16_lt n⟩)) (k1_pay10 (F := Ideal)) (k1_pay10 (F := Ideal))
              (k1_pay11 (F := Ideal))
        ∧ (T n hn).1
          = k1_pay1 (F := Ideal)
              (k1_pay19 (F := Ideal) (mat (qS a ⟨n / 16, div16_lt hn⟩))
                (mat (kB a ⟨n % 16, mod16_lt n⟩)) (k1_pay10 (F := Ideal)) (k1_pay10 (F := Ideal))
                (k1_pay12 (F := Ideal)))
              (k1_pay20 (F := Ideal) (mat (qS a ⟨n / 16, div16_lt hn⟩))
                (mat (kB a ⟨n % 16, mod16_lt n⟩)) (mat (vB a ⟨n % 16, mod16_lt n⟩))
                (k1_pay10 (F := Ideal))))
    (hB : ∀ (n : ℕ) (hn : n < 256), n % 16 ≠ 0 →
      (T n hn).2.1
          = k1_pay2 (F := Ideal) (k1_pay15 (F := Ideal) (mat (qS a ⟨n / 16, div16_lt hn⟩))
              (mat (kB a ⟨n % 16, mod16_lt n⟩)) (T (n - 1) (pred_lt hn)).2.1)
        ∧ (T n hn).2.2
          = k1_pay18 (F := Ideal) (mat (qS a ⟨n / 16, div16_lt hn⟩))
              (mat (kB a ⟨n % 16, mod16_lt n⟩)) (T (n - 1) (pred_lt hn)).2.1 (T (n - 1) (pred_lt hn)).2.1
              (T (n - 1) (pred_lt hn)).2.2
        ∧ (T n hn).1
          = k1_pay1 (F := Ideal)
              (k1_pay19 (F := Ideal) (mat (qS a ⟨n / 16, div16_lt hn⟩))
                (mat (kB a ⟨n % 16, mod16_lt n⟩)) (T (n - 1) (pred_lt hn)).2.1 (T (n - 1) (pred_lt hn)).2.1
                (T (n - 1) (pred_lt hn)).1)
              (k1_pay20 (F := Ideal) (mat (qS a ⟨n / 16, div16_lt hn⟩))
                (mat (kB a ⟨n % 16, mod16_lt n⟩)) (mat (vB a ⟨n % 16, mod16_lt n⟩))
                (T (n - 1) (pred_lt hn)).2.1))
    (n : ℕ) (hn : n < 256) (h15 : n % 16 = 15) :
    T n hn = (mat (accAfter a ⟨n / 16, div16_lt hn⟩ 15), col (mAfter a ⟨n / 16, div16_lt hn⟩ 15),
      col (lAfter a ⟨n / 16, div16_lt hn⟩ 15)) := by
  have hc := carried_closed a (extend T)
    (fun n hn h0 => by rw [extend_of_lt T hn]; exact hA n hn h0)
    (fun n hn h0 => by rw [extend_of_lt T hn, extend_of_lt T (pred_lt hn)]; exact hB n hn h0)
    n hn
  unfold ClosedAt at hc
  rw [extend_of_lt T hn, h15] at hc
  obtain ⟨e1, e2, e3⟩ := hc
  exact Prod.ext e3 (Prod.ext e1 e2)

end Cert.KernelIdeal.Val

end
-- ==== Proof.Blocks.lean ====
import proofs.«404873_j80685255623116_3_alg».proof.Proof.Gen.KernelIdeal.Launch
import proofs.«404873_j80685255623116_3_alg».proof.Proof.Gen.KernelIdeal.Points
import proofs.«404873_j80685255623116_3_alg».proof.Proof.Vals
import proofs.«404873_j80685255623116_3_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.Pipeline (Dat)
open Idealize.ShloMosaic.ValueIdx

/-!
# Blocks of the staged arrays, and arrays from their blocks

Both pipelines stage every operand array block by block. A block at a grid point is the array read
through a rectangle whose offset on each axis is the block index there times the block's extent, so an
element of the block sits in the array at (block index × extent + its coordinate inside the block).

The first pipeline has 16 points; point t stages rows 512 t … 512 t + 511 of its two row-blocked inputs
and of its three outputs, and keeps its five other inputs whole. The second has 16 × 16 = 256 points;
point t stages query rows 512 (t / 16) + r, key rows 512 (t % 16) + r, keeps fifteen inputs whole, and
writes the block of query rows t / 16 back at the last key block only (t % 16 = 15).

Part A reads each window's block out of an array given as a real matrix (or vector, or word column).
Part B rebuilds an output array from what the points write back: when every write-back is the
corresponding block of one matrix, the blocks cover all 8192 rows and the array ends as that matrix.
-/

/-! ## Bounds -/

theorem lt16 (t : Fin cfg0.N) : t.val < 16 := lt_of_lt_of_eq t.isLt N_0
theorem lt256 (t : Fin cfg1.N) : t.val < 256 := lt_of_lt_of_eq t.isLt N_1
/-- Row r of the block of 512 rows at point t of the first pipeline is a row of the array. -/
theorem rowlt (t : Fin cfg0.N) (r : Fin 512) : 512 * t.val + r.val < 8192 := by
  have := lt16 t; have := r.isLt; omega
/-- Row r of the query block at point t of the second pipeline. -/
theorem qrowlt (t : Fin cfg1.N) (r : Fin 512) : 512 * (t.val / 16) + r.val < 8192 := by
  have := lt256 t; have := r.isLt; omega
/-- Row r of the key block at point t of the second pipeline. -/
theorem krowlt (t : Fin cfg1.N) (r : Fin 512) : 512 * (t.val % 16) + r.val < 8192 := by
  have := r.isLt; omega

/-- A column of 32-bit words read as an [n, 1] array. -/
def wcol {n : Nat} (g : Fin n → BitVec 32) : (⟨2, ![n, 1]⟩ : Shape).Idx → BitVec 32 := fun j => g (j 0)

/-! ## The block indices, decided once over each grid -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, ∀ a : Fin 2, win0_2.index t a = 0 := (by decide +kernel : ∀ t : Fin grid0.N, _)
theorem idx0_3 : ∀ t : Fin cfg0.N, ∀ a : Fin 2, win0_3.index t a = 0 := (by decide +kernel : ∀ t : Fin grid0.N, _)
theorem idx0_4 : ∀ t : Fin cfg0.N, ∀ a : Fin 2, win0_4.index t a = 0 := (by decide +kernel : ∀ t : Fin grid0.N, _)
theorem idx0_5 : ∀ t : Fin cfg0.N, ∀ a : Fin 2, win0_5.index t a = 0 := (by decide +kernel : ∀ t : Fin grid0.N, _)
theorem idx0_6 : ∀ t : Fin cfg0.N, ∀ a : Fin 1, win0_6.index t a = 0 := (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)

theorem idx1_0 : ∀ t : Fin cfg1.N, win1_0.index t (0 : Fin 2) = t.val / 16 ∧ win1_0.index t (1 : Fin 2) = 0 :=
  (by decide +kernel : ∀ t : Fin grid1.N, _)
theorem idx1_1 : ∀ t : Fin cfg1.N, win1_1.index t (0 : Fin 2) = t.val % 16 ∧ win1_1.index t (1 : Fin 2) = 0 :=
  (by decide +kernel : ∀ t : Fin grid1.N, _)
theorem idx1_2 : ∀ t : Fin cfg1.N, win1_2.index t (0 : Fin 2) = t.val % 16 ∧ win1_2.index t (1 : Fin 2) = 0 :=
  (by decide +kernel : ∀ t : Fin grid1.N, _)
theorem idx1_3 : ∀ t : Fin cfg1.N, win1_3.index t (0 : Fin 2) = t.val / 16 ∧ win1_3.index t (1 : Fin 2) = 0 :=
  (by decide +kernel : ∀ t : Fin grid1.N, _)
theorem idx1_4 : ∀ t : Fin cfg1.N, ∀ a : Fin 2, win1_4.index t a = 0 := (by decide +kernel : ∀ t : Fin grid1.N, _)
theorem idx1_5 : ∀ t : Fin cfg1.N, ∀ a : Fin 2, win1_5.index t a = 0 := (by decide +kernel : ∀ t : Fin grid1.N, _)
theorem idx1_6 : ∀ t : Fin cfg1.N, ∀ a : Fin 1, win1_6.index t a = 0 := (by decide +kernel : ∀ t : Fin grid1.N, _)
theorem idx1_7 : ∀ t : Fin cfg1.N, ∀ a : Fin 2, win1_7.index t a = 0 := (by decide +kernel : ∀ t : Fin grid1.N, _)
theorem idx1_8 : ∀ t : Fin cfg1.N, ∀ a : Fin 1, win1_8.index t a = 0 := (by decide +kernel : ∀ t : Fin grid1.N, _)
theorem idx1_9 : ∀ t : Fin cfg1.N, ∀ a : Fin 2, win1_9.index t a = 0 := (by decide +kernel : ∀ t : Fin grid1.N, _)
theorem idx1_10 : ∀ t : Fin cfg1.N, ∀ a : Fin 2, win1_10.index t a = 0 := (by decide +kernel : ∀ t : Fin grid1.N, _)
theorem idx1_11 : ∀ t : Fin cfg1.N, ∀ a : Fin 2, win1_11.index t a = 0 := (by decide +kernel : ∀ t : Fin grid1.N, _)
theorem idx1_12 : ∀ t : Fin cfg1.N, ∀ a : Fin 1, win1_12.index t a = 0 := (by decide +kernel : ∀ t : Fin grid1.N, _)
theorem idx1_13 : ∀ t : Fin cfg1.N, ∀ a : Fin 2, win1_13.index t a = 0 := (by decide +kernel : ∀ t : Fin grid1.N, _)
theorem idx1_14 : ∀ t : Fin cfg1.N, ∀ a : Fin 1, win1_14.index t a = 0 := (by decide +kernel : ∀ t : Fin grid1.N, _)
theorem idx1_15 : ∀ t : Fin cfg1.N, ∀ a : Fin 2, win1_15.index t a = 0 := (by decide +kernel : ∀ t : Fin grid1.N, _)
theorem idx1_16 : ∀ t : Fin cfg1.N, ∀ a : Fin 1, win1_16.index t a = 0 := (by decide +kernel : ∀ t : Fin grid1.N, _)
theorem idx1_17 : ∀ t : Fin cfg1.N, ∀ a : Fin 1, win1_17.index t a = 0 := (by decide +kernel : ∀ t : Fin grid1.N, _)
theorem idx1_18 : ∀ t : Fin cfg1.N, ∀ a : Fin 1, win1_18.index t a = 0 := (by decide +kernel : ∀ t : Fin grid1.N, _)
theorem idx1_19 : ∀ t : Fin cfg1.N, win1_19.index t (0 : Fin 2) = t.val / 16 ∧ win1_19.index t (1 : Fin 2) = 0 :=
  (by decide +kernel : ∀ t : Fin grid1.N, _)

/-! ## Part A: a window's block read out of a real array -/

/-- Reading a real matrix with n rows through an embedding of a [512, 1024] block that shifts the rows by
    b and keeps the columns gives rows b … b + 511 of the matrix. -/
theorem read_rows_of_emb {n : Nat} (X : Fin n → Fin 1024 → ℝ)
    (emb : (⟨2, ![512, 1024]⟩ : Shape).Idx → (⟨2, ![n, 1024]⟩ : Shape).Idx) (b : Nat)
    (hb : ∀ r : Fin 512, b + r.val < n)
    (h0 : ∀ y, (emb y 0).val = b + (y 0).val) (h1 : ∀ y, (emb y 1).val = (y 1).val) :
    (fun y => Cert.Spec.mat X (emb y)) = Cert.Spec.mat (fun (r : Fin 512) e => X ⟨b + r.val, hb r⟩ e) := by
  funext y
  have hi : emb y = ix2 ⟨b + (y 0).val, hb (y 0)⟩ (y 1) :=
    funext fun a => Fin.ext (by match a with | ⟨0, _⟩ => exact h0 y | ⟨1, _⟩ => exact h1 y)
  show Cert.Spec.mat X (emb y) = _
  rw [hi]
  rfl

/-- The same for a column of words. -/
theorem read_wcol_of_emb {n : Nat} (g : Fin n → BitVec 32)
    (emb : (⟨2, ![512, 1]⟩ : Shape).Idx → (⟨2, ![n, 1]⟩ : Shape).Idx) (b : Nat)
    (hb : ∀ r : Fin 512, b + r.val < n) (h0 : ∀ y, (emb y 0).val = b + (y 0).val) :
    (fun y => wcol g (emb y)) = wcol (fun r : Fin 512 => g ⟨b + r.val, hb r⟩) := by
  funext y
  have hi : emb y 0 = ⟨b + (y 0).val, hb (y 0)⟩ := Fin.ext (h0 y)
  show g (emb y 0) = _
  rw [hi]
  rfl

/-! ### The first pipeline: the two row-blocked inputs -/

/-- Window 0 at point t: rows 512 t … 512 t + 511. -/
theorem blk0_0_read (t : Fin cfg0.N) (X : Fin 8192 → Fin 1024 → ℝ) :
    ((cfg0.win 0).blk t).view.read (Elt Ideal) (Cert.Spec.mat X)
      = Cert.Spec.mat (fun (r : Fin 512) e => X ⟨512 * t.val + r.val, rowlt t r⟩ e) :=
  read_rows_of_emb X (fun y => ((cfg0.win 0).blk t).view.emb y) (512 * t.val) (rowlt t)
    (fun y => by show win0_0.index t (0 : Fin 2) * 512 + 1 * (y 0).val = _; rw [(idx0_0 t).1]; omega)
    (fun y => by show win0_0.index t (1 : Fin 2) * 1024 + 1 * (y 1).val = _; rw [(idx0_0 t).2]; omega)

/-- Window 1 at point t: words 512 t … 512 t + 511 of the class-index column. -/
theorem blk0_1_read (t : Fin cfg0.N) (g : Fin 8192 → BitVec 32) :
    ((cfg0.win 1).blk t).view.read (Elt Ideal) (wcol g)
      = wcol (fun r : Fin 512 => g ⟨512 * t.val + r.val, rowlt t r⟩) :=
  read_wcol_of_emb g (fun y => ((cfg0.win 1).blk t).view.emb y) (512 * t.val) (rowlt t)
    (fun y => by show win0_1.index t (0 : Fin 2) * 512 + 1 * (y 0).val = _; rw [(idx0_1 t).1]; omega)

/-- Window 1 with the class indices spelled as words. -/
theorem blk0_1_read_classes (t : Fin cfg0.N) (g : Fin 8192 → Fin 81) :
    ((cfg0.win 1).blk t).view.read (Elt Ideal)
        (fun j : (⟨2, ![8192, 1]⟩ : Shape).Idx => BitVec.ofNat 32 (g (j 0)).val)
      = fun j => BitVec.ofNat 32 (g ⟨512 * t.val + (j 0).val, rowlt t (j 0)⟩).val :=
  blk0_1_read t (fun i => BitVec.ofNat 32 (g i).val)

/-! ### The first pipeline: the five inputs kept whole (any contents) -/

theorem blk0_2_read (t : Fin cfg0.N) (f : ((cfg0.win 2).blk t).view.ty.Contents (Elt Ideal)) :
    ((cfg0.win 2).blk t).view.read (Elt Ideal) f = f := by
  have hz : (fun a => win0_2.index t a * main_v7.ty.shape.size a) = fun _ => 0 :=
    funext fun a => by rw [idx0_2 t a, Nat.zero_mul]
  exact Memref.read_access_unit_zero (Elt Ideal) main_v7 hz (fun a => by rw [congrFun hz a]; simp) f

theorem blk0_3_read (t : Fin cfg0.N) (f : ((cfg0.win 3).blk t).view.ty.Contents (Elt Ideal)) :
    ((cfg0.win 3).blk t).view.read (Elt Ideal) f = f := by
  have hz : (fun a => win0_3.index t a * main_v10.ty.shape.size a) = fun _ => 0 :=
    funext fun a => by rw [idx0_3 t a, Nat.zero_mul]
  exact Memref.read_access_unit_zero (Elt Ideal) main_v10 hz (fun a => by rw [congrFun hz a]; simp) f

theorem blk0_4_read (t : Fin cfg0.N) (f : ((cfg0.win 4).blk t).view.ty.Contents (Elt Ideal)) :
    ((cfg0.win 4).blk t).view.read (Elt Ideal) f = f := by
  have hz : (fun a => win0_4.index t a * main_v13.ty.shape.size a) = fun _ => 0 :=
    funext fun a => by rw [idx0_4 t a, Nat.zero_mul]
  exact Memref.read_access_unit_zero (Elt Ideal) main_v13 hz (fun a => by rw [congrFun hz a]; simp) f

theorem blk0_5_read (t : Fin cfg0.N) (f : ((cfg0.win 5).blk t).view.ty.Contents (Elt Ideal)) :
    ((cfg0.win 5).blk t).view.read (Elt Ideal) f = f := by
  have hz : (fun a => win0_5.index t a * main_v16.ty.shape.size a) = fun _ => 0 :=
    funext fun a => by rw [idx0_5 t a, Nat.zero_mul]
  exact Memref.read_access_unit_zero (Elt Ideal) main_v16 hz (fun a => by rw [congrFun hz a]; simp) f

theorem blk0_6_read (t : Fin cfg0.N) (f : ((cfg0.win 6).blk t).view.ty.Contents (Elt Ideal)) :
    ((cfg0.win 6).blk t).view.read (Elt Ideal) f = f := by
  have hz : (fun a => win0_6.index t a * main_arg7.ty.shape.size a) = fun _ => 0 :=
    funext fun a => by rw [idx0_6 t a, Nat.zero_mul]
  exact Memref.read_access_unit_zero (Elt Ideal) main_arg7 hz (fun a => by rw [congrFun hz a]; simp) f

/-! ### The first pipeline: a block of each output array -/

theorem blk0_7_read (t : Fin cfg0.N) (G : Fin 8192 → Fin 1024 → ℝ) :
    ((cfg0.win 7).blk t).view.read (Elt Ideal) (Cert.Spec.mat G)
      = Cert.Spec.mat (fun (r : Fin 512) e => G ⟨512 * t.val + r.val, rowlt t r⟩ e) :=
  read_rows_of_emb G (fun y => ((cfg0.win 7).blk t).view.emb y) (512 * t.val) (rowlt t)
    (fun y => by show win0_7.index t (0 : Fin 2) * 512 + 1 * (y 0).val = _; rw [(idx0_7 t).1]; omega)
    (fun y => by show win0_7.index t (1 : Fin 2) * 1024 + 1 * (y 1).val = _; rw [(idx0_7 t).2]; omega)

theorem blk0_8_read (t : Fin cfg0.N) (G : Fin 8192 → Fin 1024 → ℝ) :
    ((cfg0.win 8).blk t).view.read (Elt Ideal) (Cert.Spec.mat G)
      = Cert.Spec.mat (fun (r : Fin 512) e => G ⟨512 * t.val + r.val, rowlt t r⟩ e) :=
  read_rows_of_emb G (fun y => ((cfg0.win 8).blk t).view.emb y) (512 * t.val) (rowlt t)
    (fun y => by show win0_8.index t (0 : Fin 2) * 512 + 1 * (y 0).val = _; rw [(idx0_8 t).1]; omega)
    (fun y => by show win0_8.index t (1 : Fin 2) * 1024 + 1 * (y 1).val = _; rw [(idx0_8 t).2]; omega)

theorem blk0_9_read (t : Fin cfg0.N) (G : Fin 8192 → Fin 1024 → ℝ) :
    ((cfg0.win 9).blk t).view.read (Elt Ideal) (Cert.Spec.mat G)
      = Cert.Spec.mat (fun (r : Fin 512) e => G ⟨512 * t.val + r.val, rowlt t r⟩ e) :=
  read_rows_of_emb G (fun y => ((cfg0.win 9).blk t).view.emb y) (512 * t.val) (rowlt t)
    (fun y => by show win0_9.index t (0 : Fin 2) * 512 + 1 * (y 0).val = _; rw [(idx0_9 t).1]; omega)
    (fun y => by show win0_9.index t (1 : Fin 2) * 1024 + 1 * (y 1).val = _; rw [(idx0_9 t).2]; omega)

/-! ### The second pipeline: query rows (windows 0, 3), key rows (windows 1, 2) -/

theorem blk1_0_read (t : Fin cfg1.N) (X : Fin 8192 → Fin 1024 → ℝ) :
    ((cfg1.win 0).blk t).view.read (Elt Ideal) (Cert.Spec.mat X)
      = Cert.Spec.mat (fun (r : Fin 512) e => X ⟨512 * (t.val / 16) + r.val, qrowlt t r⟩ e) :=
  read_rows_of_emb X (fun y => ((cfg1.win 0).blk t).view.emb y) (512 * (t.val / 16)) (qrowlt t)
    (fun y => by show win1_0.index t (0 : Fin 2) * 512 + 1 * (y 0).val = _; rw [(idx1_0 t).1]; omega)
    (fun y => by show win1_0.index t (1 : Fin 2) * 1024 + 1 * (y 1).val = _; rw [(idx1_0 t).2]; omega)

theorem blk1_1_read (t : Fin cfg1.N) (X : Fin 8192 → Fin 1024 → ℝ) :
    ((cfg1.win 1).blk t).view.read (Elt Ideal) (Cert.Spec.mat X)
      = Cert.Spec.mat (fun (r : Fin 512) e => X ⟨512 * (t.val % 16) + r.val, krowlt t r⟩ e) :=
  read_rows_of_emb X (fun y => ((cfg1.win 1).blk t).view.emb y) (512 * (t.val % 16)) (krowlt t)
    (fun y => by show win1_1.index t (0 : Fin 2) * 512 + 1 * (y 0).val = _; rw [(idx1_1 t).1]; omega)
    (fun y => by show win1_1.index t (1 : Fin 2) * 1024 + 1 * (y 1).val = _; rw [(idx1_1 t).2]; omega)

theorem blk1_2_read (t : Fin cfg1.N) (X : Fin 8192 → Fin 1024 → ℝ) :
    ((cfg1.win 2).blk t).view.read (Elt Ideal) (Cert.Spec.mat X)
      = Cert.Spec.mat (fun (r : Fin 512) e => X ⟨512 * (t.val % 16) + r.val, krowlt t r⟩ e) :=
  read_rows_of_emb X (fun y => ((cfg1.win 2).blk t).view.emb y) (512 * (t.val % 16)) (krowlt t)
    (fun y => by show win1_2.index t (0 : Fin 2) * 512 + 1 * (y 0).val = _; rw [(idx1_2 t).1]; omega)
    (fun y => by show win1_2.index t (1 : Fin 2) * 1024 + 1 * (y 1).val = _; rw [(idx1_2 t).2]; omega)

theorem blk1_3_read (t : Fin cfg1.N) (X : Fin 8192 → Fin 1024 → ℝ) :
    ((cfg1.win 3).blk t).view.read (Elt Ideal) (Cert.Spec.mat X)
      = Cert.Spec.mat (fun (r : Fin 512) e => X ⟨512 * (t.val / 16) + r.val, qrowlt t r⟩ e) :=
  read_rows_of_emb X (fun y => ((cfg1.win 3).blk t).view.emb y) (512 * (t.val / 16)) (qrowlt t)
    (fun y => by show win1_3.index t (0 : Fin 2) * 512 + 1 * (y 0).val = _; rw [(idx1_3 t).1]; omega)
    (fun y => by show win1_3.index t (1 : Fin 2) * 1024 + 1 * (y 1).val = _; rw [(idx1_3 t).2]; omega)

/-- A block of the second pipeline's output array: the query rows. -/
theorem blk1_19_read (t : Fin cfg1.N) (G : Fin 8192 → Fin 1024 → ℝ) :
    ((cfg1.win 19).blk t).view.read (Elt Ideal) (Cert.Spec.mat G)
      = Cert.Spec.mat (fun (r : Fin 512) e => G ⟨512 * (t.val / 16) + r.val, qrowlt t r⟩ e) :=
  read_rows_of_emb G (fun y => ((cfg1.win 19).blk t).view.emb y) (512 * (t.val / 16)) (qrowlt t)
    (fun y => by show win1_19.index t (0 : Fin 2) * 512 + 1 * (y 0).val = _; rw [(idx1_19 t).1]; omega)
    (fun y => by show win1_19.index t (1 : Fin 2) * 1024 + 1 * (y 1).val = _; rw [(idx1_19 t).2]; omega)

/-! ### The second pipeline: the fifteen inputs kept whole (any contents) -/

theorem blk1_4_read (t : Fin cfg1.N) (f : ((cfg1.win 4).blk t).view.ty.Contents (Elt Ideal)) :
    ((cfg1.win 4).blk t).view.read (Elt Ideal) f = f := by
  have hz : (fun a => win1_4.index t a * main_v18.ty.shape.size a) = fun _ => 0 :=
    funext fun a => by rw [idx1_4 t a, Nat.zero_mul]
  exact Memref.read_access_unit_zero (Elt Ideal) main_v18 hz (fun a => by rw [congrFun hz a]; simp) f

theorem blk1_5_read (t : Fin cfg1.N) (f : ((cfg1.win 5).blk t).view.ty.Contents (Elt Ideal)) :
    ((cfg1.win 5).blk t).view.read (Elt Ideal) f = f := by
  have hz : (fun a => win1_5.index t a * main_v21.ty.shape.size a) = fun _ => 0 :=
    funext fun a => by rw [idx1_5 t a, Nat.zero_mul]
  exact Memref.read_access_unit_zero (Elt Ideal) main_v21 hz (fun a => by rw [congrFun hz a]; simp) f

theorem blk1_6_read (t : Fin cfg1.N) (f : ((cfg1.win 6).blk t).view.ty.Contents (Elt Ideal)) :
    ((cfg1.win 6).blk t).view.read (Elt Ideal) f = f := by
  have hz : (fun a => win1_6.index t a * main_arg11.ty.shape.size a) = fun _ => 0 :=
    funext fun a => by rw [idx1_6 t a, Nat.zero_mul]
  exact Memref.read_access_unit_zero (Elt Ideal) main_arg11 hz (fun a => by rw [congrFun hz a]; simp) f

theorem blk1_7_read (t : Fin cfg1.N) (f : ((cfg1.win 7).blk t).view.ty.Contents (Elt Ideal)) :
    ((cfg1.win 7).blk t).view.read (Elt Ideal) f = f := by
  have hz : (fun a => win1_7.index t a * main_v23.ty.shape.size a) = fun _ => 0 :=
    funext fun a => by rw [idx1_7 t a, Nat.zero_mul]
  exact Memref.read_access_unit_zero (Elt Ideal) main_v23 hz (fun a => by rw [congrFun hz a]; simp) f

theorem blk1_8_read (t : Fin cfg1.N) (f : ((cfg1.win 8).blk t).view.ty.Contents (Elt Ideal)) :
    ((cfg1.win 8).blk t).view.read (Elt Ideal) f = f := by
  have hz : (fun a => win1_8.index t a * main_arg13.ty.shape.size a) = fun _ => 0 :=
    funext fun a => by rw [idx1_8 t a, Nat.zero_mul]
  exact Memref.read_access_unit_zero (Elt Ideal) main_arg13 hz (fun a => by rw [congrFun hz a]; simp) f

theorem blk1_9_read (t : Fin cfg1.N) (f : ((cfg1.win 9).blk t).view.ty.Contents (Elt Ideal)) :
    ((cfg1.win 9).blk t).view.read (Elt Ideal) f = f := by
  have hz : (fun a => win1_9.index t a * main_v26.ty.shape.size a) = fun _ => 0 :=
    funext fun a => by rw [idx1_9 t a, Nat.zero_mul]
  exact Memref.read_access_unit_zero (Elt Ideal) main_v26 hz (fun a => by rw [congrFun hz a]; simp) f

theorem blk1_10_read (t : Fin cfg1.N) (f : ((cfg1.win 10).blk t).view.ty.Contents (Elt Ideal)) :
    ((cfg1.win 10).blk t).view.read (Elt Ideal) f = f := by
  have hz : (fun a => win1_10.index t a * main_v29.ty.shape.size a) = fun _ => 0 :=
    funext fun a => by rw [idx1_10 t a, Nat.zero_mul]
  exact Memref.read_access_unit_zero (Elt Ideal) main_v29 hz (fun a => by rw [congrFun hz a]; simp) f

theorem blk1_11_read (t : Fin cfg1.N) (f : ((cfg1.win 11).blk t).view.ty.Contents (Elt Ideal)) :
    ((cfg1.win 11).blk t).view.read (Elt Ideal) f = f := by
  have hz : (fun a => win1_11.index t a * main_v32.ty.shape.size a) = fun _ => 0 :=
    funext fun a => by rw [idx1_11 t a, Nat.zero_mul]
  exact Memref.read_access_unit_zero (Elt Ideal) main_v32 hz (fun a => by rw [congrFun hz a]; simp) f

theorem blk1_12_read (t : Fin cfg1.N) (f : ((cfg1.win 12).blk t).view.ty.Contents (Elt Ideal)) :
    ((cfg1.win 12).blk t).view.read (Elt Ideal) f = f := by
  have hz : (fun a => win1_12.index t a * main_arg15.ty.shape.size a) = fun _ => 0 :=
    funext fun a => by rw [idx1_12 t a, Nat.zero_mul]
  exact Memref.read_access_unit_zero (Elt Ideal) main_arg15 hz (fun a => by rw [congrFun hz a]; simp) f

theorem blk1_13_read (t : Fin cfg1.N) (f : ((cfg1.win 13).blk t).view.ty.Contents (Elt Ideal)) :
    ((cfg1.win 13).blk t).view.read (Elt Ideal) f = f := by
  have hz : (fun a => win1_13.index t a * main_v34.ty.shape.size a) = fun _ => 0 :=
    funext fun a => by rw [idx1_13 t a, Nat.zero_mul]
  exact Memref.read_access_unit_zero (Elt Ideal) main_v34 hz (fun a => by rw [congrFun hz a]; simp) f

theorem blk1_14_read (t : Fin cfg1.N) (f : ((cfg1.win 14).blk t).view.ty.Contents (Elt Ideal)) :
    ((cfg1.win 14).blk t).view.read (Elt Ideal) f = f := by
  have hz : (fun a => win1_14.index t a * main_arg17.ty.shape.size a) = fun _ => 0 :=
    funext fun a => by rw [idx1_14 t a, Nat.zero_mul]
  exact Memref.read_access_unit_zero (Elt Ideal) main_arg17 hz (fun a => by rw [congrFun hz a]; simp) f

theorem blk1_15_read (t : Fin cfg1.N) (f : ((cfg1.win 15).blk t).view.ty.Contents (Elt Ideal)) :
    ((cfg1.win 15).blk t).view.read (Elt Ideal) f = f := by
  have hz : (fun a => win1_15.index t a * main_v36.ty.shape.size a) = fun _ => 0 :=
    funext fun a => by rw [idx1_15 t a, Nat.zero_mul]
  exact Memref.read_access_unit_zero (Elt Ideal) main_v36 hz (fun a => by rw [congrFun hz a]; simp) f

theorem blk1_16_read (t : Fin cfg1.N) (f : ((cfg1.win 16).blk t).view.ty.Contents (Elt Ideal)) :
    ((cfg1.win 16).blk t).view.read (Elt Ideal) f = f := by
  have hz : (fun a => win1_16.index t a * main_arg19.ty.shape.size a) = fun _ => 0 :=
    funext fun a => by rw [idx1_16 t a, Nat.zero_mul]
  exact Memref.read_access_unit_zero (Elt Ideal) main_arg19 hz (fun a => by rw [congrFun hz a]; simp) f

theorem blk1_17_read (t : Fin cfg1.N) (f : ((cfg1.win 17).blk t).view.ty.Contents (Elt Ideal)) :
    ((cfg1.win 17).blk t).view.read (Elt Ideal) f = f := by
  have hz : (fun a => win1_17.index t a * main_arg20.ty.shape.size a) = fun _ => 0 :=
    funext fun a => by rw [idx1_17 t a, Nat.zero_mul]
  exact Memref.read_access_unit_zero (Elt Ideal) main_arg20 hz (fun a => by rw [congrFun hz a]; simp) f

theorem blk1_18_read (t : Fin cfg1.N) (f : ((cfg1.win 18).blk t).view.ty.Contents (Elt Ideal)) :
    ((cfg1.win 18).blk t).view.read (Elt Ideal) f = f := by
  have hz : (fun a => win1_18.index t a * main_arg21.ty.shape.size a) = fun _ => 0 :=
    funext fun a => by rw [idx1_18 t a, Nat.zero_mul]
  exact Memref.read_access_unit_zero (Elt Ideal) main_arg21 hz (fun a => by rw [congrFun hz a]; simp) f

/-! ## Part B: an output array from what the points write back

What a point writes back is what the body left in the window's staging buffer there, cut to the part the
transfer moves (the library's definition of the write-back, Dat.flushed); these windows' blocks lie
inside their arrays, so nothing is cut. -/

theorem flushed0_7_eq_after {c : Dev nD} (dat : Dat0 Ideal c) (t : Fin cfg0.N) :
    (dat.flushed 7 t : S512x1024.Idx → EReal) = dat.after 7 t := rfl
theorem flushed0_8_eq_after {c : Dev nD} (dat : Dat0 Ideal c) (t : Fin cfg0.N) :
    (dat.flushed 8 t : S512x1024.Idx → EReal) = dat.after 8 t := rfl
theorem flushed0_9_eq_after {c : Dev nD} (dat : Dat0 Ideal c) (t : Fin cfg0.N) :
    (dat.flushed 9 t : S512x1024.Idx → EReal) = dat.after 9 t := rfl
theorem flushed1_19_eq_after {c : Dev nD} (dat : Dat1 Ideal c) (t : Fin cfg1.N) :
    (dat.flushed 19 t : S512x1024.Idx → EReal) = dat.after 19 t := rfl

/-- Row i of 8192 lies in the block of rows starting at 512 (i / 512). -/
theorem row_in_block {i q : Nat} (hq : q = i / 512) : q * 512 ≤ i ∧ i < q * 512 + 512 := by omega

/-- The first pipeline, output window 7: every point writes its block of G back, and the 16 blocks
    cover the 8192 rows, so the array ends as G. -/
theorem arr0_7 {c : Dev nD} (dat : Dat0 Ideal c) (G : Fin 8192 → Fin 1024 → ℝ)
    (h : ∀ t : Fin cfg0.N, dat.flushed 7 t = ((cfg0.win 7).blk t).view.read (Elt Ideal) (Cert.Spec.mat G)) :
    dat.arrAt 7 cfg0.N = Cert.Spec.mat G :=
  dat.arrAt_eq_of_cover 7 (Cert.Spec.mat G) (fun t _ => h t) fun (i : S8192x1024.Idx) => by
    have hi0 : (i 0).val < 8192 := (i 0).isLt
    have hi1 : (i 1).val < 1024 := (i 1).isLt
    obtain ⟨t, ht⟩ : ∃ t : Fin cfg0.N, t.val = (i 0).val / 512 :=
      ⟨⟨(i 0).val / 512, by rw [show cfg0.N = 16 from N_0]; omega⟩, rfl⟩
    refine ⟨t, flush0_7 t, ?_⟩
    show i ∈ ((View.whole main_v17_0).slice (win0_7.rect t)).set
    rw [View.set_slice_whole, Rect.mem_set_unit]
    obtain ⟨e0, e1⟩ := idx0_7 t
    intro a
    match a with
    | ⟨0, _⟩ =>
      show win0_7.index t (0 : Fin 2) * 512 ≤ (i 0).val ∧ (i 0).val < win0_7.index t (0 : Fin 2) * 512 + 512
      exact row_in_block (e0.trans ht)
    | ⟨1, _⟩ =>
      show win0_7.index t (1 : Fin 2) * 1024 ≤ (i 1).val ∧ (i 1).val < win0_7.index t (1 : Fin 2) * 1024 + 1024
      omega

/-- Output window 8 likewise. -/
theorem arr0_8 {c : Dev nD} (dat : Dat0 Ideal c) (G : Fin 8192 → Fin 1024 → ℝ)
    (h : ∀ t : Fin cfg0.N, dat.flushed 8 t = ((cfg0.win 8).blk t).view.read (Elt Ideal) (Cert.Spec.mat G)) :
    dat.arrAt 8 cfg0.N = Cert.Spec.mat G :=
  dat.arrAt_eq_of_cover 8 (Cert.Spec.mat G) (fun t _ => h t) fun (i : S8192x1024.Idx) => by
    have hi0 : (i 0).val < 8192 := (i 0).isLt
    have hi1 : (i 1).val < 1024 := (i 1).isLt
    obtain ⟨t, ht⟩ : ∃ t : Fin cfg0.N, t.val = (i 0).val / 512 :=
      ⟨⟨(i 0).val / 512, by rw [show cfg0.N = 16 from N_0]; omega⟩, rfl⟩
    refine ⟨t, flush0_8 t, ?_⟩
    show i ∈ ((View.whole main_v17_1).slice (win0_8.rect t)).set
    rw [View.set_slice_whole, Rect.mem_set_unit]
    obtain ⟨e0, e1⟩ := idx0_8 t
    intro a
    match a with
    | ⟨0, _⟩ =>
      show win0_8.index t (0 : Fin 2) * 512 ≤ (i 0).val ∧ (i 0).val < win0_8.index t (0 : Fin 2) * 512 + 512
      exact row_in_block (e0.trans ht)
    | ⟨1, _⟩ =>
      show win0_8.index t (1 : Fin 2) * 1024 ≤ (i 1).val ∧ (i 1).val < win0_8.index t (1 : Fin 2) * 1024 + 1024
      omega

/-- Output window 9 likewise. -/
theorem arr0_9 {c : Dev nD} (dat : Dat0 Ideal c) (G : Fin 8192 → Fin 1024 → ℝ)
    (h : ∀ t : Fin cfg0.N, dat.flushed 9 t = ((cfg0.win 9).blk t).view.read (Elt Ideal) (Cert.Spec.mat G)) :
    dat.arrAt 9 cfg0.N = Cert.Spec.mat G :=
  dat.arrAt_eq_of_cover 9 (Cert.Spec.mat G) (fun t _ => h t) fun (i : S8192x1024.Idx) => by
    have hi0 : (i 0).val < 8192 := (i 0).isLt
    have hi1 : (i 1).val < 1024 := (i 1).isLt
    obtain ⟨t, ht⟩ : ∃ t : Fin cfg0.N, t.val = (i 0).val / 512 :=
      ⟨⟨(i 0).val / 512, by rw [show cfg0.N = 16 from N_0]; omega⟩, rfl⟩
    refine ⟨t, flush0_9 t, ?_⟩
    show i ∈ ((View.whole main_v17_2).slice (win0_9.rect t)).set
    rw [View.set_slice_whole, Rect.mem_set_unit]
    obtain ⟨e0, e1⟩ := idx0_9 t
    intro a
    match a with
    | ⟨0, _⟩ =>
      show win0_9.index t (0 : Fin 2) * 512 ≤ (i 0).val ∧ (i 0).val < win0_9.index t (0 : Fin 2) * 512 + 512
      exact row_in_block (e0.trans ht)
    | ⟨1, _⟩ =>
      show win0_9.index t (1 : Fin 2) * 1024 ≤ (i 1).val ∧ (i 1).val < win0_9.index t (1 : Fin 2) * 1024 + 1024
      omega

/-- The second pipeline, output window 19: the block of query rows q is written back at the point
    16 q + 15 only (the last key block); those 16 points' blocks cover the 8192 rows. -/
theorem arr1_19 {c : Dev nD} (dat : Dat1 Ideal c) (G : Fin 8192 → Fin 1024 → ℝ)
    (h : ∀ t : Fin cfg1.N, t.val % 16 = 15 →
      dat.flushed 19 t = ((cfg1.win 19).blk t).view.read (Elt Ideal) (Cert.Spec.mat G)) :
    dat.arrAt 19 cfg1.N = Cert.Spec.mat G :=
  dat.arrAt_eq_of_cover 19 (Cert.Spec.mat G) (fun t hf => h t ((flush1_19 t).mp hf)) fun (i : S8192x1024.Idx) => by
    have hi0 : (i 0).val < 8192 := (i 0).isLt
    have hi1 : (i 1).val < 1024 := (i 1).isLt
    obtain ⟨t, ht⟩ : ∃ t : Fin cfg1.N, t.val = 16 * ((i 0).val / 512) + 15 :=
      ⟨⟨16 * ((i 0).val / 512) + 15, by rw [show cfg1.N = 256 from N_1]; omega⟩, rfl⟩
    refine ⟨t, (flush1_19 t).mpr (by omega), ?_⟩
    show i ∈ ((View.whole main_v37).slice (win1_19.rect t)).set
    rw [View.set_slice_whole, Rect.mem_set_unit]
    obtain ⟨e0, e1⟩ := idx1_19 t
    intro a
    match a with
    | ⟨0, _⟩ =>
      show win1_19.index t (0 : Fin 2) * 512 ≤ (i 0).val ∧ (i 0).val < win1_19.index t (0 : Fin 2) * 512 + 512
      exact row_in_block (e0.trans (by omega))
    | ⟨1, _⟩ =>
      show win1_19.index t (1 : Fin 2) * 1024 ≤ (i 1).val ∧ (i 1).val < win1_19.index t (1 : Fin 2) * 1024 + 1024
      omega

/-! ### The same with each write-back given as rows of G -/

theorem arr0_7_of_rows {c : Dev nD} (dat : Dat0 Ideal c) (G : Fin 8192 → Fin 1024 → ℝ)
    (h : ∀ t : Fin cfg0.N, dat.flushed 7 t
      = Cert.Spec.mat (fun (r : Fin 512) e => G ⟨512 * t.val + r.val, rowlt t r⟩ e)) :
    dat.arrAt 7 cfg0.N = Cert.Spec.mat G :=
  arr0_7 dat G fun t => (h t).trans (blk0_7_read t G).symm

theorem arr0_8_of_rows {c : Dev nD} (dat : Dat0 Ideal c) (G : Fin 8192 → Fin 1024 → ℝ)
    (h : ∀ t : Fin cfg0.N, dat.flushed 8 t
      = Cert.Spec.mat (fun (r : Fin 512) e => G ⟨512 * t.val + r.val, rowlt t r⟩ e)) :
    dat.arrAt 8 cfg0.N = Cert.Spec.mat G :=
  arr0_8 dat G fun t => (h t).trans (blk0_8_read t G).symm

theorem arr0_9_of_rows {c : Dev nD} (dat : Dat0 Ideal c) (G : Fin 8192 → Fin 1024 → ℝ)
    (h : ∀ t : Fin cfg0.N, dat.flushed 9 t
      = Cert.Spec.mat (fun (r : Fin 512) e => G ⟨512 * t.val + r.val, rowlt t r⟩ e)) :
    dat.arrAt 9 cfg0.N = Cert.Spec.mat G :=
  arr0_9 dat G fun t => (h t).trans (blk0_9_read t G).symm

theorem arr1_19_of_rows {c : Dev nD} (dat : Dat1 Ideal c) (G : Fin 8192 → Fin 1024 → ℝ)
    (h : ∀ t : Fin cfg1.N, t.val % 16 = 15 → dat.flushed 19 t
      = Cert.Spec.mat (fun (r : Fin 512) e => G ⟨512 * (t.val / 16) + r.val, qrowlt t r⟩ e)) :
    dat.arrAt 19 cfg1.N = Cert.Spec.mat G :=
  arr1_19 dat G fun t ht => (h t ht).trans (blk1_19_read t G).symm

end Cert.KernelIdeal.Val
-- ==== Proof.Lifts.lean ====
import proofs.«404873_j80685255623116_3_alg».proof.KernelIdeal
import proofs.«404873_j80685255623116_3_alg».proof.ReferenceIdeal
import proofs.«404873_j80685255623116_3_alg».proof.Proof.Spec

/-!
# A memory whose inputs are real arrays

Under the precondition every float input is finite and every class index lies below 81, so on each core
the 22 argument buffers are the coercions of real arrays (and of a table of indices): the record `Args`
of the specification. This is stated once for each idealized program, whose memories agree on the
arguments in the claim.
-/

noncomputable section

namespace Cert

open Idealize.ShloMosaic Idealize.ShloMosaic.TcCoe Idealize.SL.Sem

/-- The argument buffers of `Cert.KernelIdeal` on core `c` are the real inputs `a`, coerced (the class indices as words). -/
structure LiftsK (m : (ℓ : Loc Cert.KernelIdeal.nD Cert.KernelIdeal.τ Cert.KernelIdeal.sig) → Buf (Elt Ideal) ℓ) (c : Dev Cert.KernelIdeal.nD) (a : Cert.Spec.Args) : Prop where
  h0 : m ((c.tc : Thread Cert.KernelIdeal.nD Cert.KernelIdeal.τ).loc Cert.KernelIdeal.main_arg0) = Cert.Spec.mat a.X
  h1 : m ((c.tc : Thread Cert.KernelIdeal.nD Cert.KernelIdeal.τ).loc Cert.KernelIdeal.main_arg1) = Cert.Spec.words a.g
  h2 : m ((c.tc : Thread Cert.KernelIdeal.nD Cert.KernelIdeal.τ).loc Cert.KernelIdeal.main_arg2) = Cert.Spec.mat a.CLS
  h3 : m ((c.tc : Thread Cert.KernelIdeal.nD Cert.KernelIdeal.τ).loc Cert.KernelIdeal.main_arg3) = Cert.Spec.row a.BG
  h4 : m ((c.tc : Thread Cert.KernelIdeal.nD Cert.KernelIdeal.τ).loc Cert.KernelIdeal.main_arg4) = Cert.Spec.mat a.Wp
  h5 : m ((c.tc : Thread Cert.KernelIdeal.nD Cert.KernelIdeal.τ).loc Cert.KernelIdeal.main_arg5) = Cert.Spec.vec a.bp
  h6 : m ((c.tc : Thread Cert.KernelIdeal.nD Cert.KernelIdeal.τ).loc Cert.KernelIdeal.main_arg6) = Cert.Spec.mat a.Wc
  h7 : m ((c.tc : Thread Cert.KernelIdeal.nD Cert.KernelIdeal.τ).loc Cert.KernelIdeal.main_arg7) = Cert.Spec.vec a.bc
  h8 : m ((c.tc : Thread Cert.KernelIdeal.nD Cert.KernelIdeal.τ).loc Cert.KernelIdeal.main_arg8) = Cert.Spec.mat a.Wqk
  h9 : m ((c.tc : Thread Cert.KernelIdeal.nD Cert.KernelIdeal.τ).loc Cert.KernelIdeal.main_arg9) = Cert.Spec.row a.dm
  h10 : m ((c.tc : Thread Cert.KernelIdeal.nD Cert.KernelIdeal.τ).loc Cert.KernelIdeal.main_arg10) = Cert.Spec.mat a.W1
  h11 : m ((c.tc : Thread Cert.KernelIdeal.nD Cert.KernelIdeal.τ).loc Cert.KernelIdeal.main_arg11) = Cert.Spec.vec a.b1
  h12 : m ((c.tc : Thread Cert.KernelIdeal.nD Cert.KernelIdeal.τ).loc Cert.KernelIdeal.main_arg12) = Cert.Spec.mat a.W2
  h13 : m ((c.tc : Thread Cert.KernelIdeal.nD Cert.KernelIdeal.τ).loc Cert.KernelIdeal.main_arg13) = Cert.Spec.vec a.b2
  h14 : m ((c.tc : Thread Cert.KernelIdeal.nD Cert.KernelIdeal.τ).loc Cert.KernelIdeal.main_arg14) = Cert.Spec.mat a.W3
  h15 : m ((c.tc : Thread Cert.KernelIdeal.nD Cert.KernelIdeal.τ).loc Cert.KernelIdeal.main_arg15) = Cert.Spec.vec a.b3
  h16 : m ((c.tc : Thread Cert.KernelIdeal.nD Cert.KernelIdeal.τ).loc Cert.KernelIdeal.main_arg16) = Cert.Spec.mat a.Wf1
  h17 : m ((c.tc : Thread Cert.KernelIdeal.nD Cert.KernelIdeal.τ).loc Cert.KernelIdeal.main_arg17) = Cert.Spec.vec a.bf1
  h18 : m ((c.tc : Thread Cert.KernelIdeal.nD Cert.KernelIdeal.τ).loc Cert.KernelIdeal.main_arg18) = Cert.Spec.mat a.Wf2
  h19 : m ((c.tc : Thread Cert.KernelIdeal.nD Cert.KernelIdeal.τ).loc Cert.KernelIdeal.main_arg19) = Cert.Spec.vec a.bf2
  h20 : m ((c.tc : Thread Cert.KernelIdeal.nD Cert.KernelIdeal.τ).loc Cert.KernelIdeal.main_arg20) = Cert.Spec.vec a.lg
  h21 : m ((c.tc : Thread Cert.KernelIdeal.nD Cert.KernelIdeal.τ).loc Cert.KernelIdeal.main_arg21) = Cert.Spec.vec a.lb

/-- The argument buffers of `Cert.ReferenceIdeal` on core `c` are the real inputs `a`, coerced (the class indices as words). -/
structure LiftsR (m : (ℓ : Loc Cert.ReferenceIdeal.nD Cert.ReferenceIdeal.τ Cert.ReferenceIdeal.sig) → Buf (Elt Ideal) ℓ) (c : Dev Cert.ReferenceIdeal.nD) (a : Cert.Spec.Args) : Prop where
  h0 : m ((c.tc : Thread Cert.ReferenceIdeal.nD Cert.ReferenceIdeal.τ).loc Cert.ReferenceIdeal.main_arg0) = Cert.Spec.mat a.X
  h1 : m ((c.tc : Thread Cert.ReferenceIdeal.nD Cert.ReferenceIdeal.τ).loc Cert.ReferenceIdeal.main_arg1) = Cert.Spec.words a.g
  h2 : m ((c.tc : Thread Cert.ReferenceIdeal.nD Cert.ReferenceIdeal.τ).loc Cert.ReferenceIdeal.main_arg2) = Cert.Spec.mat a.CLS
  h3 : m ((c.tc : Thread Cert.ReferenceIdeal.nD Cert.ReferenceIdeal.τ).loc Cert.ReferenceIdeal.main_arg3) = Cert.Spec.row a.BG
  h4 : m ((c.tc : Thread Cert.ReferenceIdeal.nD Cert.ReferenceIdeal.τ).loc Cert.ReferenceIdeal.main_arg4) = Cert.Spec.mat a.Wp
  h5 : m ((c.tc : Thread Cert.ReferenceIdeal.nD Cert.ReferenceIdeal.τ).loc Cert.ReferenceIdeal.main_arg5) = Cert.Spec.vec a.bp
  h6 : m ((c.tc : Thread Cert.ReferenceIdeal.nD Cert.ReferenceIdeal.τ).loc Cert.ReferenceIdeal.main_arg6) = Cert.Spec.mat a.Wc
  h7 : m ((c.tc : Thread Cert.ReferenceIdeal.nD Cert.ReferenceIdeal.τ).loc Cert.ReferenceIdeal.main_arg7) = Cert.Spec.vec a.bc
  h8 : m ((c.tc : Thread Cert.ReferenceIdeal.nD Cert.ReferenceIdeal.τ).loc Cert.ReferenceIdeal.main_arg8) = Cert.Spec.mat a.Wqk
  h9 : m ((c.tc : Thread Cert.ReferenceIdeal.nD Cert.ReferenceIdeal.τ).loc Cert.ReferenceIdeal.main_arg9) = Cert.Spec.row a.dm
  h10 : m ((c.tc : Thread Cert.ReferenceIdeal.nD Cert.ReferenceIdeal.τ).loc Cert.ReferenceIdeal.main_arg10) = Cert.Spec.mat a.W1
  h11 : m ((c.tc : Thread Cert.ReferenceIdeal.nD Cert.ReferenceIdeal.τ).loc Cert.ReferenceIdeal.main_arg11) = Cert.Spec.vec a.b1
  h12 : m ((c.tc : Thread Cert.ReferenceIdeal.nD Cert.ReferenceIdeal.τ).loc Cert.ReferenceIdeal.main_arg12) = Cert.Spec.mat a.W2
  h13 : m ((c.tc : Thread Cert.ReferenceIdeal.nD Cert.ReferenceIdeal.τ).loc Cert.ReferenceIdeal.main_arg13) = Cert.Spec.vec a.b2
  h14 : m ((c.tc : Thread Cert.ReferenceIdeal.nD Cert.ReferenceIdeal.τ).loc Cert.ReferenceIdeal.main_arg14) = Cert.Spec.mat a.W3
  h15 : m ((c.tc : Thread Cert.ReferenceIdeal.nD Cert.ReferenceIdeal.τ).loc Cert.ReferenceIdeal.main_arg15) = Cert.Spec.vec a.b3
  h16 : m ((c.tc : Thread Cert.ReferenceIdeal.nD Cert.ReferenceIdeal.τ).loc Cert.ReferenceIdeal.main_arg16) = Cert.Spec.mat a.Wf1
  h17 : m ((c.tc : Thread Cert.ReferenceIdeal.nD Cert.ReferenceIdeal.τ).loc Cert.ReferenceIdeal.main_arg17) = Cert.Spec.vec a.bf1
  h18 : m ((c.tc : Thread Cert.ReferenceIdeal.nD Cert.ReferenceIdeal.τ).loc Cert.ReferenceIdeal.main_arg18) = Cert.Spec.mat a.Wf2
  h19 : m ((c.tc : Thread Cert.ReferenceIdeal.nD Cert.ReferenceIdeal.τ).loc Cert.ReferenceIdeal.main_arg19) = Cert.Spec.vec a.bf2
  h20 : m ((c.tc : Thread Cert.ReferenceIdeal.nD Cert.ReferenceIdeal.τ).loc Cert.ReferenceIdeal.main_arg20) = Cert.Spec.vec a.lg
  h21 : m ((c.tc : Thread Cert.ReferenceIdeal.nD Cert.ReferenceIdeal.τ).loc Cert.ReferenceIdeal.main_arg21) = Cert.Spec.vec a.lb

end Cert

end
-- ==== Proof.HostVals.lean ====
import proofs.«404873_j80685255623116_3_alg».proof.Proof.Vals
import proofs.«404873_j80685255623116_3_alg».proof.Proof.Lifts
import proofs.«404873_j80685255623116_3_alg».proof.Proof.Spec
import proofs.«404873_j80685255623116_3_alg».proof.Proof.Lift
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost

/-!
# The arrays the host operations stage for the two kernels

Before each kernel the program prepares operands with host operations: it joins the 80 class embeddings
and the background embedding into 81 rows, projects them to the model width (a matrix product with the
transposed weight, plus the bias in every row), pads the 81 rows with zero rows to 128, and changes the
format (the identity at the exact reading); it reshapes the class indices to a column; and it transposes
and cuts the weight matrices. When the arguments are real arrays, each staged array is a real array
given by a closed formula, read index by index: a transpose swaps the coordinates, a cut shifts the
column, a join picks the piece by the row, a pad reads the operand inside and zero outside, and the
product is the sum over the contracted index.
-/

noncomputable section

open scoped BigOperators

namespace Cert.KernelIdeal.Val

open Cert.KernelIdeal Cert.KernelIdeal.Gen Cert.KernelIdeal.Frm
open Idealize.ShloMosaic Idealize.ShloMosaic.TcCoe Idealize.SL.Sem Idealize.ShloMosaic.StableHlo
open Idealize.ShloMosaic.ValueIdx

/-! ## Layout operations on a real matrix -/

/-- The transpose of a real matrix is the matrix with its two coordinates swapped. -/
theorem transpose_mat {n k : Nat} (A : Fin n → Fin k → ℝ)
    (h : (⟨2, ![n, k]⟩ : Shape).Transposes [1, 0] ⟨2, ![k, n]⟩) :
    transpose ⟨2, ![k, n]⟩ [1, 0] (Spec.mat A) h = Spec.mat (fun j i => A i j) := by
  funext j
  obtain ⟨p, q, rfl⟩ : ∃ (p : Fin k) (q : Fin n), j = ix2 p q := ⟨j 0, j 1, eq_ix2 j⟩
  exact (transpose_ix2_apply (Spec.mat A) h p q).trans rfl

/-- A band of columns of a real matrix, from column o on: column j of the band is column o + j. -/
theorem slice_mat {n k w : Nat} (o : Nat) (A : Fin n → Fin k → ℝ)
    (h : (⟨2, ![n, k]⟩ : Shape).Slices ![0, o] ⟨2, ![n, w]⟩) (col : Fin w → Fin k) (hcol : ∀ j, (col j).val = o + j.val) :
    extractStridedSlice ⟨2, ![n, w]⟩ ![0, o] (Spec.mat A) h = Spec.mat (fun i j => A i (col j)) := by
  funext j
  obtain ⟨p, q, rfl⟩ : ∃ (p : Fin n) (q : Fin w), j = ix2 p q := ⟨j 0, j 1, eq_ix2 j⟩
  exact (slice2_axis1_apply o (Spec.mat A) h p q (col q) (hcol q)).trans rfl

/-- A real vector laid out as one row. -/
theorem bias_row {k : Nat} (b : Fin k → ℝ) (h : (⟨1, ![k]⟩ : Shape).BroadcastsInDim ⟨2, ![1, k]⟩ ![1]) :
    broadcastInDim ⟨2, ![1, k]⟩ ![1] h (Spec.vec b) = Spec.row b := by
  funext j
  obtain ⟨p, q, rfl⟩ : ∃ (p : Fin 1) (q : Fin k), j = ix2 p q := ⟨j 0, j 1, eq_ix2 j⟩
  refine (broadcastInDim_apply ![1] h (Spec.vec b) (ix2 p q) (ix1 q) fun a => ?_).trans rfl
  match a with
  | ⟨0, _⟩ =>
    show q.val = if k = 1 then 0 else q.val
    split
    · have := q.isLt; omega
    · rfl

/-- One real row copied into every row of a matrix. -/
theorem bias_rows {n k : Nat} (b : Fin k → ℝ) (h : (⟨2, ![1, k]⟩ : Shape).BroadcastsInDim ⟨2, ![n, k]⟩ ![0, 1]) :
    broadcastInDim ⟨2, ![n, k]⟩ ![0, 1] h (Spec.row b) = Spec.mat (fun (_ : Fin n) e => b e) := by
  funext j
  obtain ⟨p, q, rfl⟩ : ∃ (p : Fin n) (q : Fin k), j = ix2 p q := ⟨j 0, j 1, eq_ix2 j⟩
  exact (broadcastInDim_oneRow_apply h (Spec.row b) p q).trans rfl

/-- The sum of two real matrices. -/
theorem addf_mat {n k : Nat} {φ : FTy} (A B : Fin n → Fin k → ℝ) :
    addf (F := Ideal) (φ := φ) (Spec.mat A) (Spec.mat B) = Spec.mat (fun i j => A i j + B i j) :=
  Cert.Lift.addf_coe (fun j : (⟨2, ![n, k]⟩ : Shape).Idx => A (j 0) (j 1)) (fun j => B (j 0) (j 1))

/-- A vector of n words reshaped to a column [n, 1]: row j holds word j. -/
theorem shapeCast_words {n k : Nat} (g : Fin n → Fin k) (h : (⟨1, ![n]⟩ : Shape).ShapeCasts ⟨2, ![n, 1]⟩)
    (j : (⟨2, ![n, 1]⟩ : Shape).Idx) :
    shapeCast ⟨2, ![n, 1]⟩ (Spec.words g) h j = BitVec.ofNat 32 (g (j 0)).val := by
  refine (shapeCast_apply (Spec.words g) h j (ix1 (j 0)) ?_).trans rfl
  rw [Shape.rowMajor_val_one, Shape.rowMajor_val_two]
  have h1 : (j 1).val < 1 := (j 1).isLt
  show (j 0).val = (j 0).val * 1 + (j 1).val
  omega

/-! ## The 81 embeddings, projected and padded -/

/-- The 80 class rows followed by the background row are the 81 embeddings: a row below 80 comes from
    the first piece, row 80 from the second. -/
theorem concat_emb (a : Spec.Args) (h : Shape.Concatenates [S80x300, S1x300] S81x300 0) :
    concatenate S81x300 0 [⟨S80x300, Spec.mat a.CLS⟩, ⟨S1x300, Spec.row a.BG⟩] h = Spec.mat (Spec.emb a) := by
  funext j
  obtain ⟨p, q, rfl⟩ : ∃ (p : Fin 81) (q : Fin 300), j = ix2 p q := ⟨j 0, j 1, eq_ix2 j⟩
  by_cases hp : p.val < 80
  · refine (concatenate_pair_apply_left (t := S81x300) 0 (Spec.mat a.CLS) (Spec.row a.BG) h (ix2 p q) rfl
      (ix2 ⟨p.val, hp⟩ q) fun b => ?_).trans ?_
    · match b with
      | ⟨0, _⟩ => rfl
      | ⟨1, _⟩ => rfl
    · show ((a.CLS ⟨p.val, hp⟩ q : ℝ) : EReal) = ((Spec.emb a p q : ℝ) : EReal)
      rw [Spec.emb, dif_pos hp]
  · have hp' : p.val = 80 := by have := p.isLt; omega
    refine (concatenate_pair_apply_right (t := S81x300) 0 (Spec.mat a.CLS) (Spec.row a.BG) h (ix2 p q) rfl rfl
      (ix2 (0 : Fin 1) q) (fun b hb => ?_) ?_).trans ?_
    · match b with
      | ⟨0, _⟩ => exact absurd rfl hb
      | ⟨1, _⟩ => rfl
    · show 0 + 80 = p.val
      omega
    · show ((a.BG q : ℝ) : EReal) = ((Spec.emb a p q : ℝ) : EReal)
      rw [Spec.emb, dif_neg hp]

/-- The left operand of the projection is read at (row, contracted index): its two axes. -/
theorem lhs_proj_0 (i : S81x1024.Idx) (q : dot_S81x300_S300x1024_S81x1024_1_0_0_1_n_n.contr.Idx) :
    (dot_S81x300_S300x1024_S81x1024_1_0_0_1_n_n.lhsIdx i q 0).val = (i 0).val := by
  unfold DotDims.lhsIdx
  rw [dif_neg (show ¬(0 : Fin S81x300.rank) ∈ dot_S81x300_S300x1024_S81x1024_1_0_0_1_n_n.lhsBatch by decide), dif_pos (show (0 : Fin S81x300.rank) ∈ dot_S81x300_S300x1024_S81x1024_1_0_0_1_n_n.lhsNonContracting by decide)]
  rfl
theorem lhs_proj_1 (i : S81x1024.Idx) (q : dot_S81x300_S300x1024_S81x1024_1_0_0_1_n_n.contr.Idx) :
    (dot_S81x300_S300x1024_S81x1024_1_0_0_1_n_n.lhsIdx i q 1).val = (q ⟨0, by decide⟩).val :=
  dot_S81x300_S300x1024_S81x1024_1_0_0_1_n_n.lhsIdx_val_of_single rfl i q
/-- The right operand is read at (contracted index, column). -/
theorem rhs_proj_0 (i : S81x1024.Idx) (q : dot_S81x300_S300x1024_S81x1024_1_0_0_1_n_n.contr.Idx) :
    (dot_S81x300_S300x1024_S81x1024_1_0_0_1_n_n.rhsIdx i q 0).val = (q ⟨0, by decide⟩).val :=
  dot_S81x300_S300x1024_S81x1024_1_0_0_1_n_n.rhsIdx_val_of_single rfl i q
theorem rhs_proj_1 (i : S81x1024.Idx) (q : dot_S81x300_S300x1024_S81x1024_1_0_0_1_n_n.contr.Idx) :
    (dot_S81x300_S300x1024_S81x1024_1_0_0_1_n_n.rhsIdx i q 1).val = (i 1).val := by
  unfold DotDims.rhsIdx
  rw [dif_neg (show ¬(1 : Fin S300x1024.rank) ∈ dot_S81x300_S300x1024_S81x1024_1_0_0_1_n_n.rhsBatch by decide), dif_pos (show (1 : Fin S300x1024.rank) ∈ dot_S81x300_S300x1024_S81x1024_1_0_0_1_n_n.rhsNonContracting by decide)]
  rfl

/-- The product of an [81, 300] and a [300, 1024] real matrix: entry (p, e) is the sum over the 300
    contracted indices. -/
theorem proj_mat (A : Fin 81 → Fin 300 → ℝ) (B : Fin 300 → Fin 1024 → ℝ) :
    Host.dotGeneral (F := Ideal) (φ₁ := .f32) (φ₂ := .f32) dot_S81x300_S300x1024_S81x1024_1_0_0_1_n_n none (Spec.mat A) (Spec.mat B)
      = Spec.mat (fun p e => ∑ s : Fin 300, A p s * B s e) := by
  funext j
  obtain ⟨p, e, rfl⟩ : ∃ (p : Fin 81) (e : Fin 1024), j = ix2 p e := ⟨j 0, j 1, eq_ix2 j⟩
  refine (Cert.Lift.dotGeneral_coe_apply (φ₁ := .f32) (φ₂ := .f32) dot_S81x300_S300x1024_S81x1024_1_0_0_1_n_n none
    (fun j : S81x300.Idx => A (j 0) (j 1)) (fun j : S300x1024.Idx => B (j 0) (j 1)) (ix2 p e)).trans ?_
  show ((_ : ℝ) : EReal) = ((∑ s : Fin 300, A p s * B s e : ℝ) : EReal)
  refine congrArg _ ?_
  rw [← Equiv.sum_comp (ValueIdx.contrEquiv1 dot_S81x300_S300x1024_S81x1024_1_0_0_1_n_n 300 rfl rfl).symm]
  refine Finset.sum_congr rfl fun k _ => ?_
  have hk := ValueIdx.contrEquiv1_symm_val dot_S81x300_S300x1024_S81x1024_1_0_0_1_n_n 300 rfl rfl k
  have el : dot_S81x300_S300x1024_S81x1024_1_0_0_1_n_n.lhsIdx (ix2 p e) ((ValueIdx.contrEquiv1 dot_S81x300_S300x1024_S81x1024_1_0_0_1_n_n 300 rfl rfl).symm k) = ix2 p k :=
    funext fun a => Fin.ext (by
      match a with
      | ⟨0, _⟩ => exact lhs_proj_0 _ _
      | ⟨1, _⟩ => exact (lhs_proj_1 _ _).trans hk)
  have er : dot_S81x300_S300x1024_S81x1024_1_0_0_1_n_n.rhsIdx (ix2 p e) ((ValueIdx.contrEquiv1 dot_S81x300_S300x1024_S81x1024_1_0_0_1_n_n 300 rfl rfl).symm k) = ix2 k e :=
    funext fun a => Fin.ext (by
      match a with
      | ⟨0, _⟩ => exact (rhs_proj_0 _ _).trans hk
      | ⟨1, _⟩ => exact rhs_proj_1 _ _)
  rw [el, er]

/-- 81 real rows padded below with 47 rows of a scalar whose value is zero: the rows below 81 are the
    operand's, the others zero. -/
theorem pad_rows (B : Fin 81 → Fin 1024 → ℝ) (v : S_.Idx → EReal) (hv : ∀ i, v i = 0)
    (h : S81x1024.Pads (![0, 0] : Fin 2 → Nat) ![47, 0] ![0, 0] S128x1024) (hu : 0 < S_.numel) :
    pad S128x1024 ![0, 0] ![47, 0] ![0, 0] (Spec.mat B) v h hu
      = Spec.mat (fun (k : Fin 128) (e : Fin 1024) => if hk : k.val < 81 then B ⟨k.val, hk⟩ e else 0) := by
  funext j
  obtain ⟨p, q, rfl⟩ : ∃ (p : Fin 128) (q : Fin 1024), j = ix2 p q := ⟨j 0, j 1, eq_ix2 j⟩
  by_cases hp : p.val < 81
  · refine (pad_apply_of_inside ![0, 0] ![47, 0] ![0, 0] (Spec.mat B) v h hu (ix2 p q) (ix2 ⟨p.val, hp⟩ q) fun a => ?_).trans ?_
    · match a with
      | ⟨0, _⟩ => show p.val = 0 + p.val * (0 + 1); omega
      | ⟨1, _⟩ => show q.val = 0 + q.val * (0 + 1); omega
    · show ((B ⟨p.val, hp⟩ q : ℝ) : EReal) = (((if hk : p.val < 81 then B ⟨p.val, hk⟩ q else 0 : ℝ)) : EReal)
      rw [dif_pos hp]
  · refine (pad_apply_of_not_inside ![0, 0] ![47, 0] ![0, 0] (Spec.mat B) v h hu (ix2 p q) 0 fun hin => hp ?_).trans ?_
    · have h3 : (p.val - 0) / (0 + 1) < 81 := hin.2.2
      omega
    · rw [hv]
      show (0 : EReal) = (((if hk : p.val < 81 then B ⟨p.val, hk⟩ q else 0 : ℝ)) : EReal)
      rw [dif_neg hp, EReal.coe_zero]

/-- The integer zero converted to a float is zero. -/
theorem sitofp_constantI_zero (i : S_.Idx) : sitofp (F := Ideal) .f32 (constantI S_ 32 0#32) i = 0 := by
  show ((((0#32 : BitVec 32).toInt : ℤ) : ℝ) : EReal) = 0
  simp

/-! ## The first kernel's operands -/

section Stretch0
variable (W : Valuation τ sig (Elt Ideal)) (a : Spec.Args)

/-- The padded table of projected embeddings: row k below 81 is embedding k projected, the rest zero. -/
theorem host0_v7
    (h2 : W (Proc.devRef .tc main_arg2) = Spec.mat a.CLS) (h3 : W (Proc.devRef .tc main_arg3) = Spec.row a.BG)
    (h4 : W (Proc.devRef .tc main_arg4) = Spec.mat a.Wp) (h5 : W (Proc.devRef .tc main_arg5) = Spec.vec a.bp) :
    (StableHlo.after hostOps0_2 (StableHlo.after hostOps0_1 (StableHlo.after hostOps0 W)) (Proc.devRef .tc main_v7) : S128x1024.Idx → EReal)
      = Spec.mat (fun (k : Fin 128) (e : Fin 1024) => if hk : k.val < 81 then Spec.ce a ⟨k.val, hk⟩ e else 0) := by
  simp only [hostOps0, hostOps0_1, hostOps0_2]
  after_results
  simp only [TRef.ofBuf, TRef.toBuf, cast_eq]
  rw [h2, h3, h4, h5, concat_emb, transpose_mat, proj_mat, bias_row, bias_rows, addf_mat,
    pad_rows _ _ sitofp_constantI_zero]
  rfl

/-- The class indices as a column. -/
theorem host0_v8 (h1 : W (Proc.devRef .tc main_arg1) = Spec.words a.g) :
    (StableHlo.after hostOps0_2 (StableHlo.after hostOps0_1 (StableHlo.after hostOps0 W)) (Proc.devRef .tc main_v8) : S8192x1.Idx → BitVec 32)
      = fun j => BitVec.ofNat 32 (a.g (j 0)).val := by
  simp only [hostOps0, hostOps0_1, hostOps0_2]
  after_results
  rw [h1]
  funext j
  exact shapeCast_words a.g _ j

/-- The query / key weight, transposed. -/
theorem host0_v10 (h8 : W (Proc.devRef .tc main_arg8) = Spec.mat a.Wqk) :
    (StableHlo.after hostOps0_2 (StableHlo.after hostOps0_1 (StableHlo.after hostOps0 W)) (Proc.devRef .tc main_v10) : S1024x1024.Idx → EReal)
      = Spec.mat (fun d e => a.Wqk e d) := by
  simp only [hostOps0, hostOps0_1, hostOps0_2]
  after_results
  rw [h8, transpose_mat]
  rfl

/-- The first half of the columns of the combining weight, transposed. -/
theorem host0_v13 (h6 : W (Proc.devRef .tc main_arg6) = Spec.mat a.Wc) :
    (StableHlo.after hostOps0_2 (StableHlo.after hostOps0_1 (StableHlo.after hostOps0 W)) (Proc.devRef .tc main_v13) : S1024x1024.Idx → EReal)
      = Spec.mat (fun d e => a.Wc e (Spec.lo d)) := by
  simp only [hostOps0, hostOps0_1, hostOps0_2]
  after_results
  rw [h6, slice_mat 0 a.Wc _ Spec.lo (fun j => (Nat.zero_add _).symm), transpose_mat]
  rfl

/-- The second half of its columns, transposed. -/
theorem host0_v16 (h6 : W (Proc.devRef .tc main_arg6) = Spec.mat a.Wc) :
    (StableHlo.after hostOps0_2 (StableHlo.after hostOps0_1 (StableHlo.after hostOps0 W)) (Proc.devRef .tc main_v16) : S1024x1024.Idx → EReal)
      = Spec.mat (fun d e => a.Wc e (Spec.hi d)) := by
  simp only [hostOps0, hostOps0_1, hostOps0_2]
  after_results
  rw [h6, slice_mat 1024 a.Wc _ Spec.hi (fun j => rfl), transpose_mat]
  rfl

/-- An argument no host operation writes keeps its contents. -/
theorem host0_arg0 (h0 : W (Proc.devRef .tc main_arg0) = Spec.mat a.X) :
    (StableHlo.after hostOps0_2 (StableHlo.after hostOps0_1 (StableHlo.after hostOps0 W)) (Proc.devRef .tc main_arg0) : S8192x1024.Idx → EReal)
      = Spec.mat a.X := by
  simp only [hostOps0, hostOps0_1, hostOps0_2]
  after_results
  exact h0

theorem host0_arg7 (h7 : W (Proc.devRef .tc main_arg7) = Spec.vec a.bc) :
    (StableHlo.after hostOps0_2 (StableHlo.after hostOps0_1 (StableHlo.after hostOps0 W)) (Proc.devRef .tc main_arg7) : S1024.Idx → EReal)
      = Spec.vec a.bc := by
  simp only [hostOps0, hostOps0_1, hostOps0_2]
  after_results
  exact h7

end Stretch0

/-! ## The second kernel's operands -/

section Stretch1
variable (W : Valuation τ sig (Elt Ideal)) (a : Spec.Args)

/-- The dummy key, unchanged by the change of format. -/
theorem host1_v18 (h9 : W (Proc.devRef .tc main_arg9) = Spec.row a.dm) :
    (StableHlo.after hostOps1 W (Proc.devRef .tc main_v18) : S1x1024.Idx → EReal) = Spec.row a.dm := by
  simp only [hostOps1]
  after_results
  exact h9

/-- The features, unchanged by the change of format. -/
theorem host1_v19 (h0 : W (Proc.devRef .tc main_arg0) = Spec.mat a.X) :
    (StableHlo.after hostOps1 W (Proc.devRef .tc main_v19) : S8192x1024.Idx → EReal) = Spec.mat a.X := by
  simp only [hostOps1]
  after_results
  exact h0

/-- The first branch's weight, transposed. -/
theorem host1_v21 (h10 : W (Proc.devRef .tc main_arg10) = Spec.mat a.W1) :
    (StableHlo.after hostOps1 W (Proc.devRef .tc main_v21) : S1024x512.Idx → EReal) = Spec.mat (fun d h => a.W1 h d) := by
  simp only [hostOps1]
  after_results
  rw [h10, transpose_mat]
  rfl

/-- The second branch's weight, transposed. -/
theorem host1_v23 (h12 : W (Proc.devRef .tc main_arg12) = Spec.mat a.W2) :
    (StableHlo.after hostOps1 W (Proc.devRef .tc main_v23) : S1024x512.Idx → EReal) = Spec.mat (fun d h => a.W2 h d) := by
  simp only [hostOps1]
  after_results
  rw [h12, transpose_mat]
  rfl

/-- The first quarter of the columns of the third projection's weight, transposed. -/
theorem host1_v26 (h14 : W (Proc.devRef .tc main_arg14) = Spec.mat a.W3) :
    (StableHlo.after hostOps1 W (Proc.devRef .tc main_v26) : S512x1024.Idx → EReal) = Spec.mat (fun h e => a.W3 e (Spec.q1 h)) := by
  simp only [hostOps1]
  after_results
  rw [h14, slice_mat 0 a.W3 _ Spec.q1 (fun j => (Nat.zero_add _).symm), transpose_mat]
  rfl

/-- The second quarter of its columns, transposed. -/
theorem host1_v29 (h14 : W (Proc.devRef .tc main_arg14) = Spec.mat a.W3) :
    (StableHlo.after hostOps1 W (Proc.devRef .tc main_v29) : S512x1024.Idx → EReal) = Spec.mat (fun h e => a.W3 e (Spec.q2 h)) := by
  simp only [hostOps1]
  after_results
  rw [h14, slice_mat 512 a.W3 _ Spec.q2 (fun j => rfl), transpose_mat]
  rfl

/-- The second half of its columns, transposed. -/
theorem host1_v32 (h14 : W (Proc.devRef .tc main_arg14) = Spec.mat a.W3) :
    (StableHlo.after hostOps1 W (Proc.devRef .tc main_v32) : S1024x1024.Idx → EReal) = Spec.mat (fun d e => a.W3 e (Spec.hi d)) := by
  simp only [hostOps1]
  after_results
  rw [h14, slice_mat 1024 a.W3 _ Spec.hi (fun j => rfl), transpose_mat]
  rfl

/-- The feed-forward block's first weight, transposed. -/
theorem host1_v34 (h16 : W (Proc.devRef .tc main_arg16) = Spec.mat a.Wf1) :
    (StableHlo.after hostOps1 W (Proc.devRef .tc main_v34) : S1024x1024.Idx → EReal) = Spec.mat (fun d f => a.Wf1 f d) := by
  simp only [hostOps1]
  after_results
  rw [h16, transpose_mat]
  rfl

/-- The feed-forward block's second weight, transposed. -/
theorem host1_v36 (h18 : W (Proc.devRef .tc main_arg18) = Spec.mat a.Wf2) :
    (StableHlo.after hostOps1 W (Proc.devRef .tc main_v36) : S1024x1024.Idx → EReal) = Spec.mat (fun f e => a.Wf2 e f) := by
  simp only [hostOps1]
  after_results
  rw [h18, transpose_mat]
  rfl

end Stretch1

/-! ## At a memory whose arguments are the real inputs -/

section AtLaunch
variable (m : (ℓ : Loc nD τ sig) → Buf (Elt Ideal) ℓ) (c : Dev nD) (a : Spec.Args)

/-! What the first kernel finds at its entry. -/

theorem W3_v7 (h : Cert.LiftsK m c a) :
    (W3 m c (Proc.devRef .tc main_v7) : S128x1024.Idx → EReal) = Spec.mat (fun (k : Fin 128) (e : Fin 1024) => if hk : k.val < 81 then Spec.ce a ⟨k.val, hk⟩ e else 0) := by
  unfold W3
  exact host0_v7 (W0 m c) a h.h2 h.h3 h.h4 h.h5

theorem W3_v8 (h : Cert.LiftsK m c a) :
    (W3 m c (Proc.devRef .tc main_v8) : S8192x1.Idx → BitVec 32) = fun j => BitVec.ofNat 32 (a.g (j 0)).val := by
  unfold W3
  exact host0_v8 (W0 m c) a h.h1

theorem W3_v10 (h : Cert.LiftsK m c a) :
    (W3 m c (Proc.devRef .tc main_v10) : S1024x1024.Idx → EReal) = Spec.mat (fun d e => a.Wqk e d) := by
  unfold W3
  exact host0_v10 (W0 m c) a h.h8

theorem W3_v13 (h : Cert.LiftsK m c a) :
    (W3 m c (Proc.devRef .tc main_v13) : S1024x1024.Idx → EReal) = Spec.mat (fun d e => a.Wc e (Spec.lo d)) := by
  unfold W3
  exact host0_v13 (W0 m c) a h.h6

theorem W3_v16 (h : Cert.LiftsK m c a) :
    (W3 m c (Proc.devRef .tc main_v16) : S1024x1024.Idx → EReal) = Spec.mat (fun d e => a.Wc e (Spec.hi d)) := by
  unfold W3
  exact host0_v16 (W0 m c) a h.h6

theorem W3_arg0 (h : Cert.LiftsK m c a) :
    (W3 m c (Proc.devRef .tc main_arg0) : S8192x1024.Idx → EReal) = Spec.mat a.X := by
  unfold W3
  exact host0_arg0 (W0 m c) a h.h0

theorem W3_arg7 (h : Cert.LiftsK m c a) :
    (W3 m c (Proc.devRef .tc main_arg7) : S1024.Idx → EReal) = Spec.vec a.bc := by
  unfold W3
  exact host0_arg7 (W0 m c) a h.h7

/-! What the second kernel finds at its entry, from any contents that still hold the arguments. -/

theorem after1_v18 (h : Cert.LiftsK m c a) (W : Valuation τ sig (Elt Ideal))
    (e9 : W (Proc.devRef .tc main_arg9) = m ((c.tc : Thread nD τ).loc main_arg9)) :
    (StableHlo.after hostOps1 W (Proc.devRef .tc main_v18) : S1x1024.Idx → EReal) = Spec.row a.dm :=
  host1_v18 W a (e9.trans h.h9)

theorem after1_v19 (h : Cert.LiftsK m c a) (W : Valuation τ sig (Elt Ideal))
    (e0 : W (Proc.devRef .tc main_arg0) = m ((c.tc : Thread nD τ).loc main_arg0)) :
    (StableHlo.after hostOps1 W (Proc.devRef .tc main_v19) : S8192x1024.Idx → EReal) = Spec.mat a.X :=
  host1_v19 W a (e0.trans h.h0)

theorem after1_v21 (h : Cert.LiftsK m c a) (W : Valuation τ sig (Elt Ideal))
    (e10 : W (Proc.devRef .tc main_arg10) = m ((c.tc : Thread nD τ).loc main_arg10)) :
    (StableHlo.after hostOps1 W (Proc.devRef .tc main_v21) : S1024x512.Idx → EReal) = Spec.mat (fun d h => a.W1 h d) :=
  host1_v21 W a (e10.trans h.h10)

theorem after1_v23 (h : Cert.LiftsK m c a) (W : Valuation τ sig (Elt Ideal))
    (e12 : W (Proc.devRef .tc main_arg12) = m ((c.tc : Thread nD τ).loc main_arg12)) :
    (StableHlo.after hostOps1 W (Proc.devRef .tc main_v23) : S1024x512.Idx → EReal) = Spec.mat (fun d h => a.W2 h d) :=
  host1_v23 W a (e12.trans h.h12)

theorem after1_v26 (h : Cert.LiftsK m c a) (W : Valuation τ sig (Elt Ideal))
    (e14 : W (Proc.devRef .tc main_arg14) = m ((c.tc : Thread nD τ).loc main_arg14)) :
    (StableHlo.after hostOps1 W (Proc.devRef .tc main_v26) : S512x1024.Idx → EReal) = Spec.mat (fun h e => a.W3 e (Spec.q1 h)) :=
  host1_v26 W a (e14.trans h.h14)

theorem after1_v29 (h : Cert.LiftsK m c a) (W : Valuation τ sig (Elt Ideal))
    (e14 : W (Proc.devRef .tc main_arg14) = m ((c.tc : Thread nD τ).loc main_arg14)) :
    (StableHlo.after hostOps1 W (Proc.devRef .tc main_v29) : S512x1024.Idx → EReal) = Spec.mat (fun h e => a.W3 e (Spec.q2 h)) :=
  host1_v29 W a (e14.trans h.h14)

theorem after1_v32 (h : Cert.LiftsK m c a) (W : Valuation τ sig (Elt Ideal))
    (e14 : W (Proc.devRef .tc main_arg14) = m ((c.tc : Thread nD τ).loc main_arg14)) :
    (StableHlo.after hostOps1 W (Proc.devRef .tc main_v32) : S1024x1024.Idx → EReal) = Spec.mat (fun d e => a.W3 e (Spec.hi d)) :=
  host1_v32 W a (e14.trans h.h14)

theorem after1_v34 (h : Cert.LiftsK m c a) (W : Valuation τ sig (Elt Ideal))
    (e16 : W (Proc.devRef .tc main_arg16) = m ((c.tc : Thread nD τ).loc main_arg16)) :
    (StableHlo.after hostOps1 W (Proc.devRef .tc main_v34) : S1024x1024.Idx → EReal) = Spec.mat (fun d f => a.Wf1 f d) :=
  host1_v34 W a (e16.trans h.h16)

theorem after1_v36 (h : Cert.LiftsK m c a) (W : Valuation τ sig (Elt Ideal))
    (e18 : W (Proc.devRef .tc main_arg18) = m ((c.tc : Thread nD τ).loc main_arg18)) :
    (StableHlo.after hostOps1 W (Proc.devRef .tc main_v36) : S1024x1024.Idx → EReal) = Spec.mat (fun f e => a.Wf2 e f) :=
  host1_v36 W a (e18.trans h.h18)

end AtLaunch

end Cert.KernelIdeal.Val

end
-- ==== Proof.R1Entry.lean ====
import proofs.«404873_j80685255623116_3_alg».proof.Proof.HostVals
import proofs.«404873_j80685255623116_3_alg».proof.Proof.Run
import proofs.«404873_j80685255623116_3_alg».proof.Proof.Lifts
import proofs.«404873_j80685255623116_3_alg».proof.Proof.Spec

/-!
# What the second kernel finds in its input arrays

The second kernel reads nineteen arrays. Three are the first kernel's outputs (the scaled queries, the
keys and the combined values): the host operations between the two kernels write none of them, so they
are what the first kernel's write-backs left. Nine are made by those host operations from arguments
(changes of format, transposes, bands of columns): no operation before the first kernel writes these
arguments and the first kernel writes back none of its inputs, so the operations read the arguments as
they were at the start. Seven are arguments themselves (biases and the normalisation's scale and shift),
which nothing writes. When the arguments are real arrays, each of the nineteen is a real array given by
a closed formula.
-/

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo

variable (m : (ℓ : Loc nD τ sig) → Buf (Elt Ideal) ℓ) (d0 : (c : Dev nD) → Dat0 Ideal c) (c : Dev nD) (a : Spec.Args)

/-! ## The arguments after the first kernel

An argument that is an input array of the first kernel is never written back, and one that is none of
its arrays is not touched; before the first kernel no host operation writes an argument. -/

theorem W4_arg0 (hA0 : ∀ c w, (d0 c).A w = Frm.V3 m c (Pipeline.arrRef spec0 w)) :
    W4 m d0 c (Proc.devRef .tc main_arg0) = m ((c.tc : Thread nD τ).loc main_arg0) :=
  (W4_arr m d0 c 0).trans (((d0 c).arrAt_in 0 rfl _).trans ((hA0 c 0).trans
    (W3_of_not_written m c main_arg0 (by decide) (by decide) (by decide))))

theorem W4_arg9 :
    W4 m d0 c (Proc.devRef .tc main_arg9) = m ((c.tc : Thread nD τ).loc main_arg9) :=
  (W4_of_ne m d0 c main_arg9 (by decide)).trans (W3_of_not_written m c main_arg9 (by decide) (by decide) (by decide))

theorem W4_arg10 :
    W4 m d0 c (Proc.devRef .tc main_arg10) = m ((c.tc : Thread nD τ).loc main_arg10) :=
  (W4_of_ne m d0 c main_arg10 (by decide)).trans (W3_of_not_written m c main_arg10 (by decide) (by decide) (by decide))

theorem W4_arg12 :
    W4 m d0 c (Proc.devRef .tc main_arg12) = m ((c.tc : Thread nD τ).loc main_arg12) :=
  (W4_of_ne m d0 c main_arg12 (by decide)).trans (W3_of_not_written m c main_arg12 (by decide) (by decide) (by decide))

theorem W4_arg14 :
    W4 m d0 c (Proc.devRef .tc main_arg14) = m ((c.tc : Thread nD τ).loc main_arg14) :=
  (W4_of_ne m d0 c main_arg14 (by decide)).trans (W3_of_not_written m c main_arg14 (by decide) (by decide) (by decide))

theorem W4_arg16 :
    W4 m d0 c (Proc.devRef .tc main_arg16) = m ((c.tc : Thread nD τ).loc main_arg16) :=
  (W4_of_ne m d0 c main_arg16 (by decide)).trans (W3_of_not_written m c main_arg16 (by decide) (by decide) (by decide))

theorem W4_arg18 :
    W4 m d0 c (Proc.devRef .tc main_arg18) = m ((c.tc : Thread nD τ).loc main_arg18) :=
  (W4_of_ne m d0 c main_arg18 (by decide)).trans (W3_of_not_written m c main_arg18 (by decide) (by decide) (by decide))

/-! ## The nineteen input arrays -/

/-- Window 0: the queries, scaled by 1/32. -/
theorem entry1_w0 (hqp : (d0 c).arrAt 7 cfg0.N = Spec.mat (fun i e => Spec.qp a i e * (1 / 32))) :
    (Frm.V5 m d0 c (Pipeline.arrRef spec1 (0 : Fin 20)) : S8192x1024.Idx → EReal) = Spec.mat (fun i e => Spec.qp a i e * (1 / 32)) :=
  (W5_qp m d0 c).trans hqp

/-- Window 1: the keys. -/
theorem entry1_w1 (hkp : (d0 c).arrAt 8 cfg0.N = Spec.mat (Spec.kp a)) :
    (Frm.V5 m d0 c (Pipeline.arrRef spec1 (1 : Fin 20)) : S8192x1024.Idx → EReal) = Spec.mat (Spec.kp a) :=
  (W5_kp m d0 c).trans hkp

/-- Window 2: the combined values. -/
theorem entry1_w2 (hcomb : (d0 c).arrAt 9 cfg0.N = Spec.mat (Spec.comb a)) :
    (Frm.V5 m d0 c (Pipeline.arrRef spec1 (2 : Fin 20)) : S8192x1024.Idx → EReal) = Spec.mat (Spec.comb a) :=
  (W5_comb m d0 c).trans hcomb

/-- Window 3: the features. -/
theorem entry1_w3 (h : Cert.LiftsK m c a) (hA0 : ∀ c w, (d0 c).A w = Frm.V3 m c (Pipeline.arrRef spec0 w)) :
    (Frm.V5 m d0 c (Pipeline.arrRef spec1 (3 : Fin 20)) : S8192x1024.Idx → EReal) = Spec.mat a.X :=
  after1_v19 m c a h (W4 m d0 c) (W4_arg0 m d0 c hA0)

/-- Window 4: the dummy key. -/
theorem entry1_w4 (h : Cert.LiftsK m c a) :
    (Frm.V5 m d0 c (Pipeline.arrRef spec1 (4 : Fin 20)) : S1x1024.Idx → EReal) = Spec.row a.dm :=
  after1_v18 m c a h (W4 m d0 c) (W4_arg9 m d0 c)

/-- Window 5: the first branch's weight, transposed. -/
theorem entry1_w5 (h : Cert.LiftsK m c a) :
    (Frm.V5 m d0 c (Pipeline.arrRef spec1 (5 : Fin 20)) : S1024x512.Idx → EReal) = Spec.mat (fun d h => a.W1 h d) :=
  after1_v21 m c a h (W4 m d0 c) (W4_arg10 m d0 c)

/-- Window 6: the first branch's bias. -/
theorem entry1_w6 (h : Cert.LiftsK m c a) :
    (Frm.V5 m d0 c (Pipeline.arrRef spec1 (6 : Fin 20)) : S512.Idx → EReal) = Spec.vec a.b1 :=
  (W5_of_not_written m d0 c main_arg11 (by decide) (by decide)).trans
    ((W3_of_not_written m c main_arg11 (by decide) (by decide) (by decide)).trans h.h11)

/-- Window 7: the second branch's weight, transposed. -/
theorem entry1_w7 (h : Cert.LiftsK m c a) :
    (Frm.V5 m d0 c (Pipeline.arrRef spec1 (7 : Fin 20)) : S1024x512.Idx → EReal) = Spec.mat (fun d h => a.W2 h d) :=
  after1_v23 m c a h (W4 m d0 c) (W4_arg12 m d0 c)

/-- Window 8: the second branch's bias. -/
theorem entry1_w8 (h : Cert.LiftsK m c a) :
    (Frm.V5 m d0 c (Pipeline.arrRef spec1 (8 : Fin 20)) : S512.Idx → EReal) = Spec.vec a.b2 :=
  (W5_of_not_written m d0 c main_arg13 (by decide) (by decide)).trans
    ((W3_of_not_written m c main_arg13 (by decide) (by decide) (by decide)).trans h.h13)

/-- Window 9: the first quarter of the third projection's columns, transposed. -/
theorem entry1_w9 (h : Cert.LiftsK m c a) :
    (Frm.V5 m d0 c (Pipeline.arrRef spec1 (9 : Fin 20)) : S512x1024.Idx → EReal) = Spec.mat (fun h e => a.W3 e (Spec.q1 h)) :=
  after1_v26 m c a h (W4 m d0 c) (W4_arg14 m d0 c)

/-- Window 10: the second quarter of its columns, transposed. -/
theorem entry1_w10 (h : Cert.LiftsK m c a) :
    (Frm.V5 m d0 c (Pipeline.arrRef spec1 (10 : Fin 20)) : S512x1024.Idx → EReal) = Spec.mat (fun h e => a.W3 e (Spec.q2 h)) :=
  after1_v29 m c a h (W4 m d0 c) (W4_arg14 m d0 c)

/-- Window 11: the second half of its columns, transposed. -/
theorem entry1_w11 (h : Cert.LiftsK m c a) :
    (Frm.V5 m d0 c (Pipeline.arrRef spec1 (11 : Fin 20)) : S1024x1024.Idx → EReal) = Spec.mat (fun d e => a.W3 e (Spec.hi d)) :=
  after1_v32 m c a h (W4 m d0 c) (W4_arg14 m d0 c)

/-- Window 12: the third projection's bias. -/
theorem entry1_w12 (h : Cert.LiftsK m c a) :
    (Frm.V5 m d0 c (Pipeline.arrRef spec1 (12 : Fin 20)) : S1024.Idx → EReal) = Spec.vec a.b3 :=
  (W5_of_not_written m d0 c main_arg15 (by decide) (by decide)).trans
    ((W3_of_not_written m c main_arg15 (by decide) (by decide) (by decide)).trans h.h15)

/-- Window 13: the feed-forward block's first weight, transposed. -/
theorem entry1_w13 (h : Cert.LiftsK m c a) :
    (Frm.V5 m d0 c (Pipeline.arrRef spec1 (13 : Fin 20)) : S1024x1024.Idx → EReal) = Spec.mat (fun d f => a.Wf1 f d) :=
  after1_v34 m c a h (W4 m d0 c) (W4_arg16 m d0 c)

/-- Window 14: the feed-forward block's first bias. -/
theorem entry1_w14 (h : Cert.LiftsK m c a) :
    (Frm.V5 m d0 c (Pipeline.arrRef spec1 (14 : Fin 20)) : S1024.Idx → EReal) = Spec.vec a.bf1 :=
  (W5_of_not_written m d0 c main_arg17 (by decide) (by decide)).trans
    ((W3_of_not_written m c main_arg17 (by decide) (by decide) (by decide)).trans h.h17)

/-- Window 15: the feed-forward block's second weight, transposed. -/
theorem entry1_w15 (h : Cert.LiftsK m c a) :
    (Frm.V5 m d0 c (Pipeline.arrRef spec1 (15 : Fin 20)) : S1024x1024.Idx → EReal) = Spec.mat (fun f e => a.Wf2 e f) :=
  after1_v36 m c a h (W4 m d0 c) (W4_arg18 m d0 c)

/-- Window 16: the feed-forward block's second bias. -/
theorem entry1_w16 (h : Cert.LiftsK m c a) :
    (Frm.V5 m d0 c (Pipeline.arrRef spec1 (16 : Fin 20)) : S1024.Idx → EReal) = Spec.vec a.bf2 :=
  (W5_of_not_written m d0 c main_arg19 (by decide) (by decide)).trans
    ((W3_of_not_written m c main_arg19 (by decide) (by decide) (by decide)).trans h.h19)

/-- Window 17: the normalisation's scale. -/
theorem entry1_w17 (h : Cert.LiftsK m c a) :
    (Frm.V5 m d0 c (Pipeline.arrRef spec1 (17 : Fin 20)) : S1024.Idx → EReal) = Spec.vec a.lg :=
  (W5_of_not_written m d0 c main_arg20 (by decide) (by decide)).trans
    ((W3_of_not_written m c main_arg20 (by decide) (by decide) (by decide)).trans h.h20)

/-- Window 18: the normalisation's shift. -/
theorem entry1_w18 (h : Cert.LiftsK m c a) :
    (Frm.V5 m d0 c (Pipeline.arrRef spec1 (18 : Fin 20)) : S1024.Idx → EReal) = Spec.vec a.lb :=
  (W5_of_not_written m d0 c main_arg21 (by decide) (by decide)).trans
    ((W3_of_not_written m c main_arg21 (by decide) (by decide) (by decide)).trans h.h21)

end Cert.KernelIdeal.Val

end
-- ==== Proof.R1ValueBlocks.lean ====
import proofs.«404873_j80685255623116_3_alg».proof.Proof.Blocks
import proofs.«404873_j80685255623116_3_alg».proof.Proof.R1Entry
import proofs.«404873_j80685255623116_3_alg».proof.Proof.R1Induct

/-!
# The second region's input blocks, as real arrays

At point t of its 16 × 16 grid the second region works on query block t / 16 and key block t % 16. Its
nineteen input arrays are real arrays given by closed formulas; so each window's block at the point is
one too: the scaled queries and the features of the 512 rows of the query block, the keys and the values
of the 512 rows of the key block, and the fifteen resident arrays whole.
-/

noncomputable section

namespace Cert.KernelIdeal.Val

open Cert.KernelIdeal Cert.KernelIdeal.Gen Cert.KernelIdeal.Frm
open Idealize.ShloMosaic Idealize.ShloMosaic.TcCoe Idealize.SL.Sem

variable (m : (ℓ : Loc nD τ sig) → Buf (Elt Ideal) ℓ) (d0 : (c : Dev nD) → Dat0 Ideal c) (c : Dev nD) (a : Spec.Args)

/-- The query block and the key block of a point. -/
abbrev qiOf (t : Fin cfg1.N) : Fin 16 := ⟨t.val / 16, R1Induct.div16_lt (lt256 t)⟩
abbrev kbOf (t : Fin cfg1.N) : Fin 16 := ⟨t.val % 16, R1Induct.mod16_lt t.val⟩

/-! ## The four blocked windows -/

/-- Window 0: the scaled queries of the query block's rows. -/
theorem rd1_0 (hqp : (d0 c).arrAt 7 cfg0.N = Spec.mat (fun i e => Spec.qp a i e * (1 / 32))) (t : Fin cfg1.N) :
    ((cfg1.win 0).blk t).view.read (Elt Ideal) (Frm.V5 m d0 c (Pipeline.arrRef spec1 0))
      = Spec.mat (FlashSpec.qS a (qiOf t)) :=
  (congrArg (((cfg1.win 0).blk t).view.read (Elt Ideal)) (entry1_w0 m d0 c a hqp)).trans (blk1_0_read t _)

/-- Window 1: the keys of the key block's rows. -/
theorem rd1_1 (hkp : (d0 c).arrAt 8 cfg0.N = Spec.mat (Spec.kp a)) (t : Fin cfg1.N) :
    ((cfg1.win 1).blk t).view.read (Elt Ideal) (Frm.V5 m d0 c (Pipeline.arrRef spec1 1))
      = Spec.mat (FlashSpec.kB a (kbOf t)) :=
  (congrArg (((cfg1.win 1).blk t).view.read (Elt Ideal)) (entry1_w1 m d0 c a hkp)).trans (blk1_1_read t _)

/-- Window 2: the values of the key block's rows. -/
theorem rd1_2 (hcomb : (d0 c).arrAt 9 cfg0.N = Spec.mat (Spec.comb a)) (t : Fin cfg1.N) :
    ((cfg1.win 2).blk t).view.read (Elt Ideal) (Frm.V5 m d0 c (Pipeline.arrRef spec1 2))
      = Spec.mat (FlashSpec.vB a (kbOf t)) :=
  (congrArg (((cfg1.win 2).blk t).view.read (Elt Ideal)) (entry1_w2 m d0 c a hcomb)).trans (blk1_2_read t _)

/-- Window 3: the features of the query block's rows. -/
theorem rd1_3 (h : Cert.LiftsK m c a) (hA0 : ∀ c w, (d0 c).A w = Frm.V3 m c (Pipeline.arrRef spec0 w)) (t : Fin cfg1.N) :
    ((cfg1.win 3).blk t).view.read (Elt Ideal) (Frm.V5 m d0 c (Pipeline.arrRef spec1 3))
      = Spec.mat (fun (r : Fin 512) d => a.X (FlashSpec.rowIdx (qiOf t) r) d) :=
  (congrArg (((cfg1.win 3).blk t).view.read (Elt Ideal)) (entry1_w3 m d0 c a h hA0)).trans (blk1_3_read t _)

/-! ## The fifteen resident windows -/

theorem rd1_4 (h : Cert.LiftsK m c a) (t : Fin cfg1.N) :
    ((cfg1.win 4).blk t).view.read (Elt Ideal) (Frm.V5 m d0 c (Pipeline.arrRef spec1 4)) = Spec.row a.dm :=
  (blk1_4_read t _).trans (entry1_w4 m d0 c a h)

theorem rd1_5 (h : Cert.LiftsK m c a) (t : Fin cfg1.N) :
    ((cfg1.win 5).blk t).view.read (Elt Ideal) (Frm.V5 m d0 c (Pipeline.arrRef spec1 5)) = Spec.mat (fun d h => a.W1 h d) :=
  (blk1_5_read t _).trans (entry1_w5 m d0 c a h)

theorem rd1_6 (h : Cert.LiftsK m c a) (t : Fin cfg1.N) :
    ((cfg1.win 6).blk t).view.read (Elt Ideal) (Frm.V5 m d0 c (Pipeline.arrRef spec1 6)) = Spec.vec a.b1 :=
  (blk1_6_read t _).trans (entry1_w6 m d0 c a h)

theorem rd1_7 (h : Cert.LiftsK m c a) (t : Fin cfg1.N) :
    ((cfg1.win 7).blk t).view.read (Elt Ideal) (Frm.V5 m d0 c (Pipeline.arrRef spec1 7)) = Spec.mat (fun d h => a.W2 h d) :=
  (blk1_7_read t _).trans (entry1_w7 m d0 c a h)

theorem rd1_8 (h : Cert.LiftsK m c a) (t : Fin cfg1.N) :
    ((cfg1.win 8).blk t).view.read (Elt Ideal) (Frm.V5 m d0 c (Pipeline.arrRef spec1 8)) = Spec.vec a.b2 :=
  (blk1_8_read t _).trans (entry1_w8 m d0 c a h)

theorem rd1_9 (h : Cert.LiftsK m c a) (t : Fin cfg1.N) :
    ((cfg1.win 9).blk t).view.read (Elt Ideal) (Frm.V5 m d0 c (Pipeline.arrRef spec1 9)) = Spec.mat (fun h e => a.W3 e (Spec.q1 h)) :=
  (blk1_9_read t _).trans (entry1_w9 m d0 c a h)

theorem rd1_10 (h : Cert.LiftsK m c a) (t : Fin cfg1.N) :
    ((cfg1.win 10).blk t).view.read (Elt Ideal) (Frm.V5 m d0 c (Pipeline.arrRef spec1 10)) = Spec.mat (fun h e => a.W3 e (Spec.q2 h)) :=
  (blk1_10_read t _).trans (entry1_w10 m d0 c a h)

theorem rd1_11 (h : Cert.LiftsK m c a) (t : Fin cfg1.N) :
    ((cfg1.win 11).blk t).view.read (Elt Ideal) (Frm.V5 m d0 c (Pipeline.arrRef spec1 11)) = Spec.mat (fun d e => a.W3 e (Spec.hi d)) :=
  (blk1_11_read t _).trans (entry1_w11 m d0 c a h)

theorem rd1_12 (h : Cert.LiftsK m c a) (t : Fin cfg1.N) :
    ((cfg1.win 12).blk t).view.read (Elt Ideal) (Frm.V5 m d0 c (Pipeline.arrRef spec1 12)) = Spec.vec a.b3 :=
  (blk1_12_read t _).trans (entry1_w12 m d0 c a h)

theorem rd1_13 (h : Cert.LiftsK m c a) (t : Fin cfg1.N) :
    ((cfg1.win 13).blk t).view.read (Elt Ideal) (Frm.V5 m d0 c (Pipeline.arrRef spec1 13)) = Spec.mat (fun d f => a.Wf1 f d) :=
  (blk1_13_read t _).trans (entry1_w13 m d0 c a h)

theorem rd1_14 (h : Cert.LiftsK m c a) (t : Fin cfg1.N) :
    ((cfg1.win 14).blk t).view.read (Elt Ideal) (Frm.V5 m d0 c (Pipeline.arrRef spec1 14)) = Spec.vec a.bf1 :=
  (blk1_14_read t _).trans (entry1_w14 m d0 c a h)

theorem rd1_15 (h : Cert.LiftsK m c a) (t : Fin cfg1.N) :
    ((cfg1.win 15).blk t).view.read (Elt Ideal) (Frm.V5 m d0 c (Pipeline.arrRef spec1 15)) = Spec.mat (fun f e => a.Wf2 e f) :=
  (blk1_15_read t _).trans (entry1_w15 m d0 c a h)

theorem rd1_16 (h : Cert.LiftsK m c a) (t : Fin cfg1.N) :
    ((cfg1.win 16).blk t).view.read (Elt Ideal) (Frm.V5 m d0 c (Pipeline.arrRef spec1 16)) = Spec.vec a.bf2 :=
  (blk1_16_read t _).trans (entry1_w16 m d0 c a h)

theorem rd1_17 (h : Cert.LiftsK m c a) (t : Fin cfg1.N) :
    ((cfg1.win 17).blk t).view.read (Elt Ideal) (Frm.V5 m d0 c (Pipeline.arrRef spec1 17)) = Spec.vec a.lg :=
  (blk1_17_read t _).trans (entry1_w17 m d0 c a h)

theorem rd1_18 (h : Cert.LiftsK m c a) (t : Fin cfg1.N) :
    ((cfg1.win 18).blk t).view.read (Elt Ideal) (Frm.V5 m d0 c (Pipeline.arrRef spec1 18)) = Spec.vec a.lb :=
  (blk1_18_read t _).trans (entry1_w18 m d0 c a h)

end Cert.KernelIdeal.Val

end
-- ==== Proof.Pay0.lean ====
import proofs.«404873_j80685255623116_3_alg».proof.Proof.Gen.KernelIdeal.Skeleton
import proofs.«404873_j80685255623116_3_alg».proof.Proof.Spec
import proofs.«404873_j80685255623116_3_alg».proof.Proof.Lift
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate

/-!
# The first kernel's stored values on real blocks

The first kernel visits a block of 512 rows. From the block of features, the column of class indices,
the class table (81 rows padded with zero rows to 128) and three weights it stores the scaled queries, the
keys and the values. Each stored value is a pure term over the loaded blocks. When the loaded blocks are
real arrays (coerced into the extended reals), each term is again a real array, given by the textbook
formula: a rectifier is a maximum with 0, a matrix product is a finite sum of products, and
the product of the one-hot rows of the class indices with the table selects a row of the table.

The one-hot rows are built by comparing the class index, as a word repeated along 128 lanes, with the lane
number: the two words are equal exactly when the numbers are (both are far below 2³²), so the row of class
c has 1 in lane c and 0 elsewhere, and its product with the table is the table's row c.
-/

noncomputable section

open scoped BigOperators

namespace Cert.Pay0

open Idealize.ShloMosaic Idealize.ShloMosaic.ValueIdx Cert.Spec Cert.KernelIdeal Cert.KernelIdeal.Gen

/-! ## A plain matrix product read at an index -/

section Plain
variable {m k n : Nat}
  (w : DotDims.WF ⟨2, ![m, k]⟩ ⟨2, ![k, n]⟩ ⟨2, ![m, n]⟩ [1] [0] [0] [1] [] [])

/-- The left operand's index at output (a, b) and contraction position c is (a, c). -/
theorem lhs_plain (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index there is (c, b). -/
theorem rhs_plain (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A sum over the one-axis contraction index is the sum over its coordinate. -/
theorem sum_contr_plain {M : Type*} [AddCommMonoid M] (a : Fin m) (b : Fin n)
    (f : (⟨2, ![m, k]⟩ : Shape).Idx → (⟨2, ![k, n]⟩ : Shape).Idx → M) :
    (∑ q : (⟨[1], [0], [0], [1], [], [], w⟩ : DotDims ⟨2, ![m, k]⟩ ⟨2, ![k, n]⟩ ⟨2, ![m, n]⟩).contr.Idx,
        f ((⟨[1], [0], [0], [1], [], [], w⟩ : DotDims ⟨2, ![m, k]⟩ ⟨2, ![k, n]⟩ ⟨2, ![m, n]⟩).lhsIdx (ix2 a b) q)
          ((⟨[1], [0], [0], [1], [], [], w⟩ : DotDims ⟨2, ![m, k]⟩ ⟨2, ![k, n]⟩ ⟨2, ![m, n]⟩).rhsIdx (ix2 a b) q))
      = ∑ c : Fin k, f (ix2 a c) (ix2 c b) := by
  rw [← Equiv.sum_comp (contrEquiv1
    (⟨[1], [0], [0], [1], [], [], w⟩ : DotDims ⟨2, ![m, k]⟩ ⟨2, ![k, n]⟩ ⟨2, ![m, n]⟩) k rfl rfl).symm]
  exact Finset.sum_congr rfl fun c _ => by rw [lhs_plain w a b c, rhs_plain w a b c]

/-- The product of two real matrices into the zero accumulator, read at (a, b): the coercion of the
    real sum of products. -/
theorem matmul_plain_mat {φ₁ φ₂ : FTy} (A : Fin m → Fin k → ℝ) (B : Fin k → Fin n → ℝ) (a : Fin m) (b : Fin n) :
    matmul (F := Ideal) (φ₁ := φ₁) (φ₂ := φ₂)
        (⟨[1], [0], [0], [1], [], [], w⟩ : DotDims ⟨2, ![m, k]⟩ ⟨2, ![k, n]⟩ ⟨2, ![m, n]⟩) none (mat A) (mat B)
        (constant ⟨2, ![m, n]⟩ .f32 0x00000000#32) (ix2 a b)
      = ((∑ c : Fin k, A a c * B c b : ℝ) : EReal) := by
  refine (Ideal.matmul_constant_zero_apply (φ₁ := φ₁) (φ₂ := φ₂) _ none (mat A) (mat B) (ix2 a b)).trans ?_
  rw [sum_contr_plain w a b (fun i j => mat A i * mat B j), Cert.Lift.coe_finset_sum]
  exact Finset.sum_congr rfl fun c _ => (EReal.coe_mul _ _).symm

end Plain

/-- The scale 1/32 as the kernel writes it. -/
theorem ofBits_inv32 : Ideal.ofBits .f32 0x3D000000#32 = (((1 : ℝ) / 32 : ℝ) : EReal) := by
  simp [Ideal.ofBits, Ideal.ieee, -EReal.coe_mul]; norm_num

/-! ## The first kernel's two contraction records -/

/-- The 128-lane product of the one-hot rows with the class table. -/
theorem mm128 (A : Fin 512 → Fin 128 → ℝ) (B : Fin 128 → Fin 1024 → ℝ) :
    matmul (F := Ideal) (φ₁ := .bf16) (φ₂ := .bf16) dot_S512x128_S128x1024_S512x1024_1_0_0_1_n_n none (mat A) (mat B)
        (constant S512x1024 .f32 0x00000000#32)
      = mat (fun r e => ∑ k : Fin 128, A r k * B k e) := by
  funext j
  obtain ⟨r, e, rfl⟩ : ∃ (r : Fin 512) (e : Fin 1024), j = ix2 r e := ⟨j 0, j 1, eq_ix2 j⟩
  exact matmul_plain_mat dot_S512x128_S128x1024_S512x1024_1_0_0_1_n_n_wf A B r e

/-- A block of 512 rows against a 1024 × 1024 weight whose contraction index comes first. -/
theorem mm1024 (A : Fin 512 → Fin 1024 → ℝ) (B : Fin 1024 → Fin 1024 → ℝ) :
    matmul (F := Ideal) (φ₁ := .bf16) (φ₂ := .bf16) dot_S512x1024_S1024x1024_S512x1024_1_0_0_1_n_n none (mat A) (mat B)
        (constant S512x1024 .f32 0x00000000#32)
      = mat (fun r e => ∑ d : Fin 1024, A r d * B d e) := by
  funext j
  obtain ⟨r, e, rfl⟩ : ∃ (r : Fin 512) (e : Fin 1024), j = ix2 r e := ⟨j 0, j 1, eq_ix2 j⟩
  exact matmul_plain_mat dot_S512x1024_S1024x1024_S512x1024_1_0_0_1_n_n_wf A B r e

/-! ## Pointwise pieces on real matrices -/

/-- The rectifier of a real matrix. -/
theorem relu_mat {m n : Nat} (A : Fin m → Fin n → ℝ) :
    maximumf (F := Ideal) (φ := .f32) (mat A) (broadcast ⟨2, ![m, n]⟩ (Scalar.ofBits (F := Ideal) .f32 0x00000000#32))
      = mat (fun r d => max (A r d) 0) := by
  funext j
  show max ((A (j 0) (j 1) : ℝ) : EReal) (Ideal.ofBits .f32 0x00000000#32) = ((max (A (j 0) (j 1)) 0 : ℝ) : EReal)
  rw [Ideal.ofBits_zero_f32, Cert.Lift.coe_max, EReal.coe_zero]

/-- A real matrix scaled by 1/32. -/
theorem scale_mat {m n : Nat} (A : Fin m → Fin n → ℝ) :
    mulf (F := Ideal) (φ := .f32) (mat A) (broadcast ⟨2, ![m, n]⟩ (Scalar.ofBits (F := Ideal) .f32 0x3D000000#32))
      = mat (fun r e => A r e * (1 / 32)) := by
  funext j
  show ((A (j 0) (j 1) : ℝ) : EReal) * Ideal.ofBits .f32 0x3D000000#32 = ((A (j 0) (j 1) * (1 / 32) : ℝ) : EReal)
  rw [ofBits_inv32, EReal.coe_mul]

/-! ## The one-hot rows -/

/-- The class indices of a block of 512 rows as a [512, 1] column of words. -/
def gw (g : Fin 512 → Fin 81) : IVec S512x1 32 := fun j => BitVec.ofNat 32 (g (j 0)).val

/-- A class index as a row of the table padded to 128 rows. -/
abbrev lane (c : Fin 81) : Fin 128 := ⟨c.val, lt_trans c.isLt (by decide)⟩

/-- A [a, 1] column broadcast to [a, b] reads, at (p, c), the column's entry at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two numbers below 2³² have equal words exactly when they are equal. -/
theorem cmpi_eq_ofNat (a b : ℕ) (ha : a < 2 ^ 32) (hb : b < 2 ^ 32) :
    IntOp.cmpi .eq (BitVec.ofNat 32 a) (BitVec.ofNat 32 b) = if a = b then 1#1 else 0#1 := by
  split
  · next h => exact StableHlo.Predicate.cmpi_eq_iff.mpr (by rw [h])
  · next h =>
    refine eq_zero_of_ne_one fun h1 => h ?_
    have := congrArg BitVec.toNat (StableHlo.Predicate.cmpi_eq_iff.mp h1)
    rwa [BitVec.toNat_ofNat, BitVec.toNat_ofNat, Nat.mod_eq_of_lt ha, Nat.mod_eq_of_lt hb] at this

/-- A decided bit, widened to a word and converted, is the real number 1 or 0. -/
theorem sitofp_extui_bit (c : Prop) [Decidable c] :
    FloatOps.sitofp (F := Ideal) .f32 ((if c then 1#1 else 0#1 : BitVec 1).setWidth 32)
      = (((if c then 1 else 0 : ℝ) : ℝ) : EReal) := by
  split
  · show ((((1#1 : BitVec 1).setWidth 32).toInt : ℝ) : EReal) = ((1 : ℝ) : EReal)
    rw [show ((1#1 : BitVec 1).setWidth 32).toInt = 1 by decide, Int.cast_one]
  · show ((((0#1 : BitVec 1).setWidth 32).toInt : ℝ) : EReal) = ((0 : ℝ) : EReal)
    rw [show ((0#1 : BitVec 1).setWidth 32).toInt = 0 by decide, Int.cast_zero]

/-- The one-hot rows: row r has 1 in the lane of its class and 0 elsewhere. -/
theorem onehot_eq (g : Fin 512 → Fin 81) :
    (truncf .bf16 (sitofp (F := Ideal) .f32 (extui 32 (cmpi .eq
        (broadcastTo S512x128 (shapeCast S512x1 (gw g) shapeCasts_S512x1_S512x1) broadcasts_S512x1_S512x128)
        (iota .tc S512x128 32 [1] iota_S512x128_d1_w32)) natLt_1_32)) bitsLt_bf16_f32 : FVec Ideal S512x128 .bf16)
      = mat (fun r k => if (g r).val = k.val then (1 : ℝ) else 0) := by
  funext j
  obtain ⟨r, k, rfl⟩ : ∃ (r : Fin 512) (k : Fin 128), j = ix2 r k := ⟨j 0, j 1, eq_ix2 j⟩
  rw [truncf_apply, sitofp_apply, extui_apply, shapeCast_self]
  show FloatOps.sitofp .f32 ((IntOp.cmpi .eq
      (broadcastTo S512x128 (gw g) broadcasts_S512x1_S512x128 (ix2 r k))
      (iota .tc S512x128 32 [1] iota_S512x128_d1_w32 (ix2 r k))).setWidth 32) = _
  rw [broadcastTo_a1_ab_apply, iota_single_apply]
  show FloatOps.sitofp .f32 ((IntOp.cmpi .eq (BitVec.ofNat 32 (g r).val) (BitVec.ofNat 32 k.val)).setWidth 32) = _
  rw [cmpi_eq_ofNat _ _ (by have := (g r).isLt; omega) (by have := k.isLt; omega), sitofp_extui_bit]
  rfl

/-- THE ONE-HOT PRODUCT: the one-hot row of class g r against the table is row g r of the table. -/
theorem pay2_eq (g : Fin 512 → Fin 81) (T : Fin 128 → Fin 1024 → ℝ) :
    k0_pay2 (F := Ideal) (gw g) (mat T) = mat (fun r e => T (lane (g r)) e) := by
  unfold k0_pay2
  simp only []
  rw [onehot_eq, shapeCast_self, mm128]
  funext j
  show ((∑ k : Fin 128, (if (g (j 0)).val = k.val then (1 : ℝ) else 0) * T k (j 1) : ℝ) : EReal)
    = ((T (lane (g (j 0))) (j 1) : ℝ) : EReal)
  congr 1
  rw [Finset.sum_eq_single (lane (g (j 0)))]
  · rw [if_pos rfl, one_mul]
  · intro k _ hk
    rw [if_neg (fun h => hk (Fin.ext h.symm)), zero_mul]
  · intro h; exact absurd (Finset.mem_univ _) h

/-! ## The three stored values of the first kernel -/

/-- The weight's cast to its own shape. -/
theorem pay3_eq (W : Vec Ideal S1024x1024 .bf16) : k0_pay3 (F := Ideal) W = W := by
  unfold k0_pay3; exact shapeCast_self _ _

/-- The features narrowed: the same real array. -/
theorem pay7_eq (x : Fin 512 → Fin 1024 → ℝ) : k0_pay7 (F := Ideal) (mat x) = mat x := rfl

/-- The scaled queries. -/
theorem pay4_eq (x : Fin 512 → Fin 1024 → ℝ) (Wq : Fin 1024 → Fin 1024 → ℝ) :
    k0_pay4 (F := Ideal) (mat x) (mat Wq) = mat (fun r e => (∑ d : Fin 1024, max (x r d) 0 * Wq d e) * (1 / 32)) := by
  unfold k0_pay4
  simp only []
  rw [pay3_eq, Cert.Lift.truncf_eq, Cert.Lift.truncf_eq, relu_mat, mm1024, scale_mat]

/-- The keys. -/
theorem pay5_eq (g : Fin 512 → Fin 81) (T : Fin 128 → Fin 1024 → ℝ) (Wq : Fin 1024 → Fin 1024 → ℝ) :
    k0_pay5 (F := Ideal) (gw g) (mat T) (mat Wq)
      = mat (fun r e => ∑ d : Fin 1024, max (T (lane (g r)) d) 0 * Wq d e) := by
  unfold k0_pay5
  simp only []
  rw [pay3_eq, pay2_eq, Cert.Lift.truncf_eq, Cert.Lift.truncf_eq, relu_mat, mm1024]

/-- The class half of the values. -/
theorem pay6_eq (g : Fin 512 → Fin 81) (T : Fin 128 → Fin 1024 → ℝ) (Ws : Fin 1024 → Fin 1024 → ℝ) :
    k0_pay6 (F := Ideal) (gw g) (mat T) (mat Ws) = mat (fun r e => ∑ d : Fin 1024, T (lane (g r)) d * Ws d e) := by
  unfold k0_pay6
  simp only []
  rw [pay2_eq, Cert.Lift.truncf_eq, shapeCast_self, mm1024]

/-- The bias row added to every row of a real matrix. -/
theorem addf_bias_mat (P : Fin 512 → Fin 1024 → ℝ) (b : Fin 1024 → ℝ) :
    addf (F := Ideal) (φ := .f32) (mat P)
        (broadcastTo S512x1024 (shapeCast S1x1024 (vec b) shapeCasts_S1024_S1x1024) broadcasts_S1x1024_S512x1024)
      = mat (fun r e => P r e + b e) := by
  funext j
  obtain ⟨r, e, rfl⟩ : ∃ (r : Fin 512) (e : Fin 1024), j = ix2 r e := ⟨j 0, j 1, eq_ix2 j⟩
  rw [addf_apply, broadcastTo_1b_ab_apply, shapeCast_a_1a_apply]
  exact (EReal.coe_add _ _).symm

/-- The values: the class half, the feature half and the bias. -/
theorem pay1_eq (P x : Fin 512 → Fin 1024 → ℝ) (Wf : Fin 1024 → Fin 1024 → ℝ) (b : Fin 1024 → ℝ) :
    k0_pay1 (F := Ideal) (mat P) (mat x) (mat Wf) (vec b)
      = mat (fun r e => P r e + (∑ d : Fin 1024, x r d * Wf d e) + b e) := by
  unfold k0_pay1
  simp only []
  rw [shapeCast_self, mm1024, Cert.Lift.truncf_eq]
  have h1 : addf (F := Ideal) (φ := .f32) (mat P) (mat (fun r e => ∑ d : Fin 1024, x r d * Wf d e))
      = mat (fun r e => P r e + ∑ d : Fin 1024, x r d * Wf d e) :=
    funext fun j => (EReal.coe_add _ _).symm
  rw [h1, addf_bias_mat]

/-- The values from the loaded blocks. -/
theorem values_eq (g : Fin 512 → Fin 81) (T : Fin 128 → Fin 1024 → ℝ) (x : Fin 512 → Fin 1024 → ℝ)
    (Ws Wf : Fin 1024 → Fin 1024 → ℝ) (b : Fin 1024 → ℝ) :
    k0_pay1 (F := Ideal) (k0_pay6 (gw g) (mat T) (mat Ws)) (k0_pay7 (mat x)) (mat Wf) (vec b)
      = mat (fun r e => (∑ d : Fin 1024, T (lane (g r)) d * Ws d e) + (∑ d : Fin 1024, x r d * Wf d e) + b e) := by
  rw [pay6_eq, pay7_eq, pay1_eq]

end Cert.Pay0
end
-- ==== Proof.R0Value.lean ====
import proofs.«404873_j80685255623116_3_alg».proof.Proof.R0Body
import proofs.«404873_j80685255623116_3_alg».proof.Proof.Vals
import proofs.«404873_j80685255623116_3_alg».proof.Proof.Lifts
import proofs.«404873_j80685255623116_3_alg».proof.Proof.Spec
import proofs.«404873_j80685255623116_3_alg».proof.Proof.HostVals
import proofs.«404873_j80685255623116_3_alg».proof.Proof.Blocks
import proofs.«404873_j80685255623116_3_alg».proof.Proof.Pay0

/-!
# What region 0 leaves in its three output arrays

Under the lifting hypothesis the arrays the first region stages are coerced real arrays of the specification
(the host stretches before it only slice, transpose, pad and narrow). The region walks the 8192 rows in 16
blocks of 512; at block `t` the body's three stored values, read over real blocks, are the specification's
scaled queries, keys and values at rows 512 t … 512 t + 511. Every point writes its three blocks back, the
blocks tile the arrays, so the arrays end as the specification's three matrices.
-/

set_option maxRecDepth 16384

noncomputable section

open scoped BigOperators

namespace Cert.KernelIdeal.Val

open Cert.KernelIdeal Cert.KernelIdeal.Gen Cert.KernelIdeal.Frm
open Idealize.ShloMosaic Idealize.ShloMosaic.TcCoe
open Idealize.SL Idealize.SL.Sem
open Idealize.ShloMosaic.Pipeline (Dat)

variable (m : (ℓ : Loc nD τ sig) → Buf (Elt Ideal) ℓ) (c : Dev nD) (a : Cert.Spec.Args)

/-! ## Rows and the padded table -/

/-- Row `r` of block `t`: the 8192 rows are walked in 16 blocks of 512. -/
def brow0 (t : Fin cfg0.N) (r : Fin 512) : Fin 8192 := ⟨512 * t.val + r.val, rowlt t r⟩

/-- The class table as the kernel is handed it: the 81 projected embeddings, then 47 rows of zeros. -/
def tbl0 (k : Fin 128) (e : Fin 1024) : ℝ := if hk : k.val < 81 then Cert.Spec.ce a ⟨k.val, hk⟩ e else 0

/-- A row of the table below 81 is that class's projected embedding. -/
theorem tbl0_at (k : Fin 81) (p : k.val < 128) (e : Fin 1024) : tbl0 a ⟨k.val, p⟩ e = Cert.Spec.ce a k e := by
  unfold tbl0; rw [dif_pos k.isLt]

/-- The same, at a class index read as a row of the padded table. -/
theorem tbl0_lane (k : Fin 81) (e : Fin 1024) : tbl0 a (Cert.Pay0.lane k) e = Cert.Spec.ce a k e := tbl0_at a k _ e

/-! ## The staged arrays when the region is entered

Under the lifting hypothesis the seven arrays the region stages are, after the three host stretches, the
coerced real arrays of the specification: the features and the bias untouched, the class indices as a
column, the padded table of projected embeddings, and the three weights sliced and transposed. -/

section Entry
variable (h : Cert.LiftsK m c a)
include h

theorem entry0_0 : V3 m c (Pipeline.arrRef spec0 0) = (Cert.Spec.mat a.X : S8192x1024.Idx → EReal) :=
  host0_arg0 (W0 m c) a h.h0
theorem entry0_1 : V3 m c (Pipeline.arrRef spec0 1) = (fun j => BitVec.ofNat 32 (a.g (j 0)).val : S8192x1.Idx → BitVec 32) :=
  host0_v8 (W0 m c) a h.h1
theorem entry0_2 : V3 m c (Pipeline.arrRef spec0 2) = (Cert.Spec.mat (tbl0 a) : S128x1024.Idx → EReal) :=
  host0_v7 (W0 m c) a h.h2 h.h3 h.h4 h.h5
theorem entry0_3 : V3 m c (Pipeline.arrRef spec0 3) = (Cert.Spec.mat (fun d e => a.Wqk e d) : S1024x1024.Idx → EReal) :=
  host0_v10 (W0 m c) a h.h8
theorem entry0_4 : V3 m c (Pipeline.arrRef spec0 4) = (Cert.Spec.mat (fun d e => a.Wc e (Cert.Spec.lo d)) : S1024x1024.Idx → EReal) :=
  host0_v13 (W0 m c) a h.h6
theorem entry0_5 : V3 m c (Pipeline.arrRef spec0 5) = (Cert.Spec.mat (fun d e => a.Wc e (Cert.Spec.hi d)) : S1024x1024.Idx → EReal) :=
  host0_v16 (W0 m c) a h.h6
theorem entry0_6 : V3 m c (Pipeline.arrRef spec0 6) = (Cert.Spec.vec a.bc : S1024.Idx → EReal) :=
  host0_arg7 (W0 m c) a h.h7

end Entry

/-! ## The input blocks at a point

The features and the class indices are row-blocked: point `t` sees rows 512 t … 512 t + 511. The table, the
three weights and the bias are resident: their one block is the whole array. -/

section AtPoint
variable (h : Cert.LiftsK m c a) (t : Fin cfg0.N)
include h

theorem iblk0_0_eq : iblk0 (V3 m) c 0 t = (Cert.Spec.mat (fun (r : Fin 512) e => a.X (brow0 t r) e) : S512x1024.Idx → EReal) := by
  unfold iblk0; rw [entry0_0 m c a h]; exact blk0_0_read t a.X
theorem iblk0_1_eq : iblk0 (V3 m) c 1 t = Cert.Pay0.gw (fun r => a.g (brow0 t r)) := by
  unfold iblk0; rw [entry0_1 m c a h]; exact blk0_1_read_classes t a.g
theorem iblk0_2_eq : iblk0 (V3 m) c 2 t = (Cert.Spec.mat (tbl0 a) : S128x1024.Idx → EReal) := by
  unfold iblk0; rw [entry0_2 m c a h]; exact blk0_2_read t _
theorem iblk0_3_eq : iblk0 (V3 m) c 3 t = (Cert.Spec.mat (fun d e => a.Wqk e d) : S1024x1024.Idx → EReal) := by
  unfold iblk0; rw [entry0_3 m c a h]; exact blk0_3_read t _
theorem iblk0_4_eq : iblk0 (V3 m) c 4 t = (Cert.Spec.mat (fun d e => a.Wc e (Cert.Spec.lo d)) : S1024x1024.Idx → EReal) := by
  unfold iblk0; rw [entry0_4 m c a h]; exact blk0_4_read t _
theorem iblk0_5_eq : iblk0 (V3 m) c 5 t = (Cert.Spec.mat (fun d e => a.Wc e (Cert.Spec.hi d)) : S1024x1024.Idx → EReal) := by
  unfold iblk0; rw [entry0_5 m c a h]; exact blk0_5_read t _
theorem iblk0_6_eq : iblk0 (V3 m) c 6 t = (Cert.Spec.vec a.bc : S1024.Idx → EReal) := by
  unfold iblk0; rw [entry0_6 m c a h]; exact blk0_6_read t _

/-! ## What each point writes back

What a point writes back is what the body left in the output's buffer there; that is the body's stored value
over the input blocks, which over real blocks is a real block; and that block is rows 512 t … 512 t + 511 of
the specification's matrix, by unfolding the specification at those rows (a class index is below 81, so its
row of the padded table is its projected embedding). -/

/-- The queries: block `t` of the scaled query matrix. -/
theorem flushed0_7_eq : (dat0 (V3 m) c).flushed 7 t
    = ((cfg0.win 7).blk t).view.read (Elt Ideal) (Cert.Spec.mat (fun i e => Cert.Spec.qp a i e * (1/32))) := by
  show (dat0 (V3 m) c).after 7 t = _
  rw [after0_7, out0_7_eq, iblk0_0_eq m c a h t, iblk0_3_eq m c a h t, Cert.Pay0.pay4_eq, blk0_7_read]
  rfl

/-- The keys: block `t` of the key matrix. -/
theorem flushed0_8_eq : (dat0 (V3 m) c).flushed 8 t
    = ((cfg0.win 8).blk t).view.read (Elt Ideal) (Cert.Spec.mat (Cert.Spec.kp a)) := by
  show (dat0 (V3 m) c).after 8 t = _
  rw [after0_8, out0_8_eq, iblk0_1_eq m c a h t, iblk0_2_eq m c a h t, iblk0_3_eq m c a h t,
    Cert.Pay0.pay5_eq, blk0_8_read]
  simp only [tbl0_lane]
  rfl

/-- The values: block `t` of the value matrix. -/
theorem flushed0_9_eq : (dat0 (V3 m) c).flushed 9 t
    = ((cfg0.win 9).blk t).view.read (Elt Ideal) (Cert.Spec.mat (Cert.Spec.comb a)) := by
  show (dat0 (V3 m) c).after 9 t = _
  rw [after0_9, out0_9_eq, iblk0_0_eq m c a h t, iblk0_1_eq m c a h t, iblk0_2_eq m c a h t, iblk0_4_eq m c a h t,
    iblk0_5_eq m c a h t, iblk0_6_eq m c a h t, Cert.Pay0.values_eq, blk0_9_read]
  simp only [tbl0_lane]
  rfl

end AtPoint

/-! ## The three arrays the region leaves -/

/-- The scaled queries. -/
theorem qp_array (h : Cert.LiftsK m c a) :
    (dat0 (V3 m) c).arrAt 7 cfg0.N = Cert.Spec.mat (fun i e => Cert.Spec.qp a i e * (1/32)) :=
  arr0_7 (dat0 (V3 m) c) _ (flushed0_7_eq m c a h)

/-- The keys. -/
theorem kp_array (h : Cert.LiftsK m c a) :
    (dat0 (V3 m) c).arrAt 8 cfg0.N = Cert.Spec.mat (Cert.Spec.kp a) :=
  arr0_8 (dat0 (V3 m) c) _ (flushed0_8_eq m c a h)

/-- The values. -/
theorem comb_array (h : Cert.LiftsK m c a) :
    (dat0 (V3 m) c).arrAt 9 cfg0.N = Cert.Spec.mat (Cert.Spec.comb a) :=
  arr0_9 (dat0 (V3 m) c) _ (flushed0_9_eq m c a h)

end Cert.KernelIdeal.Val

end
-- ==== Proof.R1Pieces.lean ====
import proofs.«404873_j80685255623116_3_alg».proof.Proof.R1Data
import proofs.«404873_j80685255623116_3_alg».proof.Proof.Gen.KernelIdeal.Skeleton
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Region 1 (the attention call): what the body leaves, as the skeleton's payloads

Each control case's run found, for every buffer the body stores into, the pieces its stores leave; read back, those
pieces are what the buffer holds after the body. Every store of this body covers its whole buffer, so what a buffer
holds after the body is the payload of its LAST store, and a load that follows a store of the same buffer reads that
store's payload. This module carries that out once per case and buffer, on any memrefs, and then at the grid points:

* at key blocks 1 to 15 (cases B and C) the three scratch buffers are each loaded and then stored once: the new
  normaliser, accumulator and maximum are the update's payloads over the query, key and value blocks and what the point
  before left;
* at key block 0 (case A) each scratch buffer is first reset to a constant and then updated the same way, the update
  reading the constants back: the same payloads over the reset constants;
* at key block 15 (case C) the epilogue then reads the three scratch buffers back — now the point's own new maximum,
  normaliser and accumulator — with the remaining inputs, and its payload is stored over the whole output block. -/

/-- The zero offsets of a rank-2 whole-buffer access, however spelt, are the zero function. -/
private theorem hz2 : (![0, 0] : Fin 2 → Nat) = fun _ => 0 := funext fun a => by fin_cases a <;> rfl
/-- The same at rank 1. -/
private theorem hz1 : (![0] : Fin 1 → Nat) = fun _ => 0 := funext fun a => by fin_cases a <;> rfl

/-! ## On any memrefs: one equation per case and buffer -/

/-- Case A (key block 0): the accumulator is first reset and then updated, and the update reads the reset values back; what it holds after the body is the update's payload over the reset constants. -/
theorem sout1_A_0_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) :
    sout1_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 = k1_pay1 (k1_pay19 x0 x1 (k1_pay10 (F := F)) (k1_pay10 (F := F)) (k1_pay12 (F := F))) (k1_pay20 x0 x1 x2 (k1_pay10 (F := F))) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18)]
  unfold kernelRun1_A
  dsimp only
  sl_unfold_words
  rw [View.canon_cons_unit_zero (S := S512x1024) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread, harg23.read_unread, harg24.read_unread, View.ld_unit_zero (S := S512x1024) hz2, View.ld_unit_zero (S := S512x1) hz2, View.ld_unit_zero (S := S1x1024) hz2, View.ld_unit_zero (S := S1024x512) hz2, View.ld_unit_zero (S := S1024x1024) hz2, View.ld_unit_zero (S := S512) hz1, View.ld_unit_zero (S := S1024) hz1, View.readCov_unit_zero (S := S512x1024) _ hz2, View.readCov_unit_zero (S := S512x1) _ hz2]

/-- Case A (key block 0): the running maximum is first reset and then updated, and the update reads the reset values back; what it holds after the body is the update's payload over the reset constants. -/
theorem sout1_A_1_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) :
    sout1_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 = k1_pay2 (k1_pay15 x0 x1 (k1_pay10 (F := F))) := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18)]
  unfold kernelRun1_A
  dsimp only
  sl_unfold_words
  rw [View.canon_cons_unit_zero (S := S512x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread, harg23.read_unread, harg24.read_unread, View.ld_unit_zero (S := S512x1024) hz2, View.ld_unit_zero (S := S512x1) hz2, View.ld_unit_zero (S := S1x1024) hz2, View.ld_unit_zero (S := S1024x512) hz2, View.ld_unit_zero (S := S1024x1024) hz2, View.ld_unit_zero (S := S512) hz1, View.ld_unit_zero (S := S1024) hz1, View.readCov_unit_zero (S := S512x1024) _ hz2, View.readCov_unit_zero (S := S512x1) _ hz2]

/-- Case A (key block 0): the running normaliser is first reset and then updated, and the update reads the reset values back; what it holds after the body is the update's payload over the reset constants. -/
theorem sout1_A_2_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) :
    sout1_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 = k1_pay18 x0 x1 (k1_pay10 (F := F)) (k1_pay10 (F := F)) (k1_pay11 (F := F)) := by
  unfold sout1_A_2
  rw [View.read_writes_eq_canon _ _ _ (scover1_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18)]
  unfold kernelRun1_A
  dsimp only
  sl_unfold_words
  rw [View.canon_cons_unit_zero (S := S512x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread, harg23.read_unread, harg24.read_unread, View.ld_unit_zero (S := S512x1024) hz2, View.ld_unit_zero (S := S512x1) hz2, View.ld_unit_zero (S := S1x1024) hz2, View.ld_unit_zero (S := S1024x512) hz2, View.ld_unit_zero (S := S1024x1024) hz2, View.ld_unit_zero (S := S512) hz1, View.ld_unit_zero (S := S1024) hz1, View.readCov_unit_zero (S := S512x1024) _ hz2, View.readCov_unit_zero (S := S512x1) _ hz2]

/-- Case B (key blocks 1 to 14): what the accumulator holds after the body is its one store's payload, over the blocks read and what the point before left. -/
theorem sout1_B_0_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) :
    sout1_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2 = k1_pay1 (k1_pay19 x0 x1 xs1 xs1 xs0) (k1_pay20 x0 x1 x2 xs1) := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread, harg23.read_unread, harg24.read_unread, View.ld_unit_zero (S := S512x1024) hz2, View.ld_unit_zero (S := S512x1) hz2, View.ld_unit_zero (S := S1x1024) hz2, View.ld_unit_zero (S := S1024x512) hz2, View.ld_unit_zero (S := S1024x1024) hz2, View.ld_unit_zero (S := S512) hz1, View.ld_unit_zero (S := S1024) hz1]

/-- Case B (key blocks 1 to 14): what the running maximum holds after the body is its one store's payload, over the blocks read and what the point before left. -/
theorem sout1_B_1_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) :
    sout1_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2 = k1_pay2 (k1_pay15 x0 x1 xs1) := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread, harg23.read_unread, harg24.read_unread, View.ld_unit_zero (S := S512x1024) hz2, View.ld_unit_zero (S := S512x1) hz2, View.ld_unit_zero (S := S1x1024) hz2, View.ld_unit_zero (S := S1024x512) hz2, View.ld_unit_zero (S := S1024x1024) hz2, View.ld_unit_zero (S := S512) hz1, View.ld_unit_zero (S := S1024) hz1]

/-- Case B (key blocks 1 to 14): what the running normaliser holds after the body is its one store's payload, over the blocks read and what the point before left. -/
theorem sout1_B_2_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : ¬cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) :
    sout1_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2 = k1_pay18 x0 x1 xs1 xs1 xs2 := by
  unfold sout1_B_2
  rw [View.read_writes_eq_canon _ _ _ (scover1_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread, harg23.read_unread, harg24.read_unread, View.ld_unit_zero (S := S512x1024) hz2, View.ld_unit_zero (S := S512x1) hz2, View.ld_unit_zero (S := S1x1024) hz2, View.ld_unit_zero (S := S1024x512) hz2, View.ld_unit_zero (S := S1024x1024) hz2, View.ld_unit_zero (S := S512) hz1, View.ld_unit_zero (S := S1024) hz1]

/-- Case C (key block 15): what the accumulator holds after the body is its one store's payload, over the blocks read and what the point before left. -/
theorem sout1_C_0_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) :
    sout1_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2 = k1_pay1 (k1_pay19 x0 x1 xs1 xs1 xs0) (k1_pay20 x0 x1 x2 xs1) := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread, harg23.read_unread, harg24.read_unread, View.ld_unit_zero (S := S512x1024) hz2, View.ld_unit_zero (S := S512x1) hz2, View.ld_unit_zero (S := S1x1024) hz2, View.ld_unit_zero (S := S1024x512) hz2, View.ld_unit_zero (S := S1024x1024) hz2, View.ld_unit_zero (S := S512) hz1, View.ld_unit_zero (S := S1024) hz1, View.readCov_unit_zero (S := S512x1024) _ hz2, View.readCov_unit_zero (S := S512x1) _ hz2]

/-- Case C (key block 15): what the running maximum holds after the body is its one store's payload, over the blocks read and what the point before left. -/
theorem sout1_C_1_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) :
    sout1_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2 = k1_pay2 (k1_pay15 x0 x1 xs1) := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread, harg23.read_unread, harg24.read_unread, View.ld_unit_zero (S := S512x1024) hz2, View.ld_unit_zero (S := S512x1) hz2, View.ld_unit_zero (S := S1x1024) hz2, View.ld_unit_zero (S := S1024x512) hz2, View.ld_unit_zero (S := S1024x1024) hz2, View.ld_unit_zero (S := S512) hz1, View.ld_unit_zero (S := S1024) hz1, View.readCov_unit_zero (S := S512x1024) _ hz2, View.readCov_unit_zero (S := S512x1) _ hz2]

/-- Case C (key block 15): what the running normaliser holds after the body is its one store's payload, over the blocks read and what the point before left. -/
theorem sout1_C_2_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) :
    sout1_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2 = k1_pay18 x0 x1 xs1 xs1 xs2 := by
  unfold sout1_C_2
  rw [View.read_writes_eq_canon _ _ _ (scover1_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread, harg23.read_unread, harg24.read_unread, View.ld_unit_zero (S := S512x1024) hz2, View.ld_unit_zero (S := S512x1) hz2, View.ld_unit_zero (S := S1x1024) hz2, View.ld_unit_zero (S := S1024x512) hz2, View.ld_unit_zero (S := S1024x1024) hz2, View.ld_unit_zero (S := S512) hz1, View.ld_unit_zero (S := S1024) hz1, View.readCov_unit_zero (S := S512x1024) _ hz2, View.readCov_unit_zero (S := S512x1) _ hz2]

/-- Case C (key block 15): what the output block's staging buffer holds after the body is the epilogue's payload, over the
    blocks read and the accumulator, maximum and normaliser the body has just stored (read back from its own stores). -/
theorem out1_C_19_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .bf16) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x512 .bf16) (harg9 : arg9.IsWhole) (arg10 : Memref sig .tc .vmem S512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x1024 .bf16) (harg15 : arg15.IsWhole) (arg16 : Memref sig .tc .vmem S1024 .f32) (harg16 : arg16.IsWhole) (arg17 : Memref sig .tc .vmem S1024x1024 .bf16) (harg17 : arg17.IsWhole) (arg18 : Memref sig .tc .vmem S1024 .f32) (harg18 : arg18.IsWhole) (arg19 : Memref sig .tc .vmem S1024 .f32) (harg19 : arg19.IsWhole) (arg20 : Memref sig .tc .vmem S1024 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1 .f32) (harg23 : arg23.IsWhole) (arg24 : Memref sig .tc .vmem S512x1 .f32) (harg24 : arg24.IsWhole) (hc0 : ¬cond1_0 i) (hc1 : cond1_1 i)
    (x0 : Vec F S512x1024 .bf16) (x1 : Vec F S512x1024 .bf16) (x2 : Vec F S512x1024 .bf16) (x3 : Vec F S512x1024 .bf16) (x4 : Vec F S1x1024 .bf16) (x5 : Vec F S1024x512 .bf16) (x6 : Vec F S512 .f32) (x7 : Vec F S1024x512 .bf16) (x8 : Vec F S512 .f32) (x9 : Vec F S512x1024 .bf16) (x10 : Vec F S512x1024 .bf16) (x11 : Vec F S1024x1024 .bf16) (x12 : Vec F S1024 .f32) (x13 : Vec F S1024x1024 .bf16) (x14 : Vec F S1024 .f32) (x15 : Vec F S1024x1024 .bf16) (x16 : Vec F S1024 .f32) (x17 : Vec F S1024 .f32) (x18 : Vec F S1024 .f32) (xs0 : Vec F S512x1024 .f32) (xs1 : Vec F S512x1 .f32) (xs2 : Vec F S512x1 .f32) :
    out1_C_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2 = k1_pay3 (k1_pay8 (k1_pay5 x3) (k1_pay6 (k1_pay13 x0) x4 (k1_pay2 (k1_pay15 x0 x1 xs1)) (k1_pay2 (k1_pay15 x0 x1 xs1)) (k1_pay18 x0 x1 xs1 xs1 xs2) (k1_pay1 (k1_pay19 x0 x1 xs1 xs1 xs0) (k1_pay20 x0 x1 x2 xs1)) x3) (k1_pay7 (k1_pay13 x0) x4 (k1_pay2 (k1_pay15 x0 x1 xs1)) (k1_pay2 (k1_pay15 x0 x1 xs1)) (k1_pay18 x0 x1 xs1 xs1 xs2) (k1_pay1 (k1_pay19 x0 x1 xs1 xs1 xs0) (k1_pay20 x0 x1 x2 xs1)) x3 x5 x6) x7 x8 x9 x10 x11 x12) (k1_pay9 (k1_pay5 x3) (k1_pay6 (k1_pay13 x0) x4 (k1_pay2 (k1_pay15 x0 x1 xs1)) (k1_pay2 (k1_pay15 x0 x1 xs1)) (k1_pay18 x0 x1 xs1 xs1 xs2) (k1_pay1 (k1_pay19 x0 x1 xs1 xs1 xs0) (k1_pay20 x0 x1 x2 xs1)) x3) (k1_pay7 (k1_pay13 x0) x4 (k1_pay2 (k1_pay15 x0 x1 xs1)) (k1_pay2 (k1_pay15 x0 x1 xs1)) (k1_pay18 x0 x1 xs1 xs1 xs2) (k1_pay1 (k1_pay19 x0 x1 xs1 xs1 xs0) (k1_pay20 x0 x1 x2 xs1)) x3 x5 x6) x7 x8 x9 x10 x11 x12 x13 x14) x15 x16 x17 x18 := by
  unfold out1_C_19
  rw [View.read_writes_eq_canon _ _ _ (cover1_C_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 xs0 xs1 xs2)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread, harg23.read_unread, harg24.read_unread, View.ld_unit_zero (S := S512x1024) hz2, View.ld_unit_zero (S := S512x1) hz2, View.ld_unit_zero (S := S1x1024) hz2, View.ld_unit_zero (S := S1024x512) hz2, View.ld_unit_zero (S := S1024x1024) hz2, View.ld_unit_zero (S := S512) hz1, View.ld_unit_zero (S := S1024) hz1, View.readCov_unit_zero (S := S512x1024) _ hz2, View.readCov_unit_zero (S := S512x1) _ hz2]

/-! ## At the grid points

The same equations at point t, through the accumulation's case equations: the inputs are the windows' blocks at t, and
at key blocks other than 0 the scratch contents read are what position t - 1 left. -/

-- the buffer contents of the core when the region is entered (a parameter of the proof data)
variable (V : (c : Dev nD) → (b : Ref sig .tc) → Buf (Elt F) ((c : Thread nD τ).loc b))

/-- At a point whose key block is 0 the accumulator ends as the reset-then-update payload of the point's query, key and value blocks. -/
theorem outsAt1_acc_first (c : Dev nD) (t : Fin cfg1.N) (h0 : t.val % 16 = 0) :
    (outsAt1 V c t.val t.isLt).2.1 = k1_pay1 (k1_pay19 (iblk1 V c 0 t) (iblk1 V c 1 t) (k1_pay10 (F := F)) (k1_pay10 (F := F)) (k1_pay12 (F := F))) (k1_pay20 (iblk1 V c 0 t) (iblk1 V c 1 t) (iblk1 V c 2 t) (k1_pay10 (F := F))) := by
  rw [outsAt1_A V c t h0]; unfold outs1_A; dsimp only
  exact sout1_A_0_eq ..

/-- At a point whose key block is 0 the running maximum ends as the reset-then-update payload of the point's query and key blocks. -/
theorem outsAt1_max_first (c : Dev nD) (t : Fin cfg1.N) (h0 : t.val % 16 = 0) :
    (outsAt1 V c t.val t.isLt).2.2.1 = k1_pay2 (k1_pay15 (iblk1 V c 0 t) (iblk1 V c 1 t) (k1_pay10 (F := F))) := by
  rw [outsAt1_A V c t h0]; unfold outs1_A; dsimp only
  exact sout1_A_1_eq ..

/-- At a point whose key block is 0 the running normaliser ends as the reset-then-update payload of the point's query and key blocks. -/
theorem outsAt1_norm_first (c : Dev nD) (t : Fin cfg1.N) (h0 : t.val % 16 = 0) :
    (outsAt1 V c t.val t.isLt).2.2.2 = k1_pay18 (iblk1 V c 0 t) (iblk1 V c 1 t) (k1_pay10 (F := F)) (k1_pay10 (F := F)) (k1_pay11 (F := F)) := by
  rw [outsAt1_A V c t h0]; unfold outs1_A; dsimp only
  exact sout1_A_2_eq ..

/-- At a point whose key block is not 0 the accumulator ends as the update's payload of the point's blocks and of what
    the point before left in the scratch buffers (the same formula at key block 15 as at key blocks 1 to 14). -/
theorem outsAt1_acc_next (c : Dev nD) (t : Fin cfg1.N) (h0 : ¬t.val % 16 = 0) :
    (outsAt1 V c t.val t.isLt).2.1 = k1_pay1 (k1_pay19 (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.1 (outsAt1 V c (t.val - 1) (Nat.lt_of_le_of_lt (Nat.sub_le _ _) t.isLt)).2.1) (k1_pay20 (iblk1 V c 0 t) (iblk1 V c 1 t) (iblk1 V c 2 t) (outsAt1 V c (t.val - 1) (Nat.lt_of_le_of_lt (Nat.sub_le _ _) t.isLt)).2.2.1) := by
  by_cases h1 : t.val % 16 = 15
  · rw [outsAt1_C V c t h1]; unfold outs1_C; dsimp only
    exact sout1_C_0_eq ..
  · rw [outsAt1_B V c t h0 h1]; unfold outs1_B; dsimp only
    exact sout1_B_0_eq ..

/-- At a point whose key block is not 0 the running maximum ends as the update's payload of the point's blocks and of what
    the point before left in the scratch buffers (the same formula at key block 15 as at key blocks 1 to 14). -/
theorem outsAt1_max_next (c : Dev nD) (t : Fin cfg1.N) (h0 : ¬t.val % 16 = 0) :
    (outsAt1 V c t.val t.isLt).2.2.1 = k1_pay2 (k1_pay15 (iblk1 V c 0 t) (iblk1 V c 1 t) (outsAt1 V c (t.val - 1) (Nat.lt_of_le_of_lt (Nat.sub_le _ _) t.isLt)).2.2.1) := by
  by_cases h1 : t.val % 16 = 15
  · rw [outsAt1_C V c t h1]; unfold outs1_C; dsimp only
    exact sout1_C_1_eq ..
  · rw [outsAt1_B V c t h0 h1]; unfold outs1_B; dsimp only
    exact sout1_B_1_eq ..

/-- At a point whose key block is not 0 the running normaliser ends as the update's payload of the point's blocks and of what
    the point before left in the scratch buffers (the same formula at key block 15 as at key blocks 1 to 14). -/
theorem outsAt1_norm_next (c : Dev nD) (t : Fin cfg1.N) (h0 : ¬t.val % 16 = 0) :
    (outsAt1 V c t.val t.isLt).2.2.2 = k1_pay18 (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  by_cases h1 : t.val % 16 = 15
  · rw [outsAt1_C V c t h1]; unfold outs1_C; dsimp only
    exact sout1_C_2_eq ..
  · rw [outsAt1_B V c t h0 h1]; unfold outs1_B; dsimp only
    exact sout1_B_2_eq ..

/-- At a point whose key block is 15 the output block ends as the epilogue's payload of the point's blocks and of the
    maximum, normaliser and accumulator this same point leaves in the scratch buffers. -/
theorem outsAt1_out_last (c : Dev nD) (t : Fin cfg1.N) (h1 : t.val % 16 = 15) :
    (outsAt1 V c t.val t.isLt).1 = k1_pay3 (k1_pay8 (k1_pay5 (iblk1 V c 3 t)) (k1_pay6 (k1_pay13 (iblk1 V c 0 t)) (iblk1 V c 4 t) (outsAt1 V c t.val t.isLt).2.2.1 (outsAt1 V c t.val t.isLt).2.2.1 (outsAt1 V c t.val t.isLt).2.2.2 (outsAt1 V c t.val t.isLt).2.1 (iblk1 V c 3 t)) (k1_pay7 (k1_pay13 (iblk1 V c 0 t)) (iblk1 V c 4 t) (outsAt1 V c t.val t.isLt).2.2.1 (outsAt1 V c t.val t.isLt).2.2.1 (outsAt1 V c t.val t.isLt).2.2.2 (outsAt1 V c t.val t.isLt).2.1 (iblk1 V c 3 t) (iblk1 V c 5 t) (iblk1 V c 6 t)) (iblk1 V c 7 t) (iblk1 V c 8 t) (iblk1 V c 9 t) (iblk1 V c 10 t) (iblk1 V c 11 t) (iblk1 V c 12 t)) (k1_pay9 (k1_pay5 (iblk1 V c 3 t)) (k1_pay6 (k1_pay13 (iblk1 V c 0 t)) (iblk1 V c 4 t) (outsAt1 V c t.val t.isLt).2.2.1 (outsAt1 V c t.val t.isLt).2.2.1 (outsAt1 V c t.val t.isLt).2.2.2 (outsAt1 V c t.val t.isLt).2.1 (iblk1 V c 3 t)) (k1_pay7 (k1_pay13 (iblk1 V c 0 t)) (iblk1 V c 4 t) (outsAt1 V c t.val t.isLt).2.2.1 (outsAt1 V c t.val t.isLt).2.2.1 (outsAt1 V c t.val t.isLt).2.2.2 (outsAt1 V c t.val t.isLt).2.1 (iblk1 V c 3 t) (iblk1 V c 5 t) (iblk1 V c 6 t)) (iblk1 V c 7 t) (iblk1 V c 8 t) (iblk1 V c 9 t) (iblk1 V c 10 t) (iblk1 V c 11 t) (iblk1 V c 12 t) (iblk1 V c 13 t) (iblk1 V c 14 t)) (iblk1 V c 15 t) (iblk1 V c 16 t) (iblk1 V c 17 t) (iblk1 V c 18 t) := by
  have h0 : ¬t.val % 16 = 0 := fun h => by omega
  rw [outsAt1_max_next V c t h0, outsAt1_norm_next V c t h0, outsAt1_acc_next V c t h0]
  rw [outsAt1_C V c t h1]; unfold outs1_C; dsimp only
  exact out1_C_19_eq ..

end Cert.KernelIdeal.Frm

end
-- ==== Proof.R1Value.lean ====
import proofs.«404873_j80685255623116_3_alg».proof.Proof.R1ValueCore
import proofs.«404873_j80685255623116_3_alg».proof.Proof.R1ValueBlocks
import proofs.«404873_j80685255623116_3_alg».proof.Proof.R0Value
import proofs.«404873_j80685255623116_3_alg».proof.Proof.R1Pieces

/-!
# The second region's output array is the specification's result

The second region writes the block of query rows q back once, at the point 16 q + 15, and the sixteen
blocks tile the output array. What it writes there is the epilogue of the input blocks and of the three
carried arrays as that point stored them. The input blocks are real arrays: the scaled queries and the
features of the query block's rows, the keys and values of the key block's rows, the resident weights
whole. The carried arrays satisfy the point equations of the block recurrence over those blocks, so at
the point 16 q + 15 they hold its closed form after all sixteen visits; the epilogue of the closed form
is the specification's result at the 512 rows of the query block.
-/

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.Pipeline (Dat)

variable (m : (ℓ : Loc nD τ sig) → Buf (Elt Ideal) ℓ) (c : Dev nD) (a : Spec.Args)

/-- The first region's proof data at its entry contents, and the second region's entry contents over them. -/
abbrev D0 : (c : Dev nD) → Dat0 Ideal c := fun c => dat0 (Frm.V3 m) c
abbrev VV : (c : Dev nD) → (b : Ref sig .tc) → Buf (Elt Ideal) ((c : Thread nD τ).loc b) := Frm.V5 m (D0 m)

/-! ## The input blocks at a point -/

section AtPoint
variable (h : Cert.LiftsK m c a) (t : Fin cfg1.N)
include h

theorem iblk1_0_eq : iblk1 (VV m) c 0 t = Spec.mat (FlashSpec.qS a (qiOf t)) := by
  unfold iblk1; exact rd1_0 m (D0 m) c a (qp_array m c a h) t
theorem iblk1_1_eq : iblk1 (VV m) c 1 t = Spec.mat (FlashSpec.kB a (kbOf t)) := by
  unfold iblk1; exact rd1_1 m (D0 m) c a (kp_array m c a h) t
theorem iblk1_2_eq : iblk1 (VV m) c 2 t = Spec.mat (FlashSpec.vB a (kbOf t)) := by
  unfold iblk1; exact rd1_2 m (D0 m) c a (comb_array m c a h) t
theorem iblk1_3_eq : iblk1 (VV m) c 3 t = Spec.mat (fun (r : Fin 512) d => a.X (FlashSpec.rowIdx (qiOf t) r) d) := by
  unfold iblk1; exact rd1_3 m (D0 m) c a h (fun c w => A_eq0 (Frm.V3 m) c w) t
theorem iblk1_4_eq : iblk1 (VV m) c 4 t = Spec.row a.dm := by unfold iblk1; exact rd1_4 m (D0 m) c a h t
theorem iblk1_5_eq : iblk1 (VV m) c 5 t = Spec.mat (fun d h => a.W1 h d) := by unfold iblk1; exact rd1_5 m (D0 m) c a h t
theorem iblk1_6_eq : iblk1 (VV m) c 6 t = Spec.vec a.b1 := by unfold iblk1; exact rd1_6 m (D0 m) c a h t
theorem iblk1_7_eq : iblk1 (VV m) c 7 t = Spec.mat (fun d h => a.W2 h d) := by unfold iblk1; exact rd1_7 m (D0 m) c a h t
theorem iblk1_8_eq : iblk1 (VV m) c 8 t = Spec.vec a.b2 := by unfold iblk1; exact rd1_8 m (D0 m) c a h t
theorem iblk1_9_eq : iblk1 (VV m) c 9 t = Spec.mat (fun h e => a.W3 e (Spec.q1 h)) := by unfold iblk1; exact rd1_9 m (D0 m) c a h t
theorem iblk1_10_eq : iblk1 (VV m) c 10 t = Spec.mat (fun h e => a.W3 e (Spec.q2 h)) := by unfold iblk1; exact rd1_10 m (D0 m) c a h t
theorem iblk1_11_eq : iblk1 (VV m) c 11 t = Spec.mat (fun d e => a.W3 e (Spec.hi d)) := by unfold iblk1; exact rd1_11 m (D0 m) c a h t
theorem iblk1_12_eq : iblk1 (VV m) c 12 t = Spec.vec a.b3 := by unfold iblk1; exact rd1_12 m (D0 m) c a h t
theorem iblk1_13_eq : iblk1 (VV m) c 13 t = Spec.mat (fun d f => a.Wf1 f d) := by unfold iblk1; exact rd1_13 m (D0 m) c a h t
theorem iblk1_14_eq : iblk1 (VV m) c 14 t = Spec.vec a.bf1 := by unfold iblk1; exact rd1_14 m (D0 m) c a h t
theorem iblk1_15_eq : iblk1 (VV m) c 15 t = Spec.mat (fun f e => a.Wf2 e f) := by unfold iblk1; exact rd1_15 m (D0 m) c a h t
theorem iblk1_16_eq : iblk1 (VV m) c 16 t = Spec.vec a.bf2 := by unfold iblk1; exact rd1_16 m (D0 m) c a h t
theorem iblk1_17_eq : iblk1 (VV m) c 17 t = Spec.vec a.lg := by unfold iblk1; exact rd1_17 m (D0 m) c a h t
theorem iblk1_18_eq : iblk1 (VV m) c 18 t = Spec.vec a.lb := by unfold iblk1; exact rd1_18 m (D0 m) c a h t

end AtPoint

/-! ## The epilogue over the closed form -/

/-- The epilogue's payload at query block qi over real arrays: the block's scaled queries and features,
    the dummy key, the closed form of the running maximum, the running normaliser and the value sum
    after all sixteen visits, and the fourteen resident weights and biases. -/
def epiClosed (qi : Fin 16) : FVec Ideal S512x1024 .f32 :=
  k1_pay3 (F := Ideal)
    (k1_pay8 (F := Ideal) (k1_pay5 (F := Ideal) (Spec.mat (fun (r : Fin 512) d => a.X (FlashSpec.rowIdx qi r) d)))
      (k1_pay6 (F := Ideal) (k1_pay13 (F := Ideal) (Spec.mat (FlashSpec.qS a qi))) (Spec.row a.dm)
        (Blk.col (FlashSpec.mAfter a qi 15)) (Blk.col (FlashSpec.mAfter a qi 15)) (Blk.col (FlashSpec.lAfter a qi 15))
        (Spec.mat (FlashSpec.accAfter a qi 15)) (Spec.mat (fun (r : Fin 512) d => a.X (FlashSpec.rowIdx qi r) d)))
      (k1_pay7 (F := Ideal) (k1_pay13 (F := Ideal) (Spec.mat (FlashSpec.qS a qi))) (Spec.row a.dm)
        (Blk.col (FlashSpec.mAfter a qi 15)) (Blk.col (FlashSpec.mAfter a qi 15)) (Blk.col (FlashSpec.lAfter a qi 15))
        (Spec.mat (FlashSpec.accAfter a qi 15)) (Spec.mat (fun (r : Fin 512) d => a.X (FlashSpec.rowIdx qi r) d))
        (Spec.mat (fun d h => a.W1 h d)) (Spec.vec a.b1))
      (Spec.mat (fun d h => a.W2 h d)) (Spec.vec a.b2) (Spec.mat (fun h e => a.W3 e (Spec.q1 h)))
      (Spec.mat (fun h e => a.W3 e (Spec.q2 h))) (Spec.mat (fun d e => a.W3 e (Spec.hi d))) (Spec.vec a.b3))
    (k1_pay9 (F := Ideal) (k1_pay5 (F := Ideal) (Spec.mat (fun (r : Fin 512) d => a.X (FlashSpec.rowIdx qi r) d)))
      (k1_pay6 (F := Ideal) (k1_pay13 (F := Ideal) (Spec.mat (FlashSpec.qS a qi))) (Spec.row a.dm)
        (Blk.col (FlashSpec.mAfter a qi 15)) (Blk.col (FlashSpec.mAfter a qi 15)) (Blk.col (FlashSpec.lAfter a qi 15))
        (Spec.mat (FlashSpec.accAfter a qi 15)) (Spec.mat (fun (r : Fin 512) d => a.X (FlashSpec.rowIdx qi r) d)))
      (k1_pay7 (F := Ideal) (k1_pay13 (F := Ideal) (Spec.mat (FlashSpec.qS a qi))) (Spec.row a.dm)
        (Blk.col (FlashSpec.mAfter a qi 15)) (Blk.col (FlashSpec.mAfter a qi 15)) (Blk.col (FlashSpec.lAfter a qi 15))
        (Spec.mat (FlashSpec.accAfter a qi 15)) (Spec.mat (fun (r : Fin 512) d => a.X (FlashSpec.rowIdx qi r) d))
        (Spec.mat (fun d h => a.W1 h d)) (Spec.vec a.b1))
      (Spec.mat (fun d h => a.W2 h d)) (Spec.vec a.b2) (Spec.mat (fun h e => a.W3 e (Spec.q1 h)))
      (Spec.mat (fun h e => a.W3 e (Spec.q2 h))) (Spec.mat (fun d e => a.W3 e (Spec.hi d))) (Spec.vec a.b3)
      (Spec.mat (fun d f => a.Wf1 f d)) (Spec.vec a.bf1))
    (Spec.mat (fun f e => a.Wf2 e f)) (Spec.vec a.bf2) (Spec.vec a.lg) (Spec.vec a.lb)

/-! ## The carried arrays satisfy the point equations -/

/-- A point of the grid, from its position below 256. -/
abbrev pt (n : ℕ) (hn : n < 256) : Fin cfg1.N := ⟨n, lt_of_lt_of_eq hn N_1.symm⟩

/-- The value sum, the running maximum and the running normaliser after point n. -/
abbrev carried (n : ℕ) (hn : n < 256) : R1Induct.Carried := (outsAt1 (VV m) c n (pt n hn).isLt).2

section Carried
variable (h : Cert.LiftsK m c a)
include h

/-- At a first visit the three arrays are computed from the constants, over the point's blocks. -/
theorem carried_first (n : ℕ) (hn : n < 256) (h0 : n % 16 = 0) :
    (carried m c n hn).2.1
        = k1_pay2 (F := Ideal) (k1_pay15 (F := Ideal) (Spec.mat (FlashSpec.qS a ⟨n / 16, R1Induct.div16_lt hn⟩))
            (Spec.mat (FlashSpec.kB a ⟨n % 16, R1Induct.mod16_lt n⟩)) (k1_pay10 (F := Ideal)))
      ∧ (carried m c n hn).2.2
        = k1_pay18 (F := Ideal) (Spec.mat (FlashSpec.qS a ⟨n / 16, R1Induct.div16_lt hn⟩))
            (Spec.mat (FlashSpec.kB a ⟨n % 16, R1Induct.mod16_lt n⟩)) (k1_pay10 (F := Ideal)) (k1_pay10 (F := Ideal))
            (k1_pay11 (F := Ideal))
      ∧ (carried m c n hn).1
        = k1_pay1 (F := Ideal)
            (k1_pay19 (F := Ideal) (Spec.mat (FlashSpec.qS a ⟨n / 16, R1Induct.div16_lt hn⟩))
              (Spec.mat (FlashSpec.kB a ⟨n % 16, R1Induct.mod16_lt n⟩)) (k1_pay10 (F := Ideal)) (k1_pay10 (F := Ideal))
              (k1_pay12 (F := Ideal)))
            (k1_pay20 (F := Ideal) (Spec.mat (FlashSpec.qS a ⟨n / 16, R1Induct.div16_lt hn⟩))
              (Spec.mat (FlashSpec.kB a ⟨n % 16, R1Induct.mod16_lt n⟩)) (Spec.mat (FlashSpec.vB a ⟨n % 16, R1Induct.mod16_lt n⟩))
              (k1_pay10 (F := Ideal))) := by
  refine ⟨?_, ?_, ?_⟩
  · refine (outsAt1_max_first (VV m) c (pt n hn) h0).trans ?_
    rw [iblk1_0_eq m c a h, iblk1_1_eq m c a h]
  · refine (outsAt1_norm_first (VV m) c (pt n hn) h0).trans ?_
    rw [iblk1_0_eq m c a h, iblk1_1_eq m c a h]
  · refine (outsAt1_acc_first (VV m) c (pt n hn) h0).trans ?_
    rw [iblk1_0_eq m c a h, iblk1_1_eq m c a h, iblk1_2_eq m c a h]

/-- At a later visit they are computed from what the point before left, over the point's blocks. -/
theorem carried_next (n : ℕ) (hn : n < 256) (h0 : n % 16 ≠ 0) :
    (carried m c n hn).2.1
        = k1_pay2 (F := Ideal) (k1_pay15 (F := Ideal) (Spec.mat (FlashSpec.qS a ⟨n / 16, R1Induct.div16_lt hn⟩))
            (Spec.mat (FlashSpec.kB a ⟨n % 16, R1Induct.mod16_lt n⟩)) (carried m c (n - 1) (pred_lt hn)).2.1)
      ∧ (carried m c n hn).2.2
        = k1_pay18 (F := Ideal) (Spec.mat (FlashSpec.qS a ⟨n / 16, R1Induct.div16_lt hn⟩))
            (Spec.mat (FlashSpec.kB a ⟨n % 16, R1Induct.mod16_lt n⟩)) (carried m c (n - 1) (pred_lt hn)).2.1
            (carried m c (n - 1) (pred_lt hn)).2.1 (carried m c (n - 1) (pred_lt hn)).2.2
      ∧ (carried m c n hn).1
        = k1_pay1 (F := Ideal)
            (k1_pay19 (F := Ideal) (Spec.mat (FlashSpec.qS a ⟨n / 16, R1Induct.div16_lt hn⟩))
              (Spec.mat (FlashSpec.kB a ⟨n % 16, R1Induct.mod16_lt n⟩)) (carried m c (n - 1) (pred_lt hn)).2.1
              (carried m c (n - 1) (pred_lt hn)).2.1 (carried m c (n - 1) (pred_lt hn)).1)
            (k1_pay20 (F := Ideal) (Spec.mat (FlashSpec.qS a ⟨n / 16, R1Induct.div16_lt hn⟩))
              (Spec.mat (FlashSpec.kB a ⟨n % 16, R1Induct.mod16_lt n⟩)) (Spec.mat (FlashSpec.vB a ⟨n % 16, R1Induct.mod16_lt n⟩))
              (carried m c (n - 1) (pred_lt hn)).2.1) := by
  refine ⟨?_, ?_, ?_⟩
  · refine (outsAt1_max_next (VV m) c (pt n hn) h0).trans ?_
    rw [iblk1_0_eq m c a h, iblk1_1_eq m c a h]
  · refine (outsAt1_norm_next (VV m) c (pt n hn) h0).trans ?_
    rw [iblk1_0_eq m c a h, iblk1_1_eq m c a h]
  · refine (outsAt1_acc_next (VV m) c (pt n hn) h0).trans ?_
    rw [iblk1_0_eq m c a h, iblk1_1_eq m c a h, iblk1_2_eq m c a h]

/-- So at a point whose key block is the last they hold the closed form after all sixteen visits of the
    point's query block. -/
theorem carried_last_eq (t : Fin cfg1.N) (h15 : t.val % 16 = 15) :
    (outsAt1 (VV m) c t.val t.isLt).2
      = (Spec.mat (FlashSpec.accAfter a (qiOf t) 15), Blk.col (FlashSpec.mAfter a (qiOf t) 15),
          Blk.col (FlashSpec.lAfter a (qiOf t) 15)) :=
  carried_at_last a (carried m c) (carried_first m c a h) (carried_next m c a h) t.val (lt256 t) h15

/-! ## The block a last visit stores -/

/-- At a point whose key block is the last the output block's buffer ends as the epilogue's payload of
    real arrays: the point's input blocks and the closed form of the three carried arrays. -/
theorem stored_last_payload (t : Fin cfg1.N) (h15 : t.val % 16 = 15) :
    (outsAt1 (VV m) c t.val t.isLt).1 = epiClosed a (qiOf t) := by
  have hS := carried_last_eq m c a h t h15
  have e1 : (outsAt1 (VV m) c t.val t.isLt).2.1 = Spec.mat (FlashSpec.accAfter a (qiOf t) 15) := congrArg Prod.fst hS
  have e2 : (outsAt1 (VV m) c t.val t.isLt).2.2.1 = Blk.col (FlashSpec.mAfter a (qiOf t) 15) := congrArg (fun x => x.2.1) hS
  have e3 : (outsAt1 (VV m) c t.val t.isLt).2.2.2 = Blk.col (FlashSpec.lAfter a (qiOf t) 15) := congrArg (fun x => x.2.2) hS
  unfold epiClosed
  rw [outsAt1_out_last (VV m) c t h15, e1, e2, e3, iblk1_0_eq m c a h, iblk1_3_eq m c a h, iblk1_4_eq m c a h,
    iblk1_5_eq m c a h, iblk1_6_eq m c a h, iblk1_7_eq m c a h, iblk1_8_eq m c a h, iblk1_9_eq m c a h,
    iblk1_10_eq m c a h, iblk1_11_eq m c a h, iblk1_12_eq m c a h, iblk1_13_eq m c a h, iblk1_14_eq m c a h,
    iblk1_15_eq m c a h, iblk1_16_eq m c a h, iblk1_17_eq m c a h, iblk1_18_eq m c a h]

/-- **The output array**, given that the epilogue of the closed form is the specification's result at the
    rows of each query block: every last visit writes back the block of the result's rows, and the sixteen
    blocks tile the array. -/
theorem out_array_of
    (hout : ∀ qi : Fin 16, epiClosed a qi = Spec.mat (fun (r : Fin 512) e => Spec.result a (FlashSpec.rowIdx qi r) e)) :
    (dat1 (VV m) c).arrAt 19 cfg1.N = Spec.mat (Spec.result a) :=
  arr1_19_of_rows (dat1 (VV m) c) (Spec.result a) fun t h15 =>
    (flushed1_19_eq_after (dat1 (VV m) c) t).trans ((after1_19 (VV m) c t).trans
      ((stored_last_payload m c a h t h15).trans (hout (qiOf t))))

end Carried

end Cert.KernelIdeal.Val

end
-- ==== Proof.Pay1EpiA.lean ====
import proofs.«404873_j80685255623116_3_alg».proof.Proof.Gen.KernelIdeal.Skeleton
import proofs.«404873_j80685255623116_3_alg».proof.Proof.Spec
import proofs.«404873_j80685255623116_3_alg».proof.Proof.Blk
import proofs.«404873_j80685255623116_3_alg».proof.Proof.Lift
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

/-!
# Reading the epilogue's operations at an index

The second kernel's epilogue is built from pointwise operations, three layout operations (a vector laid
out as a row or as a column and repeated over a block), a sum over the last axis, and three matrix
products with one contracted axis. This file reads each of the non-pointwise ones at an index given by
its coordinates, for any array of extended reals, so that the payload lemmas reduce to sums over the
coordinates.
-/

noncomputable section

open scoped BigOperators

namespace Cert.Pay1.Epi

open Idealize.ShloMosaic Idealize.ShloMosaic.ValueIdx Cert.KernelIdeal Cert.KernelIdeal.Gen Cert.Spec Cert.Blk

/-! ## Reading the four kinds of real arrays at an index given by coordinates -/

theorem mat_ix2 {n k : Nat} (A : Fin n → Fin k → ℝ) (p : Fin n) (c : Fin k) : mat A (ix2 p c) = ((A p c : ℝ) : EReal) := rfl
theorem vec_ix1 {n : Nat} (v : Fin n → ℝ) (i : Fin n) : vec v (ix1 i) = ((v i : ℝ) : EReal) := rfl
theorem row_ix2 {k : Nat} (v : Fin k → ℝ) (u : Fin 1) (c : Fin k) : row v (ix2 u c) = ((v c : ℝ) : EReal) := rfl
theorem col_ix2 {n : Nat} (v : Fin n → ℝ) (p : Fin n) (u : Fin 1) : col v (ix2 p u) = ((v p : ℝ) : EReal) := rfl

/-! ## Layout operations the epilogue uses, read at an index -/

section Layout
variable {α : Type}

/-- A vector viewed as a column: the entry at (i, 0) is the vector's entry at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column repeated along the rows: the entry at (p, c) is the column's entry at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector laid out as one row and repeated down the rows: the entry at (p, c) is the vector's at c. -/
theorem rowBcast_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- A vector viewed as a column and repeated along the rows: the entry at (p, c) is the vector's at p. -/
theorem colBcast_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix1 p) := by
  rw [broadcastTo_a1_ab_apply, shapeCast_a_a1_apply]

end Layout

/-! ## Exponential and reciprocal square root at an index -/

theorem exp_apply {s : Shape} {φ : FTy} (a : FVec Ideal s φ) (i : s.Idx) : exp a i = Ideal.exp (a i) := rfl
theorem rsqrt_apply {s : Shape} {φ : FTy} (a : FVec Ideal s φ) (i : s.Idx) : rsqrt a i = Ideal.rsqrt (a i) := rfl
theorem exp_coe_real (r : ℝ) : Ideal.exp ((r : ℝ) : EReal) = ((Real.exp r : ℝ) : EReal) := rfl

/-! ## A row sum at an index -/

/-- The sum over the last axis of an [a, b] array, at row p. -/
theorem rowSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction (F := Ideal) .add [1] ⟨1, ![a]⟩ v acc h hφ hacc (ix1 p) = ∑ k : Fin b, v (ix2 p k) := by
  refine (Ideal.multiReduction_add_single v acc h hφ hacc (ix1 p)).trans ?_
  refine Finset.sum_congr rfl fun k _ => congrArg v ?_
  funext d
  match d with
  | ⟨0, _⟩ => exact Fin.ext rfl
  | ⟨1, _⟩ => exact Fin.ext rfl

/-! ## The three matrix products of the epilogue, read at an index

Each has one contracted axis (the left operand's columns against the right operand's rows), so the
entry at (p, c) is the sum over k of left (p, k) times right (k, c). The four coordinate facts of each
record are kept apart, at the literal axes. -/

theorem lhs_mmA_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_mmA_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_mmA_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_mmA_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The [512, 1024] by [1024, 512] product into the zero accumulator, at (p, c). -/
theorem mmA_apply {φ₁ φ₂ : FTy} (A : FVec Ideal S512x1024 φ₁) (B : FVec Ideal S1024x512 φ₂) (p : Fin 512) (c : Fin 512) :
    matmul (F := Ideal) dot_S512x1024_S1024x512_S512x512_1_0_0_1_n_n none A B (constant (F := Ideal) S512x512 .f32 0x00000000#32) (ix2 p c)
      = ∑ k : Fin 1024, A (ix2 p k) * B (ix2 k c) := by
  refine (Ideal.matmul_constant_zero_apply dot_S512x1024_S1024x512_S512x512_1_0_0_1_n_n none A B (ix2 p c)).trans ?_
  rw [← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p c) ((contrEquiv1 dot_S512x1024_S1024x512_S512x512_1_0_0_1_n_n 1024 rfl rfl).symm k) = ix2 p k := funext fun a => Fin.ext (by
    match a with
    | ⟨0, _⟩ => exact lhs_mmA_0 _ _
    | ⟨1, _⟩ => exact (lhs_mmA_1 _ _).trans hk)
  have er : dot_S512x1024_S1024x512_S512x512_1_0_0_1_n_n.rhsIdx (ix2 p c) ((contrEquiv1 dot_S512x1024_S1024x512_S512x512_1_0_0_1_n_n 1024 rfl rfl).symm k) = ix2 k c := funext fun a => Fin.ext (by
    match a with
    | ⟨0, _⟩ => exact (rhs_mmA_0 _ _).trans hk
    | ⟨1, _⟩ => exact rhs_mmA_1 _ _)
  rw [el, er]

theorem lhs_mmB_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_mmB_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_mmB_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_mmB_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The [512, 512] by [512, 1024] product into the zero accumulator, at (p, c). -/
theorem mmB_apply {φ₁ φ₂ : FTy} (A : FVec Ideal S512x512 φ₁) (B : FVec Ideal S512x1024 φ₂) (p : Fin 512) (c : Fin 1024) :
    matmul (F := Ideal) dot_S512x512_S512x1024_S512x1024_1_0_0_1_n_n none A B (constant (F := Ideal) S512x1024 .f32 0x00000000#32) (ix2 p c)
      = ∑ k : Fin 512, A (ix2 p k) * B (ix2 k c) := by
  refine (Ideal.matmul_constant_zero_apply dot_S512x512_S512x1024_S512x1024_1_0_0_1_n_n none A B (ix2 p c)).trans ?_
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p c) ((contrEquiv1 dot_S512x512_S512x1024_S512x1024_1_0_0_1_n_n 512 rfl rfl).symm k) = ix2 p k := funext fun a => Fin.ext (by
    match a with
    | ⟨0, _⟩ => exact lhs_mmB_0 _ _
    | ⟨1, _⟩ => exact (lhs_mmB_1 _ _).trans hk)
  have er : dot_S512x512_S512x1024_S512x1024_1_0_0_1_n_n.rhsIdx (ix2 p c) ((contrEquiv1 dot_S512x512_S512x1024_S512x1024_1_0_0_1_n_n 512 rfl rfl).symm k) = ix2 k c := funext fun a => Fin.ext (by
    match a with
    | ⟨0, _⟩ => exact (rhs_mmB_0 _ _).trans hk
    | ⟨1, _⟩ => exact rhs_mmB_1 _ _)
  rw [el, er]

theorem lhs_mmC_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_mmC_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_mmC_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_mmC_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The [512, 1024] by [1024, 1024] product into the zero accumulator, at (p, c). -/
theorem mmC_apply {φ₁ φ₂ : FTy} (A : FVec Ideal S512x1024 φ₁) (B : FVec Ideal S1024x1024 φ₂) (p : Fin 512) (c : Fin 1024) :
    matmul (F := Ideal) dot_S512x1024_S1024x1024_S512x1024_1_0_0_1_n_n none A B (constant (F := Ideal) S512x1024 .f32 0x00000000#32) (ix2 p c)
      = ∑ k : Fin 1024, A (ix2 p k) * B (ix2 k c) := by
  refine (Ideal.matmul_constant_zero_apply dot_S512x1024_S1024x1024_S512x1024_1_0_0_1_n_n none A B (ix2 p c)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p c) ((contrEquiv1 dot_S512x1024_S1024x1024_S512x1024_1_0_0_1_n_n 1024 rfl rfl).symm k) = ix2 p k := funext fun a => Fin.ext (by
    match a with
    | ⟨0, _⟩ => exact lhs_mmC_0 _ _
    | ⟨1, _⟩ => exact (lhs_mmC_1 _ _).trans hk)
  have er : dot_S512x1024_S1024x1024_S512x1024_1_0_0_1_n_n.rhsIdx (ix2 p c) ((contrEquiv1 dot_S512x1024_S1024x1024_S512x1024_1_0_0_1_n_n 1024 rfl rfl).symm k) = ix2 k c := funext fun a => Fin.ext (by
    match a with
    | ⟨0, _⟩ => exact (rhs_mmC_0 _ _).trans hk
    | ⟨1, _⟩ => exact rhs_mmC_1 _ _)
  rw [el, er]

/-- A sum of products of coerced reals is the coercion of the real sum of products. -/
theorem sum_coe_mul_coe {ι : Type*} (s : Finset ι) (f g : ι → ℝ) :
    ∑ k ∈ s, ((f k : ℝ) : EReal) * ((g k : ℝ) : EReal) = ((∑ k ∈ s, f k * g k : ℝ) : EReal) := by
  rw [Cert.Lift.coe_finset_sum]
  exact Finset.sum_congr rfl fun k _ => (EReal.coe_mul _ _).symm

/-- A sum of coerced reals is the coercion of the real sum. -/
theorem sum_coe {ι : Type*} (s : Finset ι) (f : ι → ℝ) :
    ∑ k ∈ s, ((f k : ℝ) : EReal) = ((∑ k ∈ s, f k : ℝ) : EReal) :=
  (Cert.Lift.coe_finset_sum s f).symm

end Cert.Pay1.Epi

end
-- ==== Proof.Pay1EpiB.lean ====
import proofs.«404873_j80685255623116_3_alg».proof.Proof.Pay1EpiA

/-!
# The epilogue's intermediate values on real blocks

After the last key block the second kernel folds the dummy key into the running maximum and normaliser,
divides the rescaled value sum by the new normaliser (the row's attention output), rectifies the feature
block, forms the two residual branches and the third projection, and the hidden layer of the feed-forward
block. Each of these stored-or-passed values, applied to coerced real blocks, is the coercion of the real
formula of the specification's row epilogue; the proofs read the value at one index and push the coercion
through.
-/

noncomputable section

open scoped BigOperators

namespace Cert.Pay1.Epi

open Idealize.ShloMosaic Idealize.ShloMosaic.ValueIdx Cert.KernelIdeal Cert.KernelIdeal.Gen Cert.Spec Cert.Blk

/-- A row sum of a [512, 1024] block at the printed arguments (the axis list is typed over the literal rank). -/
theorem rowSum1024_apply (v : FVec Ideal S512x1024 .f32) (hφ : FKind.Formats .f32)
    (hacc : (0x00000000#32 : BitVec 32) = 0x00000000#32) (p : Fin 512) :
    multiReduction (F := Ideal) (s := S512x1024) .add ([1] : List (Fin 2)) S512 v 0x00000000#32 reduces_S512x1024_S512 hφ hacc
        (ix1 p)
      = ∑ k : Fin 1024, v (ix2 p k) :=
  rowSum_apply v _ _ hφ hacc p

/-! ## The rectified features -/

theorem pay5_eq (x : Fin 512 → Fin 1024 → ℝ) :
    k1_pay5 (F := Ideal) (mat x) = mat (fun r d => max (x r d) 0) := by
  funext j
  obtain ⟨r, d, rfl⟩ : ∃ (r : Fin 512) (d : Fin 1024), j = ix2 r d := ⟨j 0, j 1, eq_ix2 j⟩
  unfold k1_pay5
  simp only [maximumf_apply, extf_apply, shapeCast_self, broadcast_apply, mat_ix2, Ideal.ofBits_def,
    Cert.Lift.ofBits_zero, ← Cert.Lift.coe_max]

/-! ## The attention output, the dummy key folded in -/

theorem pay4_eq (q : Fin 512 → Fin 1024 → ℝ) (dm : Fin 1024 → ℝ) (m l : Fin 512 → ℝ) (acc : Fin 512 → Fin 1024 → ℝ)
    (hl : ∀ r, 0 ≤ l r) :
    k1_pay4 (F := Ideal) (mat q) (row dm) (col m) (col m) (col l) (mat acc) = mat (attBlk q dm m l acc) := by
  funext j
  obtain ⟨r, e, rfl⟩ : ∃ (r : Fin 512) (e : Fin 1024), j = ix2 r e := ⟨j 0, j 1, eq_ix2 j⟩
  unfold k1_pay4
  simp only [divf_apply, mulf_apply, addf_apply, subf_apply, maximumf_apply, exp_apply, extf_apply, shapeCast_self,
    broadcastTo_a1_ab_apply, broadcastTo_1b_ab_apply, shapeCast_a_a1_apply, rowSum1024_apply, mat_ix2, row_ix2, col_ix2,
    ← EReal.coe_mul, sum_coe, ← Cert.Lift.coe_max, ← EReal.coe_sub, exp_coe_real, ← EReal.coe_add]
  have hden : Real.exp (m r - max (m r) (∑ k : Fin 1024, q r k * dm k)) * l r
      + Real.exp ((∑ k : Fin 1024, q r k * dm k) - max (m r) (∑ k : Fin 1024, q r k * dm k)) ≠ 0 :=
    ne_of_gt (add_pos_of_nonneg_of_pos (mul_nonneg (Real.exp_pos _).le (hl r)) (Real.exp_pos _))
  rw [Cert.Lift.div_coe_coe _ hden]
  simp only [attBlk, sdum]

/-! ## The two branches' inputs and the first branch -/

theorem pay6_eq (q : Fin 512 → Fin 1024 → ℝ) (dm : Fin 1024 → ℝ) (m l : Fin 512 → ℝ) (acc x : Fin 512 → Fin 1024 → ℝ)
    (hl : ∀ r, 0 ≤ l r) :
    k1_pay6 (F := Ideal) (mat q) (row dm) (col m) (col m) (col l) (mat acc) (mat x)
      = mat (fun r d => max (x r d) 0 - attBlk q dm m l acc r d) := by
  unfold k1_pay6
  rw [pay5_eq, pay4_eq q dm m l acc hl]
  funext j
  obtain ⟨r, d, rfl⟩ : ∃ (r : Fin 512) (d : Fin 1024), j = ix2 r d := ⟨j 0, j 1, eq_ix2 j⟩
  simp only [subf_apply, mat_ix2, ← EReal.coe_sub]

theorem pay7_eq (a : Args) (q : Fin 512 → Fin 1024 → ℝ) (dm : Fin 1024 → ℝ) (m l : Fin 512 → ℝ) (acc x : Fin 512 → Fin 1024 → ℝ)
    (hl : ∀ r, 0 ≤ l r) :
    k1_pay7 (F := Ideal) (mat q) (row dm) (col m) (col m) (col l) (mat acc) (mat x) (mat (fun d h => a.W1 h d)) (vec a.b1)
      = mat (fun r h => o1R a (attBlk q dm m l acc r) (fun d => max (x r d) 0) h) := by
  unfold k1_pay7
  rw [pay5_eq, pay4_eq q dm m l acc hl]
  funext j
  obtain ⟨r, h, rfl⟩ : ∃ (r : Fin 512) (h : Fin 512), j = ix2 r h := ⟨j 0, j 1, eq_ix2 j⟩
  simp only [maximumf_apply, addf_apply, mmA_apply, truncf_apply, mulf_apply, shapeCast_self, rowBcast_apply, broadcast_apply,
    mat_ix2, vec_ix1, Ideal.ofBits_def, Cert.Lift.ofBits_zero, ← EReal.coe_mul, sum_coe, ← EReal.coe_add, ← Cert.Lift.coe_max,
    o1R]

/-! ## The second branch, the third projection, the feed-forward hidden layer -/

/-- The second residual branch before it enters the third projection: the rectified affine image of the
    difference between the features and the attention output. -/
theorem branch2_eq (a : Args) (at' vi : Fin 512 → Fin 1024 → ℝ) :
    maximumf (F := Ideal)
        (addf
          (matmul (F := Ideal) (φ₂ := .bf16) dot_S512x1024_S1024x512_S512x512_1_0_0_1_n_n none
            (truncf .bf16 (mat fun r d => vi r d - at' r d) bitsLt_bf16_f32)
            (shapeCast S1024x512 (mat fun d h => a.W2 h d) shapeCasts_S1024x512_S1024x512)
            (constant (F := Ideal) S512x512 .f32 0x00000000#32))
          (broadcastTo S512x512 (shapeCast S1x512 (vec a.b2) shapeCasts_S512_S1x512) broadcasts_S1x512_S512x512))
        (broadcast S512x512 (FloatOps.ofBits (F := Ideal) .f32 0x00000000#32))
      = mat (fun r h => o2R a (at' r) (vi r) h) := by
  funext j
  obtain ⟨r, h, rfl⟩ : ∃ (r : Fin 512) (h : Fin 512), j = ix2 r h := ⟨j 0, j 1, eq_ix2 j⟩
  simp only [maximumf_apply, addf_apply, mmA_apply, truncf_apply, shapeCast_self, rowBcast_apply, broadcast_apply,
    mat_ix2, vec_ix1, Ideal.ofBits_def, Cert.Lift.ofBits_zero, ← EReal.coe_mul, sum_coe, ← EReal.coe_add, ← Cert.Lift.coe_max,
    o2R]

theorem pay8_eq (a : Args) (at' vi : Fin 512 → Fin 1024 → ℝ) :
    k1_pay8 (F := Ideal) (mat vi) (mat (fun r d => vi r d - at' r d)) (mat (fun r h => o1R a (at' r) (vi r) h))
        (mat (fun d h => a.W2 h d)) (vec a.b2) (mat (fun h e => a.W3 e (q1 h))) (mat (fun h e => a.W3 e (q2 h)))
        (mat (fun d e => a.W3 e (hi d))) (vec a.b3)
      = mat (fun r e => oR a (at' r) (vi r) e) := by
  funext j
  obtain ⟨r, e, rfl⟩ : ∃ (r : Fin 512) (e : Fin 1024), j = ix2 r e := ⟨j 0, j 1, eq_ix2 j⟩
  unfold k1_pay8
  rw [branch2_eq]
  simp only [addf_apply, mmB_apply, mmC_apply, truncf_apply, shapeCast_self, rowBcast_apply,
    mat_ix2, vec_ix1, ← EReal.coe_mul, sum_coe, ← EReal.coe_add, oR]

theorem pay9_eq (a : Args) (at' vi : Fin 512 → Fin 1024 → ℝ) :
    k1_pay9 (F := Ideal) (mat vi) (mat (fun r d => vi r d - at' r d)) (mat (fun r h => o1R a (at' r) (vi r) h))
        (mat (fun d h => a.W2 h d)) (vec a.b2) (mat (fun h e => a.W3 e (q1 h))) (mat (fun h e => a.W3 e (q2 h)))
        (mat (fun d e => a.W3 e (hi d))) (vec a.b3) (mat (fun d f => a.Wf1 f d)) (vec a.bf1)
      = mat (fun r f => hidR a (at' r) (vi r) f) := by
  unfold k1_pay9
  rw [pay8_eq]
  funext j
  obtain ⟨r, f, rfl⟩ : ∃ (r : Fin 512) (f : Fin 1024), j = ix2 r f := ⟨j 0, j 1, eq_ix2 j⟩
  simp only [truncf_apply, addf_apply, maximumf_apply, mmC_apply, shapeCast_self, rowBcast_apply,
    broadcast_apply, mat_ix2, vec_ix1, Ideal.ofBits_def, Cert.Lift.ofBits_zero, ← EReal.coe_mul, sum_coe, ← EReal.coe_add,
    ← Cert.Lift.coe_max, hidR]

end Cert.Pay1.Epi

end
-- ==== Proof.Pay1Epi3.lean ====
import proofs.«404873_j80685255623116_3_alg».proof.Proof.Gen.KernelIdeal.Skeleton
import proofs.«404873_j80685255623116_3_alg».proof.Proof.Spec
import proofs.«404873_j80685255623116_3_alg».proof.Proof.Blk
import proofs.«404873_j80685255623116_3_alg».proof.Proof.Lift
import proofs.«404873_j80685255623116_3_alg».proof.Proof.Pay1Step
import Idealize.ShloMosaic.Lib.ValueLayout

/-!
# The last stage of the second kernel's epilogue, on real blocks

After the last key block the second kernel finishes each block of 512 rows: from the third projection's
output o and the feed-forward's hidden block it computes the second feed-forward product plus its bias,
normalises o row by row (subtract the row mean, divide by the root of the row variance plus a small
constant, scale and shift), adds the two and rectifies.

When o and the hidden block are arrays of real numbers every operation of that chain is the textbook one
on real numbers: the row mean and variance are finite sums over 1024, the variance is a mean of squares,
so the radicand is positive and the reciprocal root is the real one. The stored block is then the
coercion of the real formula, which is the row epilogue of the specification applied to each row.
-/

noncomputable section

open scoped BigOperators

namespace Cert.Pay1

open Idealize.ShloMosaic Idealize.ShloMosaic.ValueIdx Cert.Spec Cert.Blk Cert.KernelIdeal Cert.KernelIdeal.Gen

namespace Epi3

variable {n k : ℕ} {φ : FTy}

/-- A real vector cast to one row. -/
theorem shapeCast_vec_row (b : Fin k → ℝ) (h : (⟨1, ![k]⟩ : Shape).ShapeCasts ⟨2, ![1, k]⟩) :
    shapeCast ⟨2, ![1, k]⟩ (vec b) h = row b := by
  funext j
  obtain ⟨u, c, rfl⟩ : ∃ (u : Fin 1) (c : Fin k), j = ix2 u c := ⟨j 0, j 1, eq_ix2 j⟩
  exact shapeCast_a_1a_apply (vec b) h u c

/-- One real row broadcast over n rows. -/
theorem broadcastTo_row (b : Fin k → ℝ) (h : (⟨2, ![1, k]⟩ : Shape).Broadcasts ⟨2, ![n, k]⟩) :
    broadcastTo ⟨2, ![n, k]⟩ (row b) h = mat (fun (_ : Fin n) e => b e) := by
  funext j
  obtain ⟨p, c, rfl⟩ : ∃ (p : Fin n) (c : Fin k), j = ix2 p c := ⟨j 0, j 1, eq_ix2 j⟩
  exact broadcastTo_1b_ab_apply (row b) h p c

/-- A scalar literal denoting the real r, broadcast to a column and to a matrix. -/
theorem broadcast_col (bits : BitVec 32) (r : ℝ) (hb : Ideal.ofBits .f32 bits = ((r : ℝ) : EReal)) :
    broadcast (⟨2, ![n, 1]⟩ : Shape) (Scalar.ofBits (F := Ideal) .f32 bits) = col (fun _ : Fin n => r) :=
  funext fun _ => hb

theorem broadcast_mat (bits : BitVec 32) (r : ℝ) (hb : Ideal.ofBits .f32 bits = ((r : ℝ) : EReal)) :
    broadcast (⟨2, ![n, k]⟩ : Shape) (Scalar.ofBits (F := Ideal) .f32 bits) = mat (fun (_ : Fin n) (_ : Fin k) => r) :=
  funext fun _ => hb

/-- A quotient of real columns with a divisor that is nowhere zero. -/
theorem divf_col (a b : Fin n → ℝ) (hb : ∀ r, b r ≠ 0) :
    divf (F := Ideal) (φ := φ) (col a) (col b) = col (fun r => a r / b r) :=
  funext fun j => Cert.Lift.div_coe_coe (a (j 0)) (hb (j 0))

/-- The reciprocal root of a positive real column. -/
theorem rsqrt_col (a : Fin n → ℝ) (ha : ∀ r, 0 < a r) :
    rsqrt (F := Ideal) (φ := φ) (col a) = col (fun r => (Real.sqrt (a r))⁻¹) :=
  funext fun j => Cert.Lift.rsqrt_coe_pos (ha (j 0))

/-- The row sums of a real matrix kept as a column, with the accumulator's fact spelled as the program
    prints it (the zero word equals itself). -/
theorem rowSum_col' (X : Fin n → Fin k → ℝ) (h : (⟨2, ![n, k]⟩ : Shape).Reduces [1] ⟨1, ![n]⟩)
    (hφ : FKind.Formats .f32) (hacc : (0x00000000#32 : BitVec 32) = 0x00000000#32)
    (h' : (⟨1, ![n]⟩ : Shape).ShapeCasts ⟨2, ![n, 1]⟩) :
    shapeCast ⟨2, ![n, 1]⟩
        (multiReduction (F := Ideal) (φ := .f32) .add [1] ⟨1, ![n]⟩ (mat X) 0x00000000#32 h hφ hacc) h'
      = col (fun r => ∑ c : Fin k, X r c) :=
  rowSum_col X _ h hφ hacc h'

theorem maximumf_mat (A B : Fin n → Fin k → ℝ) :
    maximumf (F := Ideal) (φ := φ) (mat A) (mat B) = mat (fun r c => max (A r c) (B r c)) :=
  funext fun _ => (Cert.Lift.coe_max _ _).symm

/-- The pattern of the small constant under the root denotes the specification's constant, which is positive. -/
theorem ofBits_eps : Ideal.ofBits .f32 0x3727C5AC#32 = ((Cert.Spec.eps : ℝ) : EReal) := Cert.Lift.ofBits_eps
theorem eps_pos : 0 < Cert.Spec.eps := Cert.Lift.eps_pos

end Epi3

/-- The row mean and the row variance of a block. -/
def mu3 (o : Fin 512 → Fin 1024 → ℝ) (r : Fin 512) : ℝ := (∑ d : Fin 1024, o r d) / 1024
def var3 (o : Fin 512 → Fin 1024 → ℝ) (r : Fin 512) : ℝ :=
  (∑ d : Fin 1024, (o r d - mu3 o r) * (o r d - mu3 o r)) / 1024

theorem var3_nonneg (o : Fin 512 → Fin 1024 → ℝ) (r : Fin 512) : 0 ≤ var3 o r :=
  div_nonneg (Finset.sum_nonneg fun d _ => mul_self_nonneg _) (by norm_num)

/-- The stored block of the last stage, from a real block o and a real hidden block. -/
theorem pay3_eq (a : Args) (o hid : Fin 512 → Fin 1024 → ℝ) :
    k1_pay3 (F := Ideal) (mat o) (mat hid) (mat (fun f e => a.Wf2 e f)) (vec a.bf2) (vec a.lg) (vec a.lb)
      = mat (fun r e => max (((∑ f : Fin 1024, hid r f * a.Wf2 e f) + a.bf2 e)
          + (a.lg e * (o r e - mu3 o r) * (Real.sqrt (var3 o r + Cert.Spec.eps))⁻¹ + a.lb e)) 0) := by
  simp only [k1_pay3, shapeCast_self]
  rw [matmul_mat dot_S512x1024_S1024x1024_S512x1024_1_0_0_1_n_n rfl none hid (fun f e => a.Wf2 e f),
    Epi3.shapeCast_vec_row a.bf2, Epi3.broadcastTo_row a.bf2, addf_mat,
    Epi3.rowSum_col' o, Epi3.broadcast_col _ 1024 Cert.Lift.ofBits_1024,
    Epi3.divf_col _ (fun _ => (1024 : ℝ)) (fun _ => by norm_num),
    broadcastTo_col, subf_mat, mulf_mat, Epi3.rowSum_col',
    Epi3.divf_col _ (fun _ => (1024 : ℝ)) (fun _ => by norm_num),
    Epi3.shapeCast_vec_row a.lg, Epi3.broadcastTo_row a.lg, mulf_mat,
    Epi3.broadcast_col _ Cert.Spec.eps Epi3.ofBits_eps, addf_col, Epi3.rsqrt_col]
  swap
  · exact fun r => add_pos_of_nonneg_of_pos (var3_nonneg o r) Epi3.eps_pos
  rw [broadcastTo_col, mulf_mat,
    Epi3.shapeCast_vec_row a.lb, Epi3.broadcastTo_row a.lb, addf_mat, addf_mat,
    Epi3.broadcast_mat _ 0 Cert.Lift.ofBits_zero, Epi3.maximumf_mat]
  rfl

/-- With o and the hidden block the row epilogue's own, the stored block is the row epilogue of every row. -/
theorem pay3_epiRow (a : Args) (at' vi : Fin 512 → Fin 1024 → ℝ) :
    k1_pay3 (F := Ideal) (mat (fun r e => oR a (at' r) (vi r) e)) (mat (fun r f => hidR a (at' r) (vi r) f))
        (mat (fun f e => a.Wf2 e f)) (vec a.bf2) (vec a.lg) (vec a.lb)
      = mat (fun r e => epiRow a (at' r) (vi r) e) :=
  pay3_eq a _ _

end Cert.Pay1
-- ==== Proof.Pay1Epi.lean ====
import proofs.«404873_j80685255623116_3_alg».proof.Proof.Pay1EpiB
import proofs.«404873_j80685255623116_3_alg».proof.Proof.Pay1Epi3

/-!
# The second kernel's epilogue on real blocks

After the last key block of a block of 512 query rows the second kernel stores one value into its output
block. As a function of everything it has loaded — the query block, the dummy key's row, the running
maximum, normaliser and value sum as just stored, the feature block and the staged weights — that value is
`outPay`. On coerced real blocks it is, row by row, the specification's row epilogue applied to the row's
attention output (the dummy key folded in) and to the row's rectified features.
-/

noncomputable section

namespace Cert.Pay1

open Idealize.ShloMosaic Cert.KernelIdeal Cert.KernelIdeal.Gen Cert.Spec Cert.Blk Cert.Pay1.Epi

/-- What the second kernel stores into its output block after the last key block, from the query
    block, the dummy key's row, the three carried buffers, the feature block and the weights. -/
def outPay {F : FTy → Type} [FloatOps F] (v4 : FVec F S512x1024 .bf16) (v44 : Vec F S1x1024 .bf16)
    (v53 v55 v60 : Vec F S512x1 .f32) (v63 : Vec F S512x1024 .f32) (v68 : Vec F S512x1024 .bf16)
    (v76 : Vec F S1024x512 .bf16) (v79 : Vec F S512 .f32) (v86 : Vec F S1024x512 .bf16) (v89 : Vec F S512 .f32)
    (v96 v100 : Vec F S512x1024 .bf16) (v105 : Vec F S1024x1024 .bf16) (v109 : Vec F S1024 .f32)
    (v114 : Vec F S1024x1024 .bf16) (v117 : Vec F S1024 .f32) (v124 : Vec F S1024x1024 .bf16)
    (v127 v142 v153 : Vec F S1024 .f32) : FVec F S512x1024 .f32 :=
  k1_pay3
    (k1_pay8 (k1_pay5 v68) (k1_pay6 v4 v44 v53 v55 v60 v63 v68) (k1_pay7 v4 v44 v53 v55 v60 v63 v68 v76 v79)
      v86 v89 v96 v100 v105 v109)
    (k1_pay9 (k1_pay5 v68) (k1_pay6 v4 v44 v53 v55 v60 v63 v68) (k1_pay7 v4 v44 v53 v55 v60 v63 v68 v76 v79)
      v86 v89 v96 v100 v105 v109 v114 v117)
    v124 v127 v142 v153

/-- On real blocks the stored value is, row by row, the epilogue of the row's attention output and
    rectified features. The normaliser is only needed nonnegative: the dummy key's term keeps the
    denominator positive. -/
theorem outPay_eq (a : Args) (q : Fin 512 → Fin 1024 → ℝ) (m l : Fin 512 → ℝ) (acc x : Fin 512 → Fin 1024 → ℝ)
    (hl : ∀ r, 0 ≤ l r) :
    outPay (F := Ideal) (mat q) (row a.dm) (col m) (col m) (col l) (mat acc) (mat x)
        (mat (fun d h => a.W1 h d)) (vec a.b1) (mat (fun d h => a.W2 h d)) (vec a.b2)
        (mat (fun h e => a.W3 e (q1 h))) (mat (fun h e => a.W3 e (q2 h))) (mat (fun d e => a.W3 e (hi d))) (vec a.b3)
        (mat (fun d f => a.Wf1 f d)) (vec a.bf1) (mat (fun f e => a.Wf2 e f)) (vec a.bf2) (vec a.lg) (vec a.lb)
      = mat (fun r e => epiRow a (attBlk q a.dm m l acc r) (fun d => max (x r d) 0) e) := by
  unfold outPay
  rw [pay5_eq, pay6_eq q a.dm m l acc x hl, pay7_eq a q a.dm m l acc x hl,
    pay9_eq a (attBlk q a.dm m l acc) (fun r d => max (x r d) 0),
    pay8_eq a (attBlk q a.dm m l acc) (fun r d => max (x r d) 0)]
  exact pay3_epiRow a (attBlk q a.dm m l acc) (fun r d => max (x r d) 0)

end Cert.Pay1

end
-- ==== Proof.R1Out.lean ====
import proofs.«404873_j80685255623116_3_alg».proof.Proof.R1Induct
import proofs.«404873_j80685255623116_3_alg».proof.Proof.Pay1Epi

/-!
# The stored output block is the specification's rows

After the last key block of query block `qi` the carried arrays hold the closed form over the whole
row of keys. Fed those, the query block, the extra key's row, the feature block and the weights, the
composite stored value is, row by row, the epilogue of the specification's attention row on the row's
rectified features, which is the specification's result.
-/

noncomputable section

namespace Cert.R1Out

open Idealize.ShloMosaic Cert.Spec Cert.Blk Cert.FlashSpec Cert.KernelIdeal Cert.KernelIdeal.Gen
open Cert.R1Induct

/-- The query block as loaded is the query block (a cast to the same shape). -/
theorem pay13_eq (x : Vec Ideal S512x1024 .bf16) : k1_pay13 (F := Ideal) x = x := by
  simp only [k1_pay13, shapeCast_self]

/-- The stored block at the last key block, from the closed form. -/
theorem outPay_last (a : Args) (qi : Fin 16) :
    Pay1.outPay (F := Ideal) (mat (qS a qi)) (row a.dm) (col (mAfter a qi 15))
        (col (mAfter a qi 15)) (col (lAfter a qi 15)) (mat (accAfter a qi 15))
        (mat (fun (r : Fin 512) (d : Fin 1024) => a.X (rowIdx qi r) d))
        (mat (fun d h => a.W1 h d)) (vec a.b1) (mat (fun d h => a.W2 h d)) (vec a.b2)
        (mat (fun h e => a.W3 e (q1 h))) (mat (fun h e => a.W3 e (q2 h)))
        (mat (fun d e => a.W3 e (hi d))) (vec a.b3)
        (mat (fun d f => a.Wf1 f d)) (vec a.bf1) (mat (fun f e => a.Wf2 e f)) (vec a.bf2)
        (vec a.lg) (vec a.lb)
      = mat (fun (r : Fin 512) (e : Fin 1024) => result a (rowIdx qi r) e) :=
  (Pay1.outPay_eq a (qS a qi) (mAfter a qi 15) (lAfter a qi 15) (accAfter a qi 15)
      (fun r d => a.X (rowIdx qi r) d) (fun r => lAfter_nonneg a qi 15 r)).trans
    (epiBlock_last a qi)

/-- The same at the point `16 * qi + 15`, from the carried arrays of a family that satisfies the
point equations. -/
theorem outPay_point (a : Args) (S : ℕ → Carried)
    (hc : ∀ (n : ℕ) (hn : n < 256), ClosedAt a S n hn) (qi : Fin 16) :
    Pay1.outPay (F := Ideal) (mat (qS a qi)) (row a.dm) (S (16 * qi.val + 15)).2.1
        (S (16 * qi.val + 15)).2.1 (S (16 * qi.val + 15)).2.2 (S (16 * qi.val + 15)).1
        (mat (fun (r : Fin 512) (d : Fin 1024) => a.X (rowIdx qi r) d))
        (mat (fun d h => a.W1 h d)) (vec a.b1) (mat (fun d h => a.W2 h d)) (vec a.b2)
        (mat (fun h e => a.W3 e (q1 h))) (mat (fun h e => a.W3 e (q2 h)))
        (mat (fun d e => a.W3 e (hi d))) (vec a.b3)
        (mat (fun d f => a.Wf1 f d)) (vec a.bf1) (mat (fun f e => a.Wf2 e f)) (vec a.bf2)
        (vec a.lg) (vec a.lb)
      = mat (fun (r : Fin 512) (e : Fin 1024) => result a (rowIdx qi r) e) := by
  obtain ⟨h1, h2, h3⟩ := carried_last a S hc qi
  rw [h1, h2, h3]
  exact outPay_last a qi

/-- The same at a point `n` with `n % 16 = 15`, the query block named by `n / 16`. -/
theorem outPay_at (a : Args) (S : ℕ → Carried)
    (hc : ∀ (n : ℕ) (hn : n < 256), ClosedAt a S n hn) (n : ℕ) (hn : n < 256)
    (h15 : n % 16 = 15) :
    Pay1.outPay (F := Ideal) (mat (qS a ⟨n / 16, div16_lt hn⟩)) (row a.dm) (S n).2.1 (S n).2.1
        (S n).2.2 (S n).1
        (mat (fun (r : Fin 512) (d : Fin 1024) => a.X (rowIdx ⟨n / 16, div16_lt hn⟩ r) d))
        (mat (fun d h => a.W1 h d)) (vec a.b1) (mat (fun d h => a.W2 h d)) (vec a.b2)
        (mat (fun h e => a.W3 e (q1 h))) (mat (fun h e => a.W3 e (q2 h)))
        (mat (fun d e => a.W3 e (hi d))) (vec a.b3)
        (mat (fun d f => a.Wf1 f d)) (vec a.bf1) (mat (fun f e => a.Wf2 e f)) (vec a.bf2)
        (vec a.lg) (vec a.lb)
      = mat (fun (r : Fin 512) (e : Fin 1024) => result a (rowIdx ⟨n / 16, div16_lt hn⟩ r) e) := by
  obtain ⟨h1, h2, h3⟩ := hc n hn
  rw [h1, h2, h3, h15]
  exact outPay_last a _

end Cert.R1Out

end
-- ==== Proof.R1Final.lean ====
import proofs.«404873_j80685255623116_3_alg».proof.Proof.R1Value
import proofs.«404873_j80685255623116_3_alg».proof.Proof.R1Out

/-!
# The second region's output array is the specification's result: the last step

The epilogue of the closed form after all sixteen visits of a query block is the specification's result
at the block's 512 rows (the query block enters the epilogue unchanged). With that, every last visit
writes back the block of the result's rows, and the output array ends as the result.
-/

noncomputable section

namespace Cert.KernelIdeal.Val

open Cert.KernelIdeal Cert.KernelIdeal.Gen Cert.KernelIdeal.Frm
open Idealize.ShloMosaic Idealize.ShloMosaic.TcCoe Idealize.SL.Sem

/-- The epilogue over the closed form at query block qi is the result's rows of that block. -/
theorem epiClosed_eq (a : Spec.Args) (qi : Fin 16) :
    epiClosed a qi = Spec.mat (fun (r : Fin 512) e => Spec.result a (FlashSpec.rowIdx qi r) e) := by
  unfold epiClosed
  rw [R1Out.pay13_eq]
  exact R1Out.outPay_last a qi

/-- **The second region's output array is the specification's result.** -/
theorem out_array (m : (ℓ : Loc nD τ sig) → Buf (Elt Ideal) ℓ) (c : Dev nD) (a : Spec.Args) (h : Cert.LiftsK m c a) :
    (dat1 (Frm.V5 m (fun c => dat0 (Frm.V3 m) c)) c).arrAt 19 cfg1.N = Cert.Spec.mat (Cert.Spec.result a) :=
  out_array_of m c a h (epiClosed_eq a)

end Cert.KernelIdeal.Val

end
-- ==== Proof.PreArrays.lean ====
import proofs.«404873_j80685255623116_3_alg».proof.Proof.Gen.Pre_finite_inputs
import proofs.«404873_j80685255623116_3_alg».proof.Proof.Spec
import Idealize.ShloMosaic.Lib.ReduceAll
import Idealize.ShloMosaic.Lib.StableHlo.Predicate

/-!
# The precondition, read back over arrays

The precondition is a conjunction of 23 scalar bits: for each of the 21 float inputs, "every entry has
absolute value below +∞"; for the index input, "every word is at least 0" and "every word is below 81",
both read signed. Each bit is an and-reduction of an elementwise comparison over the whole array, so the
conjunction being 1 gives the comparison at every entry of every array.

An extended real whose absolute value is below +∞ is neither infinity, so it is a real number: every float
input is the coercion of a real array. A 32-bit word that is, read signed, at least 0 and below 81 has an
unsigned value below 81: the index input is a table of numbers below 81, written as words. Together these
are the record of real inputs of the specification.
-/

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-! ## One entry -/

/-- The f32 pattern with all exponent bits set, the sign clear and a zero fraction denotes +∞. -/
theorem inf_bits : Ideal.ofBits .f32 0x7F800000#32 = (⊤ : EReal) := by
  simp [Ideal.ofBits, Ideal.ieee]

/-- An extended real whose absolute value max x (-x) compares below +∞ is a real number: at ⊤ the maximum is
    ⊤, and at ⊥ it is -⊥ = ⊤. -/
theorem real_of_abs_lt (x : EReal) (h : Ideal.cmp .olt (max x (-x)) (Ideal.ofBits .f32 0x7F800000#32) = 1#1) :
    ∃ r : ℝ, x = (r : EReal) := by
  rw [inf_bits] at h
  have h' : max x (-x) < ⊤ := by
    simpa [Ideal.cmp, StableHlo.Predicate.ofBool_eq_one_iff] using h
  induction x using EReal.rec with
  | bot => simp at h'
  | coe r => exact ⟨r, rfl⟩
  | top => simp at h'

/-- A word that is, read signed, at least 0 and below 81 is below 81 read unsigned: a word with the top bit
    set reads negative. -/
theorem toNat_lt_of_signed (v : BitVec 32) (h0 : IntOp.cmpi .sge v 0#32 = 1#1) (h1 : IntOp.cmpi .slt v 81#32 = 1#1) :
    v.toNat < 81 := by
  have a := IntOp.cmpi_sge.1 h0
  have b := IntOp.cmpi_slt.1 h1
  rw [show (0#32 : BitVec 32).toInt = 0 from by decide] at a
  rw [show (81#32 : BitVec 32).toInt = 81 from by decide] at b
  rw [BitVec.toInt_eq_toNat_cond] at a b
  have hv := v.isLt
  by_cases hc : 2 * v.toNat < 2 ^ 32
  · rw [if_pos hc] at a b; omega
  · rw [if_neg hc] at a b; omega

/-! ## One array -/

section Arrays

variable {s : Shape} {axes : List (Fin s.rank)} {hb : (⟨0, ![]⟩ : Shape).BroadcastsInDim s ![]}
  {hr : s.ReducesTo axes S_} {hu : 0 < S_.numel} {init : IVec S_ 1} {j : S_.Idx}

/-- An array all of whose entries have absolute value below +∞ is, entry by entry, a real array. -/
theorem reals_of_all_finite {x : FVec Ideal s .f32}
    (e : Host.reduce IntOp.andi (cmpf .olt (Host.absf x) (broadcastInDim s ![] hb (constant S_ .f32 0x7F800000#32))) init hr hu j = 1#1) :
    ∃ f : s.Idx → ℝ, ∀ i, x i = ((f i : ℝ) : EReal) := by
  have hall : ∀ i, ∃ r : ℝ, x i = (r : EReal) := fun i =>
    real_of_abs_lt (x i) (Host.reduce_andi_all _ init hr hu j e i)
  exact ⟨fun i => (hall i).choose, fun i => (hall i).choose_spec⟩

end Arrays

/-- A finite matrix is a real matrix, coerced. -/
theorem mat_of_finite {n k : Nat} {axes : List (Fin 2)} {hb : (⟨0, ![]⟩ : Shape).BroadcastsInDim ⟨2, ![n, k]⟩ ![]}
    {hr : (⟨2, ![n, k]⟩ : Shape).ReducesTo axes S_} {hu : 0 < S_.numel} {init : IVec S_ 1} {j : S_.Idx}
    {x : FVec Ideal ⟨2, ![n, k]⟩ .f32}
    (e : Host.reduce IntOp.andi (cmpf .olt (Host.absf x) (broadcastInDim ⟨2, ![n, k]⟩ ![] hb (constant S_ .f32 0x7F800000#32))) init hr hu j = 1#1) :
    ∃ A : Fin n → Fin k → ℝ, x = Cert.Spec.mat A := by
  obtain ⟨f, hf⟩ := reals_of_all_finite e
  refine ⟨fun p q => f (ix2 p q), funext fun i => ?_⟩
  exact (hf i).trans (congrArg (fun t => ((f t : ℝ) : EReal)) (eq_ix2 i))

/-- A finite vector is a real vector, coerced. -/
theorem vec_of_finite {n : Nat} {axes : List (Fin 1)} {hb : (⟨0, ![]⟩ : Shape).BroadcastsInDim ⟨1, ![n]⟩ ![]}
    {hr : (⟨1, ![n]⟩ : Shape).ReducesTo axes S_} {hu : 0 < S_.numel} {init : IVec S_ 1} {j : S_.Idx}
    {x : FVec Ideal ⟨1, ![n]⟩ .f32}
    (e : Host.reduce IntOp.andi (cmpf .olt (Host.absf x) (broadcastInDim ⟨1, ![n]⟩ ![] hb (constant S_ .f32 0x7F800000#32))) init hr hu j = 1#1) :
    ∃ v : Fin n → ℝ, x = Cert.Spec.vec v := by
  obtain ⟨f, hf⟩ := reals_of_all_finite e
  refine ⟨fun p => f (ix1 p), funext fun i => ?_⟩
  exact (hf i).trans (congrArg (fun t => ((f t : ℝ) : EReal)) (eq_ix1 i))

/-- A finite matrix of one row is a real vector, coerced along the row. -/
theorem row_of_finite {k : Nat} {axes : List (Fin 2)} {hb : (⟨0, ![]⟩ : Shape).BroadcastsInDim ⟨2, ![1, k]⟩ ![]}
    {hr : (⟨2, ![1, k]⟩ : Shape).ReducesTo axes S_} {hu : 0 < S_.numel} {init : IVec S_ 1} {j : S_.Idx}
    {x : FVec Ideal ⟨2, ![1, k]⟩ .f32}
    (e : Host.reduce IntOp.andi (cmpf .olt (Host.absf x) (broadcastInDim ⟨2, ![1, k]⟩ ![] hb (constant S_ .f32 0x7F800000#32))) init hr hu j = 1#1) :
    ∃ v : Fin k → ℝ, x = Cert.Spec.row v := by
  obtain ⟨f, hf⟩ := reals_of_all_finite e
  refine ⟨fun q => f (ix2 (0 : Fin 1) q), funext fun i => ?_⟩
  have hi : i = ix2 (0 : Fin 1) (i 1) := by
    funext d
    match d with
    | ⟨0, _⟩ => exact Subsingleton.elim (α := Fin 1) _ _
    | ⟨1, _⟩ => rfl
  exact (hf i).trans (congrArg (fun t => ((f t : ℝ) : EReal)) hi)

/-- A vector of words each, read signed, in [0, 81) is a table of numbers below 81, written as words. -/
theorem words_of_range {n : Nat} {axes : List (Fin 1)} {hb : (⟨0, ![]⟩ : Shape).BroadcastsInDim ⟨1, ![n]⟩ ![]}
    {hr : (⟨1, ![n]⟩ : Shape).ReducesTo axes S_} {hu : 0 < S_.numel} {i0 i1 : IVec S_ 1} {j : S_.Idx}
    {w : IVec ⟨1, ![n]⟩ 32}
    (e0 : Host.reduce IntOp.andi (cmpi .sge w (broadcastInDim ⟨1, ![n]⟩ ![] hb (constantI S_ 32 0#32))) i0 hr hu j = 1#1)
    (e1 : Host.reduce IntOp.andi (cmpi .slt w (broadcastInDim ⟨1, ![n]⟩ ![] hb (constantI S_ 32 81#32))) i1 hr hu j = 1#1) :
    ∃ g : Fin n → Fin 81, w = Cert.Spec.words g := by
  have hlt : ∀ i, (w i).toNat < 81 := fun i =>
    toNat_lt_of_signed (w i) (Host.reduce_andi_all _ i0 hr hu j e0 i) (Host.reduce_andi_all _ i1 hr hu j e1 i)
  refine ⟨fun p => ⟨(w (ix1 p)).toNat, hlt _⟩, funext fun i => ?_⟩
  have hw : BitVec.ofNat 32 (w i).toNat = w i := by
    apply BitVec.eq_of_toNat_eq
    rw [BitVec.toNat_ofNat, Nat.mod_eq_of_lt (w i).isLt]
  exact hw.symm.trans (congrArg (fun t => BitVec.ofNat 32 (w t).toNat) (eq_ix1 i))

/-! ## All 22 arrays -/

variable [Facts]

/-- The precondition being 1 over 22 arrays gives a record of real inputs whose coercions the arrays are. The
    conjunction nests to the left, its last conjunct outermost: the two range tests of the index input, then the
    float inputs from the last to the first. -/
theorem args_of_pre
    (x0 : FVec Ideal S8192x1024 .f32) (x1 : IVec S8192 32) (x2 : FVec Ideal S80x300 .f32) (x3 : FVec Ideal S1x300 .f32)
    (x4 : FVec Ideal S1024x300 .f32) (x5 : FVec Ideal S1024 .f32) (x6 : FVec Ideal S1024x2048 .f32) (x7 : FVec Ideal S1024 .f32)
    (x8 : FVec Ideal S1024x1024 .f32) (x9 : FVec Ideal S1x1024 .f32) (x10 : FVec Ideal S512x1024 .f32) (x11 : FVec Ideal S512 .f32)
    (x12 : FVec Ideal S512x1024 .f32) (x13 : FVec Ideal S512 .f32) (x14 : FVec Ideal S1024x2048 .f32) (x15 : FVec Ideal S1024 .f32)
    (x16 : FVec Ideal S1024x1024 .f32) (x17 : FVec Ideal S1024 .f32) (x18 : FVec Ideal S1024x1024 .f32) (x19 : FVec Ideal S1024 .f32)
    (x20 : FVec Ideal S1024 .f32) (x21 : FVec Ideal S1024 .f32)
    (h : fn (F := Ideal) x0 x1 x2 x3 x4 x5 x6 x7 x8 x9 x10 x11 x12 x13 x14 x15 x16 x17 x18 x19 x20 x21 = fun _ => 1#1) :
    ∃ a : Cert.Spec.Args,
      x0 = Cert.Spec.mat a.X ∧ x1 = Cert.Spec.words a.g ∧ x2 = Cert.Spec.mat a.CLS ∧ x3 = Cert.Spec.row a.BG ∧
      x4 = Cert.Spec.mat a.Wp ∧ x5 = Cert.Spec.vec a.bp ∧ x6 = Cert.Spec.mat a.Wc ∧ x7 = Cert.Spec.vec a.bc ∧
      x8 = Cert.Spec.mat a.Wqk ∧ x9 = Cert.Spec.row a.dm ∧ x10 = Cert.Spec.mat a.W1 ∧ x11 = Cert.Spec.vec a.b1 ∧
      x12 = Cert.Spec.mat a.W2 ∧ x13 = Cert.Spec.vec a.b2 ∧ x14 = Cert.Spec.mat a.W3 ∧ x15 = Cert.Spec.vec a.b3 ∧
      x16 = Cert.Spec.mat a.Wf1 ∧ x17 = Cert.Spec.vec a.bf1 ∧ x18 = Cert.Spec.mat a.Wf2 ∧ x19 = Cert.Spec.vec a.bf2 ∧
      x20 = Cert.Spec.vec a.lg ∧ x21 = Cert.Spec.vec a.lb := by
  have e := congrFun h ix0
  clear h
  dsimp only [fn, fn_part1, fn_part2, fn_part3, fn_part4, fn_part5, fn_part6, andi] at e
  obtain ⟨e, c81⟩ := IntOp.andi_eq_one.1 e
  obtain ⟨e, c0⟩ := IntOp.andi_eq_one.1 e
  obtain ⟨e, r21⟩ := IntOp.andi_eq_one.1 e
  obtain ⟨e, r20⟩ := IntOp.andi_eq_one.1 e
  obtain ⟨e, r19⟩ := IntOp.andi_eq_one.1 e
  obtain ⟨e, r18⟩ := IntOp.andi_eq_one.1 e
  obtain ⟨e, r17⟩ := IntOp.andi_eq_one.1 e
  obtain ⟨e, r16⟩ := IntOp.andi_eq_one.1 e
  obtain ⟨e, r15⟩ := IntOp.andi_eq_one.1 e
  obtain ⟨e, r14⟩ := IntOp.andi_eq_one.1 e
  obtain ⟨e, r13⟩ := IntOp.andi_eq_one.1 e
  obtain ⟨e, r12⟩ := IntOp.andi_eq_one.1 e
  obtain ⟨e, r11⟩ := IntOp.andi_eq_one.1 e
  obtain ⟨e, r10⟩ := IntOp.andi_eq_one.1 e
  obtain ⟨e, r9⟩ := IntOp.andi_eq_one.1 e
  obtain ⟨e, r8⟩ := IntOp.andi_eq_one.1 e
  obtain ⟨e, r7⟩ := IntOp.andi_eq_one.1 e
  obtain ⟨e, r6⟩ := IntOp.andi_eq_one.1 e
  obtain ⟨e, r5⟩ := IntOp.andi_eq_one.1 e
  obtain ⟨e, r4⟩ := IntOp.andi_eq_one.1 e
  obtain ⟨e, r3⟩ := IntOp.andi_eq_one.1 e
  obtain ⟨r0, r2⟩ := IntOp.andi_eq_one.1 e
  obtain ⟨X, hX⟩ := mat_of_finite r0
  obtain ⟨g, hg⟩ := words_of_range c0 c81
  obtain ⟨CLS, hCLS⟩ := mat_of_finite r2
  obtain ⟨BG, hBG⟩ := row_of_finite r3
  obtain ⟨Wp, hWp⟩ := mat_of_finite r4
  obtain ⟨bp, hbp⟩ := vec_of_finite r5
  obtain ⟨Wc, hWc⟩ := mat_of_finite r6
  obtain ⟨bc, hbc⟩ := vec_of_finite r7
  obtain ⟨Wqk, hWqk⟩ := mat_of_finite r8
  obtain ⟨dm, hdm⟩ := row_of_finite r9
  obtain ⟨W1, hW1⟩ := mat_of_finite r10
  obtain ⟨b1, hb1⟩ := vec_of_finite r11
  obtain ⟨W2, hW2⟩ := mat_of_finite r12
  obtain ⟨b2, hb2⟩ := vec_of_finite r13
  obtain ⟨W3, hW3⟩ := mat_of_finite r14
  obtain ⟨b3, hb3⟩ := vec_of_finite r15
  obtain ⟨Wf1, hWf1⟩ := mat_of_finite r16
  obtain ⟨bf1, hbf1⟩ := vec_of_finite r17
  obtain ⟨Wf2, hWf2⟩ := mat_of_finite r18
  obtain ⟨bf2, hbf2⟩ := vec_of_finite r19
  obtain ⟨lg, hlg⟩ := vec_of_finite r20
  obtain ⟨lb, hlb⟩ := vec_of_finite r21
  exact ⟨⟨X, g, CLS, BG, Wp, bp, Wc, bc, Wqk, dm, W1, b1, W2, b2, W3, b3, Wf1, bf1, Wf2, bf2, lg, lb⟩, hX, hg, hCLS, hBG, hWp, hbp, hWc, hbc, hWqk, hdm, hW1, hb1, hW2, hb2, hW3, hb3, hWf1, hbf1, hWf2, hbf2, hlg, hlb⟩

end Cert.PreDecode

end
-- ==== Proof.PreDecode.lean ====
import proofs.«404873_j80685255623116_3_alg».proof.Defs
import proofs.«404873_j80685255623116_3_alg».proof.Proof.Gen.Pre_finite_inputs
import proofs.«404873_j80685255623116_3_alg».proof.Proof.Lifts
import proofs.«404873_j80685255623116_3_alg».proof.Proof.PreArrays
import Idealize.ShloMosaic.Lib.ReduceAll
import Idealize.ShloMosaic.Lib.StableHlo.Predicate

/-!
# The precondition gives real inputs

The certificate's precondition says, on every core, that the printed predicate of the 22 argument buffers of
the idealized kernel's memory is 1. Read back over arrays, that predicate gives a record of real inputs whose
coercions the 22 buffers are: every float input finite, every class index below 81.
-/

noncomputable section

namespace Cert.PreDecode

open Idealize.ShloMosaic Idealize.ShloMosaic.TcCoe Idealize.SL.Sem

/-- Under the precondition, on each core the argument buffers are the coercions of some real inputs. -/
theorem lifts_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∃ a : Cert.Spec.Args, Cert.LiftsK m c a := by
  obtain ⟨a, h0, h1, h2, h3, h4, h5, h6, h7, h8, h9, h10, h11, h12, h13, h14, h15, h16, h17, h18, h19, h20, h21⟩ :=
    args_of_pre _ _ _ _ _ _ _ _ _ _ _ _ _ _ _ _ _ _ _ _ _ _ (h c)
  exact ⟨a, ⟨h0, h1, h2, h3, h4, h5, h6, h7, h8, h9, h10, h11, h12, h13, h14, h15, h16, h17, h18, h19, h20, h21⟩⟩

end Cert.PreDecode

end
-- ==== Proof.RefA.lean ====
import proofs.«404873_j80685255623116_3_alg».proof.Proof.RefReadP
import proofs.«404873_j80685255623116_3_alg».proof.Proof.Spec
import proofs.«404873_j80685255623116_3_alg».proof.Proof.Lift

/-!
# The reference's first stages are the specification's tables

The reference projects the 81 class embeddings, picks each row's embedding by its class index, joins it to the
row's features and projects the pair; it rectifies the features and the picked embeddings and projects both by one
matrix into queries and keys; it appends the dummy key below the keys and a zero row below the values. Read index by
index on real inputs, each of these arrays is the coercion of the specification's table of the same name.

A concatenation is read by cases on the joined coordinate; the gather reads the table's row whose number the index
word holds, the number being below 81 so that neither the sign test nor the clamp changes it; a contraction over a
concatenation along the contracted axis splits into the two halves' contractions.
-/

noncomputable section

open scoped BigOperators

namespace Cert.RefA

open Cert.ReferenceIdeal Cert.ReferenceIdeal.Gen Cert.ReferenceIdeal.Read Cert.Spec
open Idealize.ShloMosaic Idealize.ShloMosaic.ValueIdx

/-! ## Two arrays joined along an axis, read at an index -/

section Concat
variable {α : Type}

/-- Rows joined below rows: an index above the seam reads the upper array at the same place. -/
theorem concat_rows_top {n m N k : Nat} (x : (⟨2, ![n, k]⟩ : Shape).Idx → α) (y : (⟨2, ![m, k]⟩ : Shape).Idx → α)
    (h : Shape.Concatenates [⟨2, ![n, k]⟩, ⟨2, ![m, k]⟩] ⟨2, ![N, k]⟩ 0) (p : Fin N) (q : Fin k) (hp : p.val < n) :
    concatenate ⟨2, ![N, k]⟩ 0 [⟨⟨2, ![n, k]⟩, x⟩, ⟨⟨2, ![m, k]⟩, y⟩] h (ix2 p q) = x (ix2 ⟨p.val, hp⟩ q) :=
  concatenate_pair_apply_left 0 x y h (ix2 p q) rfl (ix2 ⟨p.val, hp⟩ q)
    (fun b => match b with | ⟨0, _⟩ => rfl | ⟨1, _⟩ => rfl)

/-- An index at or below the seam reads the lower array, the upper array's height less. -/
theorem concat_rows_bot {n m N k : Nat} (x : (⟨2, ![n, k]⟩ : Shape).Idx → α) (y : (⟨2, ![m, k]⟩ : Shape).Idx → α)
    (h : Shape.Concatenates [⟨2, ![n, k]⟩, ⟨2, ![m, k]⟩] ⟨2, ![N, k]⟩ 0) (p : Fin N) (q : Fin k) (hp : n ≤ p.val)
    (hm : p.val - n < m) :
    concatenate ⟨2, ![N, k]⟩ 0 [⟨⟨2, ![n, k]⟩, x⟩, ⟨⟨2, ![m, k]⟩, y⟩] h (ix2 p q) = y (ix2 ⟨p.val - n, hm⟩ q) :=
  concatenate_pair_apply_right 0 x y h (ix2 p q) rfl rfl (ix2 ⟨p.val - n, hm⟩ q)
    (fun b => match b with | ⟨0, _⟩ => fun hb => absurd rfl hb | ⟨1, _⟩ => fun _ => rfl)
    (by show p.val - n + n = p.val; omega)

/-- Columns joined beside columns: an index left of the seam reads the left array at the same place. -/
theorem concat_cols_left {n k l K : Nat} (x : (⟨2, ![n, k]⟩ : Shape).Idx → α) (y : (⟨2, ![n, l]⟩ : Shape).Idx → α)
    (h : Shape.Concatenates [⟨2, ![n, k]⟩, ⟨2, ![n, l]⟩] ⟨2, ![n, K]⟩ 1) (p : Fin n) (q : Fin K) (hq : q.val < k) :
    concatenate ⟨2, ![n, K]⟩ 1 [⟨⟨2, ![n, k]⟩, x⟩, ⟨⟨2, ![n, l]⟩, y⟩] h (ix2 p q) = x (ix2 p ⟨q.val, hq⟩) :=
  concatenate_pair_apply_left 1 x y h (ix2 p q) rfl (ix2 p ⟨q.val, hq⟩)
    (fun b => match b with | ⟨0, _⟩ => rfl | ⟨1, _⟩ => rfl)

/-- An index at or right of the seam reads the right array, the left array's width less. -/
theorem concat_cols_right {n k l K : Nat} (x : (⟨2, ![n, k]⟩ : Shape).Idx → α) (y : (⟨2, ![n, l]⟩ : Shape).Idx → α)
    (h : Shape.Concatenates [⟨2, ![n, k]⟩, ⟨2, ![n, l]⟩] ⟨2, ![n, K]⟩ 1) (p : Fin n) (q : Fin K) (hq : k ≤ q.val)
    (hl : q.val - k < l) :
    concatenate ⟨2, ![n, K]⟩ 1 [⟨⟨2, ![n, k]⟩, x⟩, ⟨⟨2, ![n, l]⟩, y⟩] h (ix2 p q) = y (ix2 p ⟨q.val - k, hl⟩) :=
  concatenate_pair_apply_right 1 x y h (ix2 p q) rfl rfl (ix2 p ⟨q.val - k, hl⟩)
    (fun b => match b with | ⟨0, _⟩ => fun _ => rfl | ⟨1, _⟩ => fun hb => absurd rfl hb)
    (by show q.val - k + k = q.val; omega)

end Concat

/-! ## The gather of table rows, read at an index -/

section Gather
variable {α : Type}

/-- Result element (p, q) is the table at (r, q), r the start index of row p read as a signed number and clamped
    into the table's 81 rows: the row axis is collapsed and start-indexed, the column axis is the one offset axis. -/
theorem gather_rows_apply (x : S81x1024.Idx → α) (idx : IVec S8192x1 32) (p : Fin 8192) (q : Fin 1024) :
    Host.gather gather_S81x1024_S8192x1_S8192x1024_1_0_n_n_0_1_11024 x idx (ix2 p q)
      = x (ix2 (⟨min (idx (ix2 p (0 : Fin 1))).toInt.toNat 80, by omega⟩ : Fin 81) q) := by
  unfold Host.gather
  congr 1
  funext a
  refine Fin.ext ?_
  match a with
  | ⟨0, _⟩ =>
    show GatherDims.start gather_S81x1024_S8192x1_S8192x1024_1_0_n_n_0_1_11024 (ix2 p q) idx 0 + GatherDims.batchCoord gather_S81x1024_S8192x1_S8192x1024_1_0_n_n_0_1_11024 (ix2 p q) 0
      + GatherDims.offCoord gather_S81x1024_S8192x1_S8192x1024_1_0_n_n_0_1_11024 (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S81x1024_S8192x1_S8192x1024_1_0_n_n_0_1_11024.startIndexMap from List.mem_singleton.mpr rfl)]
    have hsi : gather_S81x1024_S8192x1_S8192x1024_1_0_n_n_0_1_11024.siIdx (ix2 p q)
        ⟨List.idxOf (0 : Fin 2) gather_S81x1024_S8192x1_S8192x1024_1_0_n_n_0_1_11024.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show GatherDims.start gather_S81x1024_S8192x1_S8192x1024_1_0_n_n_0_1_11024 (ix2 p q) idx 1 + GatherDims.batchCoord gather_S81x1024_S8192x1_S8192x1024_1_0_n_n_0_1_11024 (ix2 p q) 1
      + GatherDims.offCoord gather_S81x1024_S8192x1_S8192x1024_1_0_n_n_0_1_11024 (ix2 p q) 1 = q.val
    rw [GatherDims.batchCoord_eq_zero _ _ _ List.not_mem_nil]
    have hst : GatherDims.start gather_S81x1024_S8192x1_S8192x1024_1_0_n_n_0_1_11024 (ix2 p q) idx 1 = 0 := by
      unfold GatherDims.start
      rw [dif_neg (show ¬ (1 : Fin 2) ∈ gather_S81x1024_S8192x1_S8192x1024_1_0_n_n_0_1_11024.startIndexMap by decide)]
    rw [hst, Nat.zero_add]
    rfl

/-- The 32-bit word of a number below 81 reads back, signed, as that number … -/
theorem toNat_word : ∀ g : Fin 81, (BitVec.ofNat 32 g.val).toInt.toNat = g.val := by decide
/-- … and is not negative. -/
theorem slt_word : ∀ g : Fin 81, IntOp.cmpi .slt (BitVec.ofNat 32 g.val) 0#32 = 0#1 := by decide

/-- With the start index the word of a row number g of the table, the clamp does nothing: the gather reads row g. -/
theorem gather_rows_of_word (x : S81x1024.Idx → α) (idx : IVec S8192x1 32) (p : Fin 8192) (q : Fin 1024) (g : Fin 81)
    (hg : idx (ix2 p (0 : Fin 1)) = BitVec.ofNat 32 g.val) :
    Host.gather gather_S81x1024_S8192x1_S8192x1024_1_0_n_n_0_1_11024 x idx (ix2 p q) = x (ix2 g q) := by
  refine (gather_rows_apply x idx p q).trans (congrArg x ?_)
  have e : (⟨min (idx (ix2 p (0 : Fin 1))).toInt.toNat 80, by omega⟩ : Fin 81) = g :=
    Fin.ext (by show min (idx (ix2 p (0 : Fin 1))).toInt.toNat 80 = g.val; rw [hg, toNat_word]; have := g.isLt; omega)
  rw [e]

end Gather

/-! ## A sum over 2048 columns is the sum over the first 1024 and the sum over the last 1024 -/

theorem sum_halves (f : Fin 2048 → ℝ) : ∑ c : Fin 2048, f c = ∑ d : Fin 1024, f (lo d) + ∑ d : Fin 1024, f (hi d) :=
  Fin.sum_univ_add (M := ℝ) (a := 1024) (b := 1024) f

variable (a : Args)

/-! ## The table of projected class embeddings (%0 – %5) -/

/-- The 80 class rows with the background row below them. -/
theorem v0_apply (k : Fin 81) (s : Fin 300) :
    val_main_v0 (F := Ideal) (mat a.CLS) (row a.BG) (ix2 k s) = ((emb a k s : ℝ) : EReal) := by
  unfold val_main_v0
  by_cases h : k.val < 80
  · refine (concat_rows_top (mat a.CLS) (row a.BG) concatenates_S80x300_S1x300_S81x300_d0 k s h).trans ?_
    show ((a.CLS ⟨k.val, h⟩ s : ℝ) : EReal) = _
    rw [emb, dif_pos h]
  · refine (concat_rows_bot (mat a.CLS) (row a.BG) concatenates_S80x300_S1x300_S81x300_d0 k s (by omega)
      (by have := k.isLt; omega)).trans ?_
    show ((a.BG s : ℝ) : EReal) = _
    rw [emb, dif_neg h]

theorem v5_eq : val_main_v5 (F := Ideal) (mat a.CLS) (row a.BG) (mat a.Wp) (vec a.bp) = mat (ce a) := by
  funext i
  obtain ⟨k, e, rfl⟩ : ∃ (k : Fin 81) (e : Fin 1024), i = ix2 k e := ⟨i 0, i 1, eq_ix2 i⟩
  have hl : ∀ s : Fin 300, lidx_main_v2 (ix2 k e) s = ix2 k s := fun s =>
    funext fun b => Fin.ext (by match b with | ⟨0, _⟩ => rfl | ⟨1, _⟩ => rfl)
  rw [val_main_v5_apply, val_main_v2_apply, val_main_v4_apply, val_main_v3_apply]
  simp only [hl, v0_apply, val_main_v1_apply]
  show (∑ s : Fin 300, ((emb a k s : ℝ) : EReal) * ((a.Wp e s : ℝ) : EReal)) + ((a.bp e : ℝ) : EReal)
    = ((ce a k e : ℝ) : EReal)
  rw [ce, EReal.coe_add, Cert.Lift.coe_finset_sum]
  simp only [EReal.coe_mul]

/-! ## Each row's class embedding (%6 – %12) -/

/-- The start index of row p: the class index's word, which the sign test leaves alone. -/
theorem v11_apply (p : Fin 8192) :
    val_main_v11 (F := Ideal) (words a.g) (ix2 p (0 : Fin 1)) = BitVec.ofNat 32 (a.g p).val := by
  rw [val_main_v11_apply, val_main_v10_apply, val_main_v7_apply]
  show Scalar.select (IntOp.cmpi .slt (BitVec.ofNat 32 (a.g p).val) (val_main_v6 (F := Ideal) _)) _
    (BitVec.ofNat 32 (a.g p).val) = _
  rw [val_main_v6_apply, val_main_c_apply, slt_word, select_zero]

theorem v12_eq :
    val_main_v12 (F := Ideal) (words a.g) (mat a.CLS) (row a.BG) (mat a.Wp) (vec a.bp) = mat (sem a) := by
  funext i
  obtain ⟨p, q, rfl⟩ : ∃ (p : Fin 8192) (q : Fin 1024), i = ix2 p q := ⟨i 0, i 1, eq_ix2 i⟩
  unfold val_main_v12
  rw [v5_eq]
  exact gather_rows_of_word (mat (ce a)) _ p q (a.g p) (v11_apply a p)

/-! ## The combined features (%13 – %18) -/

/-- Row p of the joined array: the class embedding, then the features. -/
def cat (p : Fin 8192) (c : Fin 2048) : ℝ :=
  if h : c.val < 1024 then sem a p ⟨c.val, h⟩ else a.X p ⟨c.val - 1024, by have := c.isLt; omega⟩

theorem cat_lo (p : Fin 8192) (d : Fin 1024) : cat a p (lo d) = sem a p d := by
  rw [cat, dif_pos (show (lo d).val < 1024 from d.isLt)]; rfl

theorem cat_hi (p : Fin 8192) (d : Fin 1024) : cat a p (hi d) = a.X p d := by
  rw [cat, dif_neg (show ¬ (hi d).val < 1024 by show ¬ 1024 + d.val < 1024; omega)]
  exact congrArg (a.X p) (Fin.ext (by show 1024 + d.val - 1024 = d.val; omega))

theorem v13_apply (p : Fin 8192) (c : Fin 2048) :
    val_main_v13 (F := Ideal) (mat a.X) (words a.g) (mat a.CLS) (row a.BG) (mat a.Wp) (vec a.bp) (ix2 p c)
      = ((cat a p c : ℝ) : EReal) := by
  unfold val_main_v13
  rw [v12_eq]
  by_cases h : c.val < 1024
  · refine (concat_cols_left (mat (sem a)) (mat a.X) concatenates_S8192x1024_S8192x1024_S8192x2048_d1 p c h).trans ?_
    show ((sem a p ⟨c.val, h⟩ : ℝ) : EReal) = _
    rw [cat, dif_pos h]
  · refine (concat_cols_right (mat (sem a)) (mat a.X) concatenates_S8192x1024_S8192x1024_S8192x2048_d1 p c (by omega)
      (by have := c.isLt; omega)).trans ?_
    show ((a.X p ⟨c.val - 1024, _⟩ : ℝ) : EReal) = _
    rw [cat, dif_neg h]

theorem v18_eq :
    val_main_v18 (F := Ideal) (mat a.X) (words a.g) (mat a.CLS) (row a.BG) (mat a.Wp) (vec a.bp) (mat a.Wc) (vec a.bc)
      = mat (comb a) := by
  funext i
  obtain ⟨p, e, rfl⟩ : ∃ (p : Fin 8192) (e : Fin 1024), i = ix2 p e := ⟨i 0, i 1, eq_ix2 i⟩
  have hl : ∀ c : Fin 2048, lidx_main_v15 (ix2 p e) c = ix2 p c := fun c =>
    funext fun b => Fin.ext (by match b with | ⟨0, _⟩ => rfl | ⟨1, _⟩ => rfl)
  rw [val_main_v18_apply, val_main_v15_apply, val_main_v17_apply, val_main_v16_apply]
  simp only [hl, v13_apply, val_main_v14_apply]
  show (∑ c : Fin 2048, ((cat a p c : ℝ) : EReal) * ((a.Wc e c : ℝ) : EReal)) + ((a.bc e : ℝ) : EReal)
    = ((comb a p e : ℝ) : EReal)
  have hc : comb a p e = (∑ c : Fin 2048, cat a p c * a.Wc e c) + a.bc e := by
    rw [comb, sum_halves]
    simp only [cat_lo, cat_hi]
  rw [hc, EReal.coe_add, Cert.Lift.coe_finset_sum]
  simp only [EReal.coe_mul]

/-! ## Rectified features, queries, keys (%19 – %24) -/

theorem v19_eq : val_main_v19 (F := Ideal) (mat a.X) = mat (vis a) := by
  funext i
  obtain ⟨p, d, rfl⟩ : ∃ (p : Fin 8192) (d : Fin 1024), i = ix2 p d := ⟨i 0, i 1, eq_ix2 i⟩
  rw [val_main_v19_apply, val_main_call0_v0_apply, val_main_call0_cst_apply]
  show max ((a.X p d : ℝ) : EReal) (Ideal.ofBits .f32 0x00000000#32) = ((vis a p d : ℝ) : EReal)
  rw [Cert.Lift.ofBits_zero, ← Cert.Lift.coe_max]; rfl

/-- The rectified class embeddings. -/
theorem v20_eq :
    val_main_v20 (F := Ideal) (words a.g) (mat a.CLS) (row a.BG) (mat a.Wp) (vec a.bp)
      = mat (fun j d => max (sem a j d) 0) := by
  funext i
  obtain ⟨p, d, rfl⟩ : ∃ (p : Fin 8192) (d : Fin 1024), i = ix2 p d := ⟨i 0, i 1, eq_ix2 i⟩
  rw [val_main_v20_apply, val_main_call1_v0_apply, val_main_call1_cst_apply, v12_eq]
  show max ((sem a p d : ℝ) : EReal) (Ideal.ofBits .f32 0x00000000#32) = ((max (sem a p d) 0 : ℝ) : EReal)
  rw [Cert.Lift.ofBits_zero, ← Cert.Lift.coe_max]

theorem v22_eq : val_main_v22 (F := Ideal) (mat a.X) (mat a.Wqk) = mat (qp a) := by
  funext i
  obtain ⟨p, e, rfl⟩ : ∃ (p : Fin 8192) (e : Fin 1024), i = ix2 p e := ⟨i 0, i 1, eq_ix2 i⟩
  rw [val_main_v22_apply]
  simp only [v19_eq, val_main_v21_apply]
  show (∑ d : Fin 1024, ((vis a p d : ℝ) : EReal) * ((a.Wqk e d : ℝ) : EReal)) = ((qp a p e : ℝ) : EReal)
  rw [qp, Cert.Lift.coe_finset_sum]
  simp only [EReal.coe_mul]

theorem v24_eq :
    val_main_v24 (F := Ideal) (words a.g) (mat a.CLS) (row a.BG) (mat a.Wp) (vec a.bp) (mat a.Wqk) = mat (kp a) := by
  funext i
  obtain ⟨p, e, rfl⟩ : ∃ (p : Fin 8192) (e : Fin 1024), i = ix2 p e := ⟨i 0, i 1, eq_ix2 i⟩
  rw [val_main_v24_apply]
  simp only [v20_eq, val_main_v23_apply]
  show (∑ d : Fin 1024, ((max (sem a p d) 0 : ℝ) : EReal) * ((a.Wqk e d : ℝ) : EReal)) = ((kp a p e : ℝ) : EReal)
  rw [kp, Cert.Lift.coe_finset_sum]
  simp only [EReal.coe_mul]

/-! ## The keys with the dummy key below, the values with a zero row below (%25 – %27) -/

theorem v25_eq :
    val_main_v25 (F := Ideal) (words a.g) (mat a.CLS) (row a.BG) (mat a.Wp) (vec a.bp) (mat a.Wqk) (row a.dm)
      = mat (fun (j : Fin 8193) e => if h : j.val < 8192 then kp a ⟨j.val, h⟩ e else a.dm e) := by
  funext i
  obtain ⟨j, e, rfl⟩ : ∃ (j : Fin 8193) (e : Fin 1024), i = ix2 j e := ⟨i 0, i 1, eq_ix2 i⟩
  unfold val_main_v25
  rw [v24_eq]
  by_cases h : j.val < 8192
  · refine (concat_rows_top (mat (kp a)) (row a.dm) concatenates_S8192x1024_S1x1024_S8193x1024_d0 j e h).trans ?_
    show ((kp a ⟨j.val, h⟩ e : ℝ) : EReal) = (((if h : j.val < 8192 then kp a ⟨j.val, h⟩ e else a.dm e) : ℝ) : EReal)
    rw [dif_pos h]
  · refine (concat_rows_bot (mat (kp a)) (row a.dm) concatenates_S8192x1024_S1x1024_S8193x1024_d0 j e (by omega)
      (by have := j.isLt; omega)).trans ?_
    show ((a.dm e : ℝ) : EReal) = (((if h : j.val < 8192 then kp a ⟨j.val, h⟩ e else a.dm e) : ℝ) : EReal)
    rw [dif_neg h]

/-- The zero row. -/
theorem v26_apply (i : S1x1024.Idx) : val_main_v26 (F := Ideal) i = ((0 : ℝ) : EReal) := by
  rw [val_main_v26_apply, val_main_cst_apply]
  exact Cert.Lift.ofBits_zero

theorem v27_eq :
    val_main_v27 (F := Ideal) (mat a.X) (words a.g) (mat a.CLS) (row a.BG) (mat a.Wp) (vec a.bp) (mat a.Wc) (vec a.bc)
      = mat (fun (j : Fin 8193) e => if h : j.val < 8192 then comb a ⟨j.val, h⟩ e else 0) := by
  funext i
  obtain ⟨j, e, rfl⟩ : ∃ (j : Fin 8193) (e : Fin 1024), i = ix2 j e := ⟨i 0, i 1, eq_ix2 i⟩
  unfold val_main_v27
  rw [v18_eq]
  by_cases h : j.val < 8192
  · refine (concat_rows_top (mat (comb a)) (val_main_v26 (F := Ideal)) concatenates_S8192x1024_S1x1024_S8193x1024_d0 j e h).trans ?_
    show ((comb a ⟨j.val, h⟩ e : ℝ) : EReal) = (((if h : j.val < 8192 then comb a ⟨j.val, h⟩ e else 0) : ℝ) : EReal)
    rw [dif_pos h]
  · refine (concat_rows_bot (mat (comb a)) (val_main_v26 (F := Ideal)) concatenates_S8192x1024_S1x1024_S8193x1024_d0 j e (by omega)
      (by have := j.isLt; omega)).trans ?_
    rw [v26_apply]
    show ((0 : ℝ) : EReal) = (((if h : j.val < 8192 then comb a ⟨j.val, h⟩ e else 0) : ℝ) : EReal)
    rw [dif_neg h]

end Cert.RefA

end
-- ==== Proof.RefB.lean ====
import proofs.«404873_j80685255623116_3_alg».proof.Proof.RefReadP
import proofs.«404873_j80685255623116_3_alg».proof.Proof.Spec
import proofs.«404873_j80685255623116_3_alg».proof.Proof.Blk
import proofs.«404873_j80685255623116_3_alg».proof.Proof.Lift
import proofs.«404873_j80685255623116_3_alg».proof.Proof.Flash

/-!
# The reference's attention: operations %28 – %43

The reference multiplies the 8192 queries with the 8193 transposed keys, divides by 32, takes a row-wise
softmax (the largest score of a row, the exponentials relative to it, their sum, the quotient) and
multiplies the weights with the 8193 value rows. Given that the queries, the keys and the value rows are
the coercions of the specification's, the result is the coercion of the specification's attention output.

Three parts: the attention of real matrices written as plain real formulas; its identification with the
specification's (whose sums run over 8192 keys plus one extra term for the dummy key); and the walk through
the reference's operations, each shown to produce the coercion of the corresponding real array.
-/

noncomputable section

open scoped BigOperators

namespace Cert.RefB

open Cert.ReferenceIdeal Cert.ReferenceIdeal.Gen Cert.ReferenceIdeal.Read Idealize.ShloMosaic Cert.Spec

/-! ## Softmax attention of 8192 query rows over 8193 keys, over the reals

For real matrices Q (queries), K (keys) and V (values): the scaled scores, each row's largest score, the
shifted exponentials, their row sums, the softmax weights and the weighted value sums. The reference
computes exactly these, one host operation after another. -/

section Reals

variable (Q : Fin 8192 → Fin 1024 → ℝ) (K V : Fin 8193 → Fin 1024 → ℝ)

/-- The inner product of query row i and key row j. -/
def dots (i : Fin 8192) (j : Fin 8193) : ℝ := ∑ e : Fin 1024, Q i e * K j e
/-- The score: the inner product divided by 32, the square root of the width 1024. -/
def scaled (i : Fin 8192) (j : Fin 8193) : ℝ := dots Q K i j / 32
/-- The largest score of row i. -/
def rowMax (i : Fin 8192) : ℝ := (Finset.univ : Finset (Fin 8193)).sup' ⟨0, Finset.mem_univ _⟩ (scaled Q K i)
/-- The exponential of a score relative to its row's largest. -/
def shifted (i : Fin 8192) (j : Fin 8193) : ℝ := Real.exp (scaled Q K i j - rowMax Q K i)
/-- The normaliser of row i. -/
def norm (i : Fin 8192) : ℝ := ∑ j : Fin 8193, shifted Q K i j
/-- The softmax weight of key j in row i. -/
def weight (i : Fin 8192) (j : Fin 8193) : ℝ := shifted Q K i j / norm Q K i
/-- The attention output. -/
def attend (i : Fin 8192) (e : Fin 1024) : ℝ := ∑ j : Fin 8193, weight Q K i j * V j e

/-- A normaliser is a sum of exponentials over a nonempty set of keys, so it is positive. -/
theorem norm_pos (i : Fin 8192) : 0 < norm Q K i :=
  Finset.sum_pos (fun _ _ => Real.exp_pos _) ⟨0, Finset.mem_univ _⟩

end Reals

/-! ## The specification's attention is this attention over the 8192 keys and the dummy key

The reference attends over the 8192 projected keys followed by one extra key, the dummy token, whose
value row is zero. The row maximum, the normaliser and the weighted value sum over the 8193 positions are
the specification's, which are written over 8192 positions plus one extra term. -/

section Spec

variable (a : Args)

/-- The 8193 keys: the 8192 projected keys, then the dummy key. -/
def keyAll (j : Fin 8193) (e : Fin 1024) : ℝ := if h : j.val < 8192 then kp a ⟨j.val, h⟩ e else a.dm e
/-- The 8193 value rows: the 8192 combined rows, then a zero row. -/
def valAll (j : Fin 8193) (e : Fin 1024) : ℝ := if h : j.val < 8192 then comb a ⟨j.val, h⟩ e else 0

theorem keyAll_castSucc (j : Fin 8192) (e : Fin 1024) : keyAll a j.castSucc e = kp a j e := by
  unfold keyAll
  rw [dif_pos (show (j.castSucc).val < 8192 from j.isLt)]
  rfl

theorem keyAll_last (e : Fin 1024) : keyAll a (Fin.last 8192) e = a.dm e := by
  unfold keyAll
  rw [dif_neg (show ¬ (Fin.last 8192).val < 8192 from Nat.lt_irrefl 8192)]

theorem valAll_castSucc (j : Fin 8192) (e : Fin 1024) : valAll a j.castSucc e = comb a j e := by
  unfold valAll
  rw [dif_pos (show (j.castSucc).val < 8192 from j.isLt)]
  rfl

theorem valAll_last (e : Fin 1024) : valAll a (Fin.last 8192) e = 0 := by
  unfold valAll
  rw [dif_neg (show ¬ (Fin.last 8192).val < 8192 from Nat.lt_irrefl 8192)]

/-- Against one of the first 8192 positions the score is the specification's score. -/
theorem scaled_castSucc (i j : Fin 8192) : scaled (qp a) (keyAll a) i j.castSucc = score a i j := by
  unfold scaled dots score
  simp only [keyAll_castSucc]

/-- Against the last position it is the score of the dummy key. -/
theorem scaled_last (i : Fin 8192) : scaled (qp a) (keyAll a) i (Fin.last 8192) = scoreD a i := by
  unfold scaled dots scoreD
  simp only [keyAll_last]

/-- The largest of the 8193 scores of a row is the specification's row maximum: the larger of the
    largest of the first 8192 and the last one. -/
theorem rowMax_spec (i : Fin 8192) : rowMax (qp a) (keyAll a) i = top a i := by
  unfold rowMax
  refine (Cert.Flash.sup'_univ_castSucc_zero (n := 8192) (by norm_num) (scaled (qp a) (keyAll a) i)).trans ?_
  unfold top
  simp only [scaled_castSucc, scaled_last]

/-- The sum of the 8193 shifted exponentials of a row is the specification's normaliser. -/
theorem norm_spec (i : Fin 8192) : norm (qp a) (keyAll a) i = den a i := by
  unfold norm shifted
  rw [rowMax_spec]
  refine (Cert.Flash.sum_univ_castSucc (n := 8192) _).trans ?_
  unfold den
  simp only [scaled_castSucc, scaled_last]

/-- The softmax weights applied to the 8193 value rows give the specification's attention output: the
    normaliser comes out of the sum, and the last term is a multiple of the zero row. -/
theorem attend_spec (i : Fin 8192) (e : Fin 1024) : attend (qp a) (keyAll a) (valAll a) i e = att a i e := by
  unfold attend weight
  rw [norm_spec]
  unfold shifted
  rw [rowMax_spec]
  refine (Cert.Flash.sum_div_mul (scaled (qp a) (keyAll a) i) (fun j => valAll a j e) Finset.univ (top a i) (den a i)).trans ?_
  unfold att
  refine congrArg (· / den a i) ?_
  refine (Cert.Flash.sum_univ_castSucc (n := 8192) _).trans ?_
  simp only [scaled_castSucc, valAll_castSucc, valAll_last, mul_zero, add_zero]

end Spec

/-! ## The reference's operations %28 – %43, one after another

The three arrays the stretch starts from are taken as real matrices Q (the queries, %22), K (the 8193
keys, %25) and V (the 8193 value rows, %27). Each operation's result is then the coercion of the real
array named above: every value stays finite, so the coercion passes through every operation. The
arguments of the program are arbitrary here; only the three hypotheses are used. -/

section Host

variable (x0 : (⟨S8192x1024, .f32⟩ : BufTy).Contents (Elt Ideal)) (x1 : (⟨S8192, .i32⟩ : BufTy).Contents (Elt Ideal))
  (x2 : (⟨S80x300, .f32⟩ : BufTy).Contents (Elt Ideal)) (x3 : (⟨S1x300, .f32⟩ : BufTy).Contents (Elt Ideal))
  (x4 : (⟨S1024x300, .f32⟩ : BufTy).Contents (Elt Ideal)) (x5 : (⟨S1024, .f32⟩ : BufTy).Contents (Elt Ideal))
  (x6 : (⟨S1024x2048, .f32⟩ : BufTy).Contents (Elt Ideal)) (x7 : (⟨S1024, .f32⟩ : BufTy).Contents (Elt Ideal))
  (x8 : (⟨S1024x1024, .f32⟩ : BufTy).Contents (Elt Ideal)) (x9 : (⟨S1x1024, .f32⟩ : BufTy).Contents (Elt Ideal))
variable (Q : Fin 8192 → Fin 1024 → ℝ) (K V : Fin 8193 → Fin 1024 → ℝ)

/-- %29, the product of the queries with the transposed keys: the inner products. -/
theorem v29_eq (hq : val_main_v22 (F := Ideal) x0 x8 = mat Q)
    (hk : val_main_v25 (F := Ideal) x1 x2 x3 x4 x5 x8 x9 = mat K) :
    val_main_v29 (F := Ideal) x0 x1 x2 x3 x4 x5 x8 x9 = mat (dots Q K) := by
  have h28 : val_main_v28 (F := Ideal) x1 x2 x3 x4 x5 x8 x9 = fun i => mat K (idx_main_v28 i) :=
    funext fun i => by rw [val_main_v28_apply, hk]
  funext i
  rw [val_main_v29_apply, hq, h28]
  show ∑ k : Fin 1024, ((Q (i 0) k : ℝ) : EReal) * ((K (i 1) k : ℝ) : EReal)
      = ((∑ e : Fin 1024, Q (i 0) e * K (i 1) e : ℝ) : EReal)
  rw [Cert.Lift.coe_finset_sum]
  exact Finset.sum_congr rfl fun k _ => (EReal.coe_mul _ _).symm

/-- %30, the splat of the literal whose pattern denotes 32. -/
theorem v30_eq : val_main_v30 (F := Ideal) = fun _ => ((32 : ℝ) : EReal) := by
  funext i
  rw [val_main_v30_apply, val_main_cst_1_apply]
  exact Cert.Lift.ofBits_32

/-- %31, the scores. -/
theorem v31_eq (hq : val_main_v22 (F := Ideal) x0 x8 = mat Q)
    (hk : val_main_v25 (F := Ideal) x1 x2 x3 x4 x5 x8 x9 = mat K) :
    val_main_v31 (F := Ideal) x0 x1 x2 x3 x4 x5 x8 x9 = mat (scaled Q K) := by
  funext i
  rw [val_main_v31_apply, v29_eq x0 x1 x2 x3 x4 x5 x8 x9 Q K hq hk, v30_eq]
  exact Cert.Lift.div_coe_coe (dots Q K (i 0) (i 1)) (b := 32) (by norm_num)

/-- %32, the fold of the maximum from -∞ along each row: the row's largest score. -/
theorem v32_eq (hq : val_main_v22 (F := Ideal) x0 x8 = mat Q)
    (hk : val_main_v25 (F := Ideal) x1 x2 x3 x4 x5 x8 x9 = mat K) :
    val_main_v32 (F := Ideal) x0 x1 x2 x3 x4 x5 x8 x9 = vec (rowMax Q K) := by
  funext j
  unfold val_main_v32
  rw [v31_eq x0 x1 x2 x3 x4 x5 x8 x9 Q K hq hk]
  exact Cert.Lift.hostRowMax_coe (n := 8192) (k := 8193) (φ := .f32) (fun i : S8192x8193.Idx => scaled Q K (i 0) (i 1))
    (val_main_cst_2 (F := Ideal))
    reducesTo_S8192x8193_S8192_d1 (by decide) h_S_ Cert.Lift.ofBits_neg_inf j ⟨0, Finset.mem_univ _⟩

/-- %34, the maximum of -∞ and the row's largest score: the latter. -/
theorem v34_eq (hq : val_main_v22 (F := Ideal) x0 x8 = mat Q)
    (hk : val_main_v25 (F := Ideal) x1 x2 x3 x4 x5 x8 x9 = mat K) :
    val_main_v34 (F := Ideal) x0 x1 x2 x3 x4 x5 x8 x9 = vec (rowMax Q K) := by
  funext j
  rw [val_main_v34_apply, val_main_v33_apply, val_main_cst_3_apply, v32_eq x0 x1 x2 x3 x4 x5 x8 x9 Q K hq hk]
  show max (Ideal.ofBits .f32 0xFF800000#32) ((rowMax Q K (j 0) : ℝ) : EReal) = ((rowMax Q K (j 0) : ℝ) : EReal)
  rw [Cert.Lift.ofBits_neg_inf]
  exact max_eq_right bot_le

/-- %36, the row maxima spread along the rows. -/
theorem v36_eq (hq : val_main_v22 (F := Ideal) x0 x8 = mat Q)
    (hk : val_main_v25 (F := Ideal) x1 x2 x3 x4 x5 x8 x9 = mat K) :
    val_main_v36 (F := Ideal) x0 x1 x2 x3 x4 x5 x8 x9 = mat (fun i (_ : Fin 8193) => rowMax Q K i) := by
  funext i
  rw [val_main_v36_apply, val_main_v35_apply, v34_eq x0 x1 x2 x3 x4 x5 x8 x9 Q K hq hk]
  rfl

/-- %37, the scores relative to their row's largest. -/
theorem v37_eq (hq : val_main_v22 (F := Ideal) x0 x8 = mat Q)
    (hk : val_main_v25 (F := Ideal) x1 x2 x3 x4 x5 x8 x9 = mat K) :
    val_main_v37 (F := Ideal) x0 x1 x2 x3 x4 x5 x8 x9 = mat (fun i j => scaled Q K i j - rowMax Q K i) := by
  funext i
  rw [val_main_v37_apply, v31_eq x0 x1 x2 x3 x4 x5 x8 x9 Q K hq hk, v36_eq x0 x1 x2 x3 x4 x5 x8 x9 Q K hq hk]
  exact (EReal.coe_sub _ _).symm

/-- %38, their exponentials. -/
theorem v38_eq (hq : val_main_v22 (F := Ideal) x0 x8 = mat Q)
    (hk : val_main_v25 (F := Ideal) x1 x2 x3 x4 x5 x8 x9 = mat K) :
    val_main_v38 (F := Ideal) x0 x1 x2 x3 x4 x5 x8 x9 = mat (shifted Q K) := by
  funext i
  rw [val_main_v38_apply, v37_eq x0 x1 x2 x3 x4 x5 x8 x9 Q K hq hk]
  rfl

/-- %39, the row sums of the exponentials from the initial value 0: the normalisers. -/
theorem v39_eq (hq : val_main_v22 (F := Ideal) x0 x8 = mat Q)
    (hk : val_main_v25 (F := Ideal) x1 x2 x3 x4 x5 x8 x9 = mat K) :
    val_main_v39 (F := Ideal) x0 x1 x2 x3 x4 x5 x8 x9 = vec (norm Q K) := by
  funext j
  rw [val_main_v39_apply, val_main_cst_4_apply, v38_eq x0 x1 x2 x3 x4 x5 x8 x9 Q K hq hk]
  show Ideal.ofBits .f32 0x00000000#32 + ∑ k : Fin 8193, ((shifted Q K (j 0) k : ℝ) : EReal)
      = ((∑ k : Fin 8193, shifted Q K (j 0) k : ℝ) : EReal)
  rw [Cert.Lift.ofBits_zero, EReal.coe_zero, zero_add, Cert.Lift.coe_finset_sum]

/-- %41, the normalisers spread along the rows. -/
theorem v41_eq (hq : val_main_v22 (F := Ideal) x0 x8 = mat Q)
    (hk : val_main_v25 (F := Ideal) x1 x2 x3 x4 x5 x8 x9 = mat K) :
    val_main_v41 (F := Ideal) x0 x1 x2 x3 x4 x5 x8 x9 = mat (fun i (_ : Fin 8193) => norm Q K i) := by
  funext i
  rw [val_main_v41_apply, val_main_v40_apply, v39_eq x0 x1 x2 x3 x4 x5 x8 x9 Q K hq hk]
  rfl

/-- %42, the softmax weights: the divisor is positive. -/
theorem v42_eq (hq : val_main_v22 (F := Ideal) x0 x8 = mat Q)
    (hk : val_main_v25 (F := Ideal) x1 x2 x3 x4 x5 x8 x9 = mat K) :
    val_main_v42 (F := Ideal) x0 x1 x2 x3 x4 x5 x8 x9 = mat (weight Q K) := by
  funext i
  rw [val_main_v42_apply, v38_eq x0 x1 x2 x3 x4 x5 x8 x9 Q K hq hk, v41_eq x0 x1 x2 x3 x4 x5 x8 x9 Q K hq hk]
  exact Cert.Lift.div_coe_coe (shifted Q K (i 0) (i 1)) (norm_pos Q K (i 0)).ne'

/-- %43, the product of the weights with the value rows: the attention output. -/
theorem v43_eq (hq : val_main_v22 (F := Ideal) x0 x8 = mat Q)
    (hk : val_main_v25 (F := Ideal) x1 x2 x3 x4 x5 x8 x9 = mat K)
    (hv : val_main_v27 (F := Ideal) x0 x1 x2 x3 x4 x5 x6 x7 = mat V) :
    val_main_v43 (F := Ideal) x0 x1 x2 x3 x4 x5 x6 x7 x8 x9 = mat (attend Q K V) := by
  funext i
  rw [val_main_v43_apply, v42_eq x0 x1 x2 x3 x4 x5 x8 x9 Q K hq hk, hv]
  show ∑ k : Fin 8193, ((weight Q K (i 0) k : ℝ) : EReal) * ((V k (i 1) : ℝ) : EReal)
      = ((∑ k : Fin 8193, weight Q K (i 0) k * V k (i 1) : ℝ) : EReal)
  rw [Cert.Lift.coe_finset_sum]
  exact Finset.sum_congr rfl fun k _ => (EReal.coe_mul _ _).symm

end Host

/-! ## The reference's attention output is the specification's -/

/-- With the queries, the 8193 keys and the 8193 value rows of the reference identified with the
    specification's, the reference's %43 is the coercion of the specification's attention output. -/
theorem ref_att (a : Args)
    (hq : val_main_v22 (F := Ideal) (mat a.X) (mat a.Wqk) = mat (qp a))
    (hk : val_main_v25 (F := Ideal) (words a.g) (mat a.CLS) (row a.BG) (mat a.Wp) (vec a.bp) (mat a.Wqk) (row a.dm)
        = mat (fun (j : Fin 8193) e => if h : j.val < 8192 then kp a ⟨j.val, h⟩ e else a.dm e))
    (hv : val_main_v27 (F := Ideal) (mat a.X) (words a.g) (mat a.CLS) (row a.BG) (mat a.Wp) (vec a.bp) (mat a.Wc) (vec a.bc)
        = mat (fun (j : Fin 8193) e => if h : j.val < 8192 then comb a ⟨j.val, h⟩ e else 0)) :
    val_main_v43 (F := Ideal) (mat a.X) (words a.g) (mat a.CLS) (row a.BG) (mat a.Wp) (vec a.bp) (mat a.Wc) (vec a.bc)
        (mat a.Wqk) (row a.dm) = mat (att a) := by
  rw [v43_eq (mat a.X) (words a.g) (mat a.CLS) (row a.BG) (mat a.Wp) (vec a.bp) (mat a.Wc) (vec a.bc) (mat a.Wqk) (row a.dm)
    (qp a) (keyAll a) (valAll a) hq hk hv]
  funext i
  exact congrArg (fun r : ℝ => (r : EReal)) (attend_spec a (i 0) (i 1))

end Cert.RefB

end
-- ==== Proof.RefC.lean ====
import proofs.«404873_j80685255623116_3_alg».proof.Proof.RefReadP
import proofs.«404873_j80685255623116_3_alg».proof.Proof.Spec
import proofs.«404873_j80685255623116_3_alg».proof.Proof.Blk
import proofs.«404873_j80685255623116_3_alg».proof.Proof.Lift

/-!
# The reference's epilogue, row by row

After the attention output the reference applies, to every row separately, two rectified residual
branches, a third projection of the two branches and the rectified features laid side by side, a
feed-forward block, a layer normalisation of the third projection, and a final rectifier. Given that the
attention stage holds the coercion of the specification's attention output and that the rectified
features hold the coercion of theirs, each later stage holds the coercion of the corresponding row
function of the epilogue, and the last one the coercion of the specification's result.

Each stage is read at an index (p, q): the operation's value there is an expression in the operands at
indices whose coordinates are p, q or a summation variable; on coerced real arrays that expression is
the coercion of the same expression over the reals, because the coercion commutes with sums, products,
differences, maxima, and — for a nonzero divisor and a positive radicand — quotients and reciprocal
square roots.

The third projection contracts over 2048 columns made of three bands (512 entries of the first branch,
512 of the second, 1024 rectified features): a sum over the 2048 columns is the sum of the three sums
over the bands, and the joined array read at a column of a band is that band's array read at the
column's position inside the band.
-/

noncomputable section

open scoped BigOperators

namespace Cert.RefC

open Cert.ReferenceIdeal Cert.ReferenceIdeal.Gen Cert.ReferenceIdeal.Read
open Idealize.ShloMosaic Idealize.ShloMosaic.ValueIdx
open Cert.Spec Cert.Blk
open Cert.Lift (coe_max coe_finset_sum div_coe_coe div_sqrt_eq_mul_rsqrt rsqrt_coe_pos ofBits_zero ofBits_1024 ofBits_eps eps_pos)

/-! ## Three column bands of a 2048-wide row -/

/-- A sum over 2048 columns splits at 512 and at 1024: the columns q1 h, the columns q2 h, the columns
    hi d. The index set is split in two halves and the first half in two again; the three embeddings
    are the three column maps, value by value. -/
theorem sum_split3 {M : Type*} [AddCommMonoid M] (f : Fin 2048 → M) :
    ∑ k, f k = (∑ h : Fin 512, f (q1 h)) + (∑ h : Fin 512, f (q2 h)) + ∑ d : Fin 1024, f (hi d) := by
  have e1 : ∑ k, f k = (∑ i : Fin 1024, f (Fin.castAdd 1024 i)) + ∑ i : Fin 1024, f (Fin.natAdd 1024 i) :=
    Fin.sum_univ_add (a := 1024) (b := 1024) f
  have e2 : (∑ i : Fin 1024, f (Fin.castAdd 1024 i))
      = (∑ h : Fin 512, f (Fin.castAdd 1024 (Fin.castAdd 512 h))) + ∑ h : Fin 512, f (Fin.castAdd 1024 (Fin.natAdd 512 h)) :=
    Fin.sum_univ_add (a := 512) (b := 512) fun i => f (Fin.castAdd 1024 i)
  rw [e1, e2]
  rfl

section Bands
variable {α : Type}

/-- The joined array at a column of the first band. -/
theorem cat3_q1 (x₁ x₂ : (⟨2, ![8192, 512]⟩ : Shape).Idx → α) (x₃ : (⟨2, ![8192, 1024]⟩ : Shape).Idx → α)
    (hc : Shape.Concatenates [(⟨2, ![8192, 512]⟩ : Shape), ⟨2, ![8192, 512]⟩, ⟨2, ![8192, 1024]⟩] ⟨2, ![8192, 2048]⟩ 1)
    (p : Fin 8192) (h : Fin 512) :
    concatenate (⟨2, ![8192, 2048]⟩ : Shape) 1
        [⟨⟨2, ![8192, 512]⟩, x₁⟩, ⟨⟨2, ![8192, 512]⟩, x₂⟩, ⟨⟨2, ![8192, 1024]⟩, x₃⟩] hc (ix2 p (q1 h))
      = x₁ (ix2 p h) :=
  concatenate_apply_piece (t := (⟨2, ![8192, 2048]⟩ : Shape)) 1
    [⟨⟨2, ![8192, 512]⟩, x₁⟩, ⟨⟨2, ![8192, 512]⟩, x₂⟩, ⟨⟨2, ![8192, 1024]⟩, x₃⟩] hc (ix2 p (q1 h)) 0 (by simp) _ x₁ rfl rfl 0 rfl (ix2 p h)
    (fun b hb => by match b with | ⟨0, _⟩ => rfl | ⟨1, _⟩ => exact absurd rfl hb)
    (Nat.zero_add _)

/-- The joined array at a column of the second band. -/
theorem cat3_q2 (x₁ x₂ : (⟨2, ![8192, 512]⟩ : Shape).Idx → α) (x₃ : (⟨2, ![8192, 1024]⟩ : Shape).Idx → α)
    (hc : Shape.Concatenates [(⟨2, ![8192, 512]⟩ : Shape), ⟨2, ![8192, 512]⟩, ⟨2, ![8192, 1024]⟩] ⟨2, ![8192, 2048]⟩ 1)
    (p : Fin 8192) (h : Fin 512) :
    concatenate (⟨2, ![8192, 2048]⟩ : Shape) 1
        [⟨⟨2, ![8192, 512]⟩, x₁⟩, ⟨⟨2, ![8192, 512]⟩, x₂⟩, ⟨⟨2, ![8192, 1024]⟩, x₃⟩] hc (ix2 p (q2 h))
      = x₂ (ix2 p h) :=
  concatenate_apply_piece (t := (⟨2, ![8192, 2048]⟩ : Shape)) 1
    [⟨⟨2, ![8192, 512]⟩, x₁⟩, ⟨⟨2, ![8192, 512]⟩, x₂⟩, ⟨⟨2, ![8192, 1024]⟩, x₃⟩] hc (ix2 p (q2 h)) 1 (by simp) _ x₂ rfl rfl 512 rfl (ix2 p h)
    (fun b hb => by match b with | ⟨0, _⟩ => rfl | ⟨1, _⟩ => exact absurd rfl hb)
    rfl

/-- The joined array at a column of the third band. -/
theorem cat3_hi (x₁ x₂ : (⟨2, ![8192, 512]⟩ : Shape).Idx → α) (x₃ : (⟨2, ![8192, 1024]⟩ : Shape).Idx → α)
    (hc : Shape.Concatenates [(⟨2, ![8192, 512]⟩ : Shape), ⟨2, ![8192, 512]⟩, ⟨2, ![8192, 1024]⟩] ⟨2, ![8192, 2048]⟩ 1)
    (p : Fin 8192) (d : Fin 1024) :
    concatenate (⟨2, ![8192, 2048]⟩ : Shape) 1
        [⟨⟨2, ![8192, 512]⟩, x₁⟩, ⟨⟨2, ![8192, 512]⟩, x₂⟩, ⟨⟨2, ![8192, 1024]⟩, x₃⟩] hc (ix2 p (hi d))
      = x₃ (ix2 p d) :=
  concatenate_apply_piece (t := (⟨2, ![8192, 2048]⟩ : Shape)) 1
    [⟨⟨2, ![8192, 512]⟩, x₁⟩, ⟨⟨2, ![8192, 512]⟩, x₂⟩, ⟨⟨2, ![8192, 1024]⟩, x₃⟩] hc (ix2 p (hi d)) 2 (by simp) _ x₃ rfl rfl 1024 rfl (ix2 p d)
    (fun b hb => by match b with | ⟨0, _⟩ => rfl | ⟨1, _⟩ => exact absurd rfl hb)
    rfl

end Bands

/-! ## The stages -/

section Stages

variable (a : Args)

local notation "V19" => val_main_v19 (F := Ideal) (mat a.X)
local notation "V43" => val_main_v43 (F := Ideal) (mat a.X) (words a.g) (mat a.CLS) (row a.BG) (mat a.Wp) (vec a.bp) (mat a.Wc) (vec a.bc) (mat a.Wqk) (row a.dm)
local notation "V50" => val_main_v50 (F := Ideal) (mat a.X) (words a.g) (mat a.CLS) (row a.BG) (mat a.Wp) (vec a.bp) (mat a.Wc) (vec a.bc) (mat a.Wqk) (row a.dm) (mat a.W1) (vec a.b1)
local notation "V57" => val_main_v57 (F := Ideal) (mat a.X) (words a.g) (mat a.CLS) (row a.BG) (mat a.Wp) (vec a.bp) (mat a.Wc) (vec a.bc) (mat a.Wqk) (row a.dm) (mat a.W2) (vec a.b2)
local notation "V58" => val_main_v58 (F := Ideal) (mat a.X) (words a.g) (mat a.CLS) (row a.BG) (mat a.Wp) (vec a.bp) (mat a.Wc) (vec a.bc) (mat a.Wqk) (row a.dm) (mat a.W1) (vec a.b1) (mat a.W2) (vec a.b2)
local notation "V63" => val_main_v63 (F := Ideal) (mat a.X) (words a.g) (mat a.CLS) (row a.BG) (mat a.Wp) (vec a.bp) (mat a.Wc) (vec a.bc) (mat a.Wqk) (row a.dm) (mat a.W1) (vec a.b1) (mat a.W2) (vec a.b2) (mat a.W3) (vec a.b3)
local notation "V69" => val_main_v69 (F := Ideal) (mat a.X) (words a.g) (mat a.CLS) (row a.BG) (mat a.Wp) (vec a.bp) (mat a.Wc) (vec a.bc) (mat a.Wqk) (row a.dm) (mat a.W1) (vec a.b1) (mat a.W2) (vec a.b2) (mat a.W3) (vec a.b3) (mat a.Wf1) (vec a.bf1)
local notation "V74" => val_main_v74 (F := Ideal) (mat a.X) (words a.g) (mat a.CLS) (row a.BG) (mat a.Wp) (vec a.bp) (mat a.Wc) (vec a.bc) (mat a.Wqk) (row a.dm) (mat a.W1) (vec a.b1) (mat a.W2) (vec a.b2) (mat a.W3) (vec a.b3) (mat a.Wf1) (vec a.bf1) (mat a.Wf2) (vec a.bf2)
local notation "V78" => val_main_v78 (F := Ideal) (mat a.X) (words a.g) (mat a.CLS) (row a.BG) (mat a.Wp) (vec a.bp) (mat a.Wc) (vec a.bc) (mat a.Wqk) (row a.dm) (mat a.W1) (vec a.b1) (mat a.W2) (vec a.b2) (mat a.W3) (vec a.b3)
local notation "V85" => val_main_v85 (F := Ideal) (mat a.X) (words a.g) (mat a.CLS) (row a.BG) (mat a.Wp) (vec a.bp) (mat a.Wc) (vec a.bc) (mat a.Wqk) (row a.dm) (mat a.W1) (vec a.b1) (mat a.W2) (vec a.b2) (mat a.W3) (vec a.b3)
local notation "V98" => val_main_v98 (F := Ideal) (mat a.X) (words a.g) (mat a.CLS) (row a.BG) (mat a.Wp) (vec a.bp) (mat a.Wc) (vec a.bc) (mat a.Wqk) (row a.dm) (mat a.W1) (vec a.b1) (mat a.W2) (vec a.b2) (mat a.W3) (vec a.b3) (vec a.lg) (vec a.lb)
local notation "V100" => val_main_v100 (F := Ideal) (mat a.X) (words a.g) (mat a.CLS) (row a.BG) (mat a.Wp) (vec a.bp) (mat a.Wc) (vec a.bc) (mat a.Wqk) (row a.dm) (mat a.W1) (vec a.b1) (mat a.W2) (vec a.b2) (mat a.W3) (vec a.b3) (mat a.Wf1) (vec a.bf1) (mat a.Wf2) (vec a.bf2) (vec a.lg) (vec a.lb)

/-- The offset under the root is one number, named in two places. -/
theorem eps_eq : Cert.Spec.eps = Cert.Lift.eps := rfl

/-- The variance of a row is a mean of squares, so it is not negative. -/
theorem varR_nonneg (at' vi : Fin 1024 → ℝ) : 0 ≤ varR a at' vi := by
  unfold varR
  exact div_nonneg (Finset.sum_nonneg fun d _ => mul_self_nonneg _) (by norm_num)

/-- %44 – %50, the first branch: the rectified affine image of the product of the attention output and
    the rectified features. -/
theorem v50_eq (hat : V43 = mat (att a)) (hvis : V19 = mat (vis a)) :
    V50 = mat (fun i h => o1R a (att a i) (vis a i) h) := by
  funext i
  obtain ⟨p, q, rfl⟩ : ∃ (p : Fin 8192) (q : Fin 512), i = ix2 p q := ⟨i 0, i 1, eq_ix2 i⟩
  rw [val_main_v50_apply, val_main_v49_apply, val_main_v46_apply, val_main_v48_apply, val_main_v47_apply,
    val_main_call2_v0_apply, val_main_call2_cst_apply]
  simp only [val_main_v44_apply, val_main_v45_apply, hat, hvis, Ideal.maximumf_def, Ideal.addf_def, Ideal.mulf_def,
    Ideal.ofBits_def, ofBits_zero]
  show max ((∑ k : Fin 1024, ((att a p k : ℝ) : EReal) * ((vis a p k : ℝ) : EReal) * ((a.W1 q k : ℝ) : EReal))
        + ((a.b1 q : ℝ) : EReal)) ((0 : ℝ) : EReal)
      = ((max ((∑ d : Fin 1024, (att a p d * vis a p d) * a.W1 q d) + a.b1 q) 0 : ℝ) : EReal)
  rw [coe_max, EReal.coe_add, coe_finset_sum]
  simp only [EReal.coe_mul]

/-- %51 – %57, the second branch: the rectified affine image of the rectified features less the
    attention output. -/
theorem v57_eq (hat : V43 = mat (att a)) (hvis : V19 = mat (vis a)) :
    V57 = mat (fun i h => o2R a (att a i) (vis a i) h) := by
  funext i
  obtain ⟨p, q, rfl⟩ : ∃ (p : Fin 8192) (q : Fin 512), i = ix2 p q := ⟨i 0, i 1, eq_ix2 i⟩
  rw [val_main_v57_apply, val_main_v56_apply, val_main_v53_apply, val_main_v55_apply, val_main_v54_apply,
    val_main_call3_v0_apply, val_main_call3_cst_apply]
  simp only [val_main_v51_apply, val_main_v52_apply, hat, hvis, Ideal.maximumf_def, Ideal.addf_def, Ideal.subf_def,
    Ideal.ofBits_def, ofBits_zero]
  show max ((∑ k : Fin 1024, (((vis a p k : ℝ) : EReal) - ((att a p k : ℝ) : EReal)) * ((a.W2 q k : ℝ) : EReal))
        + ((a.b2 q : ℝ) : EReal)) ((0 : ℝ) : EReal)
      = ((max ((∑ d : Fin 1024, (vis a p d - att a p d) * a.W2 q d) + a.b2 q) 0 : ℝ) : EReal)
  rw [coe_max, EReal.coe_add, coe_finset_sum]
  simp only [EReal.coe_mul, EReal.coe_sub]

/-- %58 at a column of the first band is the first branch there; -/
theorem v58_q1 (p : Fin 8192) (h : Fin 512) : V58 (ix2 p (q1 h)) = V50 (ix2 p h) := by
  unfold val_main_v58
  exact cat3_q1 _ _ _ _ p h

/-- at a column of the second band the second branch; -/
theorem v58_q2 (p : Fin 8192) (h : Fin 512) : V58 (ix2 p (q2 h)) = V57 (ix2 p h) := by
  unfold val_main_v58
  exact cat3_q2 _ _ _ _ p h

/-- at a column of the third band the rectified features. -/
theorem v58_hi (p : Fin 8192) (d : Fin 1024) : V58 (ix2 p (hi d)) = V19 (ix2 p d) := by
  unfold val_main_v58
  exact cat3_hi _ _ _ _ p d

/-- %58 – %63, the third projection: the contraction over the 2048 joined columns is the sum of the
    three contractions over the bands. -/
theorem v63_eq (h50 : V50 = mat (fun i h => o1R a (att a i) (vis a i) h))
    (h57 : V57 = mat (fun i h => o2R a (att a i) (vis a i) h)) (hvis : V19 = mat (vis a)) :
    V63 = mat (fun i e => oR a (att a i) (vis a i) e) := by
  funext i
  obtain ⟨p, q, rfl⟩ : ∃ (p : Fin 8192) (q : Fin 1024), i = ix2 p q := ⟨i 0, i 1, eq_ix2 i⟩
  have hl : ∀ k : Fin 2048, lidx_main_v60 (ix2 p q) k = ix2 p k := fun k =>
    funext fun b => Fin.ext (by match b with | ⟨0, _⟩ => rfl | ⟨1, _⟩ => rfl)
  rw [val_main_v63_apply, val_main_v60_apply, val_main_v62_apply, val_main_v61_apply, sum_split3]
  simp only [hl, v58_q1, v58_q2, v58_hi, h50, h57, hvis, val_main_v59_apply, Ideal.addf_def]
  show (∑ h : Fin 512, ((o1R a (att a p) (vis a p) h : ℝ) : EReal) * ((a.W3 q (q1 h) : ℝ) : EReal))
        + (∑ h : Fin 512, ((o2R a (att a p) (vis a p) h : ℝ) : EReal) * ((a.W3 q (q2 h) : ℝ) : EReal))
        + (∑ d : Fin 1024, ((vis a p d : ℝ) : EReal) * ((a.W3 q (hi d) : ℝ) : EReal))
        + ((a.b3 q : ℝ) : EReal)
      = (((∑ h : Fin 512, o1R a (att a p) (vis a p) h * a.W3 q (q1 h))
          + (∑ h : Fin 512, o2R a (att a p) (vis a p) h * a.W3 q (q2 h))
          + (∑ d : Fin 1024, vis a p d * a.W3 q (hi d)) + a.b3 q : ℝ) : EReal)
  rw [EReal.coe_add, EReal.coe_add, EReal.coe_add, coe_finset_sum, coe_finset_sum, coe_finset_sum]
  simp only [EReal.coe_mul]

/-- %64 – %69, the feed-forward block's hidden layer. -/
theorem v69_eq (h63 : V63 = mat (fun i e => oR a (att a i) (vis a i) e)) :
    V69 = mat (fun i f => hidR a (att a i) (vis a i) f) := by
  funext i
  obtain ⟨p, q, rfl⟩ : ∃ (p : Fin 8192) (q : Fin 1024), i = ix2 p q := ⟨i 0, i 1, eq_ix2 i⟩
  rw [val_main_v69_apply, val_main_v68_apply, val_main_v65_apply, val_main_v67_apply, val_main_v66_apply,
    val_main_call4_v0_apply, val_main_call4_cst_apply]
  simp only [h63, val_main_v64_apply, Ideal.maximumf_def, Ideal.addf_def, Ideal.ofBits_def, ofBits_zero]
  show max ((∑ k : Fin 1024, ((oR a (att a p) (vis a p) k : ℝ) : EReal) * ((a.Wf1 q k : ℝ) : EReal))
        + ((a.bf1 q : ℝ) : EReal)) ((0 : ℝ) : EReal)
      = ((max ((∑ d : Fin 1024, oR a (att a p) (vis a p) d * a.Wf1 q d) + a.bf1 q) 0 : ℝ) : EReal)
  rw [coe_max, EReal.coe_add, coe_finset_sum]
  simp only [EReal.coe_mul]

/-- %70 – %74, the feed-forward block's output. -/
theorem v74_eq (h69 : V69 = mat (fun i f => hidR a (att a i) (vis a i) f)) :
    V74 = mat (fun i e => ffnR a (att a i) (vis a i) e) := by
  funext i
  obtain ⟨p, q, rfl⟩ : ∃ (p : Fin 8192) (q : Fin 1024), i = ix2 p q := ⟨i 0, i 1, eq_ix2 i⟩
  rw [val_main_v74_apply, val_main_v71_apply, val_main_v73_apply, val_main_v72_apply]
  simp only [h69, val_main_v70_apply, Ideal.addf_def]
  show (∑ k : Fin 1024, ((hidR a (att a p) (vis a p) k : ℝ) : EReal) * ((a.Wf2 q k : ℝ) : EReal))
        + ((a.bf2 q : ℝ) : EReal)
      = (((∑ f : Fin 1024, hidR a (att a p) (vis a p) f * a.Wf2 q f) + a.bf2 q : ℝ) : EReal)
  rw [EReal.coe_add, coe_finset_sum]
  simp only [EReal.coe_mul]

/-- %75 – %78, the mean of a row of the third projection. -/
theorem v78_eq (h63 : V63 = mat (fun i e => oR a (att a i) (vis a i) e)) :
    V78 = col (fun i => muR a (att a i) (vis a i)) := by
  funext i
  obtain ⟨p, z, rfl⟩ : ∃ (p : Fin 8192) (z : Fin 1), i = ix2 p z := ⟨i 0, i 1, eq_ix2 i⟩
  rw [val_main_v78_apply, val_main_v76_apply, val_main_v75_apply, val_main_v77_apply, val_main_cst_5_apply,
    val_main_cst_6_apply]
  simp only [h63, Ideal.hostDivf_def, Ideal.ofBits_def, ofBits_zero, ofBits_1024]
  show Ideal.div (((0 : ℝ) : EReal) + ∑ k : Fin 1024, ((oR a (att a p) (vis a p) k : ℝ) : EReal)) ((1024 : ℝ) : EReal)
      = (((∑ d : Fin 1024, oR a (att a p) (vis a p) d) / 1024 : ℝ) : EReal)
  rw [EReal.coe_zero, zero_add, ← div_coe_coe _ (by norm_num : (1024 : ℝ) ≠ 0), coe_finset_sum]

/-- %79 – %85, the variance of a row: the mean of the squared deviations from the row's mean. -/
theorem v85_eq (h63 : V63 = mat (fun i e => oR a (att a i) (vis a i) e))
    (h78 : V78 = col (fun i => muR a (att a i) (vis a i))) :
    V85 = col (fun i => varR a (att a i) (vis a i)) := by
  funext i
  obtain ⟨p, z, rfl⟩ : ∃ (p : Fin 8192) (z : Fin 1), i = ix2 p z := ⟨i 0, i 1, eq_ix2 i⟩
  rw [val_main_v85_apply, val_main_v83_apply, val_main_v82_apply, val_main_v84_apply, val_main_cst_7_apply,
    val_main_cst_8_apply]
  simp only [val_main_v81_apply, val_main_v80_apply, val_main_v79_apply, h63, h78, Ideal.hostDivf_def, Ideal.mulf_def,
    Ideal.subf_def, Ideal.ofBits_def, ofBits_zero, ofBits_1024]
  show Ideal.div (((0 : ℝ) : EReal) + ∑ k : Fin 1024,
          (((oR a (att a p) (vis a p) k : ℝ) : EReal) - ((muR a (att a p) (vis a p) : ℝ) : EReal))
            * (((oR a (att a p) (vis a p) k : ℝ) : EReal) - ((muR a (att a p) (vis a p) : ℝ) : EReal)))
        ((1024 : ℝ) : EReal)
      = (((∑ d : Fin 1024, (oR a (att a p) (vis a p) d - muR a (att a p) (vis a p))
            * (oR a (att a p) (vis a p) d - muR a (att a p) (vis a p))) / 1024 : ℝ) : EReal)
  rw [EReal.coe_zero, zero_add, ← div_coe_coe _ (by norm_num : (1024 : ℝ) ≠ 0), coe_finset_sum]
  simp only [EReal.coe_mul, EReal.coe_sub]

/-- %86 – %98, the normalised row: the scaled deviation divided by the root of the variance plus the
    offset, which is positive, so the quotient by the root is the product with the reciprocal root. -/
theorem v98_eq (h63 : V63 = mat (fun i e => oR a (att a i) (vis a i) e))
    (h78 : V78 = col (fun i => muR a (att a i) (vis a i)))
    (h85 : V85 = col (fun i => varR a (att a i) (vis a i))) :
    V98 = mat (fun i e => normedR a (att a i) (vis a i) e) := by
  funext i
  obtain ⟨p, q, rfl⟩ : ∃ (p : Fin 8192) (q : Fin 1024), i = ix2 p q := ⟨i 0, i 1, eq_ix2 i⟩
  rw [val_main_v98_apply, val_main_v95_apply, val_main_v90_apply, val_main_v94_apply, val_main_v93_apply,
    val_main_v92_apply, val_main_v91_apply, val_main_cst_9_apply, val_main_v89_apply, val_main_v88_apply,
    val_main_v87_apply, val_main_v86_apply, val_main_v97_apply, val_main_v96_apply]
  simp only [h63, h78, h85, Ideal.addf_def, Ideal.hostDivf_def, Ideal.mulf_def, Ideal.subf_def,
    Ideal.hostUnary_sqrt_def, Ideal.ofBits_def, ofBits_eps]
  have hpos : 0 < varR a (att a p) (vis a p) + Cert.Lift.eps :=
    add_pos_of_nonneg_of_pos (varR_nonneg a _ _) eps_pos
  show Ideal.div (((a.lg q : ℝ) : EReal)
            * (((oR a (att a p) (vis a p) q : ℝ) : EReal) - ((muR a (att a p) (vis a p) : ℝ) : EReal)))
          (Ideal.sqrt (((varR a (att a p) (vis a p) : ℝ) : EReal) + ((Cert.Lift.eps : ℝ) : EReal)))
        + ((a.lb q : ℝ) : EReal)
      = ((a.lg q * (oR a (att a p) (vis a p) q - muR a (att a p) (vis a p))
            * (Real.sqrt (varR a (att a p) (vis a p) + Cert.Lift.eps))⁻¹ + a.lb q : ℝ) : EReal)
  rw [← EReal.coe_sub, ← EReal.coe_mul, ← EReal.coe_add (varR a (att a p) (vis a p)) Cert.Lift.eps,
    div_sqrt_eq_mul_rsqrt _ hpos, rsqrt_coe_pos hpos, ← EReal.coe_mul, ← EReal.coe_add]

/-- %99, %100: the rectified sum of the feed-forward output and the normalised row. -/
theorem v100_of_stages (h74 : V74 = mat (fun i e => ffnR a (att a i) (vis a i) e))
    (h98 : V98 = mat (fun i e => normedR a (att a i) (vis a i) e)) :
    V100 = mat (fun i e => epiRow a (att a i) (vis a i) e) := by
  funext i
  obtain ⟨p, q, rfl⟩ : ∃ (p : Fin 8192) (q : Fin 1024), i = ix2 p q := ⟨i 0, i 1, eq_ix2 i⟩
  rw [val_main_v100_apply, val_main_v99_apply, val_main_call5_v0_apply, val_main_call5_cst_apply]
  simp only [h74, h98, Ideal.maximumf_def, Ideal.addf_def, Ideal.ofBits_def, ofBits_zero]
  show max (((ffnR a (att a p) (vis a p) q : ℝ) : EReal) + ((normedR a (att a p) (vis a p) q : ℝ) : EReal))
        ((0 : ℝ) : EReal)
      = ((max (ffnR a (att a p) (vis a p) q + normedR a (att a p) (vis a p) q) 0 : ℝ) : EReal)
  rw [coe_max, EReal.coe_add]

/-- **Stages %44 – %100.** If the attention stage holds the specification's attention output and the
    rectified features hold the specification's, the reference's result is the specification's. -/
theorem v100_eq (hat : V43 = mat (att a)) (hvis : V19 = mat (vis a)) :
    V100 = mat (result a) := by
  have h50 := v50_eq a hat hvis
  have h57 := v57_eq a hat hvis
  have h63 := v63_eq a h50 h57 hvis
  have h74 := v74_eq a (v69_eq a h63)
  have h78 := v78_eq a h63
  have h85 := v85_eq a h63 h78
  have h98 := v98_eq a h63 h78 h85
  have hres : result a = fun i e => epiRow a (att a i) (vis a i) e :=
    funext fun i => funext fun e => result_eq_epiRow a i e
  rw [hres]
  exact v100_of_stages a h74 h98

end Stages

end Cert.RefC

end
-- ==== Proof.RefAll.lean ====
import proofs.«404873_j80685255623116_3_alg».proof.Proof.RefA
import proofs.«404873_j80685255623116_3_alg».proof.Proof.RefB
import proofs.«404873_j80685255623116_3_alg».proof.Proof.RefC
import proofs.«404873_j80685255623116_3_alg».proof.Proof.Lifts

/-!
# The reference computes the specification

On real inputs the reference's result array is the coercion of the specification's result. The first stages give
the projected class embeddings, the combined features, the rectified features, the queries, the 8193 keys and the
8193 value rows; the attention stages turn queries, keys and values into the attention output; the last stages turn
the attention output and the rectified features into the result. Here the three are chained, and the statement is
carried to a memory whose argument buffers are the coerced real inputs.
-/

noncomputable section

namespace Cert.RefAll

open Cert.ReferenceIdeal Cert.ReferenceIdeal.Gen Cert.ReferenceIdeal.Read Cert.Spec
open Idealize.ShloMosaic Idealize.ShloMosaic.TcCoe Idealize.SL.Sem

/-- The reference's result on the coerced real inputs is the coercion of the specification's result. -/
theorem ref_result (a : Cert.Spec.Args) :
    val_main_v100 (F := Ideal) (mat a.X) (words a.g) (mat a.CLS) (row a.BG) (mat a.Wp) (vec a.bp) (mat a.Wc) (vec a.bc) (mat a.Wqk) (row a.dm) (mat a.W1) (vec a.b1)
      (mat a.W2) (vec a.b2) (mat a.W3) (vec a.b3) (mat a.Wf1) (vec a.bf1) (mat a.Wf2) (vec a.bf2) (vec a.lg) (vec a.lb)
      = mat (result a) :=
  Cert.RefC.v100_eq a
    (Cert.RefB.ref_att a (Cert.RefA.v22_eq a) (Cert.RefA.v25_eq a) (Cert.RefA.v27_eq a))
    (Cert.RefA.v19_eq a)

/-- The same over a memory whose 22 argument buffers on a core are the coerced real inputs. -/
theorem ref_result_mem (m' : (ℓ : Loc nD τ sig) → Buf (Elt Ideal) ℓ) (c : Dev nD) (a : Cert.Spec.Args)
    (h : Cert.LiftsR m' c a) :
    val_main_v100 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5))
      (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
      (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17))
      (m' ((c.tc : Thread nD τ).loc main_arg18)) (m' ((c.tc : Thread nD τ).loc main_arg19)) (m' ((c.tc : Thread nD τ).loc main_arg20)) (m' ((c.tc : Thread nD τ).loc main_arg21))
      = mat (result a) := by
  rw [h.h0, h.h1, h.h2, h.h3, h.h4, h.h5, h.h6, h.h7, h.h8, h.h9, h.h10, h.h11, h.h12, h.h13, h.h14, h.h15, h.h16, h.h17, h.h18, h.h19, h.h20, h.h21]
  exact ref_result a

end Cert.RefAll

end
-- ==== Proof.LibRunConcat.lean ====
import Idealize.ShloMosaic.Lib.StableHlo.Run

/-!
# Reading a line of operations through its concatenations

General facts for reading the result of a straight line of host operations (`StableHlo.after`) as a composed term of
the launch contents when the line holds concatenations of COMPUTED operands.

* `concatenate t a xs h` takes its operands as ONE list `xs`, and the shape condition `h` is stated about the
  shapes in that list. The operation is also a function of the result index, so a congruence stated for the operation
  as a function of all its arguments does not apply to it as a value, and a rewrite of an operand has to be a rewrite
  inside the list. For a list of two or of three operands the condition does not mention the operands at all, and
  the operands may be rewritten one by one: `concatenate_congr_pair`, `concatenate_congr_triple`.
* An operation over a literal FAMILY of references, `nary ![r₀, r₁, …] y f`, has the result
  `f fun k => V ↑(![r₀, r₁, …] k)`; where `f` reads its operands at numerals, operand `k` is the contents at
  `![r₀, r₁, …] k`, which IS the reference `rₖ` by the definition of the family. `read_families` selects these
  entries, so that each operand stands at its own literal reference and the result lemmas of the operations before it
  apply to it. The step is definitional: nothing is assumed, the new goal is the old one with the entries selected.
-/

namespace Idealize.ShloMosaic

/-- The operands of a two-operand concatenation may be rewritten (the shape condition is about the shapes only). -/
theorem concatenate_congr_pair {α : Type} {t : Shape} {a : Fin t.rank} {s0 s1 : Shape}
    {x0 y0 : s0.Idx → α} {x1 y1 : s1.Idx → α} (h : Shape.Concatenates [s0, s1] t a)
    (e0 : x0 = y0) (e1 : x1 = y1) :
    concatenate t a [⟨s0, x0⟩, ⟨s1, x1⟩] h = concatenate t a [⟨s0, y0⟩, ⟨s1, y1⟩] h := by
  subst e0 e1; rfl

/-- The operands of a three-operand concatenation may be rewritten. -/
theorem concatenate_congr_triple {α : Type} {t : Shape} {a : Fin t.rank} {s0 s1 s2 : Shape}
    {x0 y0 : s0.Idx → α} {x1 y1 : s1.Idx → α} {x2 y2 : s2.Idx → α} (h : Shape.Concatenates [s0, s1, s2] t a)
    (e0 : x0 = y0) (e1 : x1 = y1) (e2 : x2 = y2) :
    concatenate t a [⟨s0, x0⟩, ⟨s1, x1⟩, ⟨s2, x2⟩] h = concatenate t a [⟨s0, y0⟩, ⟨s1, y1⟩, ⟨s2, y2⟩] h := by
  subst e0 e1 e2; rfl

namespace StableHlo

section ReadFamilies
open Lean Meta Elab Tactic

/-- The `k`-th entry of a literal family `![r₀, r₁, …]`, read off its spelling. -/
def familyEntry? (v : Expr) : Nat → Option Expr
  | 0 => if v.isAppOfArity ``Matrix.vecCons 4 then some (v.getArg! 2) else none
  | k + 1 => if v.isAppOfArity ``Matrix.vecCons 4 then familyEntry? (v.getArg! 3) k else none

/-- Reads every literal family at a numeral index, `![r₀, r₁, …] k`, as its entry `rₖ`: a definitional step (the new
    goal is the old one with these entries selected), after which each operand of an operation over a family of
    references stands at its own literal reference. -/
elab "read_families" : tactic => do
  let g ← getMainGoal
  let t ← instantiateMVars (← g.getType)
  let t' := t.replace fun e =>
    if e.isAppOfArity ``Matrix.vecCons 5 then
      match e.appArg!.nat? with
      | some k => familyEntry? e.appFn! k
      | none => none
    else none
  replaceMainGoal [← g.replaceTargetDefEq t']

end ReadFamilies

/-- The results of a line of operations through its concatenations: one simplification pass, the literal families of
    references read at their numerals, a second pass for the operands that then stand at literal references, and the
    typed references' transports (the identity at a literal reference) removed. To be run where
    `concatenate_congr_pair` and `concatenate_congr_triple` are congruence rules of the simplifier
    (`attribute [local congr]`). -/
macro "after_results_through_concat" : tactic =>
  `(tactic| (after_results_simp
             try (read_families; after_results_simp)
             try simp only [TRef.ofBuf, TRef.toBuf, cast_eq]))

end StableHlo

end Idealize.ShloMosaic
-- ==== Proof.lean ====
/- The certificate: the first kernel region projects, per block of 512 rows, the scaled queries, the keys (the class
   embedding of a row gathered by a one-hot product against the 81-row table) and the values; the second visits,
   for each block of 512 query rows, the 16 key blocks in turn under a running maximum, normaliser and value sum,
   folds the dummy key (whose value row is zero) into the normaliser after the last visit, and runs the two residual
   branches, the third projection, the feed-forward block and the layer normalisation on the block. The reference
   does the same over whole arrays: softmax over all 8193 keys at once. Under the precondition every input is the
   coercion of a real array and every class index lies below 81 (outside that range the reference's gather reads
   another row than the kernel's one-hot product selects), so both results are the coercion of ONE real function,
   `Cert.Spec.result`: the kernel's by the block recurrence's closed form, the reference's stage by stage.
   The frames of the two kernel programs come from one text, generic in the float instance: each region's body is
   run symbolically once per control case, the second region's three carried buffers tracked in its invariant. -/
import proofs.«404873_j80685255623116_3_alg».proof.Defs
import proofs.«404873_j80685255623116_3_alg».proof.Proof.Gen.Kernel
import proofs.«404873_j80685255623116_3_alg».proof.Proof.Gen.KernelIdeal
import proofs.«404873_j80685255623116_3_alg».proof.Proof.Gen.ReferenceIdeal
import proofs.«404873_j80685255623116_3_alg».proof.Proof.Gen.Pre_finite_inputs
import proofs.«404873_j80685255623116_3_alg».proof.Proof.FitsAll
import proofs.«404873_j80685255623116_3_alg».proof.Proof.KFitsAll
import proofs.«404873_j80685255623116_3_alg».proof.Proof.R1Final
import proofs.«404873_j80685255623116_3_alg».proof.Proof.PreDecode
import proofs.«404873_j80685255623116_3_alg».proof.Proof.RefAll
import proofs.«404873_j80685255623116_3_alg».proof.Proof.RefRunRead
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel (hKernel := Cert.Kernel.Gen.facts) (hPre_finite_inputs := Cert.Pre_finite_inputs.Gen.facts) :=
  fun m ρ _ => Cert.Kernel.Frm.frame_all m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Frm.frame_all m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the coercion of the specification's result of the real inputs the
    precondition yields; the memories agree on the arguments, so the real inputs are the same on both sides. -/
theorem algebraic_p : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  choose a ha using fun c => Cert.PreDecode.lifts_of_pre m hpre c
  have haR : ∀ c, Cert.LiftsR m' c (a c) := fun c =>
    { h0 := ((hagree c).1).trans (ha c).h0
      h1 := ((hagree c).2.1).trans (ha c).h1
      h2 := ((hagree c).2.2.1).trans (ha c).h2
      h3 := ((hagree c).2.2.2.1).trans (ha c).h3
      h4 := ((hagree c).2.2.2.2.1).trans (ha c).h4
      h5 := ((hagree c).2.2.2.2.2.1).trans (ha c).h5
      h6 := ((hagree c).2.2.2.2.2.2.1).trans (ha c).h6
      h7 := ((hagree c).2.2.2.2.2.2.2.1).trans (ha c).h7
      h8 := ((hagree c).2.2.2.2.2.2.2.2.1).trans (ha c).h8
      h9 := ((hagree c).2.2.2.2.2.2.2.2.2.1).trans (ha c).h9
      h10 := ((hagree c).2.2.2.2.2.2.2.2.2.2.1).trans (ha c).h10
      h11 := ((hagree c).2.2.2.2.2.2.2.2.2.2.2.1).trans (ha c).h11
      h12 := ((hagree c).2.2.2.2.2.2.2.2.2.2.2.2.1).trans (ha c).h12
      h13 := ((hagree c).2.2.2.2.2.2.2.2.2.2.2.2.2.1).trans (ha c).h13
      h14 := ((hagree c).2.2.2.2.2.2.2.2.2.2.2.2.2.2.1).trans (ha c).h14
      h15 := ((hagree c).2.2.2.2.2.2.2.2.2.2.2.2.2.2.2.1).trans (ha c).h15
      h16 := ((hagree c).2.2.2.2.2.2.2.2.2.2.2.2.2.2.2.2.1).trans (ha c).h16
      h17 := ((hagree c).2.2.2.2.2.2.2.2.2.2.2.2.2.2.2.2.2.1).trans (ha c).h17
      h18 := ((hagree c).2.2.2.2.2.2.2.2.2.2.2.2.2.2.2.2.2.2.1).trans (ha c).h18
      h19 := ((hagree c).2.2.2.2.2.2.2.2.2.2.2.2.2.2.2.2.2.2.2.1).trans (ha c).h19
      h20 := ((hagree c).2.2.2.2.2.2.2.2.2.2.2.2.2.2.2.2.2.2.2.2.1).trans (ha c).h20
      h21 := ((hagree c).2.2.2.2.2.2.2.2.2.2.2.2.2.2.2.2.2.2.2.2.2).trans (ha c).h21 }
  refine ⟨fun c => Cert.Spec.mat (Cert.Spec.result (a c)), ?_, ?_⟩
  · exact (θ_run Cert.KernelIdeal.defs _ _).mono
      (fun _ h c => ⟨((h c).1).trans (Cert.KernelIdeal.Val.out_array m c (a c) (ha c)), (h c).2⟩)
      (Cert.KernelIdeal.Frm.result_all m ρ)
  · exact (θ_run Cert.ReferenceIdeal.defs _ _).mono
      (fun _ h c => ⟨((h c).1).trans ((Cert.ReferenceIdeal.Read.val_main_v100_eq m' c).trans
          (Cert.RefAll.ref_result_mem m' c (a c) (haR c))), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic_p⟩

end Cert.Proof

end
